-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S256x256 : Shape := ⟨2, ![256, 256]⟩
abbrev S31x8x256 : Shape := ⟨3, ![31, 8, 256]⟩
abbrev S32 : Shape := ⟨1, ![32]⟩
abbrev S_ : Shape := ⟨0, ![]⟩
abbrev S1 : Shape := ⟨1, ![1]⟩
abbrev S1x8x256 : Shape := ⟨3, ![1, 8, 256]⟩
abbrev S8x256 : Shape := ⟨2, ![8, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S31x8x256, .f32⟩
  | _, _ => ⟨S256x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v4 : BitVec 32 := Scalar.addi v2 c16_i32
  let c32_i32_0 : BitVec 32 := 32#32
  let v5 : BitVec 32 := Scalar.remsi v4 c32_i32_0
  let c1_i32_2 : BitVec 32 := 1#32
  let v6 : BitVec 32 := Scalar.muli v5 c1_i32_2
  let v7 : BitVec 32 := Scalar.addi c0_i32 v6
  v7.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v8 : BitVec 32 := Scalar.addi v2 c15_i32
  let c32_i32_3 : BitVec 32 := 32#32
  let v9 : BitVec 32 := Scalar.remsi v8 c32_i32_3
  let c1_i32_5 : BitVec 32 := 1#32
  let v10 : BitVec 32 := Scalar.muli v9 c1_i32_5
  let v11 : BitVec 32 := Scalar.addi c0_i32_6 v10
  v11.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v12 : BitVec 32 := Scalar.addi v2 c17_i32
  let c32_i32_7 : BitVec 32 := 32#32
  let v13 : BitVec 32 := Scalar.remsi v12 c32_i32_7
  let c1_i32_9 : BitVec 32 := 1#32
  let v14 : BitVec 32 := Scalar.muli v13 c1_i32_9
  let v15 : BitVec 32 := Scalar.addi c0_i32_10 v14
  v15.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v16 : BitVec 32 := Scalar.addi v2 c14_i32
  let c32_i32_11 : BitVec 32 := 32#32
  let v17 : BitVec 32 := Scalar.remsi v16 c32_i32_11
  let c1_i32_13 : BitVec 32 := 1#32
  let v18 : BitVec 32 := Scalar.muli v17 c1_i32_13
  let v19 : BitVec 32 := Scalar.addi c0_i32_14 v18
  v19.toNat
def k0_dev5 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v20 : BitVec 32 := Scalar.addi v2 c18_i32
  let c32_i32_15 : BitVec 32 := 32#32
  let v21 : BitVec 32 := Scalar.remsi v20 c32_i32_15
  let c1_i32_17 : BitVec 32 := 1#32
  let v22 : BitVec 32 := Scalar.muli v21 c1_i32_17
  let v23 : BitVec 32 := Scalar.addi c0_i32_18 v22
  v23.toNat
def k0_dev6 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v24 : BitVec 32 := Scalar.addi v2 c13_i32
  let c32_i32_19 : BitVec 32 := 32#32
  let v25 : BitVec 32 := Scalar.remsi v24 c32_i32_19
  let c1_i32_21 : BitVec 32 := 1#32
  let v26 : BitVec 32 := Scalar.muli v25 c1_i32_21
  let v27 : BitVec 32 := Scalar.addi c0_i32_22 v26
  v27.toNat
def k0_dev7 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v28 : BitVec 32 := Scalar.addi v2 c19_i32
  let c32_i32_23 : BitVec 32 := 32#32
  let v29 : BitVec 32 := Scalar.remsi v28 c32_i32_23
  let c1_i32_25 : BitVec 32 := 1#32
  let v30 : BitVec 32 := Scalar.muli v29 c1_i32_25
  let v31 : BitVec 32 := Scalar.addi c0_i32_26 v30
  v31.toNat
def k0_dev8 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v32 : BitVec 32 := Scalar.addi v2 c12_i32
  let c32_i32_27 : BitVec 32 := 32#32
  let v33 : BitVec 32 := Scalar.remsi v32 c32_i32_27
  let c1_i32_29 : BitVec 32 := 1#32
  let v34 : BitVec 32 := Scalar.muli v33 c1_i32_29
  let v35 : BitVec 32 := Scalar.addi c0_i32_30 v34
  v35.toNat
def k0_dev9 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v36 : BitVec 32 := Scalar.addi v2 c20_i32
  let c32_i32_31 : BitVec 32 := 32#32
  let v37 : BitVec 32 := Scalar.remsi v36 c32_i32_31
  let c1_i32_33 : BitVec 32 := 1#32
  let v38 : BitVec 32 := Scalar.muli v37 c1_i32_33
  let v39 : BitVec 32 := Scalar.addi c0_i32_34 v38
  v39.toNat
def k0_dev10 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v40 : BitVec 32 := Scalar.addi v2 c11_i32
  let c32_i32_35 : BitVec 32 := 32#32
  let v41 : BitVec 32 := Scalar.remsi v40 c32_i32_35
  let c1_i32_37 : BitVec 32 := 1#32
  let v42 : BitVec 32 := Scalar.muli v41 c1_i32_37
  let v43 : BitVec 32 := Scalar.addi c0_i32_38 v42
  v43.toNat
def k0_dev11 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v44 : BitVec 32 := Scalar.addi v2 c21_i32
  let c32_i32_39 : BitVec 32 := 32#32
  let v45 : BitVec 32 := Scalar.remsi v44 c32_i32_39
  let c1_i32_41 : BitVec 32 := 1#32
  let v46 : BitVec 32 := Scalar.muli v45 c1_i32_41
  let v47 : BitVec 32 := Scalar.addi c0_i32_42 v46
  v47.toNat
def k0_dev12 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v48 : BitVec 32 := Scalar.addi v2 c10_i32
  let c32_i32_43 : BitVec 32 := 32#32
  let v49 : BitVec 32 := Scalar.remsi v48 c32_i32_43
  let c1_i32_45 : BitVec 32 := 1#32
  let v50 : BitVec 32 := Scalar.muli v49 c1_i32_45
  let v51 : BitVec 32 := Scalar.addi c0_i32_46 v50
  v51.toNat
def k0_dev13 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v52 : BitVec 32 := Scalar.addi v2 c22_i32
  let c32_i32_47 : BitVec 32 := 32#32
  let v53 : BitVec 32 := Scalar.remsi v52 c32_i32_47
  let c1_i32_49 : BitVec 32 := 1#32
  let v54 : BitVec 32 := Scalar.muli v53 c1_i32_49
  let v55 : BitVec 32 := Scalar.addi c0_i32_50 v54
  v55.toNat
def k0_dev14 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v56 : BitVec 32 := Scalar.addi v2 c9_i32
  let c32_i32_51 : BitVec 32 := 32#32
  let v57 : BitVec 32 := Scalar.remsi v56 c32_i32_51
  let c1_i32_53 : BitVec 32 := 1#32
  let v58 : BitVec 32 := Scalar.muli v57 c1_i32_53
  let v59 : BitVec 32 := Scalar.addi c0_i32_54 v58
  v59.toNat
def k0_dev15 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v60 : BitVec 32 := Scalar.addi v2 c23_i32
  let c32_i32_55 : BitVec 32 := 32#32
  let v61 : BitVec 32 := Scalar.remsi v60 c32_i32_55
  let c1_i32_57 : BitVec 32 := 1#32
  let v62 : BitVec 32 := Scalar.muli v61 c1_i32_57
  let v63 : BitVec 32 := Scalar.addi c0_i32_58 v62
  v63.toNat
def k0_dev16 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v64 : BitVec 32 := Scalar.addi v2 c8_i32
  let c32_i32_59 : BitVec 32 := 32#32
  let v65 : BitVec 32 := Scalar.remsi v64 c32_i32_59
  let c1_i32_61 : BitVec 32 := 1#32
  let v66 : BitVec 32 := Scalar.muli v65 c1_i32_61
  let v67 : BitVec 32 := Scalar.addi c0_i32_62 v66
  v67.toNat
def k0_dev17 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v68 : BitVec 32 := Scalar.addi v2 c24_i32
  let c32_i32_63 : BitVec 32 := 32#32
  let v69 : BitVec 32 := Scalar.remsi v68 c32_i32_63
  let c1_i32_65 : BitVec 32 := 1#32
  let v70 : BitVec 32 := Scalar.muli v69 c1_i32_65
  let v71 : BitVec 32 := Scalar.addi c0_i32_66 v70
  v71.toNat
def k0_dev18 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v72 : BitVec 32 := Scalar.addi v2 c7_i32
  let c32_i32_67 : BitVec 32 := 32#32
  let v73 : BitVec 32 := Scalar.remsi v72 c32_i32_67
  let c1_i32_69 : BitVec 32 := 1#32
  let v74 : BitVec 32 := Scalar.muli v73 c1_i32_69
  let v75 : BitVec 32 := Scalar.addi c0_i32_70 v74
  v75.toNat
def k0_dev19 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v76 : BitVec 32 := Scalar.addi v2 c25_i32
  let c32_i32_71 : BitVec 32 := 32#32
  let v77 : BitVec 32 := Scalar.remsi v76 c32_i32_71
  let c1_i32_73 : BitVec 32 := 1#32
  let v78 : BitVec 32 := Scalar.muli v77 c1_i32_73
  let v79 : BitVec 32 := Scalar.addi c0_i32_74 v78
  v79.toNat
def k0_dev20 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v80 : BitVec 32 := Scalar.addi v2 c6_i32
  let c32_i32_75 : BitVec 32 := 32#32
  let v81 : BitVec 32 := Scalar.remsi v80 c32_i32_75
  let c1_i32_77 : BitVec 32 := 1#32
  let v82 : BitVec 32 := Scalar.muli v81 c1_i32_77
  let v83 : BitVec 32 := Scalar.addi c0_i32_78 v82
  v83.toNat
def k0_dev21 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v84 : BitVec 32 := Scalar.addi v2 c26_i32
  let c32_i32_79 : BitVec 32 := 32#32
  let v85 : BitVec 32 := Scalar.remsi v84 c32_i32_79
  let c1_i32_81 : BitVec 32 := 1#32
  let v86 : BitVec 32 := Scalar.muli v85 c1_i32_81
  let v87 : BitVec 32 := Scalar.addi c0_i32_82 v86
  v87.toNat
def k0_dev22 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v88 : BitVec 32 := Scalar.addi v2 c5_i32
  let c32_i32_83 : BitVec 32 := 32#32
  let v89 : BitVec 32 := Scalar.remsi v88 c32_i32_83
  let c1_i32_85 : BitVec 32 := 1#32
  let v90 : BitVec 32 := Scalar.muli v89 c1_i32_85
  let v91 : BitVec 32 := Scalar.addi c0_i32_86 v90
  v91.toNat
def k0_dev23 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v92 : BitVec 32 := Scalar.addi v2 c27_i32
  let c32_i32_87 : BitVec 32 := 32#32
  let v93 : BitVec 32 := Scalar.remsi v92 c32_i32_87
  let c1_i32_89 : BitVec 32 := 1#32
  let v94 : BitVec 32 := Scalar.muli v93 c1_i32_89
  let v95 : BitVec 32 := Scalar.addi c0_i32_90 v94
  v95.toNat
def k0_dev24 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v96 : BitVec 32 := Scalar.addi v2 c4_i32
  let c32_i32_91 : BitVec 32 := 32#32
  let v97 : BitVec 32 := Scalar.remsi v96 c32_i32_91
  let c1_i32_93 : BitVec 32 := 1#32
  let v98 : BitVec 32 := Scalar.muli v97 c1_i32_93
  let v99 : BitVec 32 := Scalar.addi c0_i32_94 v98
  v99.toNat
def k0_dev25 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v100 : BitVec 32 := Scalar.addi v2 c28_i32
  let c32_i32_95 : BitVec 32 := 32#32
  let v101 : BitVec 32 := Scalar.remsi v100 c32_i32_95
  let c1_i32_97 : BitVec 32 := 1#32
  let v102 : BitVec 32 := Scalar.muli v101 c1_i32_97
  let v103 : BitVec 32 := Scalar.addi c0_i32_98 v102
  v103.toNat
def k0_dev26 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v104 : BitVec 32 := Scalar.addi v2 c3_i32
  let c32_i32_99 : BitVec 32 := 32#32
  let v105 : BitVec 32 := Scalar.remsi v104 c32_i32_99
  let c1_i32_101 : BitVec 32 := 1#32
  let v106 : BitVec 32 := Scalar.muli v105 c1_i32_101
  let v107 : BitVec 32 := Scalar.addi c0_i32_102 v106
  v107.toNat
def k0_dev27 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v108 : BitVec 32 := Scalar.addi v2 c29_i32
  let c32_i32_103 : BitVec 32 := 32#32
  let v109 : BitVec 32 := Scalar.remsi v108 c32_i32_103
  let c1_i32_105 : BitVec 32 := 1#32
  let v110 : BitVec 32 := Scalar.muli v109 c1_i32_105
  let v111 : BitVec 32 := Scalar.addi c0_i32_106 v110
  v111.toNat
def k0_dev28 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v112 : BitVec 32 := Scalar.addi v2 c2_i32
  let c32_i32_107 : BitVec 32 := 32#32
  let v113 : BitVec 32 := Scalar.remsi v112 c32_i32_107
  let c1_i32_109 : BitVec 32 := 1#32
  let v114 : BitVec 32 := Scalar.muli v113 c1_i32_109
  let v115 : BitVec 32 := Scalar.addi c0_i32_110 v114
  v115.toNat
def k0_dev29 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v116 : BitVec 32 := Scalar.addi v2 c30_i32
  let c32_i32_111 : BitVec 32 := 32#32
  let v117 : BitVec 32 := Scalar.remsi v116 c32_i32_111
  let c1_i32_113 : BitVec 32 := 1#32
  let v118 : BitVec 32 := Scalar.muli v117 c1_i32_113
  let v119 : BitVec 32 := Scalar.addi c0_i32_114 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_115 : BitVec 32 := 1#32
  let v120 : BitVec 32 := Scalar.addi v2 c1_i32_115
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c16_i32_125 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c16_i32_125
  let c32_i32_126 : BitVec 32 := 32#32
  let v129 : BitVec 32 := Scalar.remsi v128 c32_i32_126
  let c8_i32_127 : BitVec 32 := 8#32
  let v130 : BitVec 32 := Scalar.muli v129 c8_i32_127
  let c0_i32_135 : BitVec 32 := 0#32
  ![v130.toNat, 0]
def k0_dev32 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_125 : BitVec 32 := 16#32
  let v128 : BitVec 32 := Scalar.addi v2 c16_i32_125
  let c32_i32_126 : BitVec 32 := 32#32
  let v129 : BitVec 32 := Scalar.remsi v128 c32_i32_126
  let c1_i32_131 : BitVec 32 := 1#32
  let v131 : BitVec 32 := Scalar.muli v129 c1_i32_131
  let v132 : BitVec 32 := Scalar.addi c0_i32_132 v131
  v132.toNat
def k0_dev33 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_136 : BitVec 32 := 15#32
  let v140 : BitVec 32 := Scalar.addi v2 c15_i32_136
  let c32_i32_137 : BitVec 32 := 32#32
  let v141 : BitVec 32 := Scalar.remsi v140 c32_i32_137
  let c1_i32_142 : BitVec 32 := 1#32
  let v143 : BitVec 32 := Scalar.muli v141 c1_i32_142
  let v144 : BitVec 32 := Scalar.addi c0_i32_143 v143
  v144.toNat
def k0_dev34 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_147 : BitVec 32 := 17#32
  let v152 : BitVec 32 := Scalar.addi v2 c17_i32_147
  let c32_i32_148 : BitVec 32 := 32#32
  let v153 : BitVec 32 := Scalar.remsi v152 c32_i32_148
  let c1_i32_153 : BitVec 32 := 1#32
  let v155 : BitVec 32 := Scalar.muli v153 c1_i32_153
  let v156 : BitVec 32 := Scalar.addi c0_i32_154 v155
  v156.toNat
def k0_dev35 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_158 : BitVec 32 := 14#32
  let v164 : BitVec 32 := Scalar.addi v2 c14_i32_158
  let c32_i32_159 : BitVec 32 := 32#32
  let v165 : BitVec 32 := Scalar.remsi v164 c32_i32_159
  let c1_i32_164 : BitVec 32 := 1#32
  let v167 : BitVec 32 := Scalar.muli v165 c1_i32_164
  let v168 : BitVec 32 := Scalar.addi c0_i32_165 v167
  v168.toNat
def k0_dev36 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_169 : BitVec 32 := 18#32
  let v176 : BitVec 32 := Scalar.addi v2 c18_i32_169
  let c32_i32_170 : BitVec 32 := 32#32
  let v177 : BitVec 32 := Scalar.remsi v176 c32_i32_170
  let c1_i32_175 : BitVec 32 := 1#32
  let v179 : BitVec 32 := Scalar.muli v177 c1_i32_175
  let v180 : BitVec 32 := Scalar.addi c0_i32_176 v179
  v180.toNat
def k0_dev37 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_180 : BitVec 32 := 13#32
  let v188 : BitVec 32 := Scalar.addi v2 c13_i32_180
  let c32_i32_181 : BitVec 32 := 32#32
  let v189 : BitVec 32 := Scalar.remsi v188 c32_i32_181
  let c1_i32_186 : BitVec 32 := 1#32
  let v191 : BitVec 32 := Scalar.muli v189 c1_i32_186
  let v192 : BitVec 32 := Scalar.addi c0_i32_187 v191
  v192.toNat
def k0_dev38 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_191 : BitVec 32 := 19#32
  let v200 : BitVec 32 := Scalar.addi v2 c19_i32_191
  let c32_i32_192 : BitVec 32 := 32#32
  let v201 : BitVec 32 := Scalar.remsi v200 c32_i32_192
  let c1_i32_197 : BitVec 32 := 1#32
  let v203 : BitVec 32 := Scalar.muli v201 c1_i32_197
  let v204 : BitVec 32 := Scalar.addi c0_i32_198 v203
  v204.toNat
def k0_dev39 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_202 : BitVec 32 := 12#32
  let v212 : BitVec 32 := Scalar.addi v2 c12_i32_202
  let c32_i32_203 : BitVec 32 := 32#32
  let v213 : BitVec 32 := Scalar.remsi v212 c32_i32_203
  let c1_i32_208 : BitVec 32 := 1#32
  let v215 : BitVec 32 := Scalar.muli v213 c1_i32_208
  let v216 : BitVec 32 := Scalar.addi c0_i32_209 v215
  v216.toNat
def k0_dev40 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_213 : BitVec 32 := 20#32
  let v224 : BitVec 32 := Scalar.addi v2 c20_i32_213
  let c32_i32_214 : BitVec 32 := 32#32
  let v225 : BitVec 32 := Scalar.remsi v224 c32_i32_214
  let c1_i32_219 : BitVec 32 := 1#32
  let v227 : BitVec 32 := Scalar.muli v225 c1_i32_219
  let v228 : BitVec 32 := Scalar.addi c0_i32_220 v227
  v228.toNat
def k0_dev41 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_224 : BitVec 32 := 11#32
  let v236 : BitVec 32 := Scalar.addi v2 c11_i32_224
  let c32_i32_225 : BitVec 32 := 32#32
  let v237 : BitVec 32 := Scalar.remsi v236 c32_i32_225
  let c1_i32_230 : BitVec 32 := 1#32
  let v239 : BitVec 32 := Scalar.muli v237 c1_i32_230
  let v240 : BitVec 32 := Scalar.addi c0_i32_231 v239
  v240.toNat
def k0_dev42 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_235 : BitVec 32 := 21#32
  let v248 : BitVec 32 := Scalar.addi v2 c21_i32_235
  let c32_i32_236 : BitVec 32 := 32#32
  let v249 : BitVec 32 := Scalar.remsi v248 c32_i32_236
  let c1_i32_241 : BitVec 32 := 1#32
  let v251 : BitVec 32 := Scalar.muli v249 c1_i32_241
  let v252 : BitVec 32 := Scalar.addi c0_i32_242 v251
  v252.toNat
def k0_dev43 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_246 : BitVec 32 := 10#32
  let v260 : BitVec 32 := Scalar.addi v2 c10_i32_246
  let c32_i32_247 : BitVec 32 := 32#32
  let v261 : BitVec 32 := Scalar.remsi v260 c32_i32_247
  let c1_i32_252 : BitVec 32 := 1#32
  let v263 : BitVec 32 := Scalar.muli v261 c1_i32_252
  let v264 : BitVec 32 := Scalar.addi c0_i32_253 v263
  v264.toNat
def k0_dev44 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_257 : BitVec 32 := 22#32
  let v272 : BitVec 32 := Scalar.addi v2 c22_i32_257
  let c32_i32_258 : BitVec 32 := 32#32
  let v273 : BitVec 32 := Scalar.remsi v272 c32_i32_258
  let c1_i32_263 : BitVec 32 := 1#32
  let v275 : BitVec 32 := Scalar.muli v273 c1_i32_263
  let v276 : BitVec 32 := Scalar.addi c0_i32_264 v275
  v276.toNat
def k0_dev45 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_268 : BitVec 32 := 9#32
  let v284 : BitVec 32 := Scalar.addi v2 c9_i32_268
  let c32_i32_269 : BitVec 32 := 32#32
  let v285 : BitVec 32 := Scalar.remsi v284 c32_i32_269
  let c1_i32_274 : BitVec 32 := 1#32
  let v287 : BitVec 32 := Scalar.muli v285 c1_i32_274
  let v288 : BitVec 32 := Scalar.addi c0_i32_275 v287
  v288.toNat
def k0_dev46 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_279 : BitVec 32 := 23#32
  let v296 : BitVec 32 := Scalar.addi v2 c23_i32_279
  let c32_i32_280 : BitVec 32 := 32#32
  let v297 : BitVec 32 := Scalar.remsi v296 c32_i32_280
  let c1_i32_285 : BitVec 32 := 1#32
  let v299 : BitVec 32 := Scalar.muli v297 c1_i32_285
  let v300 : BitVec 32 := Scalar.addi c0_i32_286 v299
  v300.toNat
def k0_dev47 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_290 : BitVec 32 := 8#32
  let v308 : BitVec 32 := Scalar.addi v2 c8_i32_290
  let c32_i32_291 : BitVec 32 := 32#32
  let v309 : BitVec 32 := Scalar.remsi v308 c32_i32_291
  let c1_i32_296 : BitVec 32 := 1#32
  let v311 : BitVec 32 := Scalar.muli v309 c1_i32_296
  let v312 : BitVec 32 := Scalar.addi c0_i32_297 v311
  v312.toNat
def k0_dev48 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_301 : BitVec 32 := 24#32
  let v320 : BitVec 32 := Scalar.addi v2 c24_i32_301
  let c32_i32_302 : BitVec 32 := 32#32
  let v321 : BitVec 32 := Scalar.remsi v320 c32_i32_302
  let c1_i32_307 : BitVec 32 := 1#32
  let v323 : BitVec 32 := Scalar.muli v321 c1_i32_307
  let v324 : BitVec 32 := Scalar.addi c0_i32_308 v323
  v324.toNat
def k0_dev49 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_312 : BitVec 32 := 7#32
  let v332 : BitVec 32 := Scalar.addi v2 c7_i32_312
  let c32_i32_313 : BitVec 32 := 32#32
  let v333 : BitVec 32 := Scalar.remsi v332 c32_i32_313
  let c1_i32_318 : BitVec 32 := 1#32
  let v335 : BitVec 32 := Scalar.muli v333 c1_i32_318
  let v336 : BitVec 32 := Scalar.addi c0_i32_319 v335
  v336.toNat
def k0_dev50 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_323 : BitVec 32 := 25#32
  let v344 : BitVec 32 := Scalar.addi v2 c25_i32_323
  let c32_i32_324 : BitVec 32 := 32#32
  let v345 : BitVec 32 := Scalar.remsi v344 c32_i32_324
  let c1_i32_329 : BitVec 32 := 1#32
  let v347 : BitVec 32 := Scalar.muli v345 c1_i32_329
  let v348 : BitVec 32 := Scalar.addi c0_i32_330 v347
  v348.toNat
def k0_dev51 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_334 : BitVec 32 := 6#32
  let v356 : BitVec 32 := Scalar.addi v2 c6_i32_334
  let c32_i32_335 : BitVec 32 := 32#32
  let v357 : BitVec 32 := Scalar.remsi v356 c32_i32_335
  let c1_i32_340 : BitVec 32 := 1#32
  let v359 : BitVec 32 := Scalar.muli v357 c1_i32_340
  let v360 : BitVec 32 := Scalar.addi c0_i32_341 v359
  v360.toNat
def k0_dev52 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_345 : BitVec 32 := 26#32
  let v368 : BitVec 32 := Scalar.addi v2 c26_i32_345
  let c32_i32_346 : BitVec 32 := 32#32
  let v369 : BitVec 32 := Scalar.remsi v368 c32_i32_346
  let c1_i32_351 : BitVec 32 := 1#32
  let v371 : BitVec 32 := Scalar.muli v369 c1_i32_351
  let v372 : BitVec 32 := Scalar.addi c0_i32_352 v371
  v372.toNat
def k0_dev53 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_356 : BitVec 32 := 5#32
  let v380 : BitVec 32 := Scalar.addi v2 c5_i32_356
  let c32_i32_357 : BitVec 32 := 32#32
  let v381 : BitVec 32 := Scalar.remsi v380 c32_i32_357
  let c1_i32_362 : BitVec 32 := 1#32
  let v383 : BitVec 32 := Scalar.muli v381 c1_i32_362
  let v384 : BitVec 32 := Scalar.addi c0_i32_363 v383
  v384.toNat
def k0_dev54 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_367 : BitVec 32 := 27#32
  let v392 : BitVec 32 := Scalar.addi v2 c27_i32_367
  let c32_i32_368 : BitVec 32 := 32#32
  let v393 : BitVec 32 := Scalar.remsi v392 c32_i32_368
  let c1_i32_373 : BitVec 32 := 1#32
  let v395 : BitVec 32 := Scalar.muli v393 c1_i32_373
  let v396 : BitVec 32 := Scalar.addi c0_i32_374 v395
  v396.toNat
def k0_dev55 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_378 : BitVec 32 := 4#32
  let v404 : BitVec 32 := Scalar.addi v2 c4_i32_378
  let c32_i32_379 : BitVec 32 := 32#32
  let v405 : BitVec 32 := Scalar.remsi v404 c32_i32_379
  let c1_i32_384 : BitVec 32 := 1#32
  let v407 : BitVec 32 := Scalar.muli v405 c1_i32_384
  let v408 : BitVec 32 := Scalar.addi c0_i32_385 v407
  v408.toNat
def k0_dev56 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_389 : BitVec 32 := 28#32
  let v416 : BitVec 32 := Scalar.addi v2 c28_i32_389
  let c32_i32_390 : BitVec 32 := 32#32
  let v417 : BitVec 32 := Scalar.remsi v416 c32_i32_390
  let c1_i32_395 : BitVec 32 := 1#32
  let v419 : BitVec 32 := Scalar.muli v417 c1_i32_395
  let v420 : BitVec 32 := Scalar.addi c0_i32_396 v419
  v420.toNat
def k0_dev57 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_400 : BitVec 32 := 3#32
  let v428 : BitVec 32 := Scalar.addi v2 c3_i32_400
  let c32_i32_401 : BitVec 32 := 32#32
  let v429 : BitVec 32 := Scalar.remsi v428 c32_i32_401
  let c1_i32_406 : BitVec 32 := 1#32
  let v431 : BitVec 32 := Scalar.muli v429 c1_i32_406
  let v432 : BitVec 32 := Scalar.addi c0_i32_407 v431
  v432.toNat
def k0_dev58 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_411 : BitVec 32 := 29#32
  let v440 : BitVec 32 := Scalar.addi v2 c29_i32_411
  let c32_i32_412 : BitVec 32 := 32#32
  let v441 : BitVec 32 := Scalar.remsi v440 c32_i32_412
  let c1_i32_417 : BitVec 32 := 1#32
  let v443 : BitVec 32 := Scalar.muli v441 c1_i32_417
  let v444 : BitVec 32 := Scalar.addi c0_i32_418 v443
  v444.toNat
def k0_dev59 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_422 : BitVec 32 := 2#32
  let v452 : BitVec 32 := Scalar.addi v2 c2_i32_422
  let c32_i32_423 : BitVec 32 := 32#32
  let v453 : BitVec 32 := Scalar.remsi v452 c32_i32_423
  let c1_i32_428 : BitVec 32 := 1#32
  let v455 : BitVec 32 := Scalar.muli v453 c1_i32_428
  let v456 : BitVec 32 := Scalar.addi c0_i32_429 v455
  v456.toNat
def k0_dev60 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_433 : BitVec 32 := 30#32
  let v464 : BitVec 32 := Scalar.addi v2 c30_i32_433
  let c32_i32_434 : BitVec 32 := 32#32
  let v465 : BitVec 32 := Scalar.remsi v464 c32_i32_434
  let c1_i32_439 : BitVec 32 := 1#32
  let v467 : BitVec 32 := Scalar.muli v465 c1_i32_439
  let v468 : BitVec 32 := Scalar.addi c0_i32_440 v467
  v468.toNat
def k0_dev61 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_444 : BitVec 32 := 1#32
  let v476 : BitVec 32 := Scalar.addi v2 c1_i32_444
  let c32_i32_445 : BitVec 32 := 32#32
  let v477 : BitVec 32 := Scalar.remsi v476 c32_i32_445
  let c1_i32_450 : BitVec 32 := 1#32
  let v479 : BitVec 32 := Scalar.muli v477 c1_i32_450
  let v480 : BitVec 32 := Scalar.addi c0_i32_451 v479
  v480.toNat
def k0_dev62 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_455 : BitVec 32 := 31#32
  let v488 : BitVec 32 := Scalar.addi v2 c31_i32_455
  let c32_i32_456 : BitVec 32 := 32#32
  let v489 : BitVec 32 := Scalar.remsi v488 c32_i32_456
  let c1_i32_461 : BitVec 32 := 1#32
  let v491 : BitVec 32 := Scalar.muli v489 c1_i32_461
  let v492 : BitVec 32 := Scalar.addi c0_i32_462 v491
  v492.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_716 : BitVec 32 := 8#32
  let v719 : BitVec 32 := Scalar.muli v2 c8_i32_716
  let v720 : Index := Scalar.indexCast v719
  let c0_717 : Index := 0#32
  ![v720.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_723 : BitVec 32 := 8#32
  let v730 : BitVec 32 := Scalar.muli v2 c8_i32_723
  let c0_i32_728 : BitVec 32 := 0#32
  ![v730.toNat, 0]
def k0_dev63 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_720 : BitVec 32 := 16#32
  let v727 : BitVec 32 := Scalar.addi v2 c16_i32_720
  let c32_i32_721 : BitVec 32 := 32#32
  let v728 : BitVec 32 := Scalar.remsi v727 c32_i32_721
  let c1_i32_726 : BitVec 32 := 1#32
  let v731 : BitVec 32 := Scalar.muli v728 c1_i32_726
  let v732 : BitVec 32 := Scalar.addi c0_i32_727 v731
  v732.toNat
def k0_dev64 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_730 : BitVec 32 := 15#32
  let v739 : BitVec 32 := Scalar.addi v2 c15_i32_730
  let c32_i32_731 : BitVec 32 := 32#32
  let v740 : BitVec 32 := Scalar.remsi v739 c32_i32_731
  let c1_i32_736 : BitVec 32 := 1#32
  let v743 : BitVec 32 := Scalar.muli v740 c1_i32_736
  let v744 : BitVec 32 := Scalar.addi c0_i32_737 v743
  v744.toNat
def k0_dev65 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_740 : BitVec 32 := 17#32
  let v751 : BitVec 32 := Scalar.addi v2 c17_i32_740
  let c32_i32_741 : BitVec 32 := 32#32
  let v752 : BitVec 32 := Scalar.remsi v751 c32_i32_741
  let c1_i32_746 : BitVec 32 := 1#32
  let v755 : BitVec 32 := Scalar.muli v752 c1_i32_746
  let v756 : BitVec 32 := Scalar.addi c0_i32_747 v755
  v756.toNat
def k0_dev66 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_750 : BitVec 32 := 14#32
  let v763 : BitVec 32 := Scalar.addi v2 c14_i32_750
  let c32_i32_751 : BitVec 32 := 32#32
  let v764 : BitVec 32 := Scalar.remsi v763 c32_i32_751
  let c1_i32_756 : BitVec 32 := 1#32
  let v767 : BitVec 32 := Scalar.muli v764 c1_i32_756
  let v768 : BitVec 32 := Scalar.addi c0_i32_757 v767
  v768.toNat
def k0_dev67 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_760 : BitVec 32 := 18#32
  let v775 : BitVec 32 := Scalar.addi v2 c18_i32_760
  let c32_i32_761 : BitVec 32 := 32#32
  let v776 : BitVec 32 := Scalar.remsi v775 c32_i32_761
  let c1_i32_766 : BitVec 32 := 1#32
  let v779 : BitVec 32 := Scalar.muli v776 c1_i32_766
  let v780 : BitVec 32 := Scalar.addi c0_i32_767 v779
  v780.toNat
def k0_dev68 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_770 : BitVec 32 := 13#32
  let v787 : BitVec 32 := Scalar.addi v2 c13_i32_770
  let c32_i32_771 : BitVec 32 := 32#32
  let v788 : BitVec 32 := Scalar.remsi v787 c32_i32_771
  let c1_i32_776 : BitVec 32 := 1#32
  let v791 : BitVec 32 := Scalar.muli v788 c1_i32_776
  let v792 : BitVec 32 := Scalar.addi c0_i32_777 v791
  v792.toNat
def k0_dev69 (d0 : Dev nD) : Nat :=
  let c0_i32_787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_780 : BitVec 32 := 19#32
  let v799 : BitVec 32 := Scalar.addi v2 c19_i32_780
  let c32_i32_781 : BitVec 32 := 32#32
  let v800 : BitVec 32 := Scalar.remsi v799 c32_i32_781
  let c1_i32_786 : BitVec 32 := 1#32
  let v803 : BitVec 32 := Scalar.muli v800 c1_i32_786
  let v804 : BitVec 32 := Scalar.addi c0_i32_787 v803
  v804.toNat
def k0_dev70 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_790 : BitVec 32 := 12#32
  let v811 : BitVec 32 := Scalar.addi v2 c12_i32_790
  let c32_i32_791 : BitVec 32 := 32#32
  let v812 : BitVec 32 := Scalar.remsi v811 c32_i32_791
  let c1_i32_796 : BitVec 32 := 1#32
  let v815 : BitVec 32 := Scalar.muli v812 c1_i32_796
  let v816 : BitVec 32 := Scalar.addi c0_i32_797 v815
  v816.toNat
def k0_dev71 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_800 : BitVec 32 := 20#32
  let v823 : BitVec 32 := Scalar.addi v2 c20_i32_800
  let c32_i32_801 : BitVec 32 := 32#32
  let v824 : BitVec 32 := Scalar.remsi v823 c32_i32_801
  let c1_i32_806 : BitVec 32 := 1#32
  let v827 : BitVec 32 := Scalar.muli v824 c1_i32_806
  let v828 : BitVec 32 := Scalar.addi c0_i32_807 v827
  v828.toNat
def k0_dev72 (d0 : Dev nD) : Nat :=
  let c0_i32_817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_810 : BitVec 32 := 11#32
  let v835 : BitVec 32 := Scalar.addi v2 c11_i32_810
  let c32_i32_811 : BitVec 32 := 32#32
  let v836 : BitVec 32 := Scalar.remsi v835 c32_i32_811
  let c1_i32_816 : BitVec 32 := 1#32
  let v839 : BitVec 32 := Scalar.muli v836 c1_i32_816
  let v840 : BitVec 32 := Scalar.addi c0_i32_817 v839
  v840.toNat
def k0_dev73 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_820 : BitVec 32 := 21#32
  let v847 : BitVec 32 := Scalar.addi v2 c21_i32_820
  let c32_i32_821 : BitVec 32 := 32#32
  let v848 : BitVec 32 := Scalar.remsi v847 c32_i32_821
  let c1_i32_826 : BitVec 32 := 1#32
  let v851 : BitVec 32 := Scalar.muli v848 c1_i32_826
  let v852 : BitVec 32 := Scalar.addi c0_i32_827 v851
  v852.toNat
def k0_dev74 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_830 : BitVec 32 := 10#32
  let v859 : BitVec 32 := Scalar.addi v2 c10_i32_830
  let c32_i32_831 : BitVec 32 := 32#32
  let v860 : BitVec 32 := Scalar.remsi v859 c32_i32_831
  let c1_i32_836 : BitVec 32 := 1#32
  let v863 : BitVec 32 := Scalar.muli v860 c1_i32_836
  let v864 : BitVec 32 := Scalar.addi c0_i32_837 v863
  v864.toNat
def k0_dev75 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_840 : BitVec 32 := 22#32
  let v871 : BitVec 32 := Scalar.addi v2 c22_i32_840
  let c32_i32_841 : BitVec 32 := 32#32
  let v872 : BitVec 32 := Scalar.remsi v871 c32_i32_841
  let c1_i32_846 : BitVec 32 := 1#32
  let v875 : BitVec 32 := Scalar.muli v872 c1_i32_846
  let v876 : BitVec 32 := Scalar.addi c0_i32_847 v875
  v876.toNat
def k0_dev76 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_850 : BitVec 32 := 9#32
  let v883 : BitVec 32 := Scalar.addi v2 c9_i32_850
  let c32_i32_851 : BitVec 32 := 32#32
  let v884 : BitVec 32 := Scalar.remsi v883 c32_i32_851
  let c1_i32_856 : BitVec 32 := 1#32
  let v887 : BitVec 32 := Scalar.muli v884 c1_i32_856
  let v888 : BitVec 32 := Scalar.addi c0_i32_857 v887
  v888.toNat
def k0_dev77 (d0 : Dev nD) : Nat :=
  let c0_i32_867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_860 : BitVec 32 := 23#32
  let v895 : BitVec 32 := Scalar.addi v2 c23_i32_860
  let c32_i32_861 : BitVec 32 := 32#32
  let v896 : BitVec 32 := Scalar.remsi v895 c32_i32_861
  let c1_i32_866 : BitVec 32 := 1#32
  let v899 : BitVec 32 := Scalar.muli v896 c1_i32_866
  let v900 : BitVec 32 := Scalar.addi c0_i32_867 v899
  v900.toNat
def k0_dev78 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_870 : BitVec 32 := 8#32
  let v907 : BitVec 32 := Scalar.addi v2 c8_i32_870
  let c32_i32_871 : BitVec 32 := 32#32
  let v908 : BitVec 32 := Scalar.remsi v907 c32_i32_871
  let c1_i32_876 : BitVec 32 := 1#32
  let v911 : BitVec 32 := Scalar.muli v908 c1_i32_876
  let v912 : BitVec 32 := Scalar.addi c0_i32_877 v911
  v912.toNat
def k0_dev79 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_880 : BitVec 32 := 24#32
  let v919 : BitVec 32 := Scalar.addi v2 c24_i32_880
  let c32_i32_881 : BitVec 32 := 32#32
  let v920 : BitVec 32 := Scalar.remsi v919 c32_i32_881
  let c1_i32_886 : BitVec 32 := 1#32
  let v923 : BitVec 32 := Scalar.muli v920 c1_i32_886
  let v924 : BitVec 32 := Scalar.addi c0_i32_887 v923
  v924.toNat
def k0_dev80 (d0 : Dev nD) : Nat :=
  let c0_i32_897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_890 : BitVec 32 := 7#32
  let v931 : BitVec 32 := Scalar.addi v2 c7_i32_890
  let c32_i32_891 : BitVec 32 := 32#32
  let v932 : BitVec 32 := Scalar.remsi v931 c32_i32_891
  let c1_i32_896 : BitVec 32 := 1#32
  let v935 : BitVec 32 := Scalar.muli v932 c1_i32_896
  let v936 : BitVec 32 := Scalar.addi c0_i32_897 v935
  v936.toNat
def k0_dev81 (d0 : Dev nD) : Nat :=
  let c0_i32_907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_900 : BitVec 32 := 25#32
  let v943 : BitVec 32 := Scalar.addi v2 c25_i32_900
  let c32_i32_901 : BitVec 32 := 32#32
  let v944 : BitVec 32 := Scalar.remsi v943 c32_i32_901
  let c1_i32_906 : BitVec 32 := 1#32
  let v947 : BitVec 32 := Scalar.muli v944 c1_i32_906
  let v948 : BitVec 32 := Scalar.addi c0_i32_907 v947
  v948.toNat
def k0_dev82 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_910 : BitVec 32 := 6#32
  let v955 : BitVec 32 := Scalar.addi v2 c6_i32_910
  let c32_i32_911 : BitVec 32 := 32#32
  let v956 : BitVec 32 := Scalar.remsi v955 c32_i32_911
  let c1_i32_916 : BitVec 32 := 1#32
  let v959 : BitVec 32 := Scalar.muli v956 c1_i32_916
  let v960 : BitVec 32 := Scalar.addi c0_i32_917 v959
  v960.toNat
def k0_dev83 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_920 : BitVec 32 := 26#32
  let v967 : BitVec 32 := Scalar.addi v2 c26_i32_920
  let c32_i32_921 : BitVec 32 := 32#32
  let v968 : BitVec 32 := Scalar.remsi v967 c32_i32_921
  let c1_i32_926 : BitVec 32 := 1#32
  let v971 : BitVec 32 := Scalar.muli v968 c1_i32_926
  let v972 : BitVec 32 := Scalar.addi c0_i32_927 v971
  v972.toNat
def k0_dev84 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_930 : BitVec 32 := 5#32
  let v979 : BitVec 32 := Scalar.addi v2 c5_i32_930
  let c32_i32_931 : BitVec 32 := 32#32
  let v980 : BitVec 32 := Scalar.remsi v979 c32_i32_931
  let c1_i32_936 : BitVec 32 := 1#32
  let v983 : BitVec 32 := Scalar.muli v980 c1_i32_936
  let v984 : BitVec 32 := Scalar.addi c0_i32_937 v983
  v984.toNat
def k0_dev85 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_940 : BitVec 32 := 27#32
  let v991 : BitVec 32 := Scalar.addi v2 c27_i32_940
  let c32_i32_941 : BitVec 32 := 32#32
  let v992 : BitVec 32 := Scalar.remsi v991 c32_i32_941
  let c1_i32_946 : BitVec 32 := 1#32
  let v995 : BitVec 32 := Scalar.muli v992 c1_i32_946
  let v996 : BitVec 32 := Scalar.addi c0_i32_947 v995
  v996.toNat
def k0_dev86 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_950 : BitVec 32 := 4#32
  let v1003 : BitVec 32 := Scalar.addi v2 c4_i32_950
  let c32_i32_951 : BitVec 32 := 32#32
  let v1004 : BitVec 32 := Scalar.remsi v1003 c32_i32_951
  let c1_i32_956 : BitVec 32 := 1#32
  let v1007 : BitVec 32 := Scalar.muli v1004 c1_i32_956
  let v1008 : BitVec 32 := Scalar.addi c0_i32_957 v1007
  v1008.toNat
def k0_dev87 (d0 : Dev nD) : Nat :=
  let c0_i32_967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_960 : BitVec 32 := 28#32
  let v1015 : BitVec 32 := Scalar.addi v2 c28_i32_960
  let c32_i32_961 : BitVec 32 := 32#32
  let v1016 : BitVec 32 := Scalar.remsi v1015 c32_i32_961
  let c1_i32_966 : BitVec 32 := 1#32
  let v1019 : BitVec 32 := Scalar.muli v1016 c1_i32_966
  let v1020 : BitVec 32 := Scalar.addi c0_i32_967 v1019
  v1020.toNat
def k0_dev88 (d0 : Dev nD) : Nat :=
  let c0_i32_977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_970 : BitVec 32 := 3#32
  let v1027 : BitVec 32 := Scalar.addi v2 c3_i32_970
  let c32_i32_971 : BitVec 32 := 32#32
  let v1028 : BitVec 32 := Scalar.remsi v1027 c32_i32_971
  let c1_i32_976 : BitVec 32 := 1#32
  let v1031 : BitVec 32 := Scalar.muli v1028 c1_i32_976
  let v1032 : BitVec 32 := Scalar.addi c0_i32_977 v1031
  v1032.toNat
def k0_dev89 (d0 : Dev nD) : Nat :=
  let c0_i32_987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_980 : BitVec 32 := 29#32
  let v1039 : BitVec 32 := Scalar.addi v2 c29_i32_980
  let c32_i32_981 : BitVec 32 := 32#32
  let v1040 : BitVec 32 := Scalar.remsi v1039 c32_i32_981
  let c1_i32_986 : BitVec 32 := 1#32
  let v1043 : BitVec 32 := Scalar.muli v1040 c1_i32_986
  let v1044 : BitVec 32 := Scalar.addi c0_i32_987 v1043
  v1044.toNat
def k0_dev90 (d0 : Dev nD) : Nat :=
  let c0_i32_997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_990 : BitVec 32 := 2#32
  let v1051 : BitVec 32 := Scalar.addi v2 c2_i32_990
  let c32_i32_991 : BitVec 32 := 32#32
  let v1052 : BitVec 32 := Scalar.remsi v1051 c32_i32_991
  let c1_i32_996 : BitVec 32 := 1#32
  let v1055 : BitVec 32 := Scalar.muli v1052 c1_i32_996
  let v1056 : BitVec 32 := Scalar.addi c0_i32_997 v1055
  v1056.toNat
def k0_dev91 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1000 : BitVec 32 := 30#32
  let v1063 : BitVec 32 := Scalar.addi v2 c30_i32_1000
  let c32_i32_1001 : BitVec 32 := 32#32
  let v1064 : BitVec 32 := Scalar.remsi v1063 c32_i32_1001
  let c1_i32_1006 : BitVec 32 := 1#32
  let v1067 : BitVec 32 := Scalar.muli v1064 c1_i32_1006
  let v1068 : BitVec 32 := Scalar.addi c0_i32_1007 v1067
  v1068.toNat
def k0_dev92 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1010 : BitVec 32 := 1#32
  let v1075 : BitVec 32 := Scalar.addi v2 c1_i32_1010
  let c32_i32_1011 : BitVec 32 := 32#32
  let v1076 : BitVec 32 := Scalar.remsi v1075 c32_i32_1011
  let c1_i32_1016 : BitVec 32 := 1#32
  let v1079 : BitVec 32 := Scalar.muli v1076 c1_i32_1016
  let v1080 : BitVec 32 := Scalar.addi c0_i32_1017 v1079
  v1080.toNat
def k0_dev93 (d0 : Dev nD) : Nat :=
  let c0_i32_1027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1020 : BitVec 32 := 31#32
  let v1087 : BitVec 32 := Scalar.addi v2 c31_i32_1020
  let c32_i32_1021 : BitVec 32 := 32#32
  let v1088 : BitVec 32 := Scalar.remsi v1087 c32_i32_1021
  let c1_i32_1026 : BitVec 32 := 1#32
  let v1091 : BitVec 32 := Scalar.muli v1088 c1_i32_1026
  let v1092 : BitVec 32 := Scalar.addi c0_i32_1027 v1091
  v1092.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_31 : (31#32 : BitVec 32).msb = false
  inb_S32_S1_16 : ∀ a, (![16] : Fin 1 → Nat) a + S1.size a ≤ S32.size a
  squeezes_S1_S_ : S1.Squeezes S_
  inb_S31x8x256_S1x8x256_15_0_0 : ∀ a, (![15, 0, 0] : Fin 3 → Nat) a + S1x8x256.size a ≤ S31x8x256.size a
  squeezes_S1x8x256_S8x256 : S1x8x256.Squeezes S8x256
  inb_S32_S1_15 : ∀ a, (![15] : Fin 1 → Nat) a + S1.size a ≤ S32.size a
  inb_S31x8x256_S1x8x256_14_0_0 : ∀ a, (![14, 0, 0] : Fin 3 → Nat) a + S1x8x256.size a ≤ S31x8x256.size a
  inb_S32_S1_17 : ∀ a, (![17] : Fin 1 → Nat) a + S1.size a ≤ S32.size a
  inb_S31x8x256_S1x8x256_16_0_0 : ∀ a, (![16, 0, 0] : Fin 3 → Nat) a + S1x8x256.size a ≤ S31x8x256.size a
  inb_S32_S1_14 : ∀ a, (![14] : Fin 1 → Nat) a + S1.size a ≤ S32.size a
  inb_S31x8x256_S1x8x256_13_0_0 : ∀ a, (![13, 0, 0] : Fin 3 → Nat) a + S1x8x256.size a ≤ S31x8x256.size a
  inb_S32_S1_18 : ∀ a, (![18] : Fin 1 → Nat) a + S1.size a ≤ S32.size a
  inb_S31x8x256_S1x8x256_17_0_0 : ∀ a, (![17, 0, 0] : Fin 3 → Nat) a + S1x8x256.size a ≤ S31x8x256.size a
  inb_S32_S1_13 : ∀ a, (![13] : Fin 1 → Nat) a + S1.size a ≤ S32.size a
  inb_S31x8x256_S1x8x256_12_0_0 : ∀ a, (![12, 0, 0] : Fin 3 → Nat) a + S1x8x256.size a ≤ S31x8x256.size a
  inb_S32_S1_19 : ∀ a, (![19] : Fin 1 → Nat) a + S1.size a ≤ S32.size a
  inb_S31x8x256_S1x8x256_18_0_0 : ∀ a, (![18, 0, 0] : Fin 3 → Nat) a + S1x8x256.size a ≤ S31x8x256.size a
  inb_S32_S1_12 : ∀ a, (![12] : Fin 1 → Nat) a + S1.size a ≤ S32.size a
  inb_S31x8x256_S1x8x256_11_0_0 : ∀ a, (![11, 0, 0] : Fin 3 → Nat) a + S1x8x256.size a ≤ S31x8x256.size a
  inb_S32_S1_20 : ∀ a, (![20] : Fin 1 → Nat) a + S1.size a ≤ S32.size a
  inb_S31x8x256_S1x8x256_19_0_0 : ∀ a, (![19, 0, 0] : Fin 3 → Nat) a + S1x8x256.size a ≤ S31x8x256.size a
  inb_S32_S1_11 : ∀ a, (![11] : Fin 1 → Nat) a + S1.size a ≤ S32.size a
  inb_S31x8x256_S1x8x256_10_0_0 : ∀ a, (![10, 0, 0] : Fin 3 → Nat) a + S1x8x256.size a ≤ S31x8x256.size a
  inb_S32_S1_21 : ∀ a, (![21] : Fin 1 → Nat) a + S1.size a ≤ S32.size a
  inb_S31x8x256_S1x8x256_20_0_0 : ∀ a, (![20, 0, 0] : Fin 3 → Nat) a + S1x8x256.size a ≤ S31x8x256.size a
  inb_S32_S1_10 : ∀ a, (![10] : Fin 1 → Nat) a + S1.size a ≤ S32.size a
  inb_S31x8x256_S1x8x256_9_0_0 : ∀ a, (![9, 0, 0] : Fin 3 → Nat) a + S1x8x256.size a ≤ S31x8x256.size a
  inb_S32_S1_22 : ∀ a, (![22] : Fin 1 → Nat) a + S1.size a ≤ S32.size a
  inb_S31x8x256_S1x8x256_21_0_0 : ∀ a, (![21, 0, 0] : Fin 3 → Nat) a + S1x8x256.size a ≤ S31x8x256.size a
  inb_S32_S1_9 : ∀ a, (![9] : Fin 1 → Nat) a + S1.size a ≤ S32.size a
  inb_S31x8x256_S1x8x256_8_0_0 : ∀ a, (![8, 0, 0] : Fin 3 → Nat) a + S1x8x256.size a ≤ S31x8x256.size a
  inb_S32_S1_23 : ∀ a, (![23] : Fin 1 → Nat) a + S1.size a ≤ S32.size a
  inb_S31x8x256_S1x8x256_22_0_0 : ∀ a, (![22, 0, 0] : Fin 3 → Nat) a + S1x8x256.size a ≤ S31x8x256.size a
  inb_S32_S1_8 : ∀ a, (![8] : Fin 1 → Nat) a + S1.size a ≤ S32.size a
  inb_S31x8x256_S1x8x256_7_0_0 : ∀ a, (![7, 0, 0] : Fin 3 → Nat) a + S1x8x256.size a ≤ S31x8x256.size a
  inb_S32_S1_24 : ∀ a, (![24] : Fin 1 → Nat) a + S1.size a ≤ S32.size a
  inb_S31x8x256_S1x8x256_23_0_0 : ∀ a, (![23, 0, 0] : Fin 3 → Nat) a + S1x8x256.size a ≤ S31x8x256.size a
  inb_S32_S1_7 : ∀ a, (![7] : Fin 1 → Nat) a + S1.size a ≤ S32.size a
  inb_S31x8x256_S1x8x256_6_0_0 : ∀ a, (![6, 0, 0] : Fin 3 → Nat) a + S1x8x256.size a ≤ S31x8x256.size a
  inb_S32_S1_25 : ∀ a, (![25] : Fin 1 → Nat) a + S1.size a ≤ S32.size a
  inb_S31x8x256_S1x8x256_24_0_0 : ∀ a, (![24, 0, 0] : Fin 3 → Nat) a + S1x8x256.size a ≤ S31x8x256.size a
  inb_S32_S1_6 : ∀ a, (![6] : Fin 1 → Nat) a + S1.size a ≤ S32.size a
  inb_S31x8x256_S1x8x256_5_0_0 : ∀ a, (![5, 0, 0] : Fin 3 → Nat) a + S1x8x256.size a ≤ S31x8x256.size a
  inb_S32_S1_26 : ∀ a, (![26] : Fin 1 → Nat) a + S1.size a ≤ S32.size a
  inb_S31x8x256_S1x8x256_25_0_0 : ∀ a, (![25, 0, 0] : Fin 3 → Nat) a + S1x8x256.size a ≤ S31x8x256.size a
  inb_S32_S1_5 : ∀ a, (![5] : Fin 1 → Nat) a + S1.size a ≤ S32.size a
  inb_S31x8x256_S1x8x256_4_0_0 : ∀ a, (![4, 0, 0] : Fin 3 → Nat) a + S1x8x256.size a ≤ S31x8x256.size a
  inb_S32_S1_27 : ∀ a, (![27] : Fin 1 → Nat) a + S1.size a ≤ S32.size a
  inb_S31x8x256_S1x8x256_26_0_0 : ∀ a, (![26, 0, 0] : Fin 3 → Nat) a + S1x8x256.size a ≤ S31x8x256.size a
  inb_S32_S1_4 : ∀ a, (![4] : Fin 1 → Nat) a + S1.size a ≤ S32.size a
  inb_S31x8x256_S1x8x256_3_0_0 : ∀ a, (![3, 0, 0] : Fin 3 → Nat) a + S1x8x256.size a ≤ S31x8x256.size a
  inb_S32_S1_28 : ∀ a, (![28] : Fin 1 → Nat) a + S1.size a ≤ S32.size a
  inb_S31x8x256_S1x8x256_27_0_0 : ∀ a, (![27, 0, 0] : Fin 3 → Nat) a + S1x8x256.size a ≤ S31x8x256.size a
  inb_S32_S1_3 : ∀ a, (![3] : Fin 1 → Nat) a + S1.size a ≤ S32.size a
  inb_S31x8x256_S1x8x256_2_0_0 : ∀ a, (![2, 0, 0] : Fin 3 → Nat) a + S1x8x256.size a ≤ S31x8x256.size a
  inb_S32_S1_29 : ∀ a, (![29] : Fin 1 → Nat) a + S1.size a ≤ S32.size a
  inb_S31x8x256_S1x8x256_28_0_0 : ∀ a, (![28, 0, 0] : Fin 3 → Nat) a + S1x8x256.size a ≤ S31x8x256.size a
  inb_S32_S1_2 : ∀ a, (![2] : Fin 1 → Nat) a + S1.size a ≤ S32.size a
  inb_S31x8x256_S1x8x256_1_0_0 : ∀ a, (![1, 0, 0] : Fin 3 → Nat) a + S1x8x256.size a ≤ S31x8x256.size a
  inb_S32_S1_30 : ∀ a, (![30] : Fin 1 → Nat) a + S1.size a ≤ S32.size a
  inb_S31x8x256_S1x8x256_29_0_0 : ∀ a, (![29, 0, 0] : Fin 3 → Nat) a + S1x8x256.size a ≤ S31x8x256.size a
  inb_S32_S1_1 : ∀ a, (![1] : Fin 1 → Nat) a + S1.size a ≤ S32.size a
  inb_S31x8x256_S1x8x256_0_0_0 : ∀ a, (![0, 0, 0] : Fin 3 → Nat) a + S1x8x256.size a ≤ S31x8x256.size a
  inb_S32_S1_31 : ∀ a, (![31] : Fin 1 → Nat) a + S1.size a ≤ S32.size a
  inb_S31x8x256_S1x8x256_30_0_0 : ∀ a, (![30, 0, 0] : Fin 3 → Nat) a + S1x8x256.size a ≤ S31x8x256.size a
  inb_S31x8x256_S31x8x256_0_0_0 : ∀ a, (![0, 0, 0] : Fin 3 → Nat) a + S31x8x256.size a ≤ S31x8x256.size a
  h_S31x8x256 : 0 < S31x8x256.numel
  reduces_S31x8x256_S8x256 : S31x8x256.Reduces [0] S8x256
  h_S8x256 : 0 < S8x256.numel
  shapeCasts_S8x256_S8x256 : S8x256.ShapeCasts S8x256
  hcc0_scratch1 : 2 + S32.numel ≤ 130
  hcc0_scratch2 : 34 + S32.numel ≤ 130
  hcc0_scratch3 : 66 + S32.numel ≤ 130
  hcc0_scratch4 : 98 + S32.numel ≤ 130
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ (r : Fin 31), ∀ a, (k0_off1 d0 (BitVec.ofNat 32 (1 + r.val))) a + S8x256.size a ≤ S256x256.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off2_inb : ∀ d0 : Dev nD, ∀ a, (k0_off2 d0) a + S8x256.size a ≤ S256x256.size a
  k0_off3_inb : ∀ d0 : Dev nD, ∀ a, (k0_off3 d0) a + S8x256.size a ≤ S256x256.size a
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2
abbrev cc0_scratch3 : DmaSems sig S32 := SemArray.consecutive 66 S32 hcc0_scratch3
abbrev cc0_scratch4 : DmaSems sig S32 := SemArray.consecutive 98 S32 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S32x256x256 : Shape := ⟨3, ![32, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S32x256x256, .f32⟩
  | .hbm, ⟨2, _⟩ => ⟨S_, .f32⟩
  | .hbm, ⟨3, _⟩ => ⟨S256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S8192x256_S32x256x256 : S8192x256.ShapeCasts S32x256x256
  reducesTo_S32x256x256_S256x256_d0 : S32x256x256.ReducesTo [0] S256x256
  h_S_ : 0 < S_.numel

variable [Facts₀]

class Facts : Prop extends Facts₀ where

variable [Facts]
-- ==== Proof.KernelIdeal.Mesh.lean ====
/- The ring of 32 devices as the kernel addresses it: device `c` reaches the device `r + 1` places after it
   (`peer c r`, `r : Fin 31`), and the offset `back r` leads from there back to `c`. Every device chain the
   program computes is one of these, and every row offset it computes is eight times a device's position. -/
import proofs.«901012_g7700000000001013_dist_rs_then_ag_i_m256_n256_v7x_i32_f32_1_alg».proof.Proof.Gen.KernelIdeal

namespace Cert.KernelIdeal.RsAg

open Cert.KernelIdeal Cert.KernelIdeal.Gen Idealize.ShloMosaic

/-- The device `r + 1` places after `c` on the ring. -/
def peer (c : Dev nD) (r : Fin 31) : Dev nD := ⟨(c.val + r.val + 1) % 32, Nat.mod_lt _ (by decide)⟩

/-- The offset that undoes `r`: `(r + 1) + (back r + 1) = 32`. -/
def back (r : Fin 31) : Fin 31 := ⟨30 - r.val, by omega⟩

theorem peer_val (c : Dev nD) (r : Fin 31) : (peer c r).val = (c.val + r.val + 1) % 32 := rfl
theorem back_val (r : Fin 31) : (back r).val = 30 - r.val := rfl

theorem back_back (r : Fin 31) : back (back r) = r := Fin.ext (by simp only [back_val]; omega)

theorem peer_back (c : Dev nD) (r : Fin 31) : peer (peer c r) (back r) = c :=
  Fin.ext (by have hc : c.val < 32 := c.isLt; have := r.isLt; simp only [peer_val, back_val]; omega)

theorem back_peer (c : Dev nD) (r : Fin 31) : peer (peer c (back r)) r = c := by
  have := peer_back c (back r); rwa [back_back] at this

theorem peer_ne (c : Dev nD) (r : Fin 31) : peer c r ≠ c := fun h => by
  have h' := congrArg Fin.val h
  have hc : c.val < 32 := c.isLt; have := r.isLt; simp only [peer_val] at h'; omega

theorem peer_injective (c : Dev nD) : Function.Injective (peer c) := fun r r' h => by
  have h' := congrArg Fin.val h
  have hc : c.val < 32 := c.isLt; have := r.isLt; have := r'.isLt
  exact Fin.ext (by simp only [peer_val] at h'; omega)

/-- Every other device is a peer, at exactly one offset. -/
theorem exists_peer {c b : Dev nD} (h : b ≠ c) : ∃ r : Fin 31, peer c r = b := by
  have hc : c.val < 32 := c.isLt; have hb : b.val < 32 := b.isLt
  have hne : b.val ≠ c.val := fun e => h (Fin.ext e)
  refine ⟨⟨(b.val + 31 - c.val) % 32, by omega⟩, Fin.ext ?_⟩
  simp only [peer_val]; omega

/-- Moving every device `r + 1` places on is a permutation of the ring. -/
def shift (r : Fin 31) : Dev nD ≃ Dev nD := ⟨fun c => peer c r, fun c => peer c (back r), fun c => peer_back c r, fun c => back_peer c r⟩

theorem shift_apply (r : Fin 31) (c : Dev nD) : shift r c = peer c r := rfl
theorem shift_symm_apply (r : Fin 31) (c : Dev nD) : (shift r).symm c = peer c (back r) := rfl

/-- The rows of a device's block: eight, from eight times its position. -/
theorem off3_val (b : Dev nD) : k0_off3 b = ![8 * b.val, 0] := k0_off3_eq b
theorem off2_eq_off3 (c : Dev nD) : k0_off2 c = k0_off3 c := (k0_off2_eq c).trans (k0_off3_eq c).symm
theorem off1_eq_off3 (c : Dev nD) (r : Fin 31) : k0_off1 c (BitVec.ofNat 32 (1 + r.val)) = k0_off3 (peer c r) :=
  (k0_off1_eq c r).trans (k0_off3_eq (peer c r)).symm

end Cert.KernelIdeal.RsAg
-- ==== Proof.KernelIdeal.Cells.lean ====
/- The buffers, the semaphore cells and the contents of the reduce-scatter / all-gather kernel, and its
   schedule under the rounds discipline: per device one barrier cell with 31 unit duties (one per peer) and, for
   each offset, a send and a receive cell of the reduce-scatter copy and of the all-gather copy, one duty each. -/
import proofs.«901012_g7700000000001013_dist_rs_then_ag_i_m256_n256_v7x_i32_f32_1_alg».proof.Proof.KernelIdeal.Mesh
import proofs.«901012_g7700000000001013_dist_rs_then_ag_i_m256_n256_v7x_i32_f32_1_alg».proof.Proof.Gen.KernelIdeal.Skeleton
import proofs.«901012_g7700000000001013_dist_rs_then_ag_i_m256_n256_v7x_i32_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.ValueIdx
import Idealize.ShloMosaic.Lib.Tactic

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the rounds library's, duties named by an offset -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Buffers -/

/-- The staged input block, the staged output block, the landing buffer of 31 slots. -/
abbrev xM : Memref sig .tc .vmem S256x256 .f32 := Memref.whole cc0_stg0_0
abbrev oM : Memref sig .tc .vmem S256x256 .f32 := Memref.whole cc0_stg1_0
abbrev rM : Memref sig .tc .vmem S31x8x256 .f32 := Memref.whole cc0_scratch0

/-- The eight rows of the input block that device `c` sends at offset `r`: those at `peer c r`'s position. -/
abbrev xSendR (c : Dev nD) (r : Fin 31) : Rect S256x256 :=
  Rect.unit (s := S256x256) (k0_off1 c (BitVec.ofNat 32 (1 + r.val))) S8x256.size (k0_off1_inb c r)
abbrev xSend (c : Dev nD) (r : Fin 31) : Memref sig .tc .vmem S8x256 .f32 := xM.slice (xSendR c r) (fun _ => rfl)
/-- The eight rows at its own position, which it adds itself. -/
abbrev xOwnR (c : Dev nD) : Rect S256x256 := Rect.unit (s := S256x256) (k0_off2 c) S8x256.size (k0_off2_inb c)
abbrev xOwn (c : Dev nD) : Memref sig .tc .vmem S8x256 .f32 := xM.slice (xOwnR c) (fun _ => rfl)

/-- The eight rows of the output block that device `b` computes. -/
abbrev oR (b : Dev nD) : Rect S256x256 := Rect.unit (s := S256x256) (k0_off3 b) S8x256.size (k0_off3_inb b)
abbrev oRows (b : Dev nD) : Memref sig .tc .vmem S8x256 .f32 := oM.slice (oR b) (fun _ => rfl)

theorem slot_inb (r : Fin 31) : ∀ a, (![r.val, 0, 0] : Fin 3 → Nat) a + S1x8x256.size a ≤ S31x8x256.size a := by
  intro a; have := r.isLt; fin_cases a <;> simp [S1x8x256, S31x8x256] <;> try omega
/-- Slot `r` of the landing buffer: where the copy sent at offset `r` lands. -/
abbrev slotR (r : Fin 31) : Rect S31x8x256 := Rect.unit (s := S31x8x256) ![r.val, 0, 0] S1x8x256.size (slot_inb r)
abbrev rSlot (r : Fin 31) : Memref sig .tc .vmem S8x256 .f32 :=
  (rM.slice (slotR r) (fun _ => rfl)).squeeze S8x256 squeezes_S1x8x256_S8x256

/-! ## Semaphores and cells -/

theorem sem_inb (j : Fin 32) : ∀ a, (![j.val] : Fin 1 → Nat) a + S1.size a ≤ S32.size a := by
  intro a; have := j.isLt; fin_cases a; simp [S1, S32]; try omega
/-- Semaphore `j` of an array of 32, as the kernel picks it (a slice, squeezed). -/
abbrev semAt (A : DmaSems sig S32) (j : Fin 32) : DmaSem sig :=
  ((A.slice (Rect.unit (s := S32) ![j.val] S1.size (sem_inb j))).squeeze S_ squeezes_S1_S_).sem

/-- The four arrays: reduce-scatter send, reduce-scatter receive, all-gather send, all-gather receive. -/
abbrev arr : Fin 4 → DmaSems sig S32 := fun | 0 => cc0_scratch1 | 1 => cc0_scratch2 | 2 => cc0_scratch3 | 3 => cc0_scratch4

theorem semAt_val : ∀ (a : Fin 4) (j : Fin 32), (semAt (arr a) j).val = 2 + 32 * a.val + j.val := by decide

/-- The runtime's barrier semaphore of collective id 0. -/
abbrev barS : Sem sig := (SemArray.scalar (sig.barrier 0 rfl) : Sems sig S_).sem

abbrev barCell (c : Dev nD) : GSem nD τ sig := ((c : Thread nD τ), .reg barS)
abbrev dcell (c : Dev nD) (a : Fin 4) (j : Fin 32) : GSem nD τ sig := ((c : Thread nD τ), .dma (semAt (arr a) j))
/-- Device `c`'s cells at offset `r`: semaphore `r + 1` of each array. -/
abbrev rsS (c : Dev nD) (r : Fin 31) : GSem nD τ sig := dcell c 0 r.succ
abbrev rsR (c : Dev nD) (r : Fin 31) : GSem nD τ sig := dcell c 1 r.succ
abbrev agS (c : Dev nD) (r : Fin 31) : GSem nD τ sig := dcell c 2 r.succ
abbrev agR (c : Dev nD) (r : Fin 31) : GSem nD τ sig := dcell c 3 r.succ

/-- Which array and offset a DMA semaphore is, if it is one the kernel uses (index 0 of each array is unused). -/
def kindOf (q : DmaSem sig) : Option (Fin 4 × Fin 31) :=
  if h : 2 ≤ q.val ∧ (q.val - 2) % 32 ≠ 0 then
    some (⟨(q.val - 2) / 32, by have hq : q.val < 130 := q.isLt; omega⟩, ⟨(q.val - 2) % 32 - 1, by omega⟩)
  else none

theorem kindOf_semAt : ∀ (a : Fin 4) (r : Fin 31), kindOf (semAt (arr a) r.succ) = some (a, r) := by decide
theorem kindOf_semAt_zero : ∀ (a : Fin 4), kindOf (semAt (arr a) 0) = none := by decide

/-- The credit of one 8 × 256 block. -/
abbrev N8 : ℕ := (rSlot 0).view.dmaCredit
theorem N8_pos : 0 < N8 := View.dmaCredit_pos _ (by decide)

/-! ## Contents -/

/-- Device `c`'s input block as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The rows of it that it sends at offset `r`, and the rows it keeps. -/
def xSendBlk (c : Dev nD) (r : Fin 31) : S8x256.Idx → Elt F .f32 := fun j => xstg m ρ c ((xSendR c r).emb j)
def xOwnBlk (c : Dev nD) : S8x256.Idx → Elt F .f32 := fun j => xstg m ρ c ((xOwnR c).emb j)

/-- What device `c`'s landing buffer holds once every copy has landed: in slot `r` the rows the device `r + 1`
    places before it sent at offset `r`. -/
def rsAll (c : Dev nD) : (cc0_scratch0 : Ref sig .tc).ty.Contents (Elt F) :=
  fun i => xSendBlk m ρ (peer c (back ⟨(i 0).val, (i 0).isLt⟩)) ⟨(i 0).val, (i 0).isLt⟩
    (ValueIdx.ix2 (n0 := 8) (n1 := 256) ⟨(i 1).val, (i 1).isLt⟩ ⟨(i 2).val, (i 2).isLt⟩)

/-- Device `c`'s eight rows of the result: the slots summed, plus its own rows. -/
def red (c : Dev nD) : S8x256.Idx → Elt F .f32 := k0_pay1 (rsAll m ρ c) (xOwnBlk m ρ c)

/-- The whole result block, the same on every device: rows `8 b … 8 b + 7` are device `b`'s. -/
def outAll : (cc0_stg1_0 : Ref sig .tc).ty.Contents (Elt F) :=
  fun i => red m ρ ⟨(i 0).val / 8, by have h : (i 0).val < 256 := (i 0).isLt; show (i 0).val / 8 < 32; omega⟩
    (ValueIdx.ix2 (n0 := 8) (n1 := 256) ⟨(i 0).val % 8, Nat.mod_lt _ (by decide)⟩ ⟨(i 1).val, (i 1).isLt⟩)

/-! ## The schedule -/

/-- The share of its own rows of the output that device `c` lends the all-gather copy at offset `r`. -/
abbrev agShare (r : Fin 31) : PosShare TreeShare := Transfers.shareTok fullShare 31 r

/-- What a duty hands the cell's owner. Barrier duty `d` of device `c` (paid by `peer c d`): that peer's slot `d` and
    its rows of the output for `c`, to be written by `c`'s two copies at offset `d`. A send cell: the source back.
    A receive cell: the destination at what landed. -/
def pay (g : GSem nD τ sig) (d : Fin 31) : sProp 𝕄 :=
  match g.2 with
  | .reg _ => iprop((∃ Y, ownsTc (peer g.1.1 d) (rSlot d) fullShare Y) ∗ (∃ Y, ownsTc (peer g.1.1 d) (oRows g.1.1) fullShare Y))
  | .dma q =>
    match kindOf q with
    | some (⟨0, _⟩, r) => ownsTc g.1.1 (xSend g.1.1 r) fullShare (xSendBlk m ρ g.1.1 r)
    | some (⟨1, _⟩, r) => ownsTc g.1.1 (rSlot r) fullShare (xSendBlk m ρ (peer g.1.1 (back r)) r)
    | some (⟨2, _⟩, r) => ownsTc g.1.1 (oRows g.1.1) (agShare r) (red m ρ g.1.1)
    | some (⟨_ + 3, _⟩, r) => ownsTc g.1.1 (oRows (peer g.1.1 (back r))) fullShare (red m ρ (peer g.1.1 (back r)))
    | none => iprop(emp)

/-- Round 0 only: a barrier cell has every offset as a duty of one unit; a used DMA cell the one duty `0` of a
    block's credit. -/
def sched : Rounds.Schedule (GSem nD τ sig) (Fin 31) 𝕄 where
  duties g r :=
    if r = 0 ∧ g.1.2 = .tc then
      (match g.2 with
       | .reg _ => Finset.univ
       | .dma q => if (kindOf q).isSome then {0} else ∅)
    else ∅
  unitless _ := False
  amount g _ _ := match g.2 with | .reg _ => 1 | .dma _ => N8
  payload g _ d := pay m ρ g d
  amount_pos g _ _ _ := by
    cases g.2 with
    | reg _ => exact Nat.one_pos
    | dma _ => exact N8_pos

instance sched_payload_storable (g : GSem nD τ sig) (r : ℕ) (d : Fin 31) :
    BI.Storable (upEmb : UEmb _ 𝕄) ((sched (F := F) m ρ).payload g r d) := by
  show BI.Storable upEmb (pay m ρ g d)
  unfold pay ownsTc
  (repeat' split) <;> infer_instance

end Cert.KernelIdeal.RsAg

end
-- ==== Proof.KernelIdeal.Tables.lean ====
/- The schedule's tables read at each kind of cell, the family of all cells by (device, which), and the persistent
   records (every cell's invariant, every cell at round 0) that each device's body carries. -/
import proofs.«901012_g7700000000001013_dist_rs_then_ag_i_m256_n256_v7x_i32_f32_1_alg».proof.Proof.KernelIdeal.Cells

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables -/

section Tables
variable (c : Dev nD) (r : Fin 31)

theorem duties_bar : (sched (F := F) m ρ).duties (barCell c) 0 = Finset.univ := by
  dsimp only [sched]; exact if_pos ⟨rfl, rfl⟩
theorem duties_dcell (a : Fin 4) : (sched (F := F) m ρ).duties (dcell c a r.succ) 0 = {0} := by
  dsimp only [sched]; rw [if_pos ⟨rfl, rfl⟩]; show (if (kindOf (semAt (arr a) r.succ)).isSome then {0} else ∅) = _; rw [kindOf_semAt]; rfl
theorem duties_dcell_zero (a : Fin 4) (n : ℕ) : (sched (F := F) m ρ).duties (dcell c a 0) n = ∅ := by
  dsimp only [sched]; split
  · show (if (kindOf (semAt (arr a) 0)).isSome then {0} else ∅) = _; rw [kindOf_semAt_zero]; rfl
  · rfl
theorem duties_later (g : GSem nD τ sig) : ∀ n, 1 ≤ n → (sched (F := F) m ρ).duties g n = ∅ :=
  fun n hn => by dsimp only [sched]; rw [if_neg fun h => by omega]

theorem amount_bar (d : Fin 31) : (sched (F := F) m ρ).amount (barCell c) 0 d = 1 := rfl
theorem amount_dcell (a : Fin 4) (j : Fin 32) (d : Fin 31) : (sched (F := F) m ρ).amount (dcell c a j) 0 d = N8 := rfl

theorem expect_bar : (sched (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_dcell (a : Fin 4) : (sched (F := F) m ρ).expect (dcell c a r.succ) 0 = N8 := by
  unfold Schedule.expect Schedule.amountOf; rw [duties_dcell, Finset.sum_singleton, amount_dcell]

theorem payload_bar (d : Fin 31) : (sched (F := F) m ρ).payload (barCell c) 0 d
    = iprop((∃ Y, ownsTc (peer c d) (rSlot d) fullShare Y) ∗ (∃ Y, ownsTc (peer c d) (oRows c) fullShare Y)) := rfl
theorem payload_rsS : (sched (F := F) m ρ).payload (rsS c r) 0 0 = ownsTc c (xSend c r) fullShare (xSendBlk m ρ c r) := by
  show pay m ρ (rsS c r) 0 = _; unfold pay; dsimp only; rw [kindOf_semAt]
theorem payload_rsR : (sched (F := F) m ρ).payload (rsR c r) 0 0 = ownsTc c (rSlot r) fullShare (xSendBlk m ρ (peer c (back r)) r) := by
  show pay m ρ (rsR c r) 0 = _; unfold pay; dsimp only; rw [kindOf_semAt]
theorem payload_agS : (sched (F := F) m ρ).payload (agS c r) 0 0 = ownsTc c (oRows c) (agShare r) (red m ρ c) := by
  show pay m ρ (agS c r) 0 = _; unfold pay; dsimp only; rw [kindOf_semAt]
theorem payload_agR : (sched (F := F) m ρ).payload (agR c r) 0 0
    = ownsTc c (oRows (peer c (back r))) fullShare (red m ρ (peer c (back r))) := by
  show pay m ρ (agR c r) 0 = _; unfold pay; dsimp only; rw [kindOf_semAt]

/-- The whole of the barrier cell's round: every peer's landing buffers. -/
theorem rest_bar : bigSep ((sched (F := F) m ρ).duties (barCell c) 0 \ ∅) (fun d => (sched (F := F) m ρ).payload (barCell c) 0 d)
    = bigSep Finset.univ fun d : Fin 31 => iprop((∃ Y, ownsTc (peer c d) (rSlot d) fullShare Y) ∗ (∃ Y, ownsTc (peer c d) (oRows c) fullShare Y)) := by
  rw [Finset.sdiff_empty, duties_bar]; rfl
/-- The whole of a transfer cell's round: its one payload. -/
theorem rest_dcell (a : Fin 4) : bigSep ((sched (F := F) m ρ).duties (dcell c a r.succ) 0 \ ∅) (fun d => (sched (F := F) m ρ).payload (dcell c a r.succ) 0 d)
    = (sched (F := F) m ρ).payload (dcell c a r.succ) 0 0 := by
  rw [Finset.sdiff_empty, duties_dcell, bigSep_singleton]

end Tables

/-! ## All cells -/

/-- Which cell of a device: its barrier cell, or semaphore `j` of array `a`. -/
abbrev CK : Type := Option (Fin 4 × Fin 32)
abbrev csem : CK → SemLoc sig
  | none => .reg barS
  | some aj => .dma (semAt (arr aj.1) aj.2)
abbrev kcell (ck : Dev nD × CK) : GSem nD τ sig := ((ck.1 : Thread nD τ), csem ck.2)

theorem csem_injective : Function.Injective csem := by
  intro k k' h
  match k, k' with
  | none, none => rfl
  | none, some _ => cases h
  | some _, none => cases h
  | some (a, j), some (a', j') =>
    have h' : (semAt (arr a) j).val = (semAt (arr a') j').val := by
      have := SemLoc.dma.inj h; exact congrArg Fin.val this
    rw [semAt_val, semAt_val] at h'
    have ha := a.isLt; have ha' := a'.isLt; have hj := j.isLt; have hj' := j'.isLt
    have e1 : a = a' := Fin.ext (by omega)
    have e2 : j = j' := Fin.ext (by omega)
    rw [e1, e2]

theorem kcell_injective : Function.Injective kcell := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- What every device's body carries of the launch, persistently: each cell's invariant under the name the launch
    gave it, and that each cell has reached round 0. -/
def recs (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance recs_persistent (K : Dev nD × CK → ℕ) : BI.Persistent (recs m ρ K) := by unfold recs; infer_instance

theorem recs_inv (K : Dev nD × CK → ℕ) (ck : Dev nD × CK) : recs m ρ K ⊢ cellInv ER (sched m ρ) (K ck) (kcell ck) := by
  unfold recs; iintro ⟨H, -⟩
  iapply (show (bigSep Finset.univ fun ck : Dev nD × CK => cellInv ER (sched m ρ) (K ck) (kcell ck)) ⊢ cellInv ER (sched m ρ) (K ck) (kcell ck) from
    bigSep_elim (Finset.mem_univ ck))
  iexact H
theorem recs_reached (K : Dev nD × CK → ℕ) (ck : Dev nD × CK) : recs m ρ K ⊢ (reached ER (kcell ck) 0 : sProp 𝕄) := by
  unfold recs; iintro ⟨-, H⟩
  iapply (show (bigSep Finset.univ fun ck : Dev nD × CK => (reached ER (kcell ck) 0 : sProp 𝕄)) ⊢ reached ER (kcell ck) 0 from
    bigSep_elim (Finset.mem_univ ck))
  iexact H

end Cert.KernelIdeal.RsAg

end
-- ==== Proof.KernelIdeal.Levels.lean ====
/- What a device owes at launch, in the order it pays it, and the levels that make every wait safe: a device waits
   on its barrier cell owing only receive credits, on a reduce-scatter receive cell owing only all-gather receive
   credits, and on everything else owing nothing. -/
import proofs.«901012_g7700000000001013_dist_rs_then_ag_i_m256_n256_v7x_i32_f32_1_alg».proof.Proof.KernelIdeal.Tables

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's calls take no variant. -/
abbrev 𝒱₀ : Variants := Variants.none

/-- The offsets in the order the kernel issues them: farthest peers first. -/
def ord : List (Fin 31) := [15, 14, 16, 13, 17, 12, 18, 11, 19, 10, 20, 9, 21, 8, 22, 7, 23, 6, 24, 5, 25, 4, 26, 3, 27, 2, 28, 1, 29, 0, 30]

theorem ord_nodup : ord.Nodup := by decide
theorem mem_ord (r : Fin 31) : r ∈ ord := by revert r; decide
theorem ord_toFinset : ord.toFinset = Finset.univ := by decide

/-- Only TensorCore cells carry an index. -/
def L (g : GSem nD τ sig) : Finset Unit := if g.1.2 = .tc then {()} else ∅
/-- The barrier cells at 1, the reduce-scatter receive cells at 2, the all-gather receive cells at 3, all else
    (staging and send cells) at 0. -/
def lv (g : GSem nD τ sig) (_ : Unit) : ℕ :=
  match g.2 with
  | .reg _ => 1
  | .dma q =>
    match kindOf q with
    | some (⟨1, _⟩, _) => 2
    | some (⟨3, _⟩, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_rsR (c : Dev nD) (r : Fin 31) (u : Unit) : lv (rsR c r) u = 2 := by unfold lv; dsimp only; rw [kindOf_semAt]; rfl
theorem lv_agR (c : Dev nD) (r : Fin 31) (u : Unit) : lv (agR c r) u = 3 := by unfold lv; dsimp only; rw [kindOf_semAt]; rfl
theorem lv_rsS (c : Dev nD) (r : Fin 31) (u : Unit) : lv (rsS c r) u = 0 := by unfold lv; dsimp only; rw [kindOf_semAt]; rfl
theorem lv_agS (c : Dev nD) (r : Fin 31) (u : Unit) : lv (agS c r) u = 0 := by unfold lv; dsimp only; rw [kindOf_semAt]; rfl

/-- What device `c` owes for the offsets `rs` still to come, the next one the LAST summand: a unit on each peer's
    barrier cell; -/
def owedSig (c : Dev nD) : List (Fin 31) → CellTallies nD τ sig Unit
  | [] => 0
  | r :: rs => owedSig c rs + tallyAt (barCell (peer c r)) () 1
/-- a block's credit on each peer's reduce-scatter receive cell; -/
def owedRs (c : Dev nD) : List (Fin 31) → CellTallies nD τ sig Unit
  | [] => 0
  | r :: rs => owedRs c rs + tallyAt (rsR (peer c r) r) () N8
/-- and on each peer's all-gather receive cell. -/
def owedAg (c : Dev nD) : List (Fin 31) → CellTallies nD τ sig Unit
  | [] => 0
  | r :: rs => owedAg c rs + tallyAt (agR (peer c r) r) () N8

/-- Everything device `c` owes at launch. -/
def O₀ (c : Dev nD) : CellTallies nD τ sig Unit := owedAg c ord + owedRs c ord + owedSig c ord

theorem owedSig_pos {c : Dev nD} {rs : List (Fin 31)} {g : GSem nD τ sig} {u : Unit} (h : 0 < owedSig c rs g u) :
    ∃ r, g = barCell (peer c r) := by
  induction rs with
  | nil => exact absurd h (Nat.lt_irrefl 0)
  | cons r rs ih =>
    unfold owedSig at h
    rw [Pi.add_apply, Finsupp.add_apply, tallyAt_apply] at h
    by_cases hg : g = barCell (peer c r) ∧ u = ()
    · exact ⟨r, hg.1⟩
    · rw [if_neg hg, Nat.add_zero] at h; exact ih h

theorem owedRs_pos {c : Dev nD} {rs : List (Fin 31)} {g : GSem nD τ sig} {u : Unit} (h : 0 < owedRs c rs g u) :
    ∃ r, g = rsR (peer c r) r := by
  induction rs with
  | nil => exact absurd h (Nat.lt_irrefl 0)
  | cons r rs ih =>
    unfold owedRs at h
    rw [Pi.add_apply, Finsupp.add_apply, tallyAt_apply] at h
    by_cases hg : g = rsR (peer c r) r ∧ u = ()
    · exact ⟨r, hg.1⟩
    · rw [if_neg hg, Nat.add_zero] at h; exact ih h

theorem owedAg_pos {c : Dev nD} {rs : List (Fin 31)} {g : GSem nD τ sig} {u : Unit} (h : 0 < owedAg c rs g u) :
    ∃ r, g = agR (peer c r) r := by
  induction rs with
  | nil => exact absurd h (Nat.lt_irrefl 0)
  | cons r rs ih =>
    unfold owedAg at h
    rw [Pi.add_apply, Finsupp.add_apply, tallyAt_apply] at h
    by_cases hg : g = agR (peer c r) r ∧ u = ()
    · exact ⟨r, hg.1⟩
    · rw [if_neg hg, Nat.add_zero] at h; exact ih h

/-- A cell that anything owed at some stage sits on: a barrier cell, or a receive cell of either copy. -/
theorem owed_pos {c : Dev nD} {ra rr rg : List (Fin 31)} {g : GSem nD τ sig} {u : Unit}
    (h : 0 < (owedAg c ra + owedRs c rr + owedSig c rg) g u) :
    (∃ r, g = agR (peer c r) r) ∨ (∃ r, g = rsR (peer c r) r) ∨ (∃ r, g = barCell (peer c r)) := by
  have h' : 0 < owedAg c ra g u + owedRs c rr g u + owedSig c rg g u := h
  rcases Nat.lt_or_ge 0 (owedAg c ra g u) with h1 | h1
  · exact Or.inl (owedAg_pos h1)
  rcases Nat.lt_or_ge 0 (owedRs c rr g u) with h2 | h2
  · exact Or.inr (Or.inl (owedRs_pos h2))
  exact Or.inr (Or.inr (owedSig_pos (rs := rg) (u := u) (by omega)))

/-- With every signal paid, what is still owed sits on receive cells. -/
theorem owed_pos_nosig {c : Dev nD} {ra rr : List (Fin 31)} {g : GSem nD τ sig} {u : Unit}
    (h : 0 < (owedAg c ra + owedRs c rr + owedSig c []) g u) :
    (∃ r, g = agR (peer c r) r) ∨ (∃ r, g = rsR (peer c r) r) := by
  have h' : 0 < owedAg c ra g u + owedRs c rr g u + 0 := h
  rcases Nat.lt_or_ge 0 (owedAg c ra g u) with h1 | h1
  · exact Or.inl (owedAg_pos h1)
  · exact Or.inr (owedRs_pos (rs := rr) (u := u) (by omega))

/-- With every reduce-scatter copy issued too, only on all-gather receive cells. -/
theorem owed_pos_ag {c : Dev nD} {ra : List (Fin 31)} {g : GSem nD τ sig} {u : Unit}
    (h : 0 < (owedAg c ra + owedRs c [] + owedSig c []) g u) : ∃ r, g = agR (peer c r) r :=
  owedAg_pos (rs := ra) (u := u) (by have h' : 0 < owedAg c ra g u + 0 + 0 := h; omega)

omit [FloatOps F] in
/-- A staging cell or a send cell (level 0) may be waited whatever of the above is still owed. -/
theorem mayWait_low (c : Dev nD) (q : DmaSem sig) (hq : lv ((c : Thread nD τ), .dma q) () = 0) (ra rr rg : List (Fin 31)) :
    (levAts L lv : sProp 𝕄) ⊢ MayWait (c : Thread nD τ) (.dma q) () (owedAg c ra + owedRs c rr + owedSig c rg) :=
  MayOwe.of_cut (L := L) (lev := lv) 0 (fun p hp => by rw [Finset.mem_singleton.mp hp, L_tc]; exact Finset.mem_singleton_self _)
    (fun g u hg => by
      rcases owed_pos hg with ⟨r, rfl⟩ | ⟨r, rfl⟩ | ⟨r, rfl⟩ <;> exact Finset.mem_singleton_self _)
    (fun p hp => by rw [Finset.mem_singleton.mp hp]; exact Nat.le_of_eq hq)
    (fun g u hg => by
      rcases owed_pos hg with ⟨r, rfl⟩ | ⟨r, rfl⟩ | ⟨r, rfl⟩
      · rw [lv_agR]; decide
      · rw [lv_rsR]; decide
      · rw [lv_bar]; decide)

omit [FloatOps F] in
/-- At its barrier wait a device owes receive credits only. -/
theorem mayWait_bar (c : Dev nD) (ra rr : List (Fin 31)) :
    (levAts L lv : sProp 𝕄) ⊢ MayWait (c : Thread nD τ) (.reg barS) () (owedAg c ra + owedRs c rr + owedSig c []) :=
  MayOwe.of_cut (L := L) (lev := lv) 1 (fun p hp => by rw [Finset.mem_singleton.mp hp, L_tc]; exact Finset.mem_singleton_self _)
    (fun g u hg => by
      rcases owed_pos_nosig hg with ⟨r, rfl⟩ | ⟨r, rfl⟩ <;> exact Finset.mem_singleton_self _)
    (fun p hp => by rw [Finset.mem_singleton.mp hp]; exact Nat.le_refl 1)
    (fun g u hg => by
      rcases owed_pos_nosig hg with ⟨r, rfl⟩ | ⟨r, rfl⟩
      · rw [lv_agR]; decide
      · rw [lv_rsR]; decide)

omit [FloatOps F] in
/-- At a reduce-scatter receive wait it owes all-gather receive credits only. -/
theorem mayWait_rsR (c : Dev nD) (r : Fin 31) (ra : List (Fin 31)) :
    (levAts L lv : sProp 𝕄) ⊢ MayWait (c : Thread nD τ) (.dma (semAt (arr 1) r.succ)) () (owedAg c ra + owedRs c [] + owedSig c []) :=
  MayOwe.of_cut (L := L) (lev := lv) 2 (fun p hp => by rw [Finset.mem_singleton.mp hp, L_tc]; exact Finset.mem_singleton_self _)
    (fun g u hg => by obtain ⟨r', rfl⟩ := owed_pos_ag hg; exact Finset.mem_singleton_self _)
    (fun p hp => by rw [Finset.mem_singleton.mp hp]; exact Nat.le_of_eq (lv_rsR c r ()))
    (fun g u hg => by obtain ⟨r', rfl⟩ := owed_pos_ag hg; rw [lv_agR]; decide)

omit [FloatOps F] in
/-- Owing nothing, any wait is allowed. -/
theorem mayWait_none (c : Dev nD) (sm : SemLoc sig) :
    (levAts L lv : sProp 𝕄) ⊢ MayWait (c : Thread nD τ) sm () (owedAg c [] + owedRs c [] + owedSig c []) := by
  have e : (owedAg c [] + owedRs c [] + owedSig c [] : CellTallies nD τ sig Unit) = 0 := by
    show (0 + 0 + 0 : CellTallies nD τ sig Unit) = 0; simp
  rw [e, MayWait_zero]; iintro -; iempintro

end Cert.KernelIdeal.RsAg

end
-- ==== Proof.KernelIdeal.Steps.lean ====
/- One rule per kind of step of the protocol, each at a symbolic device and offset: a barrier signal, the barrier
   wait, an addressed copy between owned blocks, and the wait on one of the device's own transfer cells. -/
import proofs.«901012_g7700000000001013_dist_rs_then_ag_i_m256_n256_v7x_i32_f32_1_alg».proof.Proof.KernelIdeal.Levels

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer cell's duty is one block's credit. -/
theorem amount_dma (t : Thread nD τ) (q : DmaSem sig) (n : ℕ) (d : Fin 31) : (sched (F := F) m ρ).amount (t, .dma q) n d = N8 := rfl

set_option maxHeartbeats 400000 in
/-- An addressed copy of one 8 × 256 block between OWNED memrefs: the source lent at any share at contents `X`, the
    destination on `c'` owned outright at any contents; the send cell's payload is made from the source as it was,
    the receive cell's from the destination at `X`. -/
theorem wp_send_owns (c c' : Dev nD) {src : Memref sig .tc .vmem S8x256 .f32} {dst : Memref sig (Dev.tc c' : Thread nD τ).2.kind .vmem S8x256 .f32}
    {hsc : dst.view.ref.isScScratch = false} {sS sR : DmaSem sig}
    {hsrc : src.view.WordExact} {hdst : dst.view.WordExact}
    {hsem : DmaTarget.Typed .vmem (.dma sR) (.remote (Dev.tc c' : Thread nD τ) dst (.dma sS) hsc)}
    {α : Type} {Q : α → sProp 𝕄} {k : PUnit → Prog (TpuEff nD τ sig (Elt F) Λ₀ .tc) α}
    {q : PosShare TreeShare} (X : S8x256.Idx → Elt F .f32) {κ₁ κ₂ : ℕ}
    (hN : dst.view.amount (.dma sR) = N8)
    (hd₁ : (0 : Fin 31) ∈ (sched m ρ).duties ((c : Thread nD τ), .dma sS) 0)
    (hd₂ : (0 : Fin 31) ∈ (sched m ρ).duties ((c' : Thread nD τ), .dma sR) 0)
    {O' : CellTallies nD τ sig Unit} (O : CellTallies nD τ sig Unit) (hO : O' = O + tallyAt ((c' : Thread nD τ), .dma sR) () N8) {W : Waits sig Unit}
    (hpay₁ : ownsTc c src q X ⊢ (sched m ρ).payload ((c : Thread nD τ), .dma sS) 0 0)
    (hpay₂ : ownsTc c' dst fullShare X ⊢ (sched m ρ).payload ((c' : Thread nD τ), .dma sR) 0 0) :
    iprop(cellInv ER (sched m ρ) κ₁ ((c : Thread nD τ), .dma sS) ∗ cellInv ER (sched m ρ) κ₂ ((c' : Thread nD τ), .dma sR)
        ∗ ownsTc c src q X ∗ (∃ Y, ownsTc c' dst fullShare Y) ∗ owes (c : Thread nD τ) O' W
        ∗ dutyTok ER ((c : Thread nD τ), .dma sS) 0 0 ∗ reached ER ((c : Thread nD τ), .dma sS) 0
        ∗ dutyTok ER ((c' : Thread nD τ), .dma sR) 0 0 ∗ reached ER ((c' : Thread nD τ), .dma sR) 0)
      ⊢ iprop(((cred (tallyAt ((c : Thread nD τ), .dma sS) () N8) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrc hdst hsem) k) Q) := by
  iintro ⟨#HI1, #HI2, Hs, ⟨%Y, Hd⟩, HO, Ht1, #Hr1, Ht2, #Hr2⟩ Hk
  ihave Hs' := (show ownsTc c src q X ⊢ iprop(∃ f, ⌜src.view.read (Elt F) f = X⌝ ∗ (src.view.loc (c : Thread nD τ) ↦[src.view.set]{q} f)) from .rfl) $$ Hs
  icases Hs' with ⟨%fs, %hfs, Hs⟩
  ihave Hd' := (show ownsTc c' dst fullShare Y ⊢ iprop(∃ f, ⌜dst.view.read (Elt F) f = Y⌝ ∗ (dst.view.loc (c' : Thread nD τ) ↦[dst.view.set]{fullShare} f)) from .rfl) $$ Hd
  icases Hd' with ⟨%fd, -, Hd⟩
  have hp1 : (src.view.loc (c : Thread nD τ) ↦[src.view.set]{q} fs : sProp 𝕄) ⊢ (sched m ρ).payload ((c : Thread nD τ), .dma sS) 0 0 :=
    (owns_intro (c : Thread nD τ) src q fs).trans ((Entails.of_eq (by rw [hfs])).trans hpay₁)
  have hp2 : (dst.view.loc (c' : Thread nD τ) ↦[dst.view.set]{fullShare} (dst.view.write (Elt F) fd (src.view.read (Elt F) fs) Finset.univ) : sProp 𝕄)
      ⊢ (sched m ρ).payload ((c' : Thread nD τ), .dma sR) 0 0 :=
    (owns_intro (c' : Thread nD τ) dst fullShare _).trans ((Entails.of_eq (by rw [View.read_write_univ, hfs])).trans hpay₂)
  have H := Rounds.wp_send_pointsTo (defs := defs₀ (F := F)) (k := k) (Q := Q) (hsrc := hsrc) (hdst := hdst) (hsem := hsem) (Es := Set.univ) (Γ := .empty)
      𝒱₀ ER (sched m ρ) (c : Thread nD τ) none (κ₁ := κ₁) (κ₂ := κ₂) (r₁ := 0) (r₂ := 0) (d₁ := 0) (d₂ := 0) (fs := fs) (fd := fd)
      hd₁ hd₂ () () N8 hN (amount_dma m ρ _ sS 0 0) (amount_dma m ρ _ sR 0 0) O hO (W := W) hp1 hp2
  iapply (H) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

variable (K : Dev nD × CK → ℕ)

/-- A barrier signal to the peer at offset `r`: it pays that peer's barrier duty `back r`, handing over this device's
    slot `back r` and its rows of the output for that peer — where that peer's two copies at offset `back r` land. -/
theorem step_signal (c : Dev nD) (r : Fin 31) (dst : Dev nD) (hdst : dst = peer c r) (n : ℕ) (hn : n = 1)
    (O : CellTallies nD τ sig Unit) {W : Waits sig Unit}
    {α : Type} {Q : α → sProp 𝕄} {k : PUnit → Prog (TpuEff nD τ sig (Elt F) Λ₀ .tc) α} :
    iprop(recs m ρ K ∗ owes (c : Thread nD τ) (O + tallyAt (barCell (peer c r)) () 1) W ∗ dutyTok ER (barCell (peer c r)) 0 (back r)
        ∗ (∃ Y, ownsTc c (rSlot (back r)) fullShare Y) ∗ (∃ Y, ownsTc c (oRows (peer c r)) fullShare Y))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dst, .tc) : Thread nD τ) barS n) k) Q) := by
  subst hdst; subst hn
  iintro ⟨#HR, HO, Htok, H1, H2⟩ Hk
  iapply (Rounds.wp_signal 𝒱₀ ER (sched m ρ) (c : Thread nD τ) none (dst := (peer c r : Thread nD τ)) (κ := K (peer c r, none)) (d := back r)
      (by rw [duties_bar]; exact Finset.mem_univ _) (amount_bar m ρ (peer c r) (back r)) () O rfl) $$ [HO Htok H1 H2]
  · isplitr; · iapply (recs_inv m ρ K (peer c r, none)); iexact HR
    isplitl [HO]; · iexact HO
    isplitl [Htok]; · iexact Htok
    isplitl [H1 H2]
    · rw [payload_bar, peer_back]; isplitl [H1] <;> iassumption
    iapply (recs_reached m ρ K (peer c r, none)); iexact HR
  iexact Hk

/-- The barrier wait for all 31 units: every peer's landing buffers come with it. -/
theorem step_barwait (c : Dev nD) (n : ℕ) (hn : n = 31) (ra rr : List (Fin 31)) {W : Waits sig Unit}
    {α : Type} {Q : α → sProp 𝕄} {k : PUnit → Prog (TpuEff nD τ sig (Elt F) Λ₀ .tc) α} :
    iprop(recs m ρ K ∗ levAts L lv ∗ cred (tallyAt (barCell c) () 31) ∗ owes (c : Thread nD τ) (owedAg c ra + owedRs c rr + owedSig c []) W
        ∗ atPos ER (barCell c) 0 ∅ 0)
      ⊢ iprop(((owes (c : Thread nD τ) (owedAg c ra + owedRs c rr + owedSig c []) (insert (SemLoc.reg barS, ()) W) ∗ atPos ER (barCell c) 1 ∅ 0
                ∗ bigSep Finset.univ fun d : Fin 31 => iprop((∃ Y, ownsTc (peer c d) (rSlot d) fullShare Y) ∗ (∃ Y, ownsTc (peer c d) (oRows c) fullShare Y)))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#HR, #Hlev, Hc, HO, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := owedAg c ra + owedRs c rr + owedSig c []) (W := W) (R := 0) (m := 0) (T := ∅)
      (by rw [expect_bar])) $$ [Hc HO Hat]
  · isplitr; · iapply (recs_inv m ρ K (c, none)); iexact HR
    isplitl [Hc]; · iexact Hc
    isplitl [HO]; · iexact HO
    isplitr; · iapply (mayWait_bar c ra rr); iexact Hlev
    iexact Hat
  iintro ⟨HO, Hat, -, Hpay⟩
  iapply Hk
  isplitl [HO]; · iexact HO
  isplitl [Hat]; · iexact Hat
  iapply (Entails.of_eq (rest_bar m ρ c)); iexact Hpay

/-- The wait on one of the device's own transfer cells (array `a`, offset `r`) for its one block: the cell's payload. -/
theorem step_wait (c : Dev nD) (a : Fin 4) (r : Fin 31) (sm : DmaSem sig) (hsm : sm = semAt (arr a) r.succ)
    {sp sp' : Space} {s s' : Shape} {e e' : EltTy} {src : Memref sig .tc sp' s' e'} {dst : Memref sig .tc sp s e}
    {hsrc : src.view.WordExact} {hdst : dst.view.WordExact} (hdN : dst.view.dmaCredit = N8)
    (O : CellTallies nD τ sig Unit) {W : Waits sig Unit}
    (hmw : (levAts L lv : sProp 𝕄) ⊢ MayWait (c : Thread nD τ) (.dma (semAt (arr a) r.succ)) () O)
    {α : Type} {Q : α → sProp 𝕄} {k : PUnit → Prog (TpuEff nD τ sig (Elt F) Λ₀ .tc) α} :
    iprop(recs m ρ K ∗ levAts L lv ∗ cred (tallyAt (dcell c a r.succ) () N8) ∗ owes (c : Thread nD τ) O W ∗ atPos ER (dcell c a r.succ) 0 ∅ 0)
      ⊢ iprop(((owes (c : Thread nD τ) O (insert (SemLoc.dma (semAt (arr a) r.succ), ()) W) ∗ atPos ER (dcell c a r.succ) 1 ∅ 0
                ∗ (sched m ρ).payload (dcell c a r.succ) 0 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro ⟨#HR, #Hlev, Hc, HO, Hat⟩ Hk
  iapply (Rounds.wp_wait_rest_token 𝒱₀ ER (sched m ρ) (c : Thread nD τ) none (κ := K (c, some (a, r.succ)))
      (wpE_waitDma2_eq 𝒱₀ (c : Thread nD τ) none Set.univ) (Set.mem_univ _) () (O := O) (W := W) (R := 0) (m := 0) (T := ∅)
      (by rw [Nat.zero_add, expect_dcell, hdN])) $$ [Hc HO Hat]
  · isplitr; · iapply (recs_inv m ρ K (c, some (a, r.succ))); iexact HR
    isplitl [Hc]; · rw [hdN]; iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iapply (Entails.of_eq (rest_dcell m ρ c r a)); iexact Hpay

end Cert.KernelIdeal.RsAg

end
-- ==== Proof.KernelIdeal.Data.lean ====
/- The pipeline's proof data for one device: what it holds when the body starts (the records, its positions at all
   its cells, the tokens of the duties it pays, the launch credit of the cells others pay, the landing buffer) and
   when it ends (the landing buffer, its own semaphores back at zero); what the two staging buffers hold after the
   body; and the body's pre- and postcondition in the form the body lemma is proved in. -/
import proofs.«901012_g7700000000001013_dist_rs_then_ag_i_m256_n256_v7x_i32_f32_1_alg».proof.Proof.KernelIdeal.Levels
import proofs.«901012_g7700000000001013_dist_rs_then_ag_i_m256_n256_v7x_i32_f32_1_alg».proof.Proof.Gen.KernelIdeal.Points

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores, as the launch indexes them: array and index. -/
abbrev osem : Fin 4 × Fin 32 → SemLoc sig := fun aj => .dma (semAt (arr aj.1) aj.2)

/-- The tokens of the duties device `c` pays, per offset: the peer's barrier duty, and for each of its two copies
    its own send duty and the peer's receive duty. -/
def payToks (c : Dev nD) : sProp 𝕄 :=
  bigSep Finset.univ fun r : Fin 31 =>
    iprop(dutyTok ER (barCell (peer c r)) 0 (back r)
      ∗ dutyTok ER (rsS c r) 0 0 ∗ dutyTok ER (rsR (peer c r) r) 0 0
      ∗ dutyTok ER (agS c r) 0 0 ∗ dutyTok ER (agR (peer c r) r) 0 0)

/-- Its position, at the start of round 0, at every one of its cells. -/
def posAll (c : Dev nD) : sProp 𝕄 := bigSep Finset.univ fun k : CK => atPos ER (kcell (c, k)) 0 ∅ 0

/-- What the launch deals device `c` under the names `K`. -/
def ghost (K : Dev nD × CK → ℕ) (c : Dev nD) : sProp 𝕄 := iprop(recs m ρ K ∗ posAll c ∗ payToks c)

/-- The launch credit of the cells other devices pay: its barrier's 31 units, a block on each receive cell. -/
def creds (c : Dev nD) : sProp 𝕄 :=
  iprop(cred (tallyAt (barCell c) () 31)
    ∗ (bigSep Finset.univ fun r : Fin 31 => cred (tallyAt (rsR c r) () N8))
    ∗ (bigSep Finset.univ fun r : Fin 31 => cred (tallyAt (agR c r) () N8)))

def start (c : Dev nD) : sProp 𝕄 := iprop((∃ K, ghost m ρ K c) ∗ creds c ∗ levAts L lv)

/-- Before the point: that, and the landing buffer at any contents. -/
def Φ₀ (c : Dev nD) : sProp 𝕄 := iprop(start m ρ c ∗ ∃ f, ((c : Thread nD τ).loc cc0_scratch0) ↦{fullShare} f)
/-- After it: the landing buffer, and the kernel's own semaphores at zero, closed. -/
def Φ₁ (c : Dev nD) : sProp 𝕄 :=
  iprop((∃ f, ((c : Thread nD τ).loc cc0_scratch0) ↦{fullShare} f) ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAll m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAll m ρ))

end Cert.KernelIdeal.RsAg

end
-- ==== Proof.KernelIdeal.Phase.lean ====
/- The body's phases as components over the offsets still to come (in the kernel's order) and those done, and one
   step lemma per phase: each takes the next offset's resources off the front of the lists of what is to come and
   puts what the step leaves on the front of the lists of what is done. What the device owes is one component,
   shared by all phases: a sum of three list sums, of which each phase peels its own. -/
import proofs.«901012_g7700000000001013_dist_rs_then_ag_i_m256_n256_v7x_i32_f32_1_alg».proof.Proof.KernelIdeal.Steps
import proofs.«901012_g7700000000001013_dist_rs_then_ag_i_m256_n256_v7x_i32_f32_1_alg».proof.Proof.KernelIdeal.Data

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- The first `n` offsets, the latest first. -/
abbrev done (n : ℕ) : List (Fin 31) := (ord.take n).reverse
/-- The offsets from the `n`-th on. -/
abbrev todo (n : ℕ) : List (Fin 31) := ord.drop n

omit [FloatOps F] in
theorem bigSepL_cons' {I : Type} (i : I) (l : List I) (Φ : I → sProp 𝕄) : bigSepL (i :: l) Φ = iprop(Φ i ∗ bigSepL l Φ) :=
  bigSepL_cons i l Φ

/-- What the device owes, whatever waits it has recorded: for the all-gather offsets from `na` on, the reduce-scatter
    offsets from `nr` on and the signals from `ns` on. -/
def OW (c : Dev nD) (na nr ns : ℕ) : sProp 𝕄 :=
  iprop(∃ W, owes (c : Thread nD τ) (owedAg c (todo na) + owedRs c (todo nr) + owedSig c (todo ns)) W)

/-! ## The barrier signals -/

/-- What a signal at offset `r` takes: the peer's duty token, and the two landing blocks it hands that peer. -/
def sigItem (c : Dev nD) (r : Fin 31) : sProp 𝕄 :=
  iprop(dutyTok ER (barCell (peer c r)) 0 (back r) ∗ (∃ Y, ownsTc c (rSlot (back r)) fullShare Y) ∗ (∃ Y, ownsTc c (oRows (peer c r)) fullShare Y))

theorem sig_step (c : Dev nD) (na nr n : ℕ) (r : Fin 31) (hr : todo n = r :: todo (n + 1)) (dst : Dev nD) (hdst : dst = peer c r) (w : ℕ) (hw : w = 1)
    {α : Type} {Q : α → sProp 𝕄} {k : PUnit → Prog (TpuEff nD τ sig (Elt F) Λ₀ .tc) α} :
    iprop(recs m ρ K ∗ OW c na nr n ∗ bigSepL (todo n) (sigItem c))
      ⊢ iprop((iprop(OW c na nr (n + 1) ∗ bigSepL (todo (n + 1)) (sigItem c)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dst, .tc) : Thread nD τ) barS w) k) Q) := by
  unfold OW
  rw [hr, bigSepL_cons']
  unfold sigItem
  iintro ⟨#HR, ⟨%W, HO⟩, ⟨Htok, H1, H2⟩, Hrest⟩ Hk
  iapply (step_signal m ρ K c r dst hdst w hw (owedAg c (todo na) + owedRs c (todo nr) + owedSig c (todo (n + 1))) (W := W)) $$ [HO Htok H1 H2]
  · isplitr; · iexact HR
    isplitl [HO]
    · rw [show owedSig c (r :: todo (n + 1)) = owedSig c (todo (n + 1)) + tallyAt (barCell (peer c r)) () 1 from rfl, ← add_assoc]; iexact HO
    isplitl [Htok]; · iexact Htok
    isplitl [H1] <;> iassumption
  iintro HO
  iapply Hk
  isplitl [HO]; · iexists W; iexact HO
  iexact Hrest

/-- The barrier wait, every signal paid: the 31 peers' landing blocks come with it, as two lists. -/
theorem bar_step (c : Dev nD) (na nr : ℕ) (w : ℕ) (hw : w = 31)
    {α : Type} {Q : α → sProp 𝕄} {k : PUnit → Prog (TpuEff nD τ sig (Elt F) Λ₀ .tc) α} :
    iprop(recs m ρ K ∗ levAts L lv ∗ OW c na nr 31 ∗ cred (tallyAt (barCell c) () 31) ∗ atPos ER (barCell c) 0 ∅ 0)
      ⊢ iprop((iprop(OW c na nr 31 ∗ atPos ER (barCell c) 1 ∅ 0
                ∗ bigSepL ord (fun r => iprop(∃ Y, ownsTc (peer c r) (rSlot r) fullShare Y))
                ∗ bigSepL ord (fun r => iprop(∃ Y, ownsTc (peer c r) (oRows c) fullShare Y))) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  unfold OW
  rw [show todo 31 = [] from by decide]
  have hsplit : (bigSep Finset.univ fun d : Fin 31 => iprop((∃ Y, ownsTc (peer c d) (rSlot d) fullShare Y) ∗ (∃ Y, ownsTc (peer c d) (oRows c) fullShare Y)) : sProp 𝕄)
      = iprop(bigSepL ord (fun r => iprop(∃ Y, ownsTc (peer c r) (rSlot r) fullShare Y)) ∗ bigSepL ord (fun r => iprop(∃ Y, ownsTc (peer c r) (oRows c) fullShare Y))) := by
    rw [bigSep_sep', bigSep_univ_eq_bigSepL ord ord_toFinset.symm ord_nodup, bigSep_univ_eq_bigSepL ord ord_toFinset.symm ord_nodup]
  iintro ⟨#HR, #Hlev, ⟨%W, HO⟩, Hc, Hat⟩ Hk
  iapply (step_barwait m ρ K c w hw (todo na) (todo nr) (W := W)) $$ [Hc HO Hat]
  · isplitr; · iexact HR
    isplitr; · iexact Hlev
    isplitl [Hc]; · iexact Hc
    isplitl [HO] <;> iassumption
  iintro ⟨HO, Hat, Hpay⟩
  iapply Hk
  isplitl [HO]; · iexists _; iexact HO
  isplitl [Hat]; · iexact Hat
  iapply (Entails.of_eq hsplit); iexact Hpay

/-! ## The waits on the device's own transfer cells (any of the four arrays) -/

/-- What a wait leaves: the position past round 0, and the cell's payload. -/
def gotItem (c : Dev nD) (a : Fin 4) (r : Fin 31) : sProp 𝕄 :=
  iprop(atPos ER (dcell c a r.succ) 1 ∅ 0 ∗ (sched m ρ).payload (dcell c a r.succ) 0 0)

theorem wait_step (c : Dev nD) (a : Fin 4) (na nr ns : ℕ)
    (hmw : ∀ r : Fin 31, (levAts L lv : sProp 𝕄) ⊢ MayWait (c : Thread nD τ) (.dma (semAt (arr a) r.succ)) () (owedAg c (todo na) + owedRs c (todo nr) + owedSig c (todo ns)))
    (n : ℕ) (r : Fin 31) (hr : todo n = r :: todo (n + 1)) (hr' : done (n + 1) = r :: done n)
    (sm : DmaSem sig) (hsm : sm = semAt (arr a) r.succ)
    {sp sp' : Space} {s s' : Shape} {e e' : EltTy} {src : Memref sig .tc sp' s' e'} {dst : Memref sig .tc sp s e}
    {hsrc : src.view.WordExact} {hdst : dst.view.WordExact} (hdN : dst.view.dmaCredit = N8)
    {α : Type} {Q : α → sProp 𝕄} {k : PUnit → Prog (TpuEff nD τ sig (Elt F) Λ₀ .tc) α} :
    iprop(recs m ρ K ∗ levAts L lv ∗ OW c na nr ns
        ∗ bigSepL (todo n) (fun r => cred (tallyAt (dcell c a r.succ) () N8)) ∗ bigSepL (todo n) (fun r => atPos ER (dcell c a r.succ) 0 ∅ 0)
        ∗ bigSepL (done n) (gotItem m ρ c a))
      ⊢ iprop((iprop(OW c na nr ns
                ∗ bigSepL (todo (n + 1)) (fun r => cred (tallyAt (dcell c a r.succ) () N8)) ∗ bigSepL (todo (n + 1)) (fun r => atPos ER (dcell c a r.succ) 0 ∅ 0)
                ∗ bigSepL (done (n + 1)) (gotItem m ρ c a)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  unfold OW
  rw [hr, hr', bigSepL_cons', bigSepL_cons', bigSepL_cons']
  unfold gotItem
  iintro ⟨#HR, #Hlev, ⟨%W, HO⟩, ⟨Hc, Hcs⟩, ⟨Hat, Hats⟩, Hdone⟩ Hk
  iapply (step_wait m ρ K c a r sm hsm hdN _ (W := W) (hmw r)) $$ [Hc HO Hat]
  · isplitr; · iexact HR
    isplitr; · iexact Hlev
    isplitl [Hc]; · iexact Hc
    isplitl [HO] <;> iassumption
  iintro ⟨HO, Hat, Hpay⟩
  iapply Hk
  isplitl [HO]; · iexists _; iexact HO
  isplitl [Hcs]; · iexact Hcs
  isplitl [Hats]; · iexact Hats
  isplitl [Hat Hpay]
  · isplitl [Hat] <;> iassumption
  iexact Hdone

/-! ## The reduce-scatter copies -/

/-- What the copy at offset `r` takes of the device: its send duty's token, the peer's receive duty's, and the rows. -/
def rsTok (c : Dev nD) (r : Fin 31) : sProp 𝕄 :=
  iprop(dutyTok ER (rsS c r) 0 0 ∗ dutyTok ER (rsR (peer c r) r) 0 0 ∗ ownsTc c (xSend c r) fullShare (xSendBlk m ρ c r))

theorem rs_step (c : Dev nD) (na ns : ℕ) (n : ℕ) (r : Fin 31) (hr : todo n = r :: todo (n + 1)) (hr' : done (n + 1) = r :: done n)
    (dv : Dev nD) (hdv : dv = peer c r)
    (src : Memref sig .tc .vmem S8x256 .f32) (hsrcM : src = xSend c r)
    (dst : Memref sig (Dev.tc dv : Thread nD τ).2.kind .vmem S8x256 .f32) (hdstM : dst = rSlot r)
    (sS : DmaSem sig) (hsS : sS = semAt (arr 0) r.succ) (sR : DmaSem sig) (hsR : sR = semAt (arr 1) r.succ)
    {hsc : dst.view.ref.isScScratch = false} {hsrc : src.view.WordExact} {hdst : dst.view.WordExact}
    {hsem : DmaTarget.Typed .vmem (.dma sR) (.remote (Dev.tc dv : Thread nD τ) dst (.dma sS) hsc)}
    {α : Type} {Q : α → sProp 𝕄} {k : PUnit → Prog (TpuEff nD τ sig (Elt F) Λ₀ .tc) α} :
    iprop(recs m ρ K ∗ OW c na n ns ∗ bigSepL (todo n) (rsTok m ρ c)
        ∗ bigSepL (todo n) (fun r => iprop(∃ Y, ownsTc (peer c r) (rSlot r) fullShare Y))
        ∗ bigSepL (done n) (fun r => cred (tallyAt (rsS c r) () N8)))
      ⊢ iprop((iprop(OW c na (n + 1) ns ∗ bigSepL (todo (n + 1)) (rsTok m ρ c)
                ∗ bigSepL (todo (n + 1)) (fun r => iprop(∃ Y, ownsTc (peer c r) (rSlot r) fullShare Y))
                ∗ bigSepL (done (n + 1)) (fun r => cred (tallyAt (rsS c r) () N8))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc dv : Thread nD τ) dst (.dma sS) hsc) (.dma sR) hsrc hdst hsem) k) Q) := by
  subst hdv; subst hsrcM; subst hdstM; subst hsS; subst hsR
  unfold OW
  rw [hr, hr', bigSepL_cons', bigSepL_cons', bigSepL_cons']
  unfold rsTok
  iintro ⟨#HR, ⟨%W, HO⟩, ⟨⟨Ht1, Ht2, Hx⟩, Hrest⟩, ⟨Hd, Hds⟩, Hdone⟩ Hk
  have H := wp_send_owns m ρ c (peer c r) (src := xSend c r) (dst := rSlot r) (hsc := hsc) (sS := semAt (arr 0) r.succ) (sR := semAt (arr 1) r.succ)
      (hsrc := hsrc) (hdst := hdst) (hsem := hsem) (Q := Q) (k := k) (q := fullShare)
      (xSendBlk m ρ c r) (κ₁ := K (c, some (0, r.succ))) (κ₂ := K (peer c r, some (1, r.succ))) rfl
      (by rw [duties_dcell]; exact Finset.mem_singleton_self _) (by rw [duties_dcell]; exact Finset.mem_singleton_self _)
      (O' := owedAg c (todo na) + owedRs c (r :: todo (n + 1)) + owedSig c (todo ns))
      (owedAg c (todo na) + owedRs c (todo (n + 1)) + owedSig c (todo ns)) (by
        rw [show owedRs c (r :: todo (n + 1)) = owedRs c (todo (n + 1)) + tallyAt (rsR (peer c r) r) () N8 from rfl]
        abel) (W := W)
      (by rw [payload_rsS]) (by rw [payload_rsR, peer_back])
  iapply (H) $$ [HO Ht1 Ht2 Hx Hd]
  · isplitr; · iapply (recs_inv m ρ K (c, some (0, r.succ))); iexact HR
    isplitr; · iapply (recs_inv m ρ K (peer c r, some (1, r.succ))); iexact HR
    isplitl [Hx]; · iexact Hx
    isplitl [Hd]; · iexact Hd
    isplitl [HO]; · iexact HO
    isplitl [Ht1]; · iexact Ht1
    isplitr; · iapply (recs_reached m ρ K (c, some (0, r.succ))); iexact HR
    isplitl [Ht2]; · iexact Ht2
    iapply (recs_reached m ρ K (peer c r, some (1, r.succ))); iexact HR
  iintro ⟨Hc, HO⟩
  iapply Hk
  isplitl [HO]; · iexists W; iexact HO
  isplitl [Hrest]; · iexact Hrest
  isplitl [Hds]; · iexact Hds
  isplitl [Hc] <;> iassumption

/-! ## The all-gather copies -/

/-- What the copy at offset `r` takes of the device: the two tokens, and a share of its rows of the result. -/
def agTok (c : Dev nD) (r : Fin 31) : sProp 𝕄 :=
  iprop((dutyTok ER (agS c r) 0 0 ∗ dutyTok ER (agR (peer c r) r) 0 0) ∗ ownsTc c (oRows c) (agShare r) (red m ρ c))

theorem ag_step (c : Dev nD) (nr ns : ℕ) (n : ℕ) (r : Fin 31) (hr : todo n = r :: todo (n + 1)) (hr' : done (n + 1) = r :: done n)
    (dv : Dev nD) (hdv : dv = peer c r)
    (src : Memref sig .tc .vmem S8x256 .f32) (hsrcM : src = oRows c)
    (dst : Memref sig (Dev.tc dv : Thread nD τ).2.kind .vmem S8x256 .f32) (hdstM : dst = oRows c)
    (sS : DmaSem sig) (hsS : sS = semAt (arr 2) r.succ) (sR : DmaSem sig) (hsR : sR = semAt (arr 3) r.succ)
    {hsc : dst.view.ref.isScScratch = false} {hsrc : src.view.WordExact} {hdst : dst.view.WordExact}
    {hsem : DmaTarget.Typed .vmem (.dma sR) (.remote (Dev.tc dv : Thread nD τ) dst (.dma sS) hsc)}
    {α : Type} {Q : α → sProp 𝕄} {k : PUnit → Prog (TpuEff nD τ sig (Elt F) Λ₀ .tc) α} :
    iprop(recs m ρ K ∗ OW c n nr ns ∗ bigSepL (todo n) (agTok m ρ c)
        ∗ bigSepL (todo n) (fun r => iprop(∃ Y, ownsTc (peer c r) (oRows c) fullShare Y))
        ∗ bigSepL (done n) (fun r => cred (tallyAt (agS c r) () N8)))
      ⊢ iprop((iprop(OW c (n + 1) nr ns ∗ bigSepL (todo (n + 1)) (agTok m ρ c)
                ∗ bigSepL (todo (n + 1)) (fun r => iprop(∃ Y, ownsTc (peer c r) (oRows c) fullShare Y))
                ∗ bigSepL (done (n + 1)) (fun r => cred (tallyAt (agS c r) () N8))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc dv : Thread nD τ) dst (.dma sS) hsc) (.dma sR) hsrc hdst hsem) k) Q) := by
  subst hdv; subst hsrcM; subst hdstM; subst hsS; subst hsR
  unfold OW
  rw [hr, hr', bigSepL_cons', bigSepL_cons', bigSepL_cons']
  unfold agTok
  iintro ⟨#HR, ⟨%W, HO⟩, ⟨⟨⟨Ht1, Ht2⟩, Hx⟩, Hrest⟩, ⟨Hd, Hds⟩, Hdone⟩ Hk
  have H := wp_send_owns m ρ c (peer c r) (src := oRows c) (dst := oRows c) (hsc := hsc) (sS := semAt (arr 2) r.succ) (sR := semAt (arr 3) r.succ)
      (hsrc := hsrc) (hdst := hdst) (hsem := hsem) (Q := Q) (k := k) (q := agShare r)
      (red m ρ c) (κ₁ := K (c, some (2, r.succ))) (κ₂ := K (peer c r, some (3, r.succ))) rfl
      (by rw [duties_dcell]; exact Finset.mem_singleton_self _) (by rw [duties_dcell]; exact Finset.mem_singleton_self _)
      (O' := owedAg c (r :: todo (n + 1)) + owedRs c (todo nr) + owedSig c (todo ns))
      (owedAg c (todo (n + 1)) + owedRs c (todo nr) + owedSig c (todo ns)) (by
        rw [show owedAg c (r :: todo (n + 1)) = owedAg c (todo (n + 1)) + tallyAt (agR (peer c r) r) () N8 from rfl]
        abel) (W := W)
      (by rw [payload_agS]) (by rw [payload_agR, peer_back])
  iapply (H) $$ [HO Ht1 Ht2 Hx Hd]
  · isplitr; · iapply (recs_inv m ρ K (c, some (2, r.succ))); iexact HR
    isplitr; · iapply (recs_inv m ρ K (peer c r, some (3, r.succ))); iexact HR
    isplitl [Hx]; · iexact Hx
    isplitl [Hd]; · iexact Hd
    isplitl [HO]; · iexact HO
    isplitl [Ht1]; · iexact Ht1
    isplitr; · iapply (recs_reached m ρ K (c, some (2, r.succ))); iexact HR
    isplitl [Ht2]; · iexact Ht2
    iapply (recs_reached m ρ K (peer c r, some (3, r.succ))); iexact HR
  iintro ⟨Hc, HO⟩
  iapply Hk
  isplitl [HO]; · iexists W; iexact HO
  isplitl [Hrest]; · iexact Hrest
  isplitl [Hds]; · iexact Hds
  isplitl [Hc] <;> iassumption

end Cert.KernelIdeal.RsAg

end
-- ==== Proof.KernelIdeal.Blocks.lean ====
/- One device's buffers cut into the blocks the protocol moves and put back: the staged input block as the rows the
   device keeps and the 31 blocks it sends, the staged output block as its 32 row blocks, the landing buffer as its
   31 slots, the device's own rows of the output in 31 shares; and the reduce step between the two collectives run
   on those blocks. -/
import proofs.«901012_g7700000000001013_dist_rs_then_ag_i_m256_n256_v7x_i32_f32_1_alg».proof.Proof.KernelIdeal.Data
import Idealize.ShloMosaic.Lib.Memref
import Idealize.ShloMosaic.Lib.Transfers
import Idealize.ShloMosaic.Lib.Pipeline.Value
import Idealize.ShloMosaic.Rules.PointsTo
import Idealize.ShloMosaic.Rules.Step

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Owning a memref at what it reads of given contents -/

omit [FloatOps F] in
/-- A memref owned at what it reads of contents `f` is the points-to of its elements at `f`: contents that read the
    same through the memref agree on its elements. -/
theorem owns_read_elim (t : Thread nD τ) {sp : Space} {sh : Shape} {e : EltTy} (M : Memref sig t.2.kind sp sh e)
    (q : PosShare TreeShare) (f : M.view.ty.Contents (Elt F)) :
    (owns t M q (M.view.read (Elt F) f) : sProp 𝕄) ⊢ (M.view.loc t ↦[M.view.set]{q} f) := by
  unfold owns
  iintro ⟨%g, %hg, H⟩
  have e : (M.view.loc t ↦[M.view.set]{q} g : sProp 𝕄) = M.view.loc t ↦[M.view.set]{q} f :=
    pointsTo_congr fun i hi => by
      rw [View.set, Finset.mem_map] at hi
      obtain ⟨x, -, rfl⟩ := hi
      have := congrFun hg x
      simp only [View.read] at this
      exact (cast_inj _).mp this
  rw [← e]
  iexact H

omit [FloatOps F] in
/-- The memref's elements at contents `f` are owned at what the memref reads of `f`. -/
theorem owns_read_intro (t : Thread nD τ) {sp : Space} {sh : Shape} {e : EltTy} (M : Memref sig t.2.kind sp sh e)
    (q : PosShare TreeShare) (f : M.view.ty.Contents (Elt F)) :
    (M.view.loc t ↦[M.view.set]{q} f : sProp 𝕄) ⊢ owns t M q (M.view.read (Elt F) f) :=
  owns_intro t M q f

omit [FloatOps F] in
/-- The same for a family of shares of one memref at one contents, -/
theorem bigSep_owns_intro {ι : Type} (s : Finset ι) (t : Thread nD τ) {sp : Space} {sh : Shape} {e : EltTy}
    (M : Memref sig t.2.kind sp sh e) (q : ι → PosShare TreeShare) (f : M.view.ty.Contents (Elt F)) :
    bigSep s (fun i => (M.view.loc t ↦[M.view.set]{q i} f : sProp 𝕄))
      ⊢ bigSep s (fun i => (owns t M (q i) (M.view.read (Elt F) f) : sProp 𝕄)) :=
  bigSep_mono fun i _ => owns_read_intro t M (q i) f

omit [FloatOps F] in
/-- and back. -/
theorem bigSep_owns_elim {ι : Type} (s : Finset ι) (t : Thread nD τ) {sp : Space} {sh : Shape} {e : EltTy}
    (M : Memref sig t.2.kind sp sh e) (q : ι → PosShare TreeShare) (f : M.view.ty.Contents (Elt F)) :
    bigSep s (fun i => (owns t M (q i) (M.view.read (Elt F) f) : sProp 𝕄))
      ⊢ bigSep s (fun i => (M.view.loc t ↦[M.view.set]{q i} f : sProp 𝕄)) :=
  bigSep_mono fun i _ => owns_read_elim t M (q i) f

/-! ## The device's own rows of the output in 31 shares -/

omit [FloatOps F] in
/-- The device's own rows of the output lent to its 31 all-gather copies in 31 shares, and taken back. -/
theorem o_shares_split (c : Dev nD) (X : S8x256.Idx → Elt F .f32) : (ownsTc c (oRows c) fullShare X : sProp 𝕄)
    ⊢ iprop(ownsTc c (oRows c) (Transfers.shareDrop fullShare 31) X ∗ bigSep Finset.univ fun r : Fin 31 => ownsTc c (oRows c) (agShare r) X) := by
  iintro H
  ihave H' := (show ownsTc c (oRows c) fullShare X ⊢ iprop(∃ f, ⌜(oRows c).view.read (Elt F) f = X⌝
      ∗ ((oRows c).view.loc (c : Thread nD τ) ↦[(oRows c).view.set]{fullShare} f)) from .rfl) $$ H
  icases H' with ⟨%f, %hf, H⟩
  subst hf
  ihave H2 := (Transfers.pointsTo_toks_split fullShare 31) $$ H
  icases H2 with ⟨Hd, Ht⟩
  isplitl [Hd]
  · iapply (owns_read_intro (c : Thread nD τ) (oRows c) (Transfers.shareDrop fullShare 31) f)
    iexact Hd
  · iapply (bigSep_owns_intro Finset.univ (c : Thread nD τ) (oRows c) (fun r : Fin 31 => agShare r) f)
    iexact Ht

omit [FloatOps F] in
theorem o_shares_join (c : Dev nD) (X : S8x256.Idx → Elt F .f32) :
    iprop(ownsTc c (oRows c) (Transfers.shareDrop fullShare 31) X ∗ bigSep Finset.univ fun r : Fin 31 => ownsTc c (oRows c) (agShare r) X)
    ⊢ (ownsTc c (oRows c) fullShare X : sProp 𝕄) := by
  iintro ⟨Hd, Ht⟩
  ihave H' := (show ownsTc c (oRows c) (Transfers.shareDrop fullShare 31) X ⊢ iprop(∃ f, ⌜(oRows c).view.read (Elt F) f = X⌝
      ∗ ((oRows c).view.loc (c : Thread nD τ) ↦[(oRows c).view.set]{Transfers.shareDrop fullShare 31} f)) from .rfl) $$ Hd
  icases H' with ⟨%f, %hf, Hd⟩
  subst hf
  ihave Ht' := (bigSep_owns_elim Finset.univ (c : Thread nD τ) (oRows c) (fun r : Fin 31 => agShare r) f) $$ Ht
  iapply (owns_read_intro (c : Thread nD τ) (oRows c) fullShare f)
  iapply (Transfers.pointsTo_toks_join fullShare 31)
  isplitl [Hd]
  · iexact Hd
  · iexact Ht'

/-! ## The reduce step -/

omit [FloatOps F] in
/-- The device's rows of the output block, named through either of the two equal offsets. -/
theorem oRows_eq (c : Dev nD) : oRows c = oM.slice (xOwnR c) (fun _ => rfl) :=
  Memref.slice_unit_congr oM (off2_eq_off3 c).symm _ _ _ _

/-- The reduce step: the four memory operations of the body between the two collectives, run from the landing buffer whole at what landed, the device's own rows of the input and its own rows of the output at any contents. -/
theorem reduce_run (c : Dev nD) {α : Type} {Q : α → sProp 𝕄} {k : PUnit → Prog (TpuEff nD τ sig (Elt F) Λ₀ .tc) α} :
    iprop(ownsTc c rM fullShare (rsAll m ρ c) ∗ ownsTc c (xOwn c) fullShare (xOwnBlk m ρ c) ∗ (∃ Y, ownsTc c (oRows c) fullShare Y)
        ∗ ((iprop(ownsTc c rM fullShare (rsAll m ρ c) ∗ ownsTc c (xOwn c) fullShare (xOwnBlk m ρ c) ∗ ownsTc c (oRows c) fullShare (red m ρ c)))
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load rM (Rect.unit (s := S31x8x256) ![0, 0, 0] S31x8x256.size inb_S31x8x256_S31x8x256_0_0_0).toLoadRect (View.loadsAt_vmem h_S31x8x256)) fun v717 =>
           .op (.load xM (Rect.unit (s := S256x256) (k0_off2 c) S8x256.size (k0_off2_inb c)).toLoadRect (View.loadsAt_vmem h_S8x256)) fun v721 =>
           .op (.load oM (Rect.unit (s := S256x256) (k0_off2 c) S8x256.size (k0_off2_inb c)).toLoadRect (View.loadsAt_vmem h_S8x256)) fun v726 =>
           .op (.store oM (Rect.unit (s := S256x256) (k0_off2 c) S8x256.size (k0_off2_inb c)) (k0_pay1 v717 v721) Finset.univ (View.stores_vmem_bits_univ h_S8x256 rfl) (.inl rfl)) k) Q := by
  rw [oRows_eq c]
  iintro ⟨Hr, Hx, ⟨%Y, Ho⟩, Hk⟩
  ihave Hr' := (show ownsTc c rM fullShare (rsAll m ρ c) ⊢ iprop(∃ f, ⌜rM.view.read (Elt F) f = rsAll m ρ c⌝
      ∗ (rM.view.loc (c : Thread nD τ) ↦[rM.view.set]{fullShare} f)) from .rfl) $$ Hr
  icases Hr' with ⟨%fr, %hfr, Hr⟩
  ihave Hx' := (show ownsTc c (xOwn c) fullShare (xOwnBlk m ρ c) ⊢ iprop(∃ f, ⌜(xOwn c).view.read (Elt F) f = xOwnBlk m ρ c⌝
      ∗ ((xOwn c).view.loc (c : Thread nD τ) ↦[(xOwn c).view.set]{fullShare} f)) from .rfl) $$ Hx
  icases Hx' with ⟨%fx, %hfx, Hx⟩
  ihave Ho' := (show ownsTc c (oM.slice (xOwnR c) (fun _ => rfl)) fullShare Y ⊢ iprop(∃ f, ⌜(oM.slice (xOwnR c) (fun _ => rfl)).view.read (Elt F) f = Y⌝
      ∗ ((oM.slice (xOwnR c) (fun _ => rfl)).view.loc (c : Thread nD τ) ↦[(oM.slice (xOwnR c) (fun _ => rfl)).view.set]{fullShare} f)) from .rfl) $$ Ho
  icases Ho' with ⟨%fo, -, Ho⟩
  -- the landing buffer, whole
  iapply (wp_load 𝒱₀ (c : Thread nD τ) none Set.univ (m := rM) (S := rM.view.set) (View.setOn_subset_set _ _)) $$ Hr
  iintro Hr
  have hrd : rM.view.readAt (Elt F) (Rect.unit (s := S31x8x256) ![0, 0, 0] S31x8x256.size inb_S31x8x256_S31x8x256_0_0_0).toLoadRect fr = fr :=
    Memref.readAt_unit_zero (Elt F) cc0_scratch0 (by funext a; fin_cases a <;> rfl) inb_S31x8x256_S31x8x256_0_0_0 fr
  rw [hrd]
  -- the device's own rows of the input
  iapply (wp_load_rect 𝒱₀ (c : Thread nD τ) none Set.univ (m := xM) (r := xOwnR c) (S := (xOwn c).view.set) (Finset.Subset.refl _)) $$ Hx
  iintro Hx
  -- its own rows of the output, read and overwritten
  iapply (wp_load_rect 𝒱₀ (c : Thread nD τ) none Set.univ (m := oM) (r := xOwnR c) (S := (oM.slice (xOwnR c) (fun _ => rfl)).view.set) (Finset.Subset.refl _)) $$ Ho
  iintro Ho
  iapply (wp_store 𝒱₀ (c : Thread nD τ) none Set.univ (m := oM) (r := xOwnR c) (S := (oM.slice (xOwnR c) (fun _ => rfl)).view.set) (Finset.Subset.refl _)) $$ Ho
  iintro Ho
  iapply Hk
  isplitl [Hr]
  · rw [← hfr]; iapply (owns_read_intro (c : Thread nD τ) rM fullShare fr); iexact Hr
  isplitl [Hx]
  · rw [← hfx]; iapply (owns_read_intro (c : Thread nD τ) (xOwn c) fullShare fx); iexact Hx
  · have hred : red m ρ c = (oM.access (xOwnR c)).read (Elt F)
        ((oM.access (xOwnR c)).write (Elt F) fo (k0_pay1 fr ((xM.access (xOwnR c)).read (Elt F) fx)) Finset.univ) := by
      rw [View.read_write_univ]
      unfold red
      rw [← hfr, ← hfx]
      rfl
    rw [hred]
    iapply (owns_read_intro (c : Thread nD τ) (oM.slice (xOwnR c) (fun _ => rfl)) fullShare _)
    iexact Ho

/-! ## A staging buffer held whole is its whole memref owned -/

omit [FloatOps F] in
theorem stg_eq_owns (c : Dev nD) (b : Ref sig .tc) (X : b.ty.Contents (Elt F)) :
    stg c b X = (ownsTc c (Memref.whole b) fullShare X : sProp 𝕄) :=
  (owns_whole_eq (Ix := Unit) (Name := ℕ) (U := UU) (Lvl := ℕ) (c : Thread nD τ) b fullShare X).symm

omit [FloatOps F] in
/-- A family over an optional index is its member at no index and the family over the indices. -/
theorem bigSep_univ_option {α : Type} [Fintype α] (Φ : Option α → sProp 𝕄) :
    bigSep Finset.univ Φ = iprop(Φ none ∗ bigSep Finset.univ fun a => Φ (some a)) := by
  classical
  have h : (Finset.univ : Finset (Option α)) = insert none (Finset.univ.map Function.Embedding.some) := by
    ext o; cases o <;> simp
  rw [h, bigSep_insert (by simp), bigSep_map]
  rfl

/-! ## The 32 row blocks of a 256 × 256 block

Block `b` is rows `8 b … 8 b + 7`. The blocks are disjoint and cover; a device's own rows and the rows at its 31
peers' positions are all 32 of them. -/

theorem oR_mem (b : Dev nD) (i : S256x256.Idx) : i ∈ (oR b).set ↔ (i 0).val / 8 = b.val := by
  have h1 : (i 1).val < 256 := (i 1).isLt
  have e : i ∈ (oR b).set ↔ ∀ a : Fin 2, (k0_off3 b) a ≤ (i a).val ∧ (i a).val < (k0_off3 b) a + S8x256.size a :=
    Rect.mem_set_unit
  rw [e, off3_val b, Fin.forall_fin_two]
  show (8 * b.val ≤ (i 0).val ∧ (i 0).val < 8 * b.val + 8) ∧ (0 ≤ (i 1).val ∧ (i 1).val < 0 + 256) ↔ _
  omega

theorem oR_disj (b b' : Dev nD) (h : b ≠ b') : Disjoint (oR b).set (oR b').set :=
  Finset.disjoint_left.2 fun i hi hi' => h (Fin.ext (((oR_mem b i).1 hi).symm.trans ((oR_mem b' i).1 hi')))

theorem oR_cov : (Finset.univ : Finset (Dev nD)).biUnion (fun b => (oR b).set) = Finset.univ := by
  ext i
  simp only [Finset.mem_biUnion, Finset.mem_univ, true_and, iff_true]
  have h0 : (i 0).val < 256 := (i 0).isLt
  exact ⟨⟨(i 0).val / 8, by show (i 0).val / 8 < 32; omega⟩, (oR_mem _ i).2 rfl⟩

/-- The device whose position an optional offset names: the device itself, or its peer at the offset. -/
def dv (c : Dev nD) : Option (Fin 31) → Dev nD
  | none => c
  | some r => peer c r

theorem dv_injective (c : Dev nD) : Function.Injective (dv c) := by
  intro t t' h
  cases t with
  | none =>
    cases t' with
    | none => rfl
    | some r' => exact absurd h.symm (peer_ne c r')
  | some r =>
    cases t' with
    | none => exact absurd h (peer_ne c r)
    | some r' => exact congrArg some (peer_injective c h)

theorem dv_surjective (c : Dev nD) : Function.Surjective (dv c) := by
  intro b
  by_cases h : b = c
  · exact ⟨none, h.symm⟩
  · obtain ⟨r, hr⟩ := exists_peer h
    exact ⟨some r, hr⟩

/-- The 32 devices as the device itself and its 31 peers. -/
def dvEquiv (c : Dev nD) : Option (Fin 31) ≃ Dev nD := Equiv.ofBijective (dv c) ⟨dv_injective c, dv_surjective c⟩

/-- Offsets reindexed by the involution `back`. -/
def backEquiv : Fin 31 ≃ Fin 31 := ⟨back, back, back_back, back_back⟩

/-- The rows of the input block by optional offset: the device's own, or those it sends at the offset. -/
def xr (c : Dev nD) : Option (Fin 31) → Rect S256x256
  | none => xOwnR c
  | some r => xSendR c r

theorem xr_eq (c : Dev nD) (t : Option (Fin 31)) : xr c t = oR (dv c t) := by
  cases t with
  | none => exact Rect.unit_congr (off2_eq_off3 c) (k0_off2_inb c) (k0_off3_inb c)
  | some r => exact Rect.unit_congr (off1_eq_off3 c r) (k0_off1_inb c r) (k0_off3_inb (peer c r))

theorem xr_stride (c : Dev nD) (t : Option (Fin 31)) (a : Fin S256x256.rank) : (xr c t).stride a = 1 := by
  cases t <;> rfl

theorem xr_disj (c : Dev nD) (t t' : Option (Fin 31)) (h : t ≠ t') : Disjoint (xr c t).set (xr c t').set := by
  rw [xr_eq, xr_eq]
  exact oR_disj _ _ fun e => h (dv_injective c e)

theorem xr_cov (c : Dev nD) : (Finset.univ : Finset (Option (Fin 31))).biUnion (fun t => (xr c t).set) = Finset.univ := by
  ext i
  simp only [Finset.mem_biUnion, Finset.mem_univ, true_and, iff_true]
  have h0 : (i 0).val < 256 := (i 0).isLt
  obtain ⟨t, ht⟩ := dv_surjective c ⟨(i 0).val / 8, by show (i 0).val / 8 < 32; omega⟩
  exact ⟨t, by rw [xr_eq, oR_mem, ht]⟩

/-! ## The staged input block -/

/-- Every element type has a value: an integer word, or the float a word encodes. -/
instance elt_nonempty (e : EltTy) : Nonempty (Elt F e) := by
  cases e <;> first | exact ⟨(0 : BitVec _)⟩ | exact ⟨FloatOps.ofBits _ 0⟩

/-- The staged input block cut into the rows the device keeps and the 31 blocks it sends, and back. -/
theorem x_split (c : Dev nD) : stg c cc0_stg0_0 (xstg m ρ c)
    ⊢ iprop(ownsTc c (xOwn c) fullShare (xOwnBlk m ρ c) ∗ bigSep Finset.univ fun r : Fin 31 => ownsTc c (xSend c r) fullShare (xSendBlk m ρ c r)) := by
  rw [stg_eq_owns]
  refine (owns_rects (c : Thread nD τ) xM fullShare (xr c) (xr_stride c) (xr_disj c) (xr_cov c) (xstg m ρ c)).trans ?_
  rw [bigSep_univ_option]
  exact .rfl

theorem x_join (c : Dev nD) : iprop(ownsTc c (xOwn c) fullShare (xOwnBlk m ρ c) ∗ bigSep Finset.univ fun r : Fin 31 => ownsTc c (xSend c r) fullShare (xSendBlk m ρ c r))
    ⊢ stg c cc0_stg0_0 (xstg m ρ c) := by
  rw [stg_eq_owns]
  refine BIBase.Entails.trans ?_ (owns_of_rects (c : Thread nD τ) xM fullShare (xr c) (xr_stride c) (xr_disj c) (xr_cov c) (xstg m ρ c))
  rw [bigSep_univ_option]
  exact .rfl

/-! ## The staged output block -/

omit [FloatOps F] in
/-- A family over the ring is its member at a device and the family over that device's 31 peers. -/
theorem bigSep_ring (c : Dev nD) (Ψ : Dev nD → sProp 𝕄) :
    bigSep Finset.univ Ψ = iprop(Ψ c ∗ bigSep Finset.univ fun r : Fin 31 => Ψ (peer c r)) := by
  rw [bigSep_univ_equiv (dvEquiv c) Ψ, bigSep_univ_option]
  rfl

omit [FloatOps F] in
/-- A family over the offsets may be read at the opposite offsets. -/
theorem bigSep_back (Φ : Fin 31 → sProp 𝕄) : bigSep Finset.univ (fun r => Φ (back r)) = bigSep Finset.univ Φ :=
  (bigSep_univ_equiv backEquiv Φ).symm

theorem oR_stride (b : Dev nD) (a : Fin S256x256.rank) : (oR b).stride a = 1 := rfl

theorem red_congr {b b' : Dev nD} {j j' : S8x256.Idx} (hb : b = b') (hj : j = j') : red m ρ b j = red m ρ b' j' := by
  subst hb; subst hj; rfl

/-- The result block on device `b`'s rows is device `b`'s sums. -/
theorem outAll_emb (b : Dev nD) (j : S8x256.Idx) : outAll m ρ ((oR b).emb j) = red m ρ b j := by
  have hj0 : (j 0).val < 8 := (j 0).isLt
  have h0 : (((oR b).emb j) 0).val = 8 * b.val + (j 0).val := by
    rw [Rect.emb_apply]
    show (k0_off3 b) 0 + 1 * (j 0).val = _
    rw [off3_val b]
    show 8 * b.val + 1 * (j 0).val = 8 * b.val + (j 0).val
    omega
  have h1 : (((oR b).emb j) 1).val = (j 1).val := by
    rw [Rect.emb_apply]
    show (k0_off3 b) 1 + 1 * (j 1).val = _
    rw [off3_val b]
    show 0 + 1 * (j 1).val = (j 1).val
    omega
  unfold outAll
  refine red_congr m ρ (Fin.ext ?_) (funext fun a => Fin.ext ?_)
  · show (((oR b).emb j) 0).val / 8 = b.val
    rw [h0]; omega
  · match a with
    | ⟨0, _⟩ =>
      show (((oR b).emb j) 0).val % 8 = (j 0).val
      rw [h0]; omega
    | ⟨1, _⟩ =>
      show (((oR b).emb j) 1).val = (j 1).val
      exact h1

omit [FloatOps F] in
/-- Contents forgotten. -/
theorem owns_ex_intro (c : Dev nD) {sh : Shape} (M : Memref sig .tc .vmem sh .f32) (Y : sh.Idx → Elt F .f32) :
    (ownsTc c M fullShare Y : sProp 𝕄) ⊢ iprop(∃ Y', ownsTc c M fullShare Y') := by
  iintro H; iexists Y; iexact H

omit [FloatOps F] in
/-- The staged output block at any contents cut into its 32 row blocks: the device's own and one at each peer's position. -/
theorem o_split (c : Dev nD) (X : (cc0_stg1_0 : Ref sig .tc).ty.Contents (Elt F)) : stg c cc0_stg1_0 X
    ⊢ iprop((∃ Y, ownsTc c (oRows c) fullShare Y) ∗ bigSep Finset.univ fun r : Fin 31 => iprop(∃ Y, ownsTc c (oRows (peer c r)) fullShare Y)) := by
  rw [stg_eq_owns]
  refine (owns_rects (c : Thread nD τ) oM fullShare oR oR_stride oR_disj oR_cov X).trans ?_
  rw [bigSep_ring c]
  exact BI.sep_mono (owns_ex_intro c _ _) (bigSep_mono fun r _ => owns_ex_intro c _ _)

/-- Rejoined once every block holds its device's sums. -/
theorem o_join (c : Dev nD) : iprop(ownsTc c (oRows c) fullShare (red m ρ c)
      ∗ bigSep Finset.univ fun r : Fin 31 => ownsTc c (oRows (peer c (back r))) fullShare (red m ρ (peer c (back r))))
    ⊢ stg c cc0_stg1_0 (outAll m ρ) := by
  rw [stg_eq_owns]
  refine BIBase.Entails.trans ?_ (owns_of_rects (c : Thread nD τ) oM fullShare oR oR_stride oR_disj oR_cov (outAll m ρ))
  have hΨ : ∀ b : Dev nD, (owns (c : Thread nD τ) (oM.slice (oR b) (oR_stride b)) fullShare (fun j => outAll m ρ ((oR b).emb j)) : sProp 𝕄)
      = ownsTc c (oRows b) fullShare (red m ρ b) := fun b => by
    rw [show (fun j => outAll m ρ ((oR b).emb j)) = red m ρ b from funext (outAll_emb m ρ b)]
  rw [bigSep_congr (fun b _ => hΨ b), bigSep_ring c (fun b => ownsTc c (oRows b) fullShare (red m ρ b)),
    ← bigSep_back (fun r => ownsTc c (oRows (peer c r)) fullShare (red m ρ (peer c r)))]

/-! ## The landing buffer -/

omit [FloatOps F] in
/-- Squeezing a memref keeps its elements: the points-to is the same. -/
theorem pointsTo_squeeze (t : Thread nD τ) {sp : Space} {s : Shape} {e : EltTy} (M : Memref sig t.2.kind sp s e)
    (s' : Shape) (h : s.Squeezes s') (q : PosShare TreeShare) (f : M.view.ty.Contents (Elt F)) :
    ((M.squeeze s' h).view.loc t ↦[(M.squeeze s' h).view.set]{q} f : sProp 𝕄) = (M.view.loc t ↦[M.view.set]{q} f) := by
  show (M.view.loc t ↦[(M.view.reshape s' h.numel_eq).set]{q} f : sProp 𝕄) = _
  rw [View.set_reshape]

omit [FloatOps F] in
/-- A memref owned at `Y` is its squeeze owned at `Y` read at the matched indices, -/
theorem owns_squeeze_intro (t : Thread nD τ) {sp : Space} {s : Shape} {e : EltTy} (M : Memref sig t.2.kind sp s e)
    (s' : Shape) (h : s.Squeezes s') (q : PosShare TreeShare) (Y : s.Idx → Elt F e) :
    (owns t M q Y : sProp 𝕄) ⊢ owns t (M.squeeze s' h) q (fun x => Y (Shape.reshapeEquiv h.numel_eq x)) := by
  unfold owns
  iintro ⟨%f, %hf, H⟩
  iexists f
  isplitr
  · ipureintro
    funext x
    rw [← hf]
    rfl
  · rw [pointsTo_squeeze t M s' h q f]
    iexact H

omit [FloatOps F] in
/-- and back. -/
theorem owns_squeeze_elim (t : Thread nD τ) {sp : Space} {s : Shape} {e : EltTy} (M : Memref sig t.2.kind sp s e)
    (s' : Shape) (h : s.Squeezes s') (q : PosShare TreeShare) (X : s'.Idx → Elt F e) :
    (owns t (M.squeeze s' h) q X : sProp 𝕄) ⊢ owns t M q (fun i => X ((Shape.reshapeEquiv h.numel_eq).symm i)) := by
  unfold owns
  iintro ⟨%f, %hf, H⟩
  iexists f
  isplitr
  · ipureintro
    funext i
    rw [← hf]
    exact (congrArg (M.view.read (Elt F) f) ((Shape.reshapeEquiv h.numel_eq).apply_symm_apply i)).symm
  · rw [← pointsTo_squeeze t M s' h q f]
    iexact H

theorem slotR_mem (r : Fin 31) (i : S31x8x256.Idx) : i ∈ (slotR r).set ↔ (i 0).val = r.val := by
  have h1 : (i 1).val < 8 := (i 1).isLt
  have h2 : (i 2).val < 256 := (i 2).isLt
  have e : i ∈ (slotR r).set ↔ ∀ a : Fin 3, (![r.val, 0, 0] : Fin 3 → ℕ) a ≤ (i a).val
      ∧ (i a).val < (![r.val, 0, 0] : Fin 3 → ℕ) a + S1x8x256.size a := Rect.mem_set_unit
  rw [e]
  refine ⟨fun h => ?_, fun h a => ?_⟩
  · have h0 : r.val ≤ (i 0).val ∧ (i 0).val < r.val + 1 := h 0
    omega
  · match a with
    | ⟨0, _⟩ => show r.val ≤ (i 0).val ∧ (i 0).val < r.val + 1; omega
    | ⟨1, _⟩ => show 0 ≤ (i 1).val ∧ (i 1).val < 0 + 8; omega
    | ⟨2, _⟩ => show 0 ≤ (i 2).val ∧ (i 2).val < 0 + 256; omega

theorem slotR_stride (r : Fin 31) (a : Fin S31x8x256.rank) : (slotR r).stride a = 1 := rfl

theorem slotR_disj (r r' : Fin 31) (h : r ≠ r') : Disjoint (slotR r).set (slotR r').set :=
  Finset.disjoint_left.2 fun i hi hi' => h (Fin.ext (((slotR_mem r i).1 hi).symm.trans ((slotR_mem r' i).1 hi')))

theorem slotR_cov : (Finset.univ : Finset (Fin 31)).biUnion (fun r => (slotR r).set) = Finset.univ := by
  ext i
  simp only [Finset.mem_biUnion, Finset.mem_univ, true_and, iff_true]
  exact ⟨⟨(i 0).val, (i 0).isLt⟩, (slotR_mem _ i).2 rfl⟩

omit [FloatOps F] in
theorem xSendBlk_congr {c c' : Dev nD} {r r' : Fin 31} {y y' : S8x256.Idx} (hc : c = c') (hr : r = r') (hy : y = y') :
    xSendBlk m ρ c r y = xSendBlk m ρ c' r' y' := by
  subst hc; subst hr; subst hy; rfl

omit [FloatOps F] in
/-- What landed in slot `r`, read at the slot's indices, is the landing buffer's contents there. -/
theorem rsAll_slot (c : Dev nD) (r : Fin 31) :
    (fun i => xSendBlk m ρ (peer c (back r)) r ((Shape.reshapeEquiv (s := (slotR r).shape) (s' := S8x256) squeezes_S1x8x256_S8x256.numel_eq).symm i))
      = fun j => rsAll m ρ c ((slotR r).emb j) := by
  funext j
  have hj0 : (j 0).val < 1 := (j 0).isLt
  have hj1 : (j 1).val < 8 := (j 1).isLt
  have hj2 : (j 2).val < 256 := (j 2).isLt
  have hsym : (Shape.reshapeEquiv (s := (slotR r).shape) (s' := S8x256) squeezes_S1x8x256_S8x256.numel_eq).symm j
      = ValueIdx.ix2 (n0 := 8) (n1 := 256) ⟨(j 1).val, hj1⟩ ⟨(j 2).val, hj2⟩ := by
    rw [Equiv.symm_apply_eq]
    refine (Shape.reshapeEquiv_eq_of_rowMajor _ ?_).symm
    rw [Shape.rowMajor_val_three, Shape.rowMajor_val_two]
    show ((j 0).val * 8 + (j 1).val) * 256 + (j 2).val = (j 1).val * 256 + (j 2).val
    omega
  rw [hsym]
  unfold rsAll
  have e0 : (((slotR r).emb j) 0).val = r.val := by
    rw [Rect.emb_apply]
    show r.val + 1 * (j 0).val = r.val
    omega
  have e1 : (((slotR r).emb j) 1).val = (j 1).val := by
    rw [Rect.emb_apply]
    show 0 + 1 * (j 1).val = (j 1).val
    omega
  have e2 : (((slotR r).emb j) 2).val = (j 2).val := by
    rw [Rect.emb_apply]
    show 0 + 1 * (j 2).val = (j 2).val
    omega
  have hr : r = ⟨(((slotR r).emb j) 0).val, (((slotR r).emb j) 0).isLt⟩ := Fin.ext e0.symm
  refine xSendBlk_congr m ρ (congrArg (fun r' => peer c (back r')) hr) hr (funext fun a => Fin.ext ?_)
  match a with
  | ⟨0, _⟩ => exact e1.symm
  | ⟨1, _⟩ => exact e2.symm

omit [FloatOps F] in
/-- The landing buffer at any contents cut into its 31 slots, and rejoined once every slot holds what landed. -/
theorem r_split (c : Dev nD) : iprop(∃ f, ((c : Thread nD τ).loc cc0_scratch0) ↦{fullShare} f)
    ⊢ (bigSep Finset.univ fun r : Fin 31 => iprop(∃ Y, ownsTc c (rSlot r) fullShare Y) : sProp 𝕄) := by
  iintro ⟨%f, H⟩
  ihave H1 := (show ((((c : Thread nD τ).loc cc0_scratch0) ↦{fullShare} f) : sProp 𝕄) ⊢ ownsTc c rM fullShare f from
    Entails.of_eq (owns_whole (Ix := Unit) (Name := ℕ) (U := UU) (Lvl := ℕ) (c : Thread nD τ) cc0_scratch0 fullShare f).symm) $$ H
  ihave H2 := (owns_rects (c : Thread nD τ) rM fullShare slotR slotR_stride slotR_disj slotR_cov f) $$ H1
  iapply (show (bigSep Finset.univ fun r : Fin 31 => (owns (c : Thread nD τ) (rM.slice (slotR r) (slotR_stride r)) fullShare (fun j => f ((slotR r).emb j)) : sProp 𝕄))
      ⊢ bigSep Finset.univ fun r : Fin 31 => iprop(∃ Y, ownsTc c (rSlot r) fullShare Y) from
    bigSep_mono fun r _ => (owns_squeeze_intro (c : Thread nD τ) (rM.slice (slotR r) (slotR_stride r)) S8x256 squeezes_S1x8x256_S8x256 fullShare _).trans
      (by iintro H; iexists _; iexact H))
  iexact H2

theorem r_join (c : Dev nD) : (bigSep Finset.univ fun r : Fin 31 => ownsTc c (rSlot r) fullShare (xSendBlk m ρ (peer c (back r)) r))
    ⊢ (ownsTc c rM fullShare (rsAll m ρ c) : sProp 𝕄) := by
  refine BIBase.Entails.trans (bigSep_mono fun r _ => ?_)
    (owns_of_rects (c : Thread nD τ) rM fullShare slotR slotR_stride slotR_disj slotR_cov (rsAll m ρ c))
  rw [← rsAll_slot m ρ c r]
  exact owns_squeeze_elim (c : Thread nD τ) (rM.slice (slotR r) (slotR_stride r)) S8x256 squeezes_S1x8x256_S8x256 fullShare _

end Cert.KernelIdeal.RsAg

end
-- ==== Proof.KernelIdeal.Comp.lean ====
/- What one device's body starts from and ends with, as components over the 31 offsets in the kernel's order: the
   lists each phase consumes and the lists each leaves. `prep` makes the first from the body's precondition (the
   buffers cut into blocks, the tokens and credits listed), `finish` the body's postcondition from the last (the
   blocks rejoined, the device's own cells closed). -/
import proofs.«901012_g7700000000001013_dist_rs_then_ag_i_m256_n256_v7x_i32_f32_1_alg».proof.Proof.KernelIdeal.Phase
import proofs.«901012_g7700000000001013_dist_rs_then_ag_i_m256_n256_v7x_i32_f32_1_alg».proof.Proof.KernelIdeal.Blocks

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- The all-gather copy's two tokens at offset `r` (its share of the device's rows comes after the reduce step). -/
def agTok0 (c : Dev nD) (r : Fin 31) : sProp 𝕄 := iprop(dutyTok ER (agS c r) 0 0 ∗ dutyTok ER (agR (peer c r) r) 0 0)

/-- What the body starts from, the records and the levels apart. -/
def Init (c : Dev nD) : sProp 𝕄 :=
  iprop(OW c 0 0 0
    ∗ bigSepL ord (sigItem c)
    ∗ cred (tallyAt (barCell c) () 31) ∗ atPos ER (barCell c) 0 ∅ 0
    ∗ bigSepL ord (rsTok m ρ c)
    ∗ bigSepL ord (fun r => cred (tallyAt (dcell c 1 r.succ) () N8)) ∗ bigSepL ord (fun r => atPos ER (dcell c 1 r.succ) 0 ∅ 0)
    ∗ ownsTc c (xOwn c) fullShare (xOwnBlk m ρ c) ∗ (∃ Y, ownsTc c (oRows c) fullShare Y)
    ∗ bigSepL ord (agTok0 c)
    ∗ bigSepL ord (fun r => cred (tallyAt (dcell c 3 r.succ) () N8)) ∗ bigSepL ord (fun r => atPos ER (dcell c 3 r.succ) 0 ∅ 0)
    ∗ bigSepL ord (fun r => atPos ER (dcell c 0 r.succ) 0 ∅ 0)
    ∗ bigSepL ord (fun r => atPos ER (dcell c 2 r.succ) 0 ∅ 0)
    ∗ (bigSep Finset.univ fun a : Fin 4 => atPos ER (dcell c a 0) 0 ∅ 0))

/-- What it ends with: it owes nothing; the landing buffer whole; its rows of the input kept; the sent rows back
    with their send cells past round 0; the peers' rows of the result landed with the receive cells past round 0; the
    shares of its own rows of the result back with the send cells past round 0, and the share it kept; the
    reduce-scatter receive cells past round 0; the four unused cells where they started. -/
def Final (c : Dev nD) : sProp 𝕄 :=
  iprop(OW c 31 31 31
    ∗ ownsTc c rM fullShare (rsAll m ρ c)
    ∗ bigSepL (done 31) (fun r => atPos ER (dcell c 1 r.succ) 1 ∅ 0)
    ∗ ownsTc c (xOwn c) fullShare (xOwnBlk m ρ c)
    ∗ bigSepL (done 31) (gotItem m ρ c 0)
    ∗ bigSepL (done 31) (gotItem m ρ c 3)
    ∗ bigSepL (done 31) (gotItem m ρ c 2)
    ∗ ownsTc c (oRows c) (Transfers.shareDrop fullShare 31) (red m ρ c)
    ∗ (bigSep Finset.univ fun a : Fin 4 => atPos ER (dcell c a 0) 0 ∅ 0))

/-! ## Lists over the offsets as families over all 31 of them -/

omit [FloatOps F] in
theorem ordL_univ (Φ : Fin 31 → sProp 𝕄) : bigSepL ord Φ = bigSep Finset.univ Φ :=
  (bigSep_univ_eq_bigSepL ord ord_toFinset.symm ord_nodup Φ).symm

omit [FloatOps F] in
theorem doneL_univ (Φ : Fin 31 → sProp 𝕄) : bigSepL (done 31) Φ = bigSep Finset.univ Φ :=
  (bigSep_univ_eq_bigSepL (done 31) (by decide) (by decide) Φ).symm

omit [FloatOps F] in
/-- A family over `n + 1` indices is its member at `0` and the family over the successors. -/
theorem bigSep_univ_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

omit [FloatOps F] in
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

/-! ## The launch's deal, sorted by what takes it -/

omit [FloatOps F] in
/-- The device's positions: its barrier cell's, the four unused cells', and each array's 31 used cells'. -/
theorem posAll_split (c : Dev nD) : (posAll c : sProp 𝕄) = iprop(atPos ER (barCell c) 0 ∅ 0
    ∗ (bigSep Finset.univ fun a : Fin 4 => atPos ER (dcell c a 0) 0 ∅ 0)
    ∗ (bigSep Finset.univ fun r : Fin 31 => atPos ER (dcell c 0 r.succ) 0 ∅ 0)
    ∗ (bigSep Finset.univ fun r : Fin 31 => atPos ER (dcell c 1 r.succ) 0 ∅ 0)
    ∗ (bigSep Finset.univ fun r : Fin 31 => atPos ER (dcell c 2 r.succ) 0 ∅ 0)
    ∗ (bigSep Finset.univ fun r : Fin 31 => atPos ER (dcell c 3 r.succ) 0 ∅ 0)) := by
  unfold posAll
  rw [bigSep_univ_option, bigSep_univ_prod]
  rw [bigSep_congr (fun (a : Fin 4) _ => bigSep_univ_fin_succ (fun j : Fin 32 => (atPos ER (kcell (c, some (a, j))) 0 ∅ 0 : sProp 𝕄)))]
  rw [bigSep_sep', bigSep_fin_four (fun a : Fin 4 => bigSep Finset.univ fun i : Fin 31 => (atPos ER (kcell (c, some (a, i.succ))) 0 ∅ 0 : sProp 𝕄))]

omit [FloatOps F] in
/-- The tokens of the duties the device pays, by kind. -/
theorem payToks_split (c : Dev nD) : (payToks c : sProp 𝕄) = iprop(
    (bigSep Finset.univ fun r : Fin 31 => dutyTok ER (barCell (peer c r)) 0 (back r))
    ∗ (bigSep Finset.univ fun r : Fin 31 => dutyTok ER (rsS c r) 0 0)
    ∗ (bigSep Finset.univ fun r : Fin 31 => dutyTok ER (rsR (peer c r) r) 0 0)
    ∗ (bigSep Finset.univ fun r : Fin 31 => dutyTok ER (agS c r) 0 0)
    ∗ (bigSep Finset.univ fun r : Fin 31 => dutyTok ER (agR (peer c r) r) 0 0)) := by
  unfold payToks
  rw [bigSep_sep', bigSep_sep', bigSep_sep', bigSep_sep']

omit [FloatOps F] in
/-- What the signals take, by kind: the tokens, the 31 slots of the landing buffer, the peers' rows of the output. -/
theorem sig_list (c : Dev nD) : (bigSepL ord (sigItem c) : sProp 𝕄) = iprop(
    (bigSep Finset.univ fun r : Fin 31 => dutyTok ER (barCell (peer c r)) 0 (back r))
    ∗ (bigSep Finset.univ fun r : Fin 31 => iprop(∃ Y, ownsTc c (rSlot r) fullShare Y))
    ∗ (bigSep Finset.univ fun r : Fin 31 => iprop(∃ Y, ownsTc c (oRows (peer c r)) fullShare Y))) := by
  rw [ordL_univ]
  unfold sigItem
  rw [bigSep_sep', bigSep_sep', bigSep_back (fun r : Fin 31 => iprop(∃ Y, ownsTc c (rSlot r) fullShare Y))]

/-- What the reduce-scatter copies take, by kind. -/
theorem rs_list (c : Dev nD) : (bigSepL ord (rsTok m ρ c) : sProp 𝕄) = iprop(
    (bigSep Finset.univ fun r : Fin 31 => dutyTok ER (rsS c r) 0 0)
    ∗ (bigSep Finset.univ fun r : Fin 31 => dutyTok ER (rsR (peer c r) r) 0 0)
    ∗ (bigSep Finset.univ fun r : Fin 31 => ownsTc c (xSend c r) fullShare (xSendBlk m ρ c r))) := by
  rw [ordL_univ]
  unfold rsTok
  rw [bigSep_sep', bigSep_sep']

omit [FloatOps F] in
/-- What the all-gather copies take at first, by kind. -/
theorem ag_list (c : Dev nD) : (bigSepL ord (agTok0 c) : sProp 𝕄) = iprop(
    (bigSep Finset.univ fun r : Fin 31 => dutyTok ER (agS c r) 0 0)
    ∗ (bigSep Finset.univ fun r : Fin 31 => dutyTok ER (agR (peer c r) r) 0 0)) := by
  rw [ordL_univ]
  unfold agTok0
  rw [bigSep_sep']

/-! ## The device's own cells closed -/

/-- One of the device's own used cells, past round 0, closed: no later round has a duty. -/
theorem close_used (c : Dev nD) (a : Fin 4) (r : Fin 31) :
    iprop(recs m ρ K ∗ atPos ER (dcell c a r.succ) 1 ∅ 0) ⊢ iprop(|={Set.univ}=> semVal (dcell c a r.succ) 0) := by
  iintro ⟨#HR, Hat⟩
  iapply (Rounds.cell_close ER (sched m ρ) (g := dcell c a r.succ) (κ := K (c, some (a, r.succ))) (Set.mem_univ _) (fun h => h)
    (R := 1) (duties_later m ρ _))
  isplitr
  · iapply (recs_inv m ρ K (c, some (a, r.succ))); iexact HR
  · iexact Hat

/-- An unused cell closed where it started: it has no duty at all. -/
theorem close_unused (c : Dev nD) (a : Fin 4) :
    iprop(recs m ρ K ∗ atPos ER (dcell c a 0) 0 ∅ 0) ⊢ iprop(|={Set.univ}=> semVal (dcell c a 0) 0) := by
  iintro ⟨#HR, Hat⟩
  iapply (Rounds.cell_close ER (sched m ρ) (g := dcell c a 0) (κ := K (c, some (a, 0))) (Set.mem_univ _) (fun h => h)
    (R := 0) (fun n _ => duties_dcell_zero m ρ c a n))
  isplitr
  · iapply (recs_inv m ρ K (c, some (a, 0))); iexact HR
  · iexact Hat

/-- The 32 cells of one array closed. -/
theorem close_array (c : Dev nD) (a : Fin 4) :
    iprop(recs m ρ K ∗ atPos ER (dcell c a 0) 0 ∅ 0 ∗ bigSep Finset.univ fun r : Fin 31 => atPos ER (dcell c a r.succ) 1 ∅ 0)
      ⊢ iprop(|={Set.univ}=> bigSep Finset.univ fun j : Fin 32 => semVal (dcell c a j) 0) := by
  rw [bigSep_univ_fin_succ (fun j : Fin 32 => (semVal (dcell c a j) 0 : sProp 𝕄))]
  iintro ⟨#HR, H0, Hs⟩
  ihave H0' := (close_unused m ρ K c a) $$ [H0]
  · isplitr; · iexact HR
    iexact H0
  imod H0'
  ihave Hs' := ((bigSep_with_persistent (R := recs m ρ K) (S := (Finset.univ : Finset (Fin 31)))
      (fun r _ => close_used m ρ K c a r)).trans (bigSep_fupd Finset.univ _)) $$ [Hs]
  · isplitr; · iexact HR
    iexact Hs
  imod Hs'
  imodintro
  isplitl [H0']; · iexact H0'
  iexact Hs'

omit [FloatOps F] in
/-- The kernel's own semaphores at zero, array by array. -/
theorem ownSems_split (c : Dev nD) : (Pipeline.ownSems0 osem c : sProp 𝕄) = iprop(
    (bigSep Finset.univ fun j : Fin 32 => semVal (dcell c 0 j) 0) ∗ (bigSep Finset.univ fun j : Fin 32 => semVal (dcell c 1 j) 0)
    ∗ (bigSep Finset.univ fun j : Fin 32 => semVal (dcell c 2 j) 0) ∗ (bigSep Finset.univ fun j : Fin 32 => semVal (dcell c 3 j) 0)) := by
  unfold Pipeline.ownSems0
  rw [bigSep_univ_prod, bigSep_fin_four]

/-- What the waits on array `a` left, by kind: the positions and the payloads. -/
theorem got_list (c : Dev nD) (a : Fin 4) : (bigSepL (done 31) (gotItem m ρ c a) : sProp 𝕄) = iprop(
    (bigSep Finset.univ fun r : Fin 31 => atPos ER (dcell c a r.succ) 1 ∅ 0)
    ∗ (bigSep Finset.univ fun r : Fin 31 => (sched m ρ).payload (dcell c a r.succ) 0 0)) := by
  rw [doneL_univ]
  unfold gotItem
  rw [bigSep_sep']

/-- Owing nothing at the end is what the pipeline asks after the point. -/
theorem OW_end (c : Dev nD) : OW c 31 31 31 ⊢ (dats m ρ 0 c).owesAt () t0_0.succ := by
  unfold OW Dat.owesAt Pipeline.owesWithin
  rw [show todo 31 = [] from by decide,
    show (owedAg c [] + owedRs c [] + owedSig c [] : CellTallies nD τ sig Unit) = 0 from by
      show (0 + 0 + 0 : CellTallies nD τ sig Unit) = 0; simp]
  iintro ⟨%W, HO⟩
  iexists W
  isplitr; · ipureintro; exact fun _ _ => Or.inl trivial
  iexact HO

/-- From the body's precondition to its components. -/
theorem prep (c : Dev nD) : bodyPre m ρ c ⊢ iprop(∃ K, recs m ρ K ∗ levAts L lv ∗ Init m ρ c) := by
  unfold bodyPre Φ₀ start ghost creds
  iintro ⟨⟨⟨⟨%K, #HR, Hpos, Htok⟩, ⟨HcB, HcR, HcA⟩, #Hlev⟩, ⟨%f, Hscr⟩⟩, Ho, ⟨%d0, Hx⟩, ⟨%d1, Ho1⟩⟩
  have hx : (dats m ρ 0 c).before (0 : Fin 2) t0_0 d0 = xstg m ρ c := by
    unfold Dat.before; rw [if_pos (fetch0_0 t0_0)]; rfl
  -- the three buffers cut into blocks
  ihave HxS := (show stg c cc0_stg0_0 ((dats m ρ 0 c).before (0 : Fin 2) t0_0 d0) ⊢ _ from
      (Entails.of_eq (by rw [hx])).trans (x_split m ρ c)) $$ Hx
  icases HxS with ⟨HxO, HxS⟩
  ihave HoS := (o_split c ((dats m ρ 0 c).before (1 : Fin 2) t0_0 d1)) $$ Ho1
  icases HoS with ⟨HoO, HoP⟩
  ihave Hsl := (r_split c) $$ [Hscr]
  · iexists f; iexact Hscr
  -- the positions and the tokens sorted
  ihave Hpos' := (Entails.of_eq (posAll_split c)) $$ Hpos
  icases Hpos' with ⟨HpB, Hp0, HpA0, HpA1, HpA2, HpA3⟩
  ihave Htok' := (Entails.of_eq (payToks_split c)) $$ Htok
  icases Htok' with ⟨HtB, HtS, HtR, HtAS, HtAR⟩
  unfold Dat.owesAt Pipeline.owesWithin
  icases Ho with ⟨%W, -, HO⟩
  iexists K
  isplitr; · iexact HR
  isplitr; · iexact Hlev
  unfold Init
  rw [sig_list, rs_list, ag_list]
  simp only [ordL_univ]
  isplitl [HO]
  · unfold OW; iexists W; iexact HO
  isplitl [HtB Hsl HoP]
  · isplitl [HtB]; · iexact HtB
    isplitl [Hsl]; · iexact Hsl
    iexact HoP
  isplitl [HcB]; · iexact HcB
  isplitl [HpB]; · iexact HpB
  isplitl [HtS HtR HxS]
  · isplitl [HtS]; · iexact HtS
    isplitl [HtR]; · iexact HtR
    iexact HxS
  isplitl [HcR]; · iexact HcR
  isplitl [HpA1]; · iexact HpA1
  isplitl [HxO]; · iexact HxO
  isplitl [HoO]; · iexact HoO
  isplitl [HtAS HtAR]
  · isplitl [HtAS]; · iexact HtAS
    iexact HtAR
  isplitl [HcA]; · iexact HcA
  isplitl [HpA3]; · iexact HpA3
  isplitl [HpA0]; · iexact HpA0
  isplitl [HpA2]; · iexact HpA2
  iexact Hp0

/-- From the last components to the body's postcondition, the device's own cells closed. -/
theorem finish (c : Dev nD) : iprop(recs m ρ K ∗ Final m ρ c) ⊢ iprop(|={Set.univ}=> bodyPost m ρ c) := by
  have e0 : (bigSep Finset.univ fun r : Fin 31 => (sched m ρ).payload (dcell c 0 r.succ) 0 0 : sProp 𝕄)
      = bigSep Finset.univ fun r : Fin 31 => ownsTc c (xSend c r) fullShare (xSendBlk m ρ c r) :=
    bigSep_congr fun r _ => payload_rsS m ρ c r
  have e3 : (bigSep Finset.univ fun r : Fin 31 => (sched m ρ).payload (dcell c 3 r.succ) 0 0 : sProp 𝕄)
      = bigSep Finset.univ fun r : Fin 31 => ownsTc c (oRows (peer c (back r))) fullShare (red m ρ (peer c (back r))) :=
    bigSep_congr fun r _ => payload_agR m ρ c r
  have e2 : (bigSep Finset.univ fun r : Fin 31 => (sched m ρ).payload (dcell c 2 r.succ) 0 0 : sProp 𝕄)
      = bigSep Finset.univ fun r : Fin 31 => ownsTc c (oRows c) (agShare r) (red m ρ c) :=
    bigSep_congr fun r _ => payload_agS m ρ c r
  unfold Final
  rw [got_list m ρ c 0, got_list m ρ c 3, got_list m ρ c 2, doneL_univ, e0, e3, e2]
  iintro ⟨#HR, HO, Hr, Hp1, HxO, ⟨Hp0s, HxS⟩, ⟨Hp3s, HoP⟩, ⟨Hp2s, HoSh⟩, Hkeep, Hp0⟩
  -- the blocks rejoined
  ihave Hx := (x_join m ρ c) $$ [HxO HxS]
  · isplitl [HxO] <;> iassumption
  ihave HoO := (o_shares_join c (red m ρ c)) $$ [Hkeep HoSh]
  · isplitl [Hkeep] <;> iassumption
  ihave Hout := (o_join m ρ c) $$ [HoO HoP]
  · isplitl [HoO] <;> iassumption
  -- the cells closed, array by array
  ihave Hp0' := (Entails.of_eq (bigSep_fin_four (fun a : Fin 4 => (atPos ER (dcell c a 0) 0 ∅ 0 : sProp 𝕄)))) $$ Hp0
  icases Hp0' with ⟨Hu0, Hu1, Hu2, Hu3⟩
  ihave Hc0 := (close_array m ρ K c 0) $$ [Hu0 Hp0s]
  · isplitr; · iexact HR
    isplitl [Hu0] <;> iassumption
  imod Hc0
  ihave Hc1 := (close_array m ρ K c 1) $$ [Hu1 Hp1]
  · isplitr; · iexact HR
    isplitl [Hu1] <;> iassumption
  imod Hc1
  ihave Hc2 := (close_array m ρ K c 2) $$ [Hu2 Hp2s]
  · isplitr; · iexact HR
    isplitl [Hu2] <;> iassumption
  imod Hc2
  ihave Hc3 := (close_array m ρ K c 3) $$ [Hu3 Hp3s]
  · isplitr; · iexact HR
    isplitl [Hu3] <;> iassumption
  imod Hc3
  imodintro
  unfold bodyPost Φ₁
  rw [ownSems_split]
  isplitl [Hr Hc0 Hc1 Hc2 Hc3]
  · isplitl [Hr]
    · iexists rsAll m ρ c
      iapply (Entails.of_eq (owns_whole (Ix := Unit) (Name := ℕ) (U := UU) (Lvl := ℕ) (c : Thread nD τ) cc0_scratch0 fullShare (rsAll m ρ c)))
      iexact Hr
    isplitl [Hc0]; · iexact Hc0
    isplitl [Hc1]; · iexact Hc1
    isplitl [Hc2]; · iexact Hc2
    iexact Hc3
  isplitl [HO]
  · iapply (OW_end m ρ c); iexact HO
  isplitl [Hx]; · iexact Hx
  iexact Hout

/-! ## Glue over the lists -/

omit [FloatOps F] in
theorem ordrev_nodup : (done 31).Nodup := by decide
omit [FloatOps F] in
theorem ordrev_toFinset : (done 31).toFinset = Finset.univ := by decide

omit [FloatOps F] in
/-- A list over the offsets done, all 31 of them, is the set's. -/
theorem bigSepL_done_univ (Φ : Fin 31 → sProp 𝕄) : bigSepL (done 31) Φ = bigSep Finset.univ Φ :=
  (bigSep_univ_eq_bigSepL (done 31) ordrev_toFinset.symm ordrev_nodup Φ).symm
omit [FloatOps F] in
theorem bigSepL_ord_univ (Φ : Fin 31 → sProp 𝕄) : bigSepL ord Φ = bigSep Finset.univ Φ :=
  (bigSep_univ_eq_bigSepL ord ord_toFinset.symm ord_nodup Φ).symm
omit [FloatOps F] in
/-- Two lists over the offsets zip. -/
theorem bigSepL_ord_sep (A B : Fin 31 → sProp 𝕄) : iprop(bigSepL ord A ∗ bigSepL ord B) = bigSepL ord (fun r => iprop(A r ∗ B r)) := by
  rw [bigSepL_ord_univ, bigSepL_ord_univ, bigSepL_ord_univ, bigSep_sep']

end Cert.KernelIdeal.RsAg

end
-- ==== Proof.KernelIdeal.Mid.lean ====
/- Between the two collectives: the 31 landed slots rejoin into the landing buffer, the four memory operations sum
   them with the device's own rows into its rows of the result, and those rows are lent in 31 shares, one beside
   each all-gather copy's tokens. -/
import proofs.«901012_g7700000000001013_dist_rs_then_ag_i_m256_n256_v7x_i32_f32_1_alg».proof.Proof.KernelIdeal.Comp

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Before a phase's first step nothing is done: the list of what is done is empty. -/
theorem emp_done0 (Φ : Fin 31 → sProp 𝕄) : (emp : sProp 𝕄) ⊢ bigSepL (done 0) Φ := .rfl

omit [FloatOps F] in
/-- The credits of all 31 copies of one kind, collected in the order they were issued, are the list the send waits
    consume in the kernel's order. -/
theorem cred_list (c : Dev nD) (a : Fin 4) :
    bigSepL (done 31) (fun r => (cred (tallyAt (dcell c a r.succ) () N8) : sProp 𝕄))
      = bigSepL (todo 0) (fun r => cred (tallyAt (dcell c a r.succ) () N8)) :=
  (bigSepL_done_univ _).trans (bigSepL_ord_univ _).symm

theorem mid_run (c : Dev nD) {α : Type} {Q : α → sProp 𝕄} {k : PUnit → Prog (TpuEff nD τ sig (Elt F) Λ₀ .tc) α} :
    iprop(bigSepL (done 31) (gotItem m ρ c 1) ∗ ownsTc c (xOwn c) fullShare (xOwnBlk m ρ c) ∗ (∃ Y, ownsTc c (oRows c) fullShare Y)
        ∗ bigSepL ord (agTok0 c))
      ⊢ iprop((iprop(ownsTc c rM fullShare (rsAll m ρ c) ∗ bigSepL (done 31) (fun r => atPos ER (dcell c 1 r.succ) 1 ∅ 0)
                ∗ ownsTc c (xOwn c) fullShare (xOwnBlk m ρ c) ∗ ownsTc c (oRows c) (Transfers.shareDrop fullShare 31) (red m ρ c)
                ∗ bigSepL (todo 0) (agTok m ρ c))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load rM (Rect.unit (s := S31x8x256) ![0, 0, 0] S31x8x256.size inb_S31x8x256_S31x8x256_0_0_0).toLoadRect (View.loadsAt_vmem h_S31x8x256)) fun v717 =>
               .op (.load xM (Rect.unit (s := S256x256) (k0_off2 c) S8x256.size (k0_off2_inb c)).toLoadRect (View.loadsAt_vmem h_S8x256)) fun v721 =>
               .op (.load oM (Rect.unit (s := S256x256) (k0_off2 c) S8x256.size (k0_off2_inb c)).toLoadRect (View.loadsAt_vmem h_S8x256)) fun v726 =>
               .op (.store oM (Rect.unit (s := S256x256) (k0_off2 c) S8x256.size (k0_off2_inb c)) (k0_pay1 v717 v721) Finset.univ (View.stores_vmem_bits_univ h_S8x256 rfl) (.inl rfl)) k) Q) := by
  have e1 : bigSepL (done 31) (gotItem m ρ c 1)
      = iprop(bigSepL (done 31) (fun r => atPos ER (dcell c 1 r.succ) 1 ∅ 0)
          ∗ bigSep Finset.univ fun r : Fin 31 => ownsTc c (rSlot r) fullShare (xSendBlk m ρ (peer c (back r)) r)) := by
    unfold gotItem
    rw [bigSepL_done_univ, bigSep_sep', ← bigSepL_done_univ, bigSep_congr (fun r _ => payload_rsR m ρ c r)]
  have e2 : iprop(bigSepL ord (agTok0 c) ∗ bigSep Finset.univ fun r : Fin 31 => ownsTc c (oRows c) (agShare r) (red m ρ c))
      = bigSepL (todo 0) (agTok m ρ c) := by
    rw [← bigSepL_ord_univ, bigSepL_ord_sep]; rfl
  iintro ⟨HG, Hx, Ho, HT0⟩ Hk
  ihave HG' := (Entails.of_eq e1) $$ HG
  icases HG' with ⟨Hpos, Hslots⟩
  ihave HrM := (r_join m ρ c) $$ Hslots
  iapply (reduce_run m ρ c)
  isplitl [HrM]; · iexact HrM
  isplitl [Hx]; · iexact Hx
  isplitl [Ho]; · iexact Ho
  iintro ⟨HrM, Hx, Ho⟩
  ihave Hsh := (o_shares_split c (red m ρ c)) $$ Ho
  icases Hsh with ⟨Hrest, Hshares⟩
  iapply Hk
  isplitl [HrM]; · iexact HrM
  isplitl [Hpos]; · iexact Hpos
  isplitl [Hx]; · iexact Hx
  isplitl [Hrest]; · iexact Hrest
  iapply (Entails.of_eq e2)
  isplitl [HT0] <;> iassumption

end Cert.KernelIdeal.RsAg

end
-- ==== Proof.KernelIdeal.Parts.lean ====
/- One lemma per printed part of the kernel's body: the part's barrier signals, copies and waits, in the order the
   part holds them, each an instance of the step lemma of its kind; the state before and after is the lists of the
   offsets still to come and those done in each phase the part touches. -/
import proofs.«901012_g7700000000001013_dist_rs_then_ag_i_m256_n256_v7x_i32_f32_1_alg».proof.Proof.KernelIdeal.Mid

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

set_option maxHeartbeats 2000000 in
theorem part1_run (c : Dev nD)  (Kt : (Σ' (d0 : Dev nD) (v2 : BitVec 32) (v3 : Sems sig S_) (v24 : BitVec 32), BitVec 32) → sProp 𝕄) :
    iprop(recs m ρ K ∗ OW c 0 0 0 ∗ bigSepL (todo 0) (sigItem c)
        ∗ (∀ v2 v24 c32, iprop(OW c 0 0 5 ∗ bigSepL (todo 5) (sigItem c)) -∗ Kt ⟨c, v2, (SemArray.scalar (sig.barrier 0 rfl) : Sems sig S_), v24, c32⟩))
      ⊢ wp frame (wpE (defs₀ (F := F)) 𝒱₀ (c : Thread nD τ) none) Set.univ
          (k0_part1 xM (Memref.isWhole_whole _) oM (Memref.isWhole_whole _) rM (Memref.isWhole_whole _) cc0_scratch1 cc0_scratch2 cc0_scratch3 cc0_scratch4 ) Kt := by
  rw [k0_part1_eq_skeleton]; unfold k0_part1_skel
  simp only [semSignalWord, semWaitWord, Prog.lift, Prog.bind_op, Prog.bind_ret, Prog.pure_eq_ret, wp_deviceId]
  iintro ⟨#HR, HOW, HSig, Hk⟩
  iapply (sig_step m ρ K c 0 0 0 15 rfl _ (Fin.ext (k0_dev1_eq c)) _ rfl) $$ [HOW HSig]
  · isplitr; · iexact HR
    isplitl [HOW]; · iexact HOW
    iexact HSig
  iintro ⟨HOW, HSig⟩
  iapply (sig_step m ρ K c 0 0 1 14 rfl _ (Fin.ext (k0_dev2_eq c)) _ rfl) $$ [HOW HSig]
  · isplitr; · iexact HR
    isplitl [HOW]; · iexact HOW
    iexact HSig
  iintro ⟨HOW, HSig⟩
  iapply (sig_step m ρ K c 0 0 2 16 rfl _ (Fin.ext (k0_dev3_eq c)) _ rfl) $$ [HOW HSig]
  · isplitr; · iexact HR
    isplitl [HOW]; · iexact HOW
    iexact HSig
  iintro ⟨HOW, HSig⟩
  iapply (sig_step m ρ K c 0 0 3 13 rfl _ (Fin.ext (k0_dev4_eq c)) _ rfl) $$ [HOW HSig]
  · isplitr; · iexact HR
    isplitl [HOW]; · iexact HOW
    iexact HSig
  iintro ⟨HOW, HSig⟩
  iapply (sig_step m ρ K c 0 0 4 17 rfl _ (Fin.ext (k0_dev5_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part2_run (c : Dev nD) (v2 : BitVec 32) (v24 : BitVec 32) (c32_i32_19 : BitVec 32) (Kt : (Σ' (v48 : BitVec 32), BitVec 32) → sProp 𝕄) :
    iprop(recs m ρ K ∗ OW c 0 0 5 ∗ bigSepL (todo 5) (sigItem c)
        ∗ (∀ ret, iprop(OW c 0 0 11 ∗ bigSepL (todo 11) (sigItem c)) -∗ Kt ret))
      ⊢ wp frame (wpE (defs₀ (F := F)) 𝒱₀ (c : Thread nD τ) none) Set.univ
          (k0_part2 xM (Memref.isWhole_whole _) oM (Memref.isWhole_whole _) rM (Memref.isWhole_whole _) cc0_scratch1 cc0_scratch2 cc0_scratch3 cc0_scratch4 c v2 (SemArray.scalar (sig.barrier 0 rfl) : Sems sig S_) v24 c32_i32_19) Kt := by
  rw [k0_part2_eq_skeleton]; unfold k0_part2_skel
  simp only [semSignalWord, semWaitWord, Prog.lift, Prog.bind_op, Prog.bind_ret, Prog.pure_eq_ret, wp_deviceId]
  iintro ⟨#HR, HOW, HSig, Hk⟩
  iapply (sig_step m ρ K c 0 0 5 12 rfl _ (Fin.ext (k0_dev6_eq c)) _ rfl) $$ [HOW HSig]
  · isplitr; · iexact HR
    isplitl [HOW]; · iexact HOW
    iexact HSig
  iintro ⟨HOW, HSig⟩
  iapply (sig_step m ρ K c 0 0 6 18 rfl _ (Fin.ext (k0_dev7_eq c)) _ rfl) $$ [HOW HSig]
  · isplitr; · iexact HR
    isplitl [HOW]; · iexact HOW
    iexact HSig
  iintro ⟨HOW, HSig⟩
  iapply (sig_step m ρ K c 0 0 7 11 rfl _ (Fin.ext (k0_dev8_eq c)) _ rfl) $$ [HOW HSig]
  · isplitr; · iexact HR
    isplitl [HOW]; · iexact HOW
    iexact HSig
  iintro ⟨HOW, HSig⟩
  iapply (sig_step m ρ K c 0 0 8 19 rfl _ (Fin.ext (k0_dev9_eq c)) _ rfl) $$ [HOW HSig]
  · isplitr; · iexact HR
    isplitl [HOW]; · iexact HOW
    iexact HSig
  iintro ⟨HOW, HSig⟩
  iapply (sig_step m ρ K c 0 0 9 10 rfl _ (Fin.ext (k0_dev10_eq c)) _ rfl) $$ [HOW HSig]
  · isplitr; · iexact HR
    isplitl [HOW]; · iexact HOW
    iexact HSig
  iintro ⟨HOW, HSig⟩
  iapply (sig_step m ρ K c 0 0 10 20 rfl _ (Fin.ext (k0_dev11_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part3_run (c : Dev nD) (v2 : BitVec 32) (v48 : BitVec 32) (c32_i32_43 : BitVec 32) (Kt : (Σ' (v72 : BitVec 32), BitVec 32) → sProp 𝕄) :
    iprop(recs m ρ K ∗ OW c 0 0 11 ∗ bigSepL (todo 11) (sigItem c)
        ∗ (∀ ret, iprop(OW c 0 0 17 ∗ bigSepL (todo 17) (sigItem c)) -∗ Kt ret))
      ⊢ wp frame (wpE (defs₀ (F := F)) 𝒱₀ (c : Thread nD τ) none) Set.univ
          (k0_part3 xM (Memref.isWhole_whole _) oM (Memref.isWhole_whole _) rM (Memref.isWhole_whole _) cc0_scratch1 cc0_scratch2 cc0_scratch3 cc0_scratch4 c v2 (SemArray.scalar (sig.barrier 0 rfl) : Sems sig S_) v48 c32_i32_43) Kt := by
  rw [k0_part3_eq_skeleton]; unfold k0_part3_skel
  simp only [semSignalWord, semWaitWord, Prog.lift, Prog.bind_op, Prog.bind_ret, Prog.pure_eq_ret, wp_deviceId]
  iintro ⟨#HR, HOW, HSig, Hk⟩
  iapply (sig_step m ρ K c 0 0 11 9 rfl _ (Fin.ext (k0_dev12_eq c)) _ rfl) $$ [HOW HSig]
  · isplitr; · iexact HR
    isplitl [HOW]; · iexact HOW
    iexact HSig
  iintro ⟨HOW, HSig⟩
  iapply (sig_step m ρ K c 0 0 12 21 rfl _ (Fin.ext (k0_dev13_eq c)) _ rfl) $$ [HOW HSig]
  · isplitr; · iexact HR
    isplitl [HOW]; · iexact HOW
    iexact HSig
  iintro ⟨HOW, HSig⟩
  iapply (sig_step m ρ K c 0 0 13 8 rfl _ (Fin.ext (k0_dev14_eq c)) _ rfl) $$ [HOW HSig]
  · isplitr; · iexact HR
    isplitl [HOW]; · iexact HOW
    iexact HSig
  iintro ⟨HOW, HSig⟩
  iapply (sig_step m ρ K c 0 0 14 22 rfl _ (Fin.ext (k0_dev15_eq c)) _ rfl) $$ [HOW HSig]
  · isplitr; · iexact HR
    isplitl [HOW]; · iexact HOW
    iexact HSig
  iintro ⟨HOW, HSig⟩
  iapply (sig_step m ρ K c 0 0 15 7 rfl _ (Fin.ext (k0_dev16_eq c)) _ rfl) $$ [HOW HSig]
  · isplitr; · iexact HR
    isplitl [HOW]; · iexact HOW
    iexact HSig
  iintro ⟨HOW, HSig⟩
  iapply (sig_step m ρ K c 0 0 16 23 rfl _ (Fin.ext (k0_dev17_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part4_run (c : Dev nD) (v2 : BitVec 32) (v72 : BitVec 32) (c32_i32_67 : BitVec 32) (Kt : (Σ' (v96 : BitVec 32), BitVec 32) → sProp 𝕄) :
    iprop(recs m ρ K ∗ OW c 0 0 17 ∗ bigSepL (todo 17) (sigItem c)
        ∗ (∀ ret, iprop(OW c 0 0 23 ∗ bigSepL (todo 23) (sigItem c)) -∗ Kt ret))
      ⊢ wp frame (wpE (defs₀ (F := F)) 𝒱₀ (c : Thread nD τ) none) Set.univ
          (k0_part4 xM (Memref.isWhole_whole _) oM (Memref.isWhole_whole _) rM (Memref.isWhole_whole _) cc0_scratch1 cc0_scratch2 cc0_scratch3 cc0_scratch4 c v2 (SemArray.scalar (sig.barrier 0 rfl) : Sems sig S_) v72 c32_i32_67) Kt := by
  rw [k0_part4_eq_skeleton]; unfold k0_part4_skel
  simp only [semSignalWord, semWaitWord, Prog.lift, Prog.bind_op, Prog.bind_ret, Prog.pure_eq_ret, wp_deviceId]
  iintro ⟨#HR, HOW, HSig, Hk⟩
  iapply (sig_step m ρ K c 0 0 17 6 rfl _ (Fin.ext (k0_dev18_eq c)) _ rfl) $$ [HOW HSig]
  · isplitr; · iexact HR
    isplitl [HOW]; · iexact HOW
    iexact HSig
  iintro ⟨HOW, HSig⟩
  iapply (sig_step m ρ K c 0 0 18 24 rfl _ (Fin.ext (k0_dev19_eq c)) _ rfl) $$ [HOW HSig]
  · isplitr; · iexact HR
    isplitl [HOW]; · iexact HOW
    iexact HSig
  iintro ⟨HOW, HSig⟩
  iapply (sig_step m ρ K c 0 0 19 5 rfl _ (Fin.ext (k0_dev20_eq c)) _ rfl) $$ [HOW HSig]
  · isplitr; · iexact HR
    isplitl [HOW]; · iexact HOW
    iexact HSig
  iintro ⟨HOW, HSig⟩
  iapply (sig_step m ρ K c 0 0 20 25 rfl _ (Fin.ext (k0_dev21_eq c)) _ rfl) $$ [HOW HSig]
  · isplitr; · iexact HR
    isplitl [HOW]; · iexact HOW
    iexact HSig
  iintro ⟨HOW, HSig⟩
  iapply (sig_step m ρ K c 0 0 21 4 rfl _ (Fin.ext (k0_dev22_eq c)) _ rfl) $$ [HOW HSig]
  · isplitr; · iexact HR
    isplitl [HOW]; · iexact HOW
    iexact HSig
  iintro ⟨HOW, HSig⟩
  iapply (sig_step m ρ K c 0 0 22 26 rfl _ (Fin.ext (k0_dev23_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part5_run (c : Dev nD) (v2 : BitVec 32) (v96 : BitVec 32) (c32_i32_91 : BitVec 32) (Kt : (Σ' (v120 : BitVec 32), BitVec 32) → sProp 𝕄) :
    iprop(recs m ρ K ∗ OW c 0 0 23 ∗ bigSepL (todo 23) (sigItem c)
        ∗ (∀ ret, iprop(OW c 0 0 29 ∗ bigSepL (todo 29) (sigItem c)) -∗ Kt ret))
      ⊢ wp frame (wpE (defs₀ (F := F)) 𝒱₀ (c : Thread nD τ) none) Set.univ
          (k0_part5 xM (Memref.isWhole_whole _) oM (Memref.isWhole_whole _) rM (Memref.isWhole_whole _) cc0_scratch1 cc0_scratch2 cc0_scratch3 cc0_scratch4 c v2 (SemArray.scalar (sig.barrier 0 rfl) : Sems sig S_) v96 c32_i32_91) Kt := by
  rw [k0_part5_eq_skeleton]; unfold k0_part5_skel
  simp only [semSignalWord, semWaitWord, Prog.lift, Prog.bind_op, Prog.bind_ret, Prog.pure_eq_ret, wp_deviceId]
  iintro ⟨#HR, HOW, HSig, Hk⟩
  iapply (sig_step m ρ K c 0 0 23 3 rfl _ (Fin.ext (k0_dev24_eq c)) _ rfl) $$ [HOW HSig]
  · isplitr; · iexact HR
    isplitl [HOW]; · iexact HOW
    iexact HSig
  iintro ⟨HOW, HSig⟩
  iapply (sig_step m ρ K c 0 0 24 27 rfl _ (Fin.ext (k0_dev25_eq c)) _ rfl) $$ [HOW HSig]
  · isplitr; · iexact HR
    isplitl [HOW]; · iexact HOW
    iexact HSig
  iintro ⟨HOW, HSig⟩
  iapply (sig_step m ρ K c 0 0 25 2 rfl _ (Fin.ext (k0_dev26_eq c)) _ rfl) $$ [HOW HSig]
  · isplitr; · iexact HR
    isplitl [HOW]; · iexact HOW
    iexact HSig
  iintro ⟨HOW, HSig⟩
  iapply (sig_step m ρ K c 0 0 26 28 rfl _ (Fin.ext (k0_dev27_eq c)) _ rfl) $$ [HOW HSig]
  · isplitr; · iexact HR
    isplitl [HOW]; · iexact HOW
    iexact HSig
  iintro ⟨HOW, HSig⟩
  iapply (sig_step m ρ K c 0 0 27 1 rfl _ (Fin.ext (k0_dev28_eq c)) _ rfl) $$ [HOW HSig]
  · isplitr; · iexact HR
    isplitl [HOW]; · iexact HOW
    iexact HSig
  iintro ⟨HOW, HSig⟩
  iapply (sig_step m ρ K c 0 0 28 29 rfl _ (Fin.ext (k0_dev29_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part6_run (c : Dev nD) (v2 : BitVec 32) (v120 : BitVec 32) (c32_i32_116 : BitVec 32) (Kt : (Σ' (v129 : BitVec 32), BitVec 32) → sProp 𝕄) :
    iprop(recs m ρ K ∗ levAts L lv ∗ OW c 0 0 29 ∗ bigSepL (todo 29) (sigItem c) ∗ cred (tallyAt (barCell c) () 31) ∗ atPos ER (barCell c) 0 ∅ 0 ∗ bigSepL (todo 0) (rsTok m ρ c) ∗ bigSepL (done 0) (fun r => cred (tallyAt (rsS c r) () N8))
        ∗ (∀ ret, iprop(OW c 0 1 31 ∗ bigSepL (todo 31) (sigItem c) ∗ atPos ER (barCell c) 1 ∅ 0 ∗ bigSepL (todo 0) (fun r => iprop(∃ Y, ownsTc (peer c r) (oRows c) fullShare Y)) ∗ bigSepL (todo 1) (rsTok m ρ c) ∗ bigSepL (todo 1) (fun r => iprop(∃ Y, ownsTc (peer c r) (rSlot r) fullShare Y)) ∗ bigSepL (done 1) (fun r => cred (tallyAt (rsS c r) () N8))) -∗ Kt ret))
      ⊢ wp frame (wpE (defs₀ (F := F)) 𝒱₀ (c : Thread nD τ) none) Set.univ
          (k0_part6 xM (Memref.isWhole_whole _) oM (Memref.isWhole_whole _) rM (Memref.isWhole_whole _) cc0_scratch1 cc0_scratch2 cc0_scratch3 cc0_scratch4 c v2 (SemArray.scalar (sig.barrier 0 rfl) : Sems sig S_) v120 c32_i32_116) Kt := by
  rw [k0_part6_eq_skeleton]; unfold k0_part6_skel
  simp only [semSignalWord, semWaitWord, Prog.lift, Prog.bind_op, Prog.bind_ret, Prog.pure_eq_ret, wp_deviceId]
  iintro ⟨#HR, #Hlev, HOW, HSig, HBarC, HBarP, HRsT, HRsC, Hk⟩
  iapply (sig_step m ρ K c 0 0 29 0 rfl _ (Fin.ext (k0_dev30_eq c)) _ rfl) $$ [HOW HSig]
  · isplitr; · iexact HR
    isplitl [HOW]; · iexact HOW
    iexact HSig
  iintro ⟨HOW, HSig⟩
  iapply (sig_step m ρ K c 0 0 30 30 rfl _ (Fin.ext (k0_dev31_eq c)) _ rfl) $$ [HOW HSig]
  · isplitr; · iexact HR
    isplitl [HOW]; · iexact HOW
    iexact HSig
  iintro ⟨HOW, HSig⟩
  iapply (bar_step m ρ K c 0 0 _ rfl) $$ [HOW HBarC HBarP]
  · isplitr; · iexact HR
    isplitr; · iexact Hlev
    isplitl [HOW]; · iexact HOW
    isplitl [HBarC]; · iexact HBarC
    iexact HBarP
  iintro ⟨HOW, HBarP, HRsL, HAgL⟩
  iapply (rs_step m ρ K c 0 31 0 15 rfl rfl _ (Fin.ext (k0_dev32_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HSig]; · iexact HSig
  isplitl [HBarP]; · iexact HBarP
  isplitl [HAgL]; · iexact HAgL
  isplitl [HRsT]; · iexact HRsT
  isplitl [HRsL]; · iexact HRsL
  iexact HRsC

set_option maxHeartbeats 2000000 in
theorem part7_run (c : Dev nD) (v2 : BitVec 32) (Kt : (Σ' (v153 : BitVec 32) (v165 : BitVec 32), BitVec 32) → sProp 𝕄) :
    iprop(recs m ρ K ∗ OW c 0 1 31 ∗ bigSepL (todo 1) (rsTok m ρ c) ∗ bigSepL (todo 1) (fun r => iprop(∃ Y, ownsTc (peer c r) (rSlot r) fullShare Y)) ∗ bigSepL (done 1) (fun r => cred (tallyAt (rsS c r) () N8))
        ∗ (∀ ret, iprop(OW c 0 4 31 ∗ bigSepL (todo 4) (rsTok m ρ c) ∗ bigSepL (todo 4) (fun r => iprop(∃ Y, ownsTc (peer c r) (rSlot r) fullShare Y)) ∗ bigSepL (done 4) (fun r => cred (tallyAt (rsS c r) () N8))) -∗ Kt ret))
      ⊢ wp frame (wpE (defs₀ (F := F)) 𝒱₀ (c : Thread nD τ) none) Set.univ
          (k0_part7 xM (Memref.isWhole_whole _) oM (Memref.isWhole_whole _) rM (Memref.isWhole_whole _) cc0_scratch1 cc0_scratch2 cc0_scratch3 cc0_scratch4 c v2) Kt := by
  rw [k0_part7_eq_skeleton]; unfold k0_part7_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 1 14 rfl rfl _ (Fin.ext (k0_dev33_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 2 16 rfl rfl _ (Fin.ext (k0_dev34_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 3 13 rfl rfl _ (Fin.ext (k0_dev35_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part8_run (c : Dev nD) (v2 : BitVec 32) (v177 : BitVec 32) (Kt : (Σ' (v189 : BitVec 32), BitVec 32) → sProp 𝕄) :
    iprop(recs m ρ K ∗ OW c 0 4 31 ∗ bigSepL (todo 4) (rsTok m ρ c) ∗ bigSepL (todo 4) (fun r => iprop(∃ Y, ownsTc (peer c r) (rSlot r) fullShare Y)) ∗ bigSepL (done 4) (fun r => cred (tallyAt (rsS c r) () N8))
        ∗ (∀ ret, iprop(OW c 0 6 31 ∗ bigSepL (todo 6) (rsTok m ρ c) ∗ bigSepL (todo 6) (fun r => iprop(∃ Y, ownsTc (peer c r) (rSlot r) fullShare Y)) ∗ bigSepL (done 6) (fun r => cred (tallyAt (rsS c r) () N8))) -∗ Kt ret))
      ⊢ wp frame (wpE (defs₀ (F := F)) 𝒱₀ (c : Thread nD τ) none) Set.univ
          (k0_part8 xM (Memref.isWhole_whole _) oM (Memref.isWhole_whole _) rM (Memref.isWhole_whole _) cc0_scratch1 cc0_scratch2 cc0_scratch3 cc0_scratch4 c v2 v177) Kt := by
  rw [k0_part8_eq_skeleton]; unfold k0_part8_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 4 17 rfl rfl _ (Fin.ext (k0_dev36_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 5 12 rfl rfl _ (Fin.ext (k0_dev37_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part9_run (c : Dev nD) (v2 : BitVec 32) (Kt : (Σ' (v213 : BitVec 32) (v225 : BitVec 32), BitVec 32) → sProp 𝕄) :
    iprop(recs m ρ K ∗ OW c 0 6 31 ∗ bigSepL (todo 6) (rsTok m ρ c) ∗ bigSepL (todo 6) (fun r => iprop(∃ Y, ownsTc (peer c r) (rSlot r) fullShare Y)) ∗ bigSepL (done 6) (fun r => cred (tallyAt (rsS c r) () N8))
        ∗ (∀ ret, iprop(OW c 0 9 31 ∗ bigSepL (todo 9) (rsTok m ρ c) ∗ bigSepL (todo 9) (fun r => iprop(∃ Y, ownsTc (peer c r) (rSlot r) fullShare Y)) ∗ bigSepL (done 9) (fun r => cred (tallyAt (rsS c r) () N8))) -∗ Kt ret))
      ⊢ wp frame (wpE (defs₀ (F := F)) 𝒱₀ (c : Thread nD τ) none) Set.univ
          (k0_part9 xM (Memref.isWhole_whole _) oM (Memref.isWhole_whole _) rM (Memref.isWhole_whole _) cc0_scratch1 cc0_scratch2 cc0_scratch3 cc0_scratch4 c v2) Kt := by
  rw [k0_part9_eq_skeleton]; unfold k0_part9_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 6 18 rfl rfl _ (Fin.ext (k0_dev38_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 7 11 rfl rfl _ (Fin.ext (k0_dev39_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 8 19 rfl rfl _ (Fin.ext (k0_dev40_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part10_run (c : Dev nD) (v2 : BitVec 32) (v237 : BitVec 32) (Kt : (Σ' (v249 : BitVec 32), BitVec 32) → sProp 𝕄) :
    iprop(recs m ρ K ∗ OW c 0 9 31 ∗ bigSepL (todo 9) (rsTok m ρ c) ∗ bigSepL (todo 9) (fun r => iprop(∃ Y, ownsTc (peer c r) (rSlot r) fullShare Y)) ∗ bigSepL (done 9) (fun r => cred (tallyAt (rsS c r) () N8))
        ∗ (∀ ret, iprop(OW c 0 11 31 ∗ bigSepL (todo 11) (rsTok m ρ c) ∗ bigSepL (todo 11) (fun r => iprop(∃ Y, ownsTc (peer c r) (rSlot r) fullShare Y)) ∗ bigSepL (done 11) (fun r => cred (tallyAt (rsS c r) () N8))) -∗ Kt ret))
      ⊢ wp frame (wpE (defs₀ (F := F)) 𝒱₀ (c : Thread nD τ) none) Set.univ
          (k0_part10 xM (Memref.isWhole_whole _) oM (Memref.isWhole_whole _) rM (Memref.isWhole_whole _) cc0_scratch1 cc0_scratch2 cc0_scratch3 cc0_scratch4 c v2 v237) Kt := by
  rw [k0_part10_eq_skeleton]; unfold k0_part10_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 9 10 rfl rfl _ (Fin.ext (k0_dev41_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 10 20 rfl rfl _ (Fin.ext (k0_dev42_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part11_run (c : Dev nD) (v2 : BitVec 32) (Kt : (Σ' (v273 : BitVec 32) (v285 : BitVec 32), BitVec 32) → sProp 𝕄) :
    iprop(recs m ρ K ∗ OW c 0 11 31 ∗ bigSepL (todo 11) (rsTok m ρ c) ∗ bigSepL (todo 11) (fun r => iprop(∃ Y, ownsTc (peer c r) (rSlot r) fullShare Y)) ∗ bigSepL (done 11) (fun r => cred (tallyAt (rsS c r) () N8))
        ∗ (∀ ret, iprop(OW c 0 14 31 ∗ bigSepL (todo 14) (rsTok m ρ c) ∗ bigSepL (todo 14) (fun r => iprop(∃ Y, ownsTc (peer c r) (rSlot r) fullShare Y)) ∗ bigSepL (done 14) (fun r => cred (tallyAt (rsS c r) () N8))) -∗ Kt ret))
      ⊢ wp frame (wpE (defs₀ (F := F)) 𝒱₀ (c : Thread nD τ) none) Set.univ
          (k0_part11 xM (Memref.isWhole_whole _) oM (Memref.isWhole_whole _) rM (Memref.isWhole_whole _) cc0_scratch1 cc0_scratch2 cc0_scratch3 cc0_scratch4 c v2) Kt := by
  rw [k0_part11_eq_skeleton]; unfold k0_part11_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 11 9 rfl rfl _ (Fin.ext (k0_dev43_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 12 21 rfl rfl _ (Fin.ext (k0_dev44_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 13 8 rfl rfl _ (Fin.ext (k0_dev45_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part12_run (c : Dev nD) (v2 : BitVec 32) (v297 : BitVec 32) (Kt : (Σ' (v309 : BitVec 32), BitVec 32) → sProp 𝕄) :
    iprop(recs m ρ K ∗ OW c 0 14 31 ∗ bigSepL (todo 14) (rsTok m ρ c) ∗ bigSepL (todo 14) (fun r => iprop(∃ Y, ownsTc (peer c r) (rSlot r) fullShare Y)) ∗ bigSepL (done 14) (fun r => cred (tallyAt (rsS c r) () N8))
        ∗ (∀ ret, iprop(OW c 0 16 31 ∗ bigSepL (todo 16) (rsTok m ρ c) ∗ bigSepL (todo 16) (fun r => iprop(∃ Y, ownsTc (peer c r) (rSlot r) fullShare Y)) ∗ bigSepL (done 16) (fun r => cred (tallyAt (rsS c r) () N8))) -∗ Kt ret))
      ⊢ wp frame (wpE (defs₀ (F := F)) 𝒱₀ (c : Thread nD τ) none) Set.univ
          (k0_part12 xM (Memref.isWhole_whole _) oM (Memref.isWhole_whole _) rM (Memref.isWhole_whole _) cc0_scratch1 cc0_scratch2 cc0_scratch3 cc0_scratch4 c v2 v297) Kt := by
  rw [k0_part12_eq_skeleton]; unfold k0_part12_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 14 22 rfl rfl _ (Fin.ext (k0_dev46_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 15 7 rfl rfl _ (Fin.ext (k0_dev47_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part13_run (c : Dev nD) (v2 : BitVec 32) (Kt : (Σ' (v333 : BitVec 32) (v345 : BitVec 32), BitVec 32) → sProp 𝕄) :
    iprop(recs m ρ K ∗ OW c 0 16 31 ∗ bigSepL (todo 16) (rsTok m ρ c) ∗ bigSepL (todo 16) (fun r => iprop(∃ Y, ownsTc (peer c r) (rSlot r) fullShare Y)) ∗ bigSepL (done 16) (fun r => cred (tallyAt (rsS c r) () N8))
        ∗ (∀ ret, iprop(OW c 0 19 31 ∗ bigSepL (todo 19) (rsTok m ρ c) ∗ bigSepL (todo 19) (fun r => iprop(∃ Y, ownsTc (peer c r) (rSlot r) fullShare Y)) ∗ bigSepL (done 19) (fun r => cred (tallyAt (rsS c r) () N8))) -∗ Kt ret))
      ⊢ wp frame (wpE (defs₀ (F := F)) 𝒱₀ (c : Thread nD τ) none) Set.univ
          (k0_part13 xM (Memref.isWhole_whole _) oM (Memref.isWhole_whole _) rM (Memref.isWhole_whole _) cc0_scratch1 cc0_scratch2 cc0_scratch3 cc0_scratch4 c v2) Kt := by
  rw [k0_part13_eq_skeleton]; unfold k0_part13_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 16 23 rfl rfl _ (Fin.ext (k0_dev48_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 17 6 rfl rfl _ (Fin.ext (k0_dev49_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 18 24 rfl rfl _ (Fin.ext (k0_dev50_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part14_run (c : Dev nD) (v2 : BitVec 32) (v357 : BitVec 32) (Kt : (Σ' (v369 : BitVec 32), BitVec 32) → sProp 𝕄) :
    iprop(recs m ρ K ∗ OW c 0 19 31 ∗ bigSepL (todo 19) (rsTok m ρ c) ∗ bigSepL (todo 19) (fun r => iprop(∃ Y, ownsTc (peer c r) (rSlot r) fullShare Y)) ∗ bigSepL (done 19) (fun r => cred (tallyAt (rsS c r) () N8))
        ∗ (∀ ret, iprop(OW c 0 21 31 ∗ bigSepL (todo 21) (rsTok m ρ c) ∗ bigSepL (todo 21) (fun r => iprop(∃ Y, ownsTc (peer c r) (rSlot r) fullShare Y)) ∗ bigSepL (done 21) (fun r => cred (tallyAt (rsS c r) () N8))) -∗ Kt ret))
      ⊢ wp frame (wpE (defs₀ (F := F)) 𝒱₀ (c : Thread nD τ) none) Set.univ
          (k0_part14 xM (Memref.isWhole_whole _) oM (Memref.isWhole_whole _) rM (Memref.isWhole_whole _) cc0_scratch1 cc0_scratch2 cc0_scratch3 cc0_scratch4 c v2 v357) Kt := by
  rw [k0_part14_eq_skeleton]; unfold k0_part14_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 19 5 rfl rfl _ (Fin.ext (k0_dev51_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 20 25 rfl rfl _ (Fin.ext (k0_dev52_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part15_run (c : Dev nD) (v2 : BitVec 32) (Kt : (Σ' (v393 : BitVec 32) (v405 : BitVec 32), BitVec 32) → sProp 𝕄) :
    iprop(recs m ρ K ∗ OW c 0 21 31 ∗ bigSepL (todo 21) (rsTok m ρ c) ∗ bigSepL (todo 21) (fun r => iprop(∃ Y, ownsTc (peer c r) (rSlot r) fullShare Y)) ∗ bigSepL (done 21) (fun r => cred (tallyAt (rsS c r) () N8))
        ∗ (∀ ret, iprop(OW c 0 24 31 ∗ bigSepL (todo 24) (rsTok m ρ c) ∗ bigSepL (todo 24) (fun r => iprop(∃ Y, ownsTc (peer c r) (rSlot r) fullShare Y)) ∗ bigSepL (done 24) (fun r => cred (tallyAt (rsS c r) () N8))) -∗ Kt ret))
      ⊢ wp frame (wpE (defs₀ (F := F)) 𝒱₀ (c : Thread nD τ) none) Set.univ
          (k0_part15 xM (Memref.isWhole_whole _) oM (Memref.isWhole_whole _) rM (Memref.isWhole_whole _) cc0_scratch1 cc0_scratch2 cc0_scratch3 cc0_scratch4 c v2) Kt := by
  rw [k0_part15_eq_skeleton]; unfold k0_part15_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 21 4 rfl rfl _ (Fin.ext (k0_dev53_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 22 26 rfl rfl _ (Fin.ext (k0_dev54_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 23 3 rfl rfl _ (Fin.ext (k0_dev55_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part16_run (c : Dev nD) (v2 : BitVec 32) (v417 : BitVec 32) (Kt : (Σ' (v429 : BitVec 32), BitVec 32) → sProp 𝕄) :
    iprop(recs m ρ K ∗ OW c 0 24 31 ∗ bigSepL (todo 24) (rsTok m ρ c) ∗ bigSepL (todo 24) (fun r => iprop(∃ Y, ownsTc (peer c r) (rSlot r) fullShare Y)) ∗ bigSepL (done 24) (fun r => cred (tallyAt (rsS c r) () N8))
        ∗ (∀ ret, iprop(OW c 0 26 31 ∗ bigSepL (todo 26) (rsTok m ρ c) ∗ bigSepL (todo 26) (fun r => iprop(∃ Y, ownsTc (peer c r) (rSlot r) fullShare Y)) ∗ bigSepL (done 26) (fun r => cred (tallyAt (rsS c r) () N8))) -∗ Kt ret))
      ⊢ wp frame (wpE (defs₀ (F := F)) 𝒱₀ (c : Thread nD τ) none) Set.univ
          (k0_part16 xM (Memref.isWhole_whole _) oM (Memref.isWhole_whole _) rM (Memref.isWhole_whole _) cc0_scratch1 cc0_scratch2 cc0_scratch3 cc0_scratch4 c v2 v417) Kt := by
  rw [k0_part16_eq_skeleton]; unfold k0_part16_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 24 27 rfl rfl _ (Fin.ext (k0_dev56_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 25 2 rfl rfl _ (Fin.ext (k0_dev57_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part17_run (c : Dev nD) (v2 : BitVec 32) (Kt : (Σ' (v453 : BitVec 32) (v465 : BitVec 32), BitVec 32) → sProp 𝕄) :
    iprop(recs m ρ K ∗ OW c 0 26 31 ∗ bigSepL (todo 26) (rsTok m ρ c) ∗ bigSepL (todo 26) (fun r => iprop(∃ Y, ownsTc (peer c r) (rSlot r) fullShare Y)) ∗ bigSepL (done 26) (fun r => cred (tallyAt (rsS c r) () N8))
        ∗ (∀ ret, iprop(OW c 0 29 31 ∗ bigSepL (todo 29) (rsTok m ρ c) ∗ bigSepL (todo 29) (fun r => iprop(∃ Y, ownsTc (peer c r) (rSlot r) fullShare Y)) ∗ bigSepL (done 29) (fun r => cred (tallyAt (rsS c r) () N8))) -∗ Kt ret))
      ⊢ wp frame (wpE (defs₀ (F := F)) 𝒱₀ (c : Thread nD τ) none) Set.univ
          (k0_part17 xM (Memref.isWhole_whole _) oM (Memref.isWhole_whole _) rM (Memref.isWhole_whole _) cc0_scratch1 cc0_scratch2 cc0_scratch3 cc0_scratch4 c v2) Kt := by
  rw [k0_part17_eq_skeleton]; unfold k0_part17_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 26 28 rfl rfl _ (Fin.ext (k0_dev58_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 27 1 rfl rfl _ (Fin.ext (k0_dev59_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 28 29 rfl rfl _ (Fin.ext (k0_dev60_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part18_run (c : Dev nD) (v2 : BitVec 32) (v129 : BitVec 32) (v477 : BitVec 32) (Kt : (BitVec 32) → sProp 𝕄) :
    iprop(recs m ρ K ∗ levAts L lv ∗ OW c 0 29 31 ∗ bigSepL (todo 29) (rsTok m ρ c) ∗ bigSepL (todo 29) (fun r => iprop(∃ Y, ownsTc (peer c r) (rSlot r) fullShare Y)) ∗ bigSepL (done 29) (fun r => cred (tallyAt (rsS c r) () N8)) ∗ bigSepL (todo 0) (fun r => cred (tallyAt (dcell c 1 r.succ) () N8)) ∗ bigSepL (todo 0) (fun r => atPos ER (dcell c 1 r.succ) 0 ∅ 0) ∗ bigSepL (done 0) (gotItem m ρ c 1)
        ∗ (∀ ret, iprop(OW c 0 31 31 ∗ bigSepL (todo 31) (rsTok m ρ c) ∗ bigSepL (todo 31) (fun r => iprop(∃ Y, ownsTc (peer c r) (rSlot r) fullShare Y)) ∗ bigSepL (done 31) (fun r => cred (tallyAt (rsS c r) () N8)) ∗ bigSepL (todo 1) (fun r => cred (tallyAt (dcell c 1 r.succ) () N8)) ∗ bigSepL (todo 1) (fun r => atPos ER (dcell c 1 r.succ) 0 ∅ 0) ∗ bigSepL (done 1) (gotItem m ρ c 1)) -∗ Kt ret))
      ⊢ wp frame (wpE (defs₀ (F := F)) 𝒱₀ (c : Thread nD τ) none) Set.univ
          (k0_part18 xM (Memref.isWhole_whole _) oM (Memref.isWhole_whole _) rM (Memref.isWhole_whole _) cc0_scratch1 cc0_scratch2 cc0_scratch3 cc0_scratch4 c v2 v129 v477) Kt := by
  rw [k0_part18_eq_skeleton]; unfold k0_part18_skel
  simp only [semSignalWord, semWaitWord, Prog.lift, Prog.bind_op, Prog.bind_ret, Prog.pure_eq_ret, wp_deviceId]
  iintro ⟨#HR, #Hlev, HOW, HRsT, HRsL, HRsC, HW1C, HW1P, HW1G, Hk⟩
  iapply (rs_step m ρ K c 0 31 29 0 rfl rfl _ (Fin.ext (k0_dev61_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 30 30 rfl rfl _ (Fin.ext (k0_dev62_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (wait_step m ρ K c 1 0 31 31 (fun r => by rw [show todo 31 = [] from by decide]; exact mayWait_rsR c r (todo 0)) 0 15 rfl rfl _ rfl (dst := rSlot 15) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HRsT]; · iexact HRsT
  isplitl [HRsL]; · iexact HRsL
  isplitl [HRsC]; · iexact HRsC
  isplitl [HW1C]; · iexact HW1C
  isplitl [HW1P]; · iexact HW1P
  iexact HW1G

set_option maxHeartbeats 2000000 in
theorem part19_run (c : Dev nD) (v141 : BitVec 32) (v153 : BitVec 32) (v165 : BitVec 32) (v177 : BitVec 32) (Kt : (PUnit) → sProp 𝕄) :
    iprop(recs m ρ K ∗ levAts L lv ∗ OW c 0 31 31 ∗ bigSepL (todo 1) (fun r => cred (tallyAt (dcell c 1 r.succ) () N8)) ∗ bigSepL (todo 1) (fun r => atPos ER (dcell c 1 r.succ) 0 ∅ 0) ∗ bigSepL (done 1) (gotItem m ρ c 1)
        ∗ (∀ ret, iprop(OW c 0 31 31 ∗ bigSepL (todo 4) (fun r => cred (tallyAt (dcell c 1 r.succ) () N8)) ∗ bigSepL (todo 4) (fun r => atPos ER (dcell c 1 r.succ) 0 ∅ 0) ∗ bigSepL (done 4) (gotItem m ρ c 1)) -∗ Kt ret))
      ⊢ wp frame (wpE (defs₀ (F := F)) 𝒱₀ (c : Thread nD τ) none) Set.univ
          (k0_part19 xM (Memref.isWhole_whole _) oM (Memref.isWhole_whole _) rM (Memref.isWhole_whole _) cc0_scratch1 cc0_scratch2 cc0_scratch3 cc0_scratch4 c v141 v153 v165 v177) Kt := by
  rw [k0_part19_eq_skeleton]; unfold k0_part19_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 1 14 rfl rfl _ rfl (dst := rSlot 14) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 2 16 rfl rfl _ rfl (dst := rSlot 16) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 3 13 rfl rfl _ rfl (dst := rSlot 13) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part20_run (c : Dev nD) (v189 : BitVec 32) (v201 : BitVec 32) (v213 : BitVec 32) (v225 : BitVec 32) (Kt : (PUnit) → sProp 𝕄) :
    iprop(recs m ρ K ∗ levAts L lv ∗ OW c 0 31 31 ∗ bigSepL (todo 4) (fun r => cred (tallyAt (dcell c 1 r.succ) () N8)) ∗ bigSepL (todo 4) (fun r => atPos ER (dcell c 1 r.succ) 0 ∅ 0) ∗ bigSepL (done 4) (gotItem m ρ c 1)
        ∗ (∀ ret, iprop(OW c 0 31 31 ∗ bigSepL (todo 8) (fun r => cred (tallyAt (dcell c 1 r.succ) () N8)) ∗ bigSepL (todo 8) (fun r => atPos ER (dcell c 1 r.succ) 0 ∅ 0) ∗ bigSepL (done 8) (gotItem m ρ c 1)) -∗ Kt ret))
      ⊢ wp frame (wpE (defs₀ (F := F)) 𝒱₀ (c : Thread nD τ) none) Set.univ
          (k0_part20 xM (Memref.isWhole_whole _) oM (Memref.isWhole_whole _) rM (Memref.isWhole_whole _) cc0_scratch1 cc0_scratch2 cc0_scratch3 cc0_scratch4 c v189 v201 v213 v225) Kt := by
  rw [k0_part20_eq_skeleton]; unfold k0_part20_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 4 17 rfl rfl _ rfl (dst := rSlot 17) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 5 12 rfl rfl _ rfl (dst := rSlot 12) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 6 18 rfl rfl _ rfl (dst := rSlot 18) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 7 11 rfl rfl _ rfl (dst := rSlot 11) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part21_run (c : Dev nD) (v237 : BitVec 32) (v249 : BitVec 32) (v261 : BitVec 32) (Kt : (BitVec 32) → sProp 𝕄) :
    iprop(recs m ρ K ∗ levAts L lv ∗ OW c 0 31 31 ∗ bigSepL (todo 8) (fun r => cred (tallyAt (dcell c 1 r.succ) () N8)) ∗ bigSepL (todo 8) (fun r => atPos ER (dcell c 1 r.succ) 0 ∅ 0) ∗ bigSepL (done 8) (gotItem m ρ c 1)
        ∗ (∀ ret, iprop(OW c 0 31 31 ∗ bigSepL (todo 12) (fun r => cred (tallyAt (dcell c 1 r.succ) () N8)) ∗ bigSepL (todo 12) (fun r => atPos ER (dcell c 1 r.succ) 0 ∅ 0) ∗ bigSepL (done 12) (gotItem m ρ c 1)) -∗ Kt ret))
      ⊢ wp frame (wpE (defs₀ (F := F)) 𝒱₀ (c : Thread nD τ) none) Set.univ
          (k0_part21 xM (Memref.isWhole_whole _) oM (Memref.isWhole_whole _) rM (Memref.isWhole_whole _) cc0_scratch1 cc0_scratch2 cc0_scratch3 cc0_scratch4 c v237 v249 v261) Kt := by
  rw [k0_part21_eq_skeleton]; unfold k0_part21_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 8 19 rfl rfl _ rfl (dst := rSlot 19) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 9 10 rfl rfl _ rfl (dst := rSlot 10) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 10 20 rfl rfl _ rfl (dst := rSlot 20) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 11 9 rfl rfl _ rfl (dst := rSlot 9) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part22_run (c : Dev nD) (v273 : BitVec 32) (v285 : BitVec 32) (v297 : BitVec 32) (v309 : BitVec 32) (c1_i32_565 : BitVec 32) (Kt : (PUnit) → sProp 𝕄) :
    iprop(recs m ρ K ∗ levAts L lv ∗ OW c 0 31 31 ∗ bigSepL (todo 12) (fun r => cred (tallyAt (dcell c 1 r.succ) () N8)) ∗ bigSepL (todo 12) (fun r => atPos ER (dcell c 1 r.succ) 0 ∅ 0) ∗ bigSepL (done 12) (gotItem m ρ c 1)
        ∗ (∀ ret, iprop(OW c 0 31 31 ∗ bigSepL (todo 16) (fun r => cred (tallyAt (dcell c 1 r.succ) () N8)) ∗ bigSepL (todo 16) (fun r => atPos ER (dcell c 1 r.succ) 0 ∅ 0) ∗ bigSepL (done 16) (gotItem m ρ c 1)) -∗ Kt ret))
      ⊢ wp frame (wpE (defs₀ (F := F)) 𝒱₀ (c : Thread nD τ) none) Set.univ
          (k0_part22 xM (Memref.isWhole_whole _) oM (Memref.isWhole_whole _) rM (Memref.isWhole_whole _) cc0_scratch1 cc0_scratch2 cc0_scratch3 cc0_scratch4 c v273 v285 v297 v309 c1_i32_565) Kt := by
  rw [k0_part22_eq_skeleton]; unfold k0_part22_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 12 21 rfl rfl _ rfl (dst := rSlot 21) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 13 8 rfl rfl _ rfl (dst := rSlot 8) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 14 22 rfl rfl _ rfl (dst := rSlot 22) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 15 7 rfl rfl _ rfl (dst := rSlot 7) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part23_run (c : Dev nD) (v321 : BitVec 32) (v333 : BitVec 32) (v345 : BitVec 32) (v357 : BitVec 32) (Kt : (PUnit) → sProp 𝕄) :
    iprop(recs m ρ K ∗ levAts L lv ∗ OW c 0 31 31 ∗ bigSepL (todo 16) (fun r => cred (tallyAt (dcell c 1 r.succ) () N8)) ∗ bigSepL (todo 16) (fun r => atPos ER (dcell c 1 r.succ) 0 ∅ 0) ∗ bigSepL (done 16) (gotItem m ρ c 1)
        ∗ (∀ ret, iprop(OW c 0 31 31 ∗ bigSepL (todo 19) (fun r => cred (tallyAt (dcell c 1 r.succ) () N8)) ∗ bigSepL (todo 19) (fun r => atPos ER (dcell c 1 r.succ) 0 ∅ 0) ∗ bigSepL (done 19) (gotItem m ρ c 1)) -∗ Kt ret))
      ⊢ wp frame (wpE (defs₀ (F := F)) 𝒱₀ (c : Thread nD τ) none) Set.univ
          (k0_part23 xM (Memref.isWhole_whole _) oM (Memref.isWhole_whole _) rM (Memref.isWhole_whole _) cc0_scratch1 cc0_scratch2 cc0_scratch3 cc0_scratch4 c v321 v333 v345 v357) Kt := by
  rw [k0_part23_eq_skeleton]; unfold k0_part23_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 16 23 rfl rfl _ rfl (dst := rSlot 23) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 17 6 rfl rfl _ rfl (dst := rSlot 6) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 18 24 rfl rfl _ rfl (dst := rSlot 24) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part24_run (c : Dev nD) (v369 : BitVec 32) (v381 : BitVec 32) (v393 : BitVec 32) (v405 : BitVec 32) (Kt : (PUnit) → sProp 𝕄) :
    iprop(recs m ρ K ∗ levAts L lv ∗ OW c 0 31 31 ∗ bigSepL (todo 19) (fun r => cred (tallyAt (dcell c 1 r.succ) () N8)) ∗ bigSepL (todo 19) (fun r => atPos ER (dcell c 1 r.succ) 0 ∅ 0) ∗ bigSepL (done 19) (gotItem m ρ c 1)
        ∗ (∀ ret, iprop(OW c 0 31 31 ∗ bigSepL (todo 23) (fun r => cred (tallyAt (dcell c 1 r.succ) () N8)) ∗ bigSepL (todo 23) (fun r => atPos ER (dcell c 1 r.succ) 0 ∅ 0) ∗ bigSepL (done 23) (gotItem m ρ c 1)) -∗ Kt ret))
      ⊢ wp frame (wpE (defs₀ (F := F)) 𝒱₀ (c : Thread nD τ) none) Set.univ
          (k0_part24 xM (Memref.isWhole_whole _) oM (Memref.isWhole_whole _) rM (Memref.isWhole_whole _) cc0_scratch1 cc0_scratch2 cc0_scratch3 cc0_scratch4 c v369 v381 v393 v405) Kt := by
  rw [k0_part24_eq_skeleton]; unfold k0_part24_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 19 5 rfl rfl _ rfl (dst := rSlot 5) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 20 25 rfl rfl _ rfl (dst := rSlot 25) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 21 4 rfl rfl _ rfl (dst := rSlot 4) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 22 26 rfl rfl _ rfl (dst := rSlot 26) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part25_run (c : Dev nD) (v417 : BitVec 32) (v429 : BitVec 32) (v441 : BitVec 32) (Kt : (BitVec 32) → sProp 𝕄) :
    iprop(recs m ρ K ∗ levAts L lv ∗ OW c 0 31 31 ∗ bigSepL (todo 23) (fun r => cred (tallyAt (dcell c 1 r.succ) () N8)) ∗ bigSepL (todo 23) (fun r => atPos ER (dcell c 1 r.succ) 0 ∅ 0) ∗ bigSepL (done 23) (gotItem m ρ c 1)
        ∗ (∀ ret, iprop(OW c 0 31 31 ∗ bigSepL (todo 27) (fun r => cred (tallyAt (dcell c 1 r.succ) () N8)) ∗ bigSepL (todo 27) (fun r => atPos ER (dcell c 1 r.succ) 0 ∅ 0) ∗ bigSepL (done 27) (gotItem m ρ c 1)) -∗ Kt ret))
      ⊢ wp frame (wpE (defs₀ (F := F)) 𝒱₀ (c : Thread nD τ) none) Set.univ
          (k0_part25 xM (Memref.isWhole_whole _) oM (Memref.isWhole_whole _) rM (Memref.isWhole_whole _) cc0_scratch1 cc0_scratch2 cc0_scratch3 cc0_scratch4 c v417 v429 v441) Kt := by
  rw [k0_part25_eq_skeleton]; unfold k0_part25_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 23 3 rfl rfl _ rfl (dst := rSlot 3) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 24 27 rfl rfl _ rfl (dst := rSlot 27) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 25 2 rfl rfl _ rfl (dst := rSlot 2) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 26 28 rfl rfl _ rfl (dst := rSlot 28) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part26_run (c : Dev nD) (v453 : BitVec 32) (v465 : BitVec 32) (v477 : BitVec 32) (v489 : BitVec 32) (c1_i32_685 : BitVec 32) (Kt : (PUnit) → sProp 𝕄) :
    iprop(recs m ρ K ∗ levAts L lv ∗ OW c 0 31 31 ∗ bigSepL (todo 27) (fun r => cred (tallyAt (dcell c 1 r.succ) () N8)) ∗ bigSepL (todo 27) (fun r => atPos ER (dcell c 1 r.succ) 0 ∅ 0) ∗ bigSepL (done 27) (gotItem m ρ c 1)
        ∗ (∀ ret, iprop(OW c 0 31 31 ∗ bigSepL (todo 31) (fun r => cred (tallyAt (dcell c 1 r.succ) () N8)) ∗ bigSepL (todo 31) (fun r => atPos ER (dcell c 1 r.succ) 0 ∅ 0) ∗ bigSepL (done 31) (gotItem m ρ c 1)) -∗ Kt ret))
      ⊢ wp frame (wpE (defs₀ (F := F)) 𝒱₀ (c : Thread nD τ) none) Set.univ
          (k0_part26 xM (Memref.isWhole_whole _) oM (Memref.isWhole_whole _) rM (Memref.isWhole_whole _) cc0_scratch1 cc0_scratch2 cc0_scratch3 cc0_scratch4 c v453 v465 v477 v489 c1_i32_685) Kt := by
  rw [k0_part26_eq_skeleton]; unfold k0_part26_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 27 1 rfl rfl _ rfl (dst := rSlot 1) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 28 29 rfl rfl _ rfl (dst := rSlot 29) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 29 0 rfl rfl _ rfl (dst := rSlot 0) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 30 30 rfl rfl _ rfl (dst := rSlot 30) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part27_run (c : Dev nD) (v2 : BitVec 32) (Kt : (Σ' (v728 : BitVec 32), BitVec 32) → sProp 𝕄) :
    iprop(recs m ρ K ∗ OW c 0 31 31 ∗ bigSepL (done 31) (gotItem m ρ c 1) ∗ ownsTc c (xOwn c) fullShare (xOwnBlk m ρ c) ∗ iprop(∃ Y, ownsTc c (oRows c) fullShare Y) ∗ bigSepL ord (agTok0 c) ∗ bigSepL (todo 0) (fun r => iprop(∃ Y, ownsTc (peer c r) (oRows c) fullShare Y)) ∗ bigSepL (done 0) (fun r => cred (tallyAt (agS c r) () N8))
        ∗ (∀ ret, iprop(OW c 1 31 31 ∗ ownsTc c rM fullShare (rsAll m ρ c) ∗ bigSepL (done 31) (fun r => atPos ER (dcell c 1 r.succ) 1 ∅ 0) ∗ ownsTc c (xOwn c) fullShare (xOwnBlk m ρ c) ∗ ownsTc c (oRows c) (Transfers.shareDrop fullShare 31) (red m ρ c) ∗ bigSepL (todo 1) (agTok m ρ c) ∗ bigSepL (todo 1) (fun r => iprop(∃ Y, ownsTc (peer c r) (oRows c) fullShare Y)) ∗ bigSepL (done 1) (fun r => cred (tallyAt (agS c r) () N8))) -∗ Kt ret))
      ⊢ wp frame (wpE (defs₀ (F := F)) 𝒱₀ (c : Thread nD τ) none) Set.univ
          (k0_part27 xM (Memref.isWhole_whole _) oM (Memref.isWhole_whole _) rM (Memref.isWhole_whole _) cc0_scratch1 cc0_scratch2 cc0_scratch3 cc0_scratch4 c v2) Kt := by
  rw [k0_part27_eq_skeleton]; unfold k0_part27_skel
  simp only [semSignalWord, semWaitWord, Prog.lift, Prog.bind_op, Prog.bind_ret, Prog.pure_eq_ret, wp_deviceId]
  iintro ⟨#HR, HOW, HW1G, HxOwn, HoOwn, HAgT0, HAgL, HAgC, Hk⟩
  iapply (mid_run m ρ c) $$ [HW1G HxOwn HoOwn HAgT0]
  · isplitl [HW1G]; · iexact HW1G
    isplitl [HxOwn]; · iexact HxOwn
    isplitl [HoOwn]; · iexact HoOwn
    iexact HAgT0
  iintro ⟨HrM, HW1Pos, HxOwn, HoRest, HAgT⟩
  iapply (ag_step m ρ K c 31 31 0 15 rfl rfl _ (Fin.ext (k0_dev63_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HrM]; · iexact HrM
  isplitl [HW1Pos]; · iexact HW1Pos
  isplitl [HxOwn]; · iexact HxOwn
  isplitl [HoRest]; · iexact HoRest
  isplitl [HAgT]; · iexact HAgT
  isplitl [HAgL]; · iexact HAgL
  iexact HAgC

set_option maxHeartbeats 2000000 in
theorem part28_run (c : Dev nD) (v2 : BitVec 32) (Kt : (Σ' (v752 : BitVec 32) (v764 : BitVec 32), BitVec 32) → sProp 𝕄) :
    iprop(recs m ρ K ∗ OW c 1 31 31 ∗ bigSepL (todo 1) (agTok m ρ c) ∗ bigSepL (todo 1) (fun r => iprop(∃ Y, ownsTc (peer c r) (oRows c) fullShare Y)) ∗ bigSepL (done 1) (fun r => cred (tallyAt (agS c r) () N8))
        ∗ (∀ ret, iprop(OW c 4 31 31 ∗ bigSepL (todo 4) (agTok m ρ c) ∗ bigSepL (todo 4) (fun r => iprop(∃ Y, ownsTc (peer c r) (oRows c) fullShare Y)) ∗ bigSepL (done 4) (fun r => cred (tallyAt (agS c r) () N8))) -∗ Kt ret))
      ⊢ wp frame (wpE (defs₀ (F := F)) 𝒱₀ (c : Thread nD τ) none) Set.univ
          (k0_part28 xM (Memref.isWhole_whole _) oM (Memref.isWhole_whole _) rM (Memref.isWhole_whole _) cc0_scratch1 cc0_scratch2 cc0_scratch3 cc0_scratch4 c v2) Kt := by
  rw [k0_part28_eq_skeleton]; unfold k0_part28_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 1 14 rfl rfl _ (Fin.ext (k0_dev64_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 2 16 rfl rfl _ (Fin.ext (k0_dev65_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 3 13 rfl rfl _ (Fin.ext (k0_dev66_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part29_run (c : Dev nD) (v2 : BitVec 32) (v776 : BitVec 32) (Kt : (Σ' (v788 : BitVec 32), BitVec 32) → sProp 𝕄) :
    iprop(recs m ρ K ∗ OW c 4 31 31 ∗ bigSepL (todo 4) (agTok m ρ c) ∗ bigSepL (todo 4) (fun r => iprop(∃ Y, ownsTc (peer c r) (oRows c) fullShare Y)) ∗ bigSepL (done 4) (fun r => cred (tallyAt (agS c r) () N8))
        ∗ (∀ ret, iprop(OW c 7 31 31 ∗ bigSepL (todo 7) (agTok m ρ c) ∗ bigSepL (todo 7) (fun r => iprop(∃ Y, ownsTc (peer c r) (oRows c) fullShare Y)) ∗ bigSepL (done 7) (fun r => cred (tallyAt (agS c r) () N8))) -∗ Kt ret))
      ⊢ wp frame (wpE (defs₀ (F := F)) 𝒱₀ (c : Thread nD τ) none) Set.univ
          (k0_part29 xM (Memref.isWhole_whole _) oM (Memref.isWhole_whole _) rM (Memref.isWhole_whole _) cc0_scratch1 cc0_scratch2 cc0_scratch3 cc0_scratch4 c v2 v776) Kt := by
  rw [k0_part29_eq_skeleton]; unfold k0_part29_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 4 17 rfl rfl _ (Fin.ext (k0_dev67_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 5 12 rfl rfl _ (Fin.ext (k0_dev68_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 6 18 rfl rfl _ (Fin.ext (k0_dev69_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part30_run (c : Dev nD) (v2 : BitVec 32) (Kt : (Σ' (v812 : BitVec 32) (v824 : BitVec 32), BitVec 32) → sProp 𝕄) :
    iprop(recs m ρ K ∗ OW c 7 31 31 ∗ bigSepL (todo 7) (agTok m ρ c) ∗ bigSepL (todo 7) (fun r => iprop(∃ Y, ownsTc (peer c r) (oRows c) fullShare Y)) ∗ bigSepL (done 7) (fun r => cred (tallyAt (agS c r) () N8))
        ∗ (∀ ret, iprop(OW c 9 31 31 ∗ bigSepL (todo 9) (agTok m ρ c) ∗ bigSepL (todo 9) (fun r => iprop(∃ Y, ownsTc (peer c r) (oRows c) fullShare Y)) ∗ bigSepL (done 9) (fun r => cred (tallyAt (agS c r) () N8))) -∗ Kt ret))
      ⊢ wp frame (wpE (defs₀ (F := F)) 𝒱₀ (c : Thread nD τ) none) Set.univ
          (k0_part30 xM (Memref.isWhole_whole _) oM (Memref.isWhole_whole _) rM (Memref.isWhole_whole _) cc0_scratch1 cc0_scratch2 cc0_scratch3 cc0_scratch4 c v2) Kt := by
  rw [k0_part30_eq_skeleton]; unfold k0_part30_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 7 11 rfl rfl _ (Fin.ext (k0_dev70_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 8 19 rfl rfl _ (Fin.ext (k0_dev71_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part31_run (c : Dev nD) (v2 : BitVec 32) (Kt : (Σ' (v848 : BitVec 32) (v860 : BitVec 32) (v872 : BitVec 32), BitVec 32) → sProp 𝕄) :
    iprop(recs m ρ K ∗ OW c 9 31 31 ∗ bigSepL (todo 9) (agTok m ρ c) ∗ bigSepL (todo 9) (fun r => iprop(∃ Y, ownsTc (peer c r) (oRows c) fullShare Y)) ∗ bigSepL (done 9) (fun r => cred (tallyAt (agS c r) () N8))
        ∗ (∀ ret, iprop(OW c 12 31 31 ∗ bigSepL (todo 12) (agTok m ρ c) ∗ bigSepL (todo 12) (fun r => iprop(∃ Y, ownsTc (peer c r) (oRows c) fullShare Y)) ∗ bigSepL (done 12) (fun r => cred (tallyAt (agS c r) () N8))) -∗ Kt ret))
      ⊢ wp frame (wpE (defs₀ (F := F)) 𝒱₀ (c : Thread nD τ) none) Set.univ
          (k0_part31 xM (Memref.isWhole_whole _) oM (Memref.isWhole_whole _) rM (Memref.isWhole_whole _) cc0_scratch1 cc0_scratch2 cc0_scratch3 cc0_scratch4 c v2) Kt := by
  rw [k0_part31_eq_skeleton]; unfold k0_part31_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 9 10 rfl rfl _ (Fin.ext (k0_dev72_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 10 20 rfl rfl _ (Fin.ext (k0_dev73_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 11 9 rfl rfl _ (Fin.ext (k0_dev74_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part32_run (c : Dev nD) (v2 : BitVec 32) (v872 : BitVec 32) (c8_i32_842 : BitVec 32) (Kt : (Σ' (v884 : BitVec 32), BitVec 32) → sProp 𝕄) :
    iprop(recs m ρ K ∗ OW c 12 31 31 ∗ bigSepL (todo 12) (agTok m ρ c) ∗ bigSepL (todo 12) (fun r => iprop(∃ Y, ownsTc (peer c r) (oRows c) fullShare Y)) ∗ bigSepL (done 12) (fun r => cred (tallyAt (agS c r) () N8))
        ∗ (∀ ret, iprop(OW c 14 31 31 ∗ bigSepL (todo 14) (agTok m ρ c) ∗ bigSepL (todo 14) (fun r => iprop(∃ Y, ownsTc (peer c r) (oRows c) fullShare Y)) ∗ bigSepL (done 14) (fun r => cred (tallyAt (agS c r) () N8))) -∗ Kt ret))
      ⊢ wp frame (wpE (defs₀ (F := F)) 𝒱₀ (c : Thread nD τ) none) Set.univ
          (k0_part32 xM (Memref.isWhole_whole _) oM (Memref.isWhole_whole _) rM (Memref.isWhole_whole _) cc0_scratch1 cc0_scratch2 cc0_scratch3 cc0_scratch4 c v2 v872 c8_i32_842) Kt := by
  rw [k0_part32_eq_skeleton]; unfold k0_part32_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 12 21 rfl rfl _ (Fin.ext (k0_dev75_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 13 8 rfl rfl _ (Fin.ext (k0_dev76_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part33_run (c : Dev nD) (v2 : BitVec 32) (Kt : (Σ' (v908 : BitVec 32) (v920 : BitVec 32), BitVec 32) → sProp 𝕄) :
    iprop(recs m ρ K ∗ OW c 14 31 31 ∗ bigSepL (todo 14) (agTok m ρ c) ∗ bigSepL (todo 14) (fun r => iprop(∃ Y, ownsTc (peer c r) (oRows c) fullShare Y)) ∗ bigSepL (done 14) (fun r => cred (tallyAt (agS c r) () N8))
        ∗ (∀ ret, iprop(OW c 17 31 31 ∗ bigSepL (todo 17) (agTok m ρ c) ∗ bigSepL (todo 17) (fun r => iprop(∃ Y, ownsTc (peer c r) (oRows c) fullShare Y)) ∗ bigSepL (done 17) (fun r => cred (tallyAt (agS c r) () N8))) -∗ Kt ret))
      ⊢ wp frame (wpE (defs₀ (F := F)) 𝒱₀ (c : Thread nD τ) none) Set.univ
          (k0_part33 xM (Memref.isWhole_whole _) oM (Memref.isWhole_whole _) rM (Memref.isWhole_whole _) cc0_scratch1 cc0_scratch2 cc0_scratch3 cc0_scratch4 c v2) Kt := by
  rw [k0_part33_eq_skeleton]; unfold k0_part33_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 14 22 rfl rfl _ (Fin.ext (k0_dev77_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 15 7 rfl rfl _ (Fin.ext (k0_dev78_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 16 23 rfl rfl _ (Fin.ext (k0_dev79_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part34_run (c : Dev nD) (v2 : BitVec 32) (v932 : BitVec 32) (Kt : (Σ' (v944 : BitVec 32) (v956 : BitVec 32), BitVec 32) → sProp 𝕄) :
    iprop(recs m ρ K ∗ OW c 17 31 31 ∗ bigSepL (todo 17) (agTok m ρ c) ∗ bigSepL (todo 17) (fun r => iprop(∃ Y, ownsTc (peer c r) (oRows c) fullShare Y)) ∗ bigSepL (done 17) (fun r => cred (tallyAt (agS c r) () N8))
        ∗ (∀ ret, iprop(OW c 20 31 31 ∗ bigSepL (todo 20) (agTok m ρ c) ∗ bigSepL (todo 20) (fun r => iprop(∃ Y, ownsTc (peer c r) (oRows c) fullShare Y)) ∗ bigSepL (done 20) (fun r => cred (tallyAt (agS c r) () N8))) -∗ Kt ret))
      ⊢ wp frame (wpE (defs₀ (F := F)) 𝒱₀ (c : Thread nD τ) none) Set.univ
          (k0_part34 xM (Memref.isWhole_whole _) oM (Memref.isWhole_whole _) rM (Memref.isWhole_whole _) cc0_scratch1 cc0_scratch2 cc0_scratch3 cc0_scratch4 c v2 v932) Kt := by
  rw [k0_part34_eq_skeleton]; unfold k0_part34_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 17 6 rfl rfl _ (Fin.ext (k0_dev80_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 18 24 rfl rfl _ (Fin.ext (k0_dev81_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 19 5 rfl rfl _ (Fin.ext (k0_dev82_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part35_run (c : Dev nD) (v2 : BitVec 32) (c26_i32_920 : BitVec 32) (Kt : (Σ' (v968 : BitVec 32) (v980 : BitVec 32), BitVec 32) → sProp 𝕄) :
    iprop(recs m ρ K ∗ OW c 20 31 31 ∗ bigSepL (todo 20) (agTok m ρ c) ∗ bigSepL (todo 20) (fun r => iprop(∃ Y, ownsTc (peer c r) (oRows c) fullShare Y)) ∗ bigSepL (done 20) (fun r => cred (tallyAt (agS c r) () N8))
        ∗ (∀ ret, iprop(OW c 22 31 31 ∗ bigSepL (todo 22) (agTok m ρ c) ∗ bigSepL (todo 22) (fun r => iprop(∃ Y, ownsTc (peer c r) (oRows c) fullShare Y)) ∗ bigSepL (done 22) (fun r => cred (tallyAt (agS c r) () N8))) -∗ Kt ret))
      ⊢ wp frame (wpE (defs₀ (F := F)) 𝒱₀ (c : Thread nD τ) none) Set.univ
          (k0_part35 xM (Memref.isWhole_whole _) oM (Memref.isWhole_whole _) rM (Memref.isWhole_whole _) cc0_scratch1 cc0_scratch2 cc0_scratch3 cc0_scratch4 c v2 c26_i32_920) Kt := by
  rw [k0_part35_eq_skeleton]; unfold k0_part35_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 20 25 rfl rfl _ (Fin.ext (k0_dev83_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 21 4 rfl rfl _ (Fin.ext (k0_dev84_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part36_run (c : Dev nD) (v2 : BitVec 32) (Kt : (Σ' (v1004 : BitVec 32) (v1016 : BitVec 32), BitVec 32) → sProp 𝕄) :
    iprop(recs m ρ K ∗ OW c 22 31 31 ∗ bigSepL (todo 22) (agTok m ρ c) ∗ bigSepL (todo 22) (fun r => iprop(∃ Y, ownsTc (peer c r) (oRows c) fullShare Y)) ∗ bigSepL (done 22) (fun r => cred (tallyAt (agS c r) () N8))
        ∗ (∀ ret, iprop(OW c 25 31 31 ∗ bigSepL (todo 25) (agTok m ρ c) ∗ bigSepL (todo 25) (fun r => iprop(∃ Y, ownsTc (peer c r) (oRows c) fullShare Y)) ∗ bigSepL (done 25) (fun r => cred (tallyAt (agS c r) () N8))) -∗ Kt ret))
      ⊢ wp frame (wpE (defs₀ (F := F)) 𝒱₀ (c : Thread nD τ) none) Set.univ
          (k0_part36 xM (Memref.isWhole_whole _) oM (Memref.isWhole_whole _) rM (Memref.isWhole_whole _) cc0_scratch1 cc0_scratch2 cc0_scratch3 cc0_scratch4 c v2) Kt := by
  rw [k0_part36_eq_skeleton]; unfold k0_part36_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 22 26 rfl rfl _ (Fin.ext (k0_dev85_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 23 3 rfl rfl _ (Fin.ext (k0_dev86_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 24 27 rfl rfl _ (Fin.ext (k0_dev87_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part37_run (c : Dev nD) (v2 : BitVec 32) (v1028 : BitVec 32) (Kt : (Σ' (v1040 : BitVec 32), BitVec 32) → sProp 𝕄) :
    iprop(recs m ρ K ∗ OW c 25 31 31 ∗ bigSepL (todo 25) (agTok m ρ c) ∗ bigSepL (todo 25) (fun r => iprop(∃ Y, ownsTc (peer c r) (oRows c) fullShare Y)) ∗ bigSepL (done 25) (fun r => cred (tallyAt (agS c r) () N8))
        ∗ (∀ ret, iprop(OW c 27 31 31 ∗ bigSepL (todo 27) (agTok m ρ c) ∗ bigSepL (todo 27) (fun r => iprop(∃ Y, ownsTc (peer c r) (oRows c) fullShare Y)) ∗ bigSepL (done 27) (fun r => cred (tallyAt (agS c r) () N8))) -∗ Kt ret))
      ⊢ wp frame (wpE (defs₀ (F := F)) 𝒱₀ (c : Thread nD τ) none) Set.univ
          (k0_part37 xM (Memref.isWhole_whole _) oM (Memref.isWhole_whole _) rM (Memref.isWhole_whole _) cc0_scratch1 cc0_scratch2 cc0_scratch3 cc0_scratch4 c v2 v1028) Kt := by
  rw [k0_part37_eq_skeleton]; unfold k0_part37_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 25 2 rfl rfl _ (Fin.ext (k0_dev88_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 26 28 rfl rfl _ (Fin.ext (k0_dev89_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part38_run (c : Dev nD) (v2 : BitVec 32) (Kt : (Σ' (v1064 : BitVec 32) (v1076 : BitVec 32) (v1088 : BitVec 32), BitVec 32) → sProp 𝕄) :
    iprop(recs m ρ K ∗ OW c 27 31 31 ∗ bigSepL (todo 27) (agTok m ρ c) ∗ bigSepL (todo 27) (fun r => iprop(∃ Y, ownsTc (peer c r) (oRows c) fullShare Y)) ∗ bigSepL (done 27) (fun r => cred (tallyAt (agS c r) () N8))
        ∗ (∀ ret, iprop(OW c 30 31 31 ∗ bigSepL (todo 30) (agTok m ρ c) ∗ bigSepL (todo 30) (fun r => iprop(∃ Y, ownsTc (peer c r) (oRows c) fullShare Y)) ∗ bigSepL (done 30) (fun r => cred (tallyAt (agS c r) () N8))) -∗ Kt ret))
      ⊢ wp frame (wpE (defs₀ (F := F)) 𝒱₀ (c : Thread nD τ) none) Set.univ
          (k0_part38 xM (Memref.isWhole_whole _) oM (Memref.isWhole_whole _) rM (Memref.isWhole_whole _) cc0_scratch1 cc0_scratch2 cc0_scratch3 cc0_scratch4 c v2) Kt := by
  rw [k0_part38_eq_skeleton]; unfold k0_part38_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 27 1 rfl rfl _ (Fin.ext (k0_dev90_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 28 29 rfl rfl _ (Fin.ext (k0_dev91_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 29 0 rfl rfl _ (Fin.ext (k0_dev92_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part39_run (c : Dev nD) (v728 : BitVec 32) (v740 : BitVec 32) (v752 : BitVec 32) (v764 : BitVec 32) (v1088 : BitVec 32) (c1_i32_1026 : BitVec 32) (Kt : (PUnit) → sProp 𝕄) :
    iprop(recs m ρ K ∗ levAts L lv ∗ OW c 30 31 31 ∗ bigSepL (todo 30) (agTok m ρ c) ∗ bigSepL (todo 30) (fun r => iprop(∃ Y, ownsTc (peer c r) (oRows c) fullShare Y)) ∗ bigSepL (done 30) (fun r => cred (tallyAt (agS c r) () N8)) ∗ bigSepL (todo 0) (fun r => cred (tallyAt (dcell c 3 r.succ) () N8)) ∗ bigSepL (todo 0) (fun r => atPos ER (dcell c 3 r.succ) 0 ∅ 0) ∗ bigSepL (done 0) (gotItem m ρ c 3)
        ∗ (∀ ret, iprop(OW c 31 31 31 ∗ bigSepL (todo 31) (agTok m ρ c) ∗ bigSepL (todo 31) (fun r => iprop(∃ Y, ownsTc (peer c r) (oRows c) fullShare Y)) ∗ bigSepL (done 31) (fun r => cred (tallyAt (agS c r) () N8)) ∗ bigSepL (todo 3) (fun r => cred (tallyAt (dcell c 3 r.succ) () N8)) ∗ bigSepL (todo 3) (fun r => atPos ER (dcell c 3 r.succ) 0 ∅ 0) ∗ bigSepL (done 3) (gotItem m ρ c 3)) -∗ Kt ret))
      ⊢ wp frame (wpE (defs₀ (F := F)) 𝒱₀ (c : Thread nD τ) none) Set.univ
          (k0_part39 xM (Memref.isWhole_whole _) oM (Memref.isWhole_whole _) rM (Memref.isWhole_whole _) cc0_scratch1 cc0_scratch2 cc0_scratch3 cc0_scratch4 c v728 v740 v752 v764 v1088 c1_i32_1026) Kt := by
  rw [k0_part39_eq_skeleton]; unfold k0_part39_skel
  simp only [semSignalWord, semWaitWord, Prog.lift, Prog.bind_op, Prog.bind_ret, Prog.pure_eq_ret, wp_deviceId]
  iintro ⟨#HR, #Hlev, HOW, HAgT, HAgL, HAgC, HW3C, HW3P, HW3G, Hk⟩
  iapply (ag_step m ρ K c 31 31 30 30 rfl rfl _ (Fin.ext (k0_dev93_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (wait_step m ρ K c 3 31 31 31 (fun r => by rw [show todo 31 = [] from by decide]; exact mayWait_none c _) 0 15 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 1 14 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 2 16 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HAgT]; · iexact HAgT
  isplitl [HAgL]; · iexact HAgL
  isplitl [HAgC]; · iexact HAgC
  isplitl [HW3C]; · iexact HW3C
  isplitl [HW3P]; · iexact HW3P
  iexact HW3G

set_option maxHeartbeats 2000000 in
theorem part40_run (c : Dev nD) (v776 : BitVec 32) (v788 : BitVec 32) (v800 : BitVec 32) (v812 : BitVec 32) (v824 : BitVec 32) (Kt : (BitVec 32) → sProp 𝕄) :
    iprop(recs m ρ K ∗ levAts L lv ∗ OW c 31 31 31 ∗ bigSepL (todo 3) (fun r => cred (tallyAt (dcell c 3 r.succ) () N8)) ∗ bigSepL (todo 3) (fun r => atPos ER (dcell c 3 r.succ) 0 ∅ 0) ∗ bigSepL (done 3) (gotItem m ρ c 3)
        ∗ (∀ ret, iprop(OW c 31 31 31 ∗ bigSepL (todo 8) (fun r => cred (tallyAt (dcell c 3 r.succ) () N8)) ∗ bigSepL (todo 8) (fun r => atPos ER (dcell c 3 r.succ) 0 ∅ 0) ∗ bigSepL (done 8) (gotItem m ρ c 3)) -∗ Kt ret))
      ⊢ wp frame (wpE (defs₀ (F := F)) 𝒱₀ (c : Thread nD τ) none) Set.univ
          (k0_part40 xM (Memref.isWhole_whole _) oM (Memref.isWhole_whole _) rM (Memref.isWhole_whole _) cc0_scratch1 cc0_scratch2 cc0_scratch3 cc0_scratch4 c v776 v788 v800 v812 v824) Kt := by
  rw [k0_part40_eq_skeleton]; unfold k0_part40_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 3 13 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 4 17 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 5 12 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 6 18 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 7 11 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part41_run (c : Dev nD) (v836 : BitVec 32) (v848 : BitVec 32) (v860 : BitVec 32) (v872 : BitVec 32) (v1147 : BitVec 32) (Kt : (PUnit) → sProp 𝕄) :
    iprop(recs m ρ K ∗ levAts L lv ∗ OW c 31 31 31 ∗ bigSepL (todo 8) (fun r => cred (tallyAt (dcell c 3 r.succ) () N8)) ∗ bigSepL (todo 8) (fun r => atPos ER (dcell c 3 r.succ) 0 ∅ 0) ∗ bigSepL (done 8) (gotItem m ρ c 3)
        ∗ (∀ ret, iprop(OW c 31 31 31 ∗ bigSepL (todo 12) (fun r => cred (tallyAt (dcell c 3 r.succ) () N8)) ∗ bigSepL (todo 12) (fun r => atPos ER (dcell c 3 r.succ) 0 ∅ 0) ∗ bigSepL (done 12) (gotItem m ρ c 3)) -∗ Kt ret))
      ⊢ wp frame (wpE (defs₀ (F := F)) 𝒱₀ (c : Thread nD τ) none) Set.univ
          (k0_part41 xM (Memref.isWhole_whole _) oM (Memref.isWhole_whole _) rM (Memref.isWhole_whole _) cc0_scratch1 cc0_scratch2 cc0_scratch3 cc0_scratch4 c v836 v848 v860 v872 v1147) Kt := by
  rw [k0_part41_eq_skeleton]; unfold k0_part41_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 8 19 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 9 10 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 10 20 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 11 9 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part42_run (c : Dev nD) (v884 : BitVec 32) (v896 : BitVec 32) (v908 : BitVec 32) (v920 : BitVec 32) (v932 : BitVec 32) (Kt : (PUnit) → sProp 𝕄) :
    iprop(recs m ρ K ∗ levAts L lv ∗ OW c 31 31 31 ∗ bigSepL (todo 12) (fun r => cred (tallyAt (dcell c 3 r.succ) () N8)) ∗ bigSepL (todo 12) (fun r => atPos ER (dcell c 3 r.succ) 0 ∅ 0) ∗ bigSepL (done 12) (gotItem m ρ c 3)
        ∗ (∀ ret, iprop(OW c 31 31 31 ∗ bigSepL (todo 17) (fun r => cred (tallyAt (dcell c 3 r.succ) () N8)) ∗ bigSepL (todo 17) (fun r => atPos ER (dcell c 3 r.succ) 0 ∅ 0) ∗ bigSepL (done 17) (gotItem m ρ c 3)) -∗ Kt ret))
      ⊢ wp frame (wpE (defs₀ (F := F)) 𝒱₀ (c : Thread nD τ) none) Set.univ
          (k0_part42 xM (Memref.isWhole_whole _) oM (Memref.isWhole_whole _) rM (Memref.isWhole_whole _) cc0_scratch1 cc0_scratch2 cc0_scratch3 cc0_scratch4 c v884 v896 v908 v920 v932) Kt := by
  rw [k0_part42_eq_skeleton]; unfold k0_part42_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 12 21 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 13 8 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 14 22 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 15 7 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 16 23 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part43_run (c : Dev nD) (v944 : BitVec 32) (v956 : BitVec 32) (v968 : BitVec 32) (v980 : BitVec 32) (Kt : (PUnit) → sProp 𝕄) :
    iprop(recs m ρ K ∗ levAts L lv ∗ OW c 31 31 31 ∗ bigSepL (todo 17) (fun r => cred (tallyAt (dcell c 3 r.succ) () N8)) ∗ bigSepL (todo 17) (fun r => atPos ER (dcell c 3 r.succ) 0 ∅ 0) ∗ bigSepL (done 17) (gotItem m ρ c 3)
        ∗ (∀ ret, iprop(OW c 31 31 31 ∗ bigSepL (todo 22) (fun r => cred (tallyAt (dcell c 3 r.succ) () N8)) ∗ bigSepL (todo 22) (fun r => atPos ER (dcell c 3 r.succ) 0 ∅ 0) ∗ bigSepL (done 22) (gotItem m ρ c 3)) -∗ Kt ret))
      ⊢ wp frame (wpE (defs₀ (F := F)) 𝒱₀ (c : Thread nD τ) none) Set.univ
          (k0_part43 xM (Memref.isWhole_whole _) oM (Memref.isWhole_whole _) rM (Memref.isWhole_whole _) cc0_scratch1 cc0_scratch2 cc0_scratch3 cc0_scratch4 c v944 v956 v968 v980) Kt := by
  rw [k0_part43_eq_skeleton]; unfold k0_part43_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 17 6 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 18 24 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 19 5 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 20 25 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 21 4 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part44_run (c : Dev nD) (v992 : BitVec 32) (v1004 : BitVec 32) (v1016 : BitVec 32) (v1028 : BitVec 32) (v1040 : BitVec 32) (Kt : (PUnit) → sProp 𝕄) :
    iprop(recs m ρ K ∗ levAts L lv ∗ OW c 31 31 31 ∗ bigSepL (todo 22) (fun r => cred (tallyAt (dcell c 3 r.succ) () N8)) ∗ bigSepL (todo 22) (fun r => atPos ER (dcell c 3 r.succ) 0 ∅ 0) ∗ bigSepL (done 22) (gotItem m ρ c 3)
        ∗ (∀ ret, iprop(OW c 31 31 31 ∗ bigSepL (todo 26) (fun r => cred (tallyAt (dcell c 3 r.succ) () N8)) ∗ bigSepL (todo 26) (fun r => atPos ER (dcell c 3 r.succ) 0 ∅ 0) ∗ bigSepL (done 26) (gotItem m ρ c 3)) -∗ Kt ret))
      ⊢ wp frame (wpE (defs₀ (F := F)) 𝒱₀ (c : Thread nD τ) none) Set.univ
          (k0_part44 xM (Memref.isWhole_whole _) oM (Memref.isWhole_whole _) rM (Memref.isWhole_whole _) cc0_scratch1 cc0_scratch2 cc0_scratch3 cc0_scratch4 c v992 v1004 v1016 v1028 v1040) Kt := by
  rw [k0_part44_eq_skeleton]; unfold k0_part44_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 22 26 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 23 3 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 24 27 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 25 2 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part45_run (c : Dev nD) (v1052 : BitVec 32) (v1064 : BitVec 32) (v1076 : BitVec 32) (v1088 : BitVec 32) (Kt : (PUnit) → sProp 𝕄) :
    iprop(recs m ρ K ∗ levAts L lv ∗ OW c 31 31 31 ∗ bigSepL (todo 26) (fun r => cred (tallyAt (dcell c 3 r.succ) () N8)) ∗ bigSepL (todo 26) (fun r => atPos ER (dcell c 3 r.succ) 0 ∅ 0) ∗ bigSepL (done 26) (gotItem m ρ c 3)
        ∗ (∀ ret, iprop(OW c 31 31 31 ∗ bigSepL (todo 31) (fun r => cred (tallyAt (dcell c 3 r.succ) () N8)) ∗ bigSepL (todo 31) (fun r => atPos ER (dcell c 3 r.succ) 0 ∅ 0) ∗ bigSepL (done 31) (gotItem m ρ c 3)) -∗ Kt ret))
      ⊢ wp frame (wpE (defs₀ (F := F)) 𝒱₀ (c : Thread nD τ) none) Set.univ
          (k0_part45 xM (Memref.isWhole_whole _) oM (Memref.isWhole_whole _) rM (Memref.isWhole_whole _) cc0_scratch1 cc0_scratch2 cc0_scratch3 cc0_scratch4 c v1052 v1064 v1076 v1088) Kt := by
  rw [k0_part45_eq_skeleton]; unfold k0_part45_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 26 28 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 27 1 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 28 29 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 29 0 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 30 30 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part46_run (c : Dev nD)  (Kt : (PUnit) → sProp 𝕄) :
    iprop(recs m ρ K ∗ levAts L lv ∗ OW c 31 31 31 ∗ bigSepL (todo 0) (fun r => cred (tallyAt (dcell c 0 r.succ) () N8)) ∗ bigSepL (todo 0) (fun r => atPos ER (dcell c 0 r.succ) 0 ∅ 0) ∗ bigSepL (done 0) (gotItem m ρ c 0)
        ∗ (∀ ret, iprop(OW c 31 31 31 ∗ bigSepL (todo 5) (fun r => cred (tallyAt (dcell c 0 r.succ) () N8)) ∗ bigSepL (todo 5) (fun r => atPos ER (dcell c 0 r.succ) 0 ∅ 0) ∗ bigSepL (done 5) (gotItem m ρ c 0)) -∗ Kt ret))
      ⊢ wp frame (wpE (defs₀ (F := F)) 𝒱₀ (c : Thread nD τ) none) Set.univ
          (k0_part46 xM (Memref.isWhole_whole _) oM (Memref.isWhole_whole _) rM (Memref.isWhole_whole _) cc0_scratch1 cc0_scratch2 cc0_scratch3 cc0_scratch4 c) Kt := by
  rw [k0_part46_eq_skeleton]; unfold k0_part46_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 0 15 rfl rfl _ rfl (dst := xSend c 15) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 1 14 rfl rfl _ rfl (dst := xSend c 14) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 2 16 rfl rfl _ rfl (dst := xSend c 16) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 3 13 rfl rfl _ rfl (dst := xSend c 13) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 4 17 rfl rfl _ rfl (dst := xSend c 17) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part47_run (c : Dev nD)  (Kt : (PUnit) → sProp 𝕄) :
    iprop(recs m ρ K ∗ levAts L lv ∗ OW c 31 31 31 ∗ bigSepL (todo 5) (fun r => cred (tallyAt (dcell c 0 r.succ) () N8)) ∗ bigSepL (todo 5) (fun r => atPos ER (dcell c 0 r.succ) 0 ∅ 0) ∗ bigSepL (done 5) (gotItem m ρ c 0)
        ∗ (∀ ret, iprop(OW c 31 31 31 ∗ bigSepL (todo 9) (fun r => cred (tallyAt (dcell c 0 r.succ) () N8)) ∗ bigSepL (todo 9) (fun r => atPos ER (dcell c 0 r.succ) 0 ∅ 0) ∗ bigSepL (done 9) (gotItem m ρ c 0)) -∗ Kt ret))
      ⊢ wp frame (wpE (defs₀ (F := F)) 𝒱₀ (c : Thread nD τ) none) Set.univ
          (k0_part47 xM (Memref.isWhole_whole _) oM (Memref.isWhole_whole _) rM (Memref.isWhole_whole _) cc0_scratch1 cc0_scratch2 cc0_scratch3 cc0_scratch4 c) Kt := by
  rw [k0_part47_eq_skeleton]; unfold k0_part47_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 5 12 rfl rfl _ rfl (dst := xSend c 12) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 6 18 rfl rfl _ rfl (dst := xSend c 18) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 7 11 rfl rfl _ rfl (dst := xSend c 11) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 8 19 rfl rfl _ rfl (dst := xSend c 19) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part48_run (c : Dev nD)  (Kt : (PUnit) → sProp 𝕄) :
    iprop(recs m ρ K ∗ levAts L lv ∗ OW c 31 31 31 ∗ bigSepL (todo 9) (fun r => cred (tallyAt (dcell c 0 r.succ) () N8)) ∗ bigSepL (todo 9) (fun r => atPos ER (dcell c 0 r.succ) 0 ∅ 0) ∗ bigSepL (done 9) (gotItem m ρ c 0)
        ∗ (∀ ret, iprop(OW c 31 31 31 ∗ bigSepL (todo 14) (fun r => cred (tallyAt (dcell c 0 r.succ) () N8)) ∗ bigSepL (todo 14) (fun r => atPos ER (dcell c 0 r.succ) 0 ∅ 0) ∗ bigSepL (done 14) (gotItem m ρ c 0)) -∗ Kt ret))
      ⊢ wp frame (wpE (defs₀ (F := F)) 𝒱₀ (c : Thread nD τ) none) Set.univ
          (k0_part48 xM (Memref.isWhole_whole _) oM (Memref.isWhole_whole _) rM (Memref.isWhole_whole _) cc0_scratch1 cc0_scratch2 cc0_scratch3 cc0_scratch4 c) Kt := by
  rw [k0_part48_eq_skeleton]; unfold k0_part48_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 9 10 rfl rfl _ rfl (dst := xSend c 10) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 10 20 rfl rfl _ rfl (dst := xSend c 20) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 11 9 rfl rfl _ rfl (dst := xSend c 9) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 12 21 rfl rfl _ rfl (dst := xSend c 21) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 13 8 rfl rfl _ rfl (dst := xSend c 8) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part49_run (c : Dev nD)  (Kt : (PUnit) → sProp 𝕄) :
    iprop(recs m ρ K ∗ levAts L lv ∗ OW c 31 31 31 ∗ bigSepL (todo 14) (fun r => cred (tallyAt (dcell c 0 r.succ) () N8)) ∗ bigSepL (todo 14) (fun r => atPos ER (dcell c 0 r.succ) 0 ∅ 0) ∗ bigSepL (done 14) (gotItem m ρ c 0)
        ∗ (∀ ret, iprop(OW c 31 31 31 ∗ bigSepL (todo 18) (fun r => cred (tallyAt (dcell c 0 r.succ) () N8)) ∗ bigSepL (todo 18) (fun r => atPos ER (dcell c 0 r.succ) 0 ∅ 0) ∗ bigSepL (done 18) (gotItem m ρ c 0)) -∗ Kt ret))
      ⊢ wp frame (wpE (defs₀ (F := F)) 𝒱₀ (c : Thread nD τ) none) Set.univ
          (k0_part49 xM (Memref.isWhole_whole _) oM (Memref.isWhole_whole _) rM (Memref.isWhole_whole _) cc0_scratch1 cc0_scratch2 cc0_scratch3 cc0_scratch4 c) Kt := by
  rw [k0_part49_eq_skeleton]; unfold k0_part49_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 14 22 rfl rfl _ rfl (dst := xSend c 22) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 15 7 rfl rfl _ rfl (dst := xSend c 7) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 16 23 rfl rfl _ rfl (dst := xSend c 23) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 17 6 rfl rfl _ rfl (dst := xSend c 6) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part50_run (c : Dev nD)  (Kt : (PUnit) → sProp 𝕄) :
    iprop(recs m ρ K ∗ levAts L lv ∗ OW c 31 31 31 ∗ bigSepL (todo 18) (fun r => cred (tallyAt (dcell c 0 r.succ) () N8)) ∗ bigSepL (todo 18) (fun r => atPos ER (dcell c 0 r.succ) 0 ∅ 0) ∗ bigSepL (done 18) (gotItem m ρ c 0)
        ∗ (∀ ret, iprop(OW c 31 31 31 ∗ bigSepL (todo 23) (fun r => cred (tallyAt (dcell c 0 r.succ) () N8)) ∗ bigSepL (todo 23) (fun r => atPos ER (dcell c 0 r.succ) 0 ∅ 0) ∗ bigSepL (done 23) (gotItem m ρ c 0)) -∗ Kt ret))
      ⊢ wp frame (wpE (defs₀ (F := F)) 𝒱₀ (c : Thread nD τ) none) Set.univ
          (k0_part50 xM (Memref.isWhole_whole _) oM (Memref.isWhole_whole _) rM (Memref.isWhole_whole _) cc0_scratch1 cc0_scratch2 cc0_scratch3 cc0_scratch4 c) Kt := by
  rw [k0_part50_eq_skeleton]; unfold k0_part50_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 18 24 rfl rfl _ rfl (dst := xSend c 24) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 19 5 rfl rfl _ rfl (dst := xSend c 5) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 20 25 rfl rfl _ rfl (dst := xSend c 25) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 21 4 rfl rfl _ rfl (dst := xSend c 4) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 22 26 rfl rfl _ rfl (dst := xSend c 26) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part51_run (c : Dev nD)  (Kt : (PUnit) → sProp 𝕄) :
    iprop(recs m ρ K ∗ levAts L lv ∗ OW c 31 31 31 ∗ bigSepL (todo 23) (fun r => cred (tallyAt (dcell c 0 r.succ) () N8)) ∗ bigSepL (todo 23) (fun r => atPos ER (dcell c 0 r.succ) 0 ∅ 0) ∗ bigSepL (done 23) (gotItem m ρ c 0)
        ∗ (∀ ret, iprop(OW c 31 31 31 ∗ bigSepL (todo 28) (fun r => cred (tallyAt (dcell c 0 r.succ) () N8)) ∗ bigSepL (todo 28) (fun r => atPos ER (dcell c 0 r.succ) 0 ∅ 0) ∗ bigSepL (done 28) (gotItem m ρ c 0)) -∗ Kt ret))
      ⊢ wp frame (wpE (defs₀ (F := F)) 𝒱₀ (c : Thread nD τ) none) Set.univ
          (k0_part51 xM (Memref.isWhole_whole _) oM (Memref.isWhole_whole _) rM (Memref.isWhole_whole _) cc0_scratch1 cc0_scratch2 cc0_scratch3 cc0_scratch4 c) Kt := by
  rw [k0_part51_eq_skeleton]; unfold k0_part51_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 23 3 rfl rfl _ rfl (dst := xSend c 3) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 24 27 rfl rfl _ rfl (dst := xSend c 27) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 25 2 rfl rfl _ rfl (dst := xSend c 2) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 26 28 rfl rfl _ rfl (dst := xSend c 28) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 27 1 rfl rfl _ rfl (dst := xSend c 1) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part52_run (c : Dev nD)  (Kt : (PUnit) → sProp 𝕄) :
    iprop(recs m ρ K ∗ levAts L lv ∗ OW c 31 31 31 ∗ bigSepL (todo 28) (fun r => cred (tallyAt (dcell c 0 r.succ) () N8)) ∗ bigSepL (todo 28) (fun r => atPos ER (dcell c 0 r.succ) 0 ∅ 0) ∗ bigSepL (done 28) (gotItem m ρ c 0) ∗ bigSepL (todo 0) (fun r => cred (tallyAt (dcell c 2 r.succ) () N8)) ∗ bigSepL (todo 0) (fun r => atPos ER (dcell c 2 r.succ) 0 ∅ 0) ∗ bigSepL (done 0) (gotItem m ρ c 2)
        ∗ (∀ ret, iprop(OW c 31 31 31 ∗ bigSepL (todo 31) (fun r => cred (tallyAt (dcell c 0 r.succ) () N8)) ∗ bigSepL (todo 31) (fun r => atPos ER (dcell c 0 r.succ) 0 ∅ 0) ∗ bigSepL (done 31) (gotItem m ρ c 0) ∗ bigSepL (todo 2) (fun r => cred (tallyAt (dcell c 2 r.succ) () N8)) ∗ bigSepL (todo 2) (fun r => atPos ER (dcell c 2 r.succ) 0 ∅ 0) ∗ bigSepL (done 2) (gotItem m ρ c 2)) -∗ Kt ret))
      ⊢ wp frame (wpE (defs₀ (F := F)) 𝒱₀ (c : Thread nD τ) none) Set.univ
          (k0_part52 xM (Memref.isWhole_whole _) oM (Memref.isWhole_whole _) rM (Memref.isWhole_whole _) cc0_scratch1 cc0_scratch2 cc0_scratch3 cc0_scratch4 c) Kt := by
  rw [k0_part52_eq_skeleton]; unfold k0_part52_skel
  simp only [semSignalWord, semWaitWord, Prog.lift, Prog.bind_op, Prog.bind_ret, Prog.pure_eq_ret, wp_deviceId]
  iintro ⟨#HR, #Hlev, HOW, HW0C, HW0P, HW0G, HW2C, HW2P, HW2G, Hk⟩
  iapply (wait_step m ρ K c 0 31 31 31 (fun r => by rw [show todo 31 = [] from by decide]; exact mayWait_none c _) 28 29 rfl rfl _ rfl (dst := xSend c 29) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 29 0 rfl rfl _ rfl (dst := xSend c 0) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 30 30 rfl rfl _ rfl (dst := xSend c 30) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 2 31 31 31 (fun r => by rw [show todo 31 = [] from by decide]; exact mayWait_none c _) 0 15 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 1 14 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW0C]; · iexact HW0C
  isplitl [HW0P]; · iexact HW0P
  isplitl [HW0G]; · iexact HW0G
  isplitl [HW2C]; · iexact HW2C
  isplitl [HW2P]; · iexact HW2P
  iexact HW2G

set_option maxHeartbeats 2000000 in
theorem part53_run (c : Dev nD)  (Kt : (PUnit) → sProp 𝕄) :
    iprop(recs m ρ K ∗ levAts L lv ∗ OW c 31 31 31 ∗ bigSepL (todo 2) (fun r => cred (tallyAt (dcell c 2 r.succ) () N8)) ∗ bigSepL (todo 2) (fun r => atPos ER (dcell c 2 r.succ) 0 ∅ 0) ∗ bigSepL (done 2) (gotItem m ρ c 2)
        ∗ (∀ ret, iprop(OW c 31 31 31 ∗ bigSepL (todo 8) (fun r => cred (tallyAt (dcell c 2 r.succ) () N8)) ∗ bigSepL (todo 8) (fun r => atPos ER (dcell c 2 r.succ) 0 ∅ 0) ∗ bigSepL (done 8) (gotItem m ρ c 2)) -∗ Kt ret))
      ⊢ wp frame (wpE (defs₀ (F := F)) 𝒱₀ (c : Thread nD τ) none) Set.univ
          (k0_part53 xM (Memref.isWhole_whole _) oM (Memref.isWhole_whole _) rM (Memref.isWhole_whole _) cc0_scratch1 cc0_scratch2 cc0_scratch3 cc0_scratch4 c) Kt := by
  rw [k0_part53_eq_skeleton]; unfold k0_part53_skel
  simp only [semSignalWord, semWaitWord, Prog.lift, Prog.bind_op, Prog.bind_ret, Prog.pure_eq_ret, wp_deviceId]
  iintro ⟨#HR, #Hlev, HOW, HW2C, HW2P, HW2G, Hk⟩
  iapply (wait_step m ρ K c 2 31 31 31 (fun r => by rw [show todo 31 = [] from by decide]; exact mayWait_none c _) 2 16 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 3 13 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 4 17 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 5 12 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 6 18 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 7 11 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW2C]; · iexact HW2C
  isplitl [HW2P]; · iexact HW2P
  iexact HW2G

set_option maxHeartbeats 2000000 in
theorem part54_run (c : Dev nD)  (Kt : (PUnit) → sProp 𝕄) :
    iprop(recs m ρ K ∗ levAts L lv ∗ OW c 31 31 31 ∗ bigSepL (todo 8) (fun r => cred (tallyAt (dcell c 2 r.succ) () N8)) ∗ bigSepL (todo 8) (fun r => atPos ER (dcell c 2 r.succ) 0 ∅ 0) ∗ bigSepL (done 8) (gotItem m ρ c 2)
        ∗ (∀ ret, iprop(OW c 31 31 31 ∗ bigSepL (todo 14) (fun r => cred (tallyAt (dcell c 2 r.succ) () N8)) ∗ bigSepL (todo 14) (fun r => atPos ER (dcell c 2 r.succ) 0 ∅ 0) ∗ bigSepL (done 14) (gotItem m ρ c 2)) -∗ Kt ret))
      ⊢ wp frame (wpE (defs₀ (F := F)) 𝒱₀ (c : Thread nD τ) none) Set.univ
          (k0_part54 xM (Memref.isWhole_whole _) oM (Memref.isWhole_whole _) rM (Memref.isWhole_whole _) cc0_scratch1 cc0_scratch2 cc0_scratch3 cc0_scratch4 c) Kt := by
  rw [k0_part54_eq_skeleton]; unfold k0_part54_skel
  simp only [semSignalWord, semWaitWord, Prog.lift, Prog.bind_op, Prog.bind_ret, Prog.pure_eq_ret, wp_deviceId]
  iintro ⟨#HR, #Hlev, HOW, HW2C, HW2P, HW2G, Hk⟩
  iapply (wait_step m ρ K c 2 31 31 31 (fun r => by rw [show todo 31 = [] from by decide]; exact mayWait_none c _) 8 19 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 9 10 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 10 20 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 11 9 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 12 21 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 13 8 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW2C]; · iexact HW2C
  isplitl [HW2P]; · iexact HW2P
  iexact HW2G

set_option maxHeartbeats 2000000 in
theorem part55_run (c : Dev nD)  (Kt : (PUnit) → sProp 𝕄) :
    iprop(recs m ρ K ∗ levAts L lv ∗ OW c 31 31 31 ∗ bigSepL (todo 14) (fun r => cred (tallyAt (dcell c 2 r.succ) () N8)) ∗ bigSepL (todo 14) (fun r => atPos ER (dcell c 2 r.succ) 0 ∅ 0) ∗ bigSepL (done 14) (gotItem m ρ c 2)
        ∗ (∀ ret, iprop(OW c 31 31 31 ∗ bigSepL (todo 20) (fun r => cred (tallyAt (dcell c 2 r.succ) () N8)) ∗ bigSepL (todo 20) (fun r => atPos ER (dcell c 2 r.succ) 0 ∅ 0) ∗ bigSepL (done 20) (gotItem m ρ c 2)) -∗ Kt ret))
      ⊢ wp frame (wpE (defs₀ (F := F)) 𝒱₀ (c : Thread nD τ) none) Set.univ
          (k0_part55 xM (Memref.isWhole_whole _) oM (Memref.isWhole_whole _) rM (Memref.isWhole_whole _) cc0_scratch1 cc0_scratch2 cc0_scratch3 cc0_scratch4 c) Kt := by
  rw [k0_part55_eq_skeleton]; unfold k0_part55_skel
  simp only [semSignalWord, semWaitWord, Prog.lift, Prog.bind_op, Prog.bind_ret, Prog.pure_eq_ret, wp_deviceId]
  iintro ⟨#HR, #Hlev, HOW, HW2C, HW2P, HW2G, Hk⟩
  iapply (wait_step m ρ K c 2 31 31 31 (fun r => by rw [show todo 31 = [] from by decide]; exact mayWait_none c _) 14 22 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 15 7 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 16 23 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 17 6 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 18 24 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 19 5 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW2C]; · iexact HW2C
  isplitl [HW2P]; · iexact HW2P
  iexact HW2G

set_option maxHeartbeats 2000000 in
theorem part56_run (c : Dev nD)  (Kt : (PUnit) → sProp 𝕄) :
    iprop(recs m ρ K ∗ levAts L lv ∗ OW c 31 31 31 ∗ bigSepL (todo 20) (fun r => cred (tallyAt (dcell c 2 r.succ) () N8)) ∗ bigSepL (todo 20) (fun r => atPos ER (dcell c 2 r.succ) 0 ∅ 0) ∗ bigSepL (done 20) (gotItem m ρ c 2)
        ∗ (∀ ret, iprop(OW c 31 31 31 ∗ bigSepL (todo 26) (fun r => cred (tallyAt (dcell c 2 r.succ) () N8)) ∗ bigSepL (todo 26) (fun r => atPos ER (dcell c 2 r.succ) 0 ∅ 0) ∗ bigSepL (done 26) (gotItem m ρ c 2)) -∗ Kt ret))
      ⊢ wp frame (wpE (defs₀ (F := F)) 𝒱₀ (c : Thread nD τ) none) Set.univ
          (k0_part56 xM (Memref.isWhole_whole _) oM (Memref.isWhole_whole _) rM (Memref.isWhole_whole _) cc0_scratch1 cc0_scratch2 cc0_scratch3 cc0_scratch4 c) Kt := by
  rw [k0_part56_eq_skeleton]; unfold k0_part56_skel
  simp only [semSignalWord, semWaitWord, Prog.lift, Prog.bind_op, Prog.bind_ret, Prog.pure_eq_ret, wp_deviceId]
  iintro ⟨#HR, #Hlev, HOW, HW2C, HW2P, HW2G, Hk⟩
  iapply (wait_step m ρ K c 2 31 31 31 (fun r => by rw [show todo 31 = [] from by decide]; exact mayWait_none c _) 20 25 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 21 4 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 22 26 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 23 3 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 24 27 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 25 2 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW2C]; · iexact HW2C
  isplitl [HW2P]; · iexact HW2P
  iexact HW2G

end Cert.KernelIdeal.RsAg

end
-- ==== Proof.KernelIdeal.Run.lean ====
/- The kernel's body from its parts: the 56 part lemmas applied in the order the body calls them, each taking the
   lists of its phases from the state and returning them advanced (a phase that starts inside a part starts with
   nothing done: the empty list), then the body's last five waits, and the final components collected. -/
import proofs.«901012_g7700000000001013_dist_rs_then_ag_i_m256_n256_v7x_i32_f32_1_alg».proof.Proof.KernelIdeal.Parts

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

set_option maxHeartbeats 4000000 in
set_option maxRecDepth 65536 in
/-- The whole body from its components: the 56 parts in order, then the last waits. -/
theorem run (c : Dev nD) (Kt : PUnit → sProp 𝕄) :
    iprop(recs m ρ K ∗ levAts L lv ∗ Init m ρ c ∗ (Final m ρ c -∗ Kt ⟨⟩))
      ⊢ wp frame (wpE (defs₀ (F := F)) 𝒱₀ (c : Thread nD τ) none) Set.univ
          (cc0_body xM (Memref.isWhole_whole _) oM (Memref.isWhole_whole _) rM (Memref.isWhole_whole _) cc0_scratch1 cc0_scratch2 cc0_scratch3 cc0_scratch4) Kt := by
  rw [cc0_body_eq_skeleton]; unfold cc0_body_skel
  rw [k0_part57_eq_skeleton]; unfold k0_part57_skel
  unfold Init
  iintro ⟨#HR, #Hlev, ⟨HOW, HSig, HBarC, HBarP, HRsT, HW1C, HW1P, HxOwn, HoOwn, HAgT0, HW3C, HW3P, HW0P, HW2P, HZero⟩, Hk⟩
  simp only [Prog.lift, Prog.bind_op, Prog.bind_ret, Prog.pure_eq_ret, wp_bind]
  iapply (part1_run m ρ K c _)
  isplitr; · iexact HR
  isplitl [HOW]; · iexact HOW
  isplitl [HSig]; · iexact HSig
  iintro %v2 %v24 %c32 ⟨HOW, HSig⟩
  dsimp only
  iapply (part2_run m ρ K c _ _ _ _)
  isplitr; · iexact HR
  isplitl [HOW]; · iexact HOW
  isplitl [HSig]; · iexact HSig
  iintro %ret2 ⟨HOW, HSig⟩
  iapply (part3_run m ρ K c _ _ _ _)
  isplitr; · iexact HR
  isplitl [HOW]; · iexact HOW
  isplitl [HSig]; · iexact HSig
  iintro %ret3 ⟨HOW, HSig⟩
  iapply (part4_run m ρ K c _ _ _ _)
  isplitr; · iexact HR
  isplitl [HOW]; · iexact HOW
  isplitl [HSig]; · iexact HSig
  iintro %ret4 ⟨HOW, HSig⟩
  iapply (part5_run m ρ K c _ _ _ _)
  isplitr; · iexact HR
  isplitl [HOW]; · iexact HOW
  isplitl [HSig]; · iexact HSig
  iintro %ret5 ⟨HOW, HSig⟩
  iapply (part6_run m ρ K c _ _ _ _)
  isplitr; · iexact HR
  isplitr; · iexact Hlev
  isplitl [HOW]; · iexact HOW
  isplitl [HSig]; · iexact HSig
  isplitl [HBarC]; · iexact HBarC
  isplitl [HBarP]; · iexact HBarP
  isplitl [HRsT]; · iexact HRsT
  isplitr; · iapply (emp_done0 _); iempintro
  iintro %ret6 ⟨HOW, HSig, HBarP, HAgL, HRsT, HRsL, HRsC⟩
  iapply (part7_run m ρ K c _ _)
  isplitr; · iexact HR
  isplitl [HOW]; · iexact HOW
  isplitl [HRsT]; · iexact HRsT
  isplitl [HRsL]; · iexact HRsL
  isplitl [HRsC]; · iexact HRsC
  iintro %ret7 ⟨HOW, HRsT, HRsL, HRsC⟩
  iapply (part8_run m ρ K c _ _ _)
  isplitr; · iexact HR
  isplitl [HOW]; · iexact HOW
  isplitl [HRsT]; · iexact HRsT
  isplitl [HRsL]; · iexact HRsL
  isplitl [HRsC]; · iexact HRsC
  iintro %ret8 ⟨HOW, HRsT, HRsL, HRsC⟩
  iapply (part9_run m ρ K c _ _)
  isplitr; · iexact HR
  isplitl [HOW]; · iexact HOW
  isplitl [HRsT]; · iexact HRsT
  isplitl [HRsL]; · iexact HRsL
  isplitl [HRsC]; · iexact HRsC
  iintro %ret9 ⟨HOW, HRsT, HRsL, HRsC⟩
  iapply (part10_run m ρ K c _ _ _)
  isplitr; · iexact HR
  isplitl [HOW]; · iexact HOW
  isplitl [HRsT]; · iexact HRsT
  isplitl [HRsL]; · iexact HRsL
  isplitl [HRsC]; · iexact HRsC
  iintro %ret10 ⟨HOW, HRsT, HRsL, HRsC⟩
  iapply (part11_run m ρ K c _ _)
  isplitr; · iexact HR
  isplitl [HOW]; · iexact HOW
  isplitl [HRsT]; · iexact HRsT
  isplitl [HRsL]; · iexact HRsL
  isplitl [HRsC]; · iexact HRsC
  iintro %ret11 ⟨HOW, HRsT, HRsL, HRsC⟩
  iapply (part12_run m ρ K c _ _ _)
  isplitr; · iexact HR
  isplitl [HOW]; · iexact HOW
  isplitl [HRsT]; · iexact HRsT
  isplitl [HRsL]; · iexact HRsL
  isplitl [HRsC]; · iexact HRsC
  iintro %ret12 ⟨HOW, HRsT, HRsL, HRsC⟩
  iapply (part13_run m ρ K c _ _)
  isplitr; · iexact HR
  isplitl [HOW]; · iexact HOW
  isplitl [HRsT]; · iexact HRsT
  isplitl [HRsL]; · iexact HRsL
  isplitl [HRsC]; · iexact HRsC
  iintro %ret13 ⟨HOW, HRsT, HRsL, HRsC⟩
  iapply (part14_run m ρ K c _ _ _)
  isplitr; · iexact HR
  isplitl [HOW]; · iexact HOW
  isplitl [HRsT]; · iexact HRsT
  isplitl [HRsL]; · iexact HRsL
  isplitl [HRsC]; · iexact HRsC
  iintro %ret14 ⟨HOW, HRsT, HRsL, HRsC⟩
  iapply (part15_run m ρ K c _ _)
  isplitr; · iexact HR
  isplitl [HOW]; · iexact HOW
  isplitl [HRsT]; · iexact HRsT
  isplitl [HRsL]; · iexact HRsL
  isplitl [HRsC]; · iexact HRsC
  iintro %ret15 ⟨HOW, HRsT, HRsL, HRsC⟩
  iapply (part16_run m ρ K c _ _ _)
  isplitr; · iexact HR
  isplitl [HOW]; · iexact HOW
  isplitl [HRsT]; · iexact HRsT
  isplitl [HRsL]; · iexact HRsL
  isplitl [HRsC]; · iexact HRsC
  iintro %ret16 ⟨HOW, HRsT, HRsL, HRsC⟩
  iapply (part17_run m ρ K c _ _)
  isplitr; · iexact HR
  isplitl [HOW]; · iexact HOW
  isplitl [HRsT]; · iexact HRsT
  isplitl [HRsL]; · iexact HRsL
  isplitl [HRsC]; · iexact HRsC
  iintro %ret17 ⟨HOW, HRsT, HRsL, HRsC⟩
  iapply (part18_run m ρ K c _ _ _ _)
  isplitr; · iexact HR
  isplitr; · iexact Hlev
  isplitl [HOW]; · iexact HOW
  isplitl [HRsT]; · iexact HRsT
  isplitl [HRsL]; · iexact HRsL
  isplitl [HRsC]; · iexact HRsC
  isplitl [HW1C]; · iexact HW1C
  isplitl [HW1P]; · iexact HW1P
  isplitr; · iapply (emp_done0 _); iempintro
  iintro %ret18 ⟨HOW, HRsT, HRsL, HRsC, HW1C, HW1P, HW1G⟩
  iapply (part19_run m ρ K c _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret19 ⟨HOW, HW1C, HW1P, HW1G⟩
  iapply (part20_run m ρ K c _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret20 ⟨HOW, HW1C, HW1P, HW1G⟩
  iapply (part21_run m ρ K c _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret21 ⟨HOW, HW1C, HW1P, HW1G⟩
  iapply (part22_run m ρ K c _ _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret22 ⟨HOW, HW1C, HW1P, HW1G⟩
  iapply (part23_run m ρ K c _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret23 ⟨HOW, HW1C, HW1P, HW1G⟩
  iapply (part24_run m ρ K c _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret24 ⟨HOW, HW1C, HW1P, HW1G⟩
  iapply (part25_run m ρ K c _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret25 ⟨HOW, HW1C, HW1P, HW1G⟩
  iapply (part26_run m ρ K c _ _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret26 ⟨HOW, HW1C, HW1P, HW1G⟩
  iapply (part27_run m ρ K c _ _)
  isplitr; · iexact HR
  isplitl [HOW]; · iexact HOW
  isplitl [HW1G]; · iexact HW1G
  isplitl [HxOwn]; · iexact HxOwn
  isplitl [HoOwn]; · iexact HoOwn
  isplitl [HAgT0]; · iexact HAgT0
  isplitl [HAgL]; · iexact HAgL
  isplitr; · iapply (emp_done0 _); iempintro
  iintro %ret27 ⟨HOW, HrM, HW1Pos, HxOwn, HoRest, HAgT, HAgL, HAgC⟩
  iapply (part28_run m ρ K c _ _)
  isplitr; · iexact HR
  isplitl [HOW]; · iexact HOW
  isplitl [HAgT]; · iexact HAgT
  isplitl [HAgL]; · iexact HAgL
  isplitl [HAgC]; · iexact HAgC
  iintro %ret28 ⟨HOW, HAgT, HAgL, HAgC⟩
  iapply (part29_run m ρ K c _ _ _)
  isplitr; · iexact HR
  isplitl [HOW]; · iexact HOW
  isplitl [HAgT]; · iexact HAgT
  isplitl [HAgL]; · iexact HAgL
  isplitl [HAgC]; · iexact HAgC
  iintro %ret29 ⟨HOW, HAgT, HAgL, HAgC⟩
  iapply (part30_run m ρ K c _ _)
  isplitr; · iexact HR
  isplitl [HOW]; · iexact HOW
  isplitl [HAgT]; · iexact HAgT
  isplitl [HAgL]; · iexact HAgL
  isplitl [HAgC]; · iexact HAgC
  iintro %ret30 ⟨HOW, HAgT, HAgL, HAgC⟩
  iapply (part31_run m ρ K c _ _)
  isplitr; · iexact HR
  isplitl [HOW]; · iexact HOW
  isplitl [HAgT]; · iexact HAgT
  isplitl [HAgL]; · iexact HAgL
  isplitl [HAgC]; · iexact HAgC
  iintro %ret31 ⟨HOW, HAgT, HAgL, HAgC⟩
  iapply (part32_run m ρ K c _ _ _ _)
  isplitr; · iexact HR
  isplitl [HOW]; · iexact HOW
  isplitl [HAgT]; · iexact HAgT
  isplitl [HAgL]; · iexact HAgL
  isplitl [HAgC]; · iexact HAgC
  iintro %ret32 ⟨HOW, HAgT, HAgL, HAgC⟩
  iapply (part33_run m ρ K c _ _)
  isplitr; · iexact HR
  isplitl [HOW]; · iexact HOW
  isplitl [HAgT]; · iexact HAgT
  isplitl [HAgL]; · iexact HAgL
  isplitl [HAgC]; · iexact HAgC
  iintro %ret33 ⟨HOW, HAgT, HAgL, HAgC⟩
  iapply (part34_run m ρ K c _ _ _)
  isplitr; · iexact HR
  isplitl [HOW]; · iexact HOW
  isplitl [HAgT]; · iexact HAgT
  isplitl [HAgL]; · iexact HAgL
  isplitl [HAgC]; · iexact HAgC
  iintro %ret34 ⟨HOW, HAgT, HAgL, HAgC⟩
  iapply (part35_run m ρ K c _ _ _)
  isplitr; · iexact HR
  isplitl [HOW]; · iexact HOW
  isplitl [HAgT]; · iexact HAgT
  isplitl [HAgL]; · iexact HAgL
  isplitl [HAgC]; · iexact HAgC
  iintro %ret35 ⟨HOW, HAgT, HAgL, HAgC⟩
  iapply (part36_run m ρ K c _ _)
  isplitr; · iexact HR
  isplitl [HOW]; · iexact HOW
  isplitl [HAgT]; · iexact HAgT
  isplitl [HAgL]; · iexact HAgL
  isplitl [HAgC]; · iexact HAgC
  iintro %ret36 ⟨HOW, HAgT, HAgL, HAgC⟩
  iapply (part37_run m ρ K c _ _ _)
  isplitr; · iexact HR
  isplitl [HOW]; · iexact HOW
  isplitl [HAgT]; · iexact HAgT
  isplitl [HAgL]; · iexact HAgL
  isplitl [HAgC]; · iexact HAgC
  iintro %ret37 ⟨HOW, HAgT, HAgL, HAgC⟩
  iapply (part38_run m ρ K c _ _)
  isplitr; · iexact HR
  isplitl [HOW]; · iexact HOW
  isplitl [HAgT]; · iexact HAgT
  isplitl [HAgL]; · iexact HAgL
  isplitl [HAgC]; · iexact HAgC
  iintro %ret38 ⟨HOW, HAgT, HAgL, HAgC⟩
  iapply (part39_run m ρ K c _ _ _ _ _ _ _)
  isplitr; · iexact HR
  isplitr; · iexact Hlev
  isplitl [HOW]; · iexact HOW
  isplitl [HAgT]; · iexact HAgT
  isplitl [HAgL]; · iexact HAgL
  isplitl [HAgC]; · iexact HAgC
  isplitl [HW3C]; · iexact HW3C
  isplitl [HW3P]; · iexact HW3P
  isplitr; · iapply (emp_done0 _); iempintro
  iintro %ret39 ⟨HOW, HAgT, HAgL, HAgC, HW3C, HW3P, HW3G⟩
  iapply (part40_run m ρ K c _ _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret40 ⟨HOW, HW3C, HW3P, HW3G⟩
  iapply (part41_run m ρ K c _ _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret41 ⟨HOW, HW3C, HW3P, HW3G⟩
  iapply (part42_run m ρ K c _ _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret42 ⟨HOW, HW3C, HW3P, HW3G⟩
  iapply (part43_run m ρ K c _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret43 ⟨HOW, HW3C, HW3P, HW3G⟩
  iapply (part44_run m ρ K c _ _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret44 ⟨HOW, HW3C, HW3P, HW3G⟩
  iapply (part45_run m ρ K c _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret45 ⟨HOW, HW3C, HW3P, HW3G⟩
  ihave HW0C := (Entails.of_eq (cred_list c 0)) $$ HRsC
  iapply (part46_run m ρ K c _)
  isplitr; · iexact HR
  isplitr; · iexact Hlev
  isplitl [HOW]; · iexact HOW
  isplitl [HW0C]; · iexact HW0C
  isplitl [HW0P]; · iexact HW0P
  isplitr; · iapply (emp_done0 _); iempintro
  iintro %ret46 ⟨HOW, HW0C, HW0P, HW0G⟩
  iapply (part47_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret47 ⟨HOW, HW0C, HW0P, HW0G⟩
  iapply (part48_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret48 ⟨HOW, HW0C, HW0P, HW0G⟩
  iapply (part49_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret49 ⟨HOW, HW0C, HW0P, HW0G⟩
  iapply (part50_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret50 ⟨HOW, HW0C, HW0P, HW0G⟩
  iapply (part51_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret51 ⟨HOW, HW0C, HW0P, HW0G⟩
  ihave HW2C := (Entails.of_eq (cred_list c 2)) $$ HAgC
  iapply (part52_run m ρ K c _)
  isplitr; · iexact HR
  isplitr; · iexact Hlev
  isplitl [HOW]; · iexact HOW
  isplitl [HW0C]; · iexact HW0C
  isplitl [HW0P]; · iexact HW0P
  isplitl [HW0G]; · iexact HW0G
  isplitl [HW2C]; · iexact HW2C
  isplitl [HW2P]; · iexact HW2P
  isplitr; · iapply (emp_done0 _); iempintro
  iintro %ret52 ⟨HOW, HW0C, HW0P, HW0G, HW2C, HW2P, HW2G⟩
  iapply (part53_run m ρ K c _)
  isplitr; · iexact HR
  isplitr; · iexact Hlev
  isplitl [HOW]; · iexact HOW
  isplitl [HW2C]; · iexact HW2C
  isplitl [HW2P]; · iexact HW2P
  isplitl [HW2G]; · iexact HW2G
  iintro %ret53 ⟨HOW, HW2C, HW2P, HW2G⟩
  iapply (part54_run m ρ K c _)
  isplitr; · iexact HR
  isplitr; · iexact Hlev
  isplitl [HOW]; · iexact HOW
  isplitl [HW2C]; · iexact HW2C
  isplitl [HW2P]; · iexact HW2P
  isplitl [HW2G]; · iexact HW2G
  iintro %ret54 ⟨HOW, HW2C, HW2P, HW2G⟩
  iapply (part55_run m ρ K c _)
  isplitr; · iexact HR
  isplitr; · iexact Hlev
  isplitl [HOW]; · iexact HOW
  isplitl [HW2C]; · iexact HW2C
  isplitl [HW2P]; · iexact HW2P
  isplitl [HW2G]; · iexact HW2G
  iintro %ret55 ⟨HOW, HW2C, HW2P, HW2G⟩
  iapply (part56_run m ρ K c _)
  isplitr; · iexact HR
  isplitr; · iexact Hlev
  isplitl [HOW]; · iexact HOW
  isplitl [HW2C]; · iexact HW2C
  isplitl [HW2P]; · iexact HW2P
  isplitl [HW2G]; · iexact HW2G
  iintro %ret56 ⟨HOW, HW2C, HW2P, HW2G⟩
  rw [wp_ret]; imodintro
  iapply (wait_step m ρ K c 2 31 31 31 (fun r => by rw [show todo 31 = [] from by decide]; exact mayWait_none c _) 26 28 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 27 1 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 28 29 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 29 0 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 30 30 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iclear HSig HBarP HRsT HRsL HW1C HW1P HAgT HAgL HW3C HW3P HW0C HW0P HW2C HW2P
  iapply Hk
  unfold Final
  isplitl [HOW]; · iexact HOW
  isplitl [HrM]; · iexact HrM
  isplitl [HW1Pos]; · iexact HW1Pos
  isplitl [HxOwn]; · iexact HxOwn
  isplitl [HW0G]; · iexact HW0G
  isplitl [HW3G]; · iexact HW3G
  isplitl [HW2G]; · iexact HW2G
  isplitl [HoRest]; · iexact HoRest
  iexact HZero
end Cert.KernelIdeal.RsAg

end
-- ==== Proof.KernelIdeal.Body.lean ====
/- One device's body: from the invariant before the point, what it owes and the two staging buffers, the kernel's
   body runs to the invariant after it, owing nothing, the input block unchanged and the output block at the sums:
   the buffers are cut into blocks, the 222 statements run phase by phase over the 31 offsets, the blocks are
   rejoined and the device's own cells closed. -/
import proofs.«901012_g7700000000001013_dist_rs_then_ag_i_m256_n256_v7x_i32_f32_1_alg».proof.Proof.KernelIdeal.Run

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536 in
/-- The body, run from `bodyPre` to `bodyPost`. -/
theorem sound_body (c : Dev nD) :
    bodyPre m ρ c ⊢ wp frame (wpE (defs₀ (F := F)) 𝒱₀ (c : Thread nD τ) none) Set.univ (bodyAt0 (F := F) t0_0)
      (fun _ => bodyPost m ρ c) := by
  refine BIBase.Entails.trans ?_ (wp_fupd frame (wpE (defs₀ (F := F)) 𝒱₀ (c : Thread nD τ) none) Set.univ _ _)
  show bodyPre m ρ c ⊢ wp frame (wpE (defs₀ (F := F)) 𝒱₀ (c : Thread nD τ) none) Set.univ
    (cc0_body xM (Memref.isWhole_whole _) oM (Memref.isWhole_whole _) rM (Memref.isWhole_whole _) cc0_scratch1 cc0_scratch2 cc0_scratch3 cc0_scratch4)
    (fun _ => iprop(|={Set.univ}[frame]=> bodyPost m ρ c))
  iintro H
  ihave H' := (prep m ρ c) $$ H
  icases H' with ⟨%K, #HR, #Hlev, HI⟩
  iapply (run m ρ K c (fun _ => iprop(|={Set.univ}[frame]=> bodyPost m ρ c)))
  isplitr; · iexact HR
  isplitr; · iexact Hlev
  isplitl [HI]; · iexact HI
  iintro HF
  iapply (finish m ρ K c)
  isplitr; · iexact HR
  iexact HF

omit [FloatOps F] in
theorem owns_whole_eq' (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq']
  show bodyPre m ρ c ⊢ wp frame (wpE (defs₀ (F := F)) 𝒱₀ (c : Thread nD τ) none) Set.univ (bodyAt0 (F := F) t0_0)
    (fun _ => bodyPost m ρ c)
  exact sound_body m ρ c

end Cert.KernelIdeal.RsAg

end
-- ==== Proof.KernelIdeal.Launch.lean ====
/- The launch: the rounds library's element for all cells and duty tokens, dealt to the devices (each cell's
   invariant opened on its counter at zero, every token handed to the device that pays its duty), the credit the
   launch gives each device for what the others owe its cells, and the library's launch theorem applied to the
   body obligation; then the final arrays read off: the input unchanged, the output block at the sums. -/
import proofs.«901012_g7700000000001013_dist_rs_then_ag_i_m256_n256_v7x_i32_f32_1_alg».proof.Proof.KernelIdeal.Body
import Idealize.ShloMosaic.Lib.Pipeline.Launch
import Idealize.ShloMosaic.Lib.Pipeline.Kit

noncomputable section

namespace Cert.KernelIdeal.RsAg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Layout facts -/

theorem osem_injective : Function.Injective osem := fun a b h =>
  Option.some.inj (@csem_injective (some a) (some b) h)

theorem osem_scoped : ∀ k, (osem k).isScoped .tc = true := by decide +kernel
theorem osem_disj : ∀ (k : Fin 4 × Fin 32) (w : Fin cfg0.W) (s : Fin (cfg0.spec w).nbuf), osem k ≠ .dma ((cfg0.spec w).sem s) := by decide +kernel

theorem ownSemFacts : Pipeline.OwnSemFacts cfg0.spec osem := ⟨osem_scoped, osem_injective, osem_disj⟩

theorem share_eq (c : Dev nD) (w : Fin cfg0.W) : (dats m ρ 0 c).share w = fullShare := by unfold Dat.share; split <;> rfl

/-! ## The launch element: all cells, and one token per cell and duty -/

def allCells : Finset (GSem nD τ sig) := Finset.univ.map ⟨kcell, kcell_injective⟩

/-- A token as minted, by (device, offset, which): the barrier cell's duty at that offset, or the one duty of the
    cell at that offset of one of the four arrays. -/
abbrev tokOf (x : Dev nD × Fin 31 × Option (Fin 4)) : GSem nD τ sig × ℕ × Fin 31 :=
  match x.2.2 with
  | none => (kcell (x.1, none), 0, x.2.1)
  | some a => (kcell (x.1, some (a, x.2.1.succ)), 0, 0)

theorem tokOf_injective : Function.Injective tokOf := by
  rintro ⟨c, r, o⟩ ⟨c', r', o'⟩ h
  have h1 : (tokOf (c, r, o)).1 = (tokOf (c', r', o')).1 := congrArg (fun x => x.1) h
  have h2 : (tokOf (c, r, o)).2.2 = (tokOf (c', r', o')).2.2 := congrArg (fun x => x.2.2) h
  match o, o' with
  | none, none =>
    have e := kcell_injective h1
    have ec : c = c' := congrArg Prod.fst e
    have er : r = r' := h2
    rw [ec, er]
  | none, some a' => exact absurd (congrArg Prod.snd (kcell_injective h1)) (by intro h'; cases h')
  | some a, none => exact absurd (congrArg Prod.snd (kcell_injective h1)) (by intro h'; cases h')
  | some a, some a' =>
    have e := kcell_injective h1
    have ec : c = c' := congrArg Prod.fst e
    have e2 : (a, r.succ) = (a', r'.succ) := Option.some.inj (congrArg Prod.snd e)
    have ea : a = a' := congrArg Prod.fst e2
    have er : r = r' := Fin.succ_inj.mp (congrArg Prod.snd e2)
    rw [ec, ea, er]

def allToks : Finset (GSem nD τ sig × ℕ × Fin 31) := Finset.univ.map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  bigSep Finset.univ fun r : Fin 31 =>
    iprop(dutyTok ER (barCell c) 0 r
      ∗ dutyTok ER (rsS c r) 0 0 ∗ dutyTok ER (rsR c r) 0 0
      ∗ dutyTok ER (agS c r) 0 0 ∗ dutyTok ER (agR c r) 0 0)

/-- What the launch element deals device c. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_opt5 (Φ : Option (Fin 4) → sProp 𝕄) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_prod]
    exact bigSep_congr fun r _ => by rw [bigSep_opt5]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant opened, the tokens dealt to their payers -/

/-- A conjunction over an optional index: the summand at none beside those at some. -/
theorem bigSep_option {α : Type} [Fintype α] (Φ : Option α → sProp 𝕄) :
    iprop(Φ none ∗ bigSep Finset.univ fun a : α => Φ (some a)) ⊢ bigSep Finset.univ Φ := by
  have e : bigSep Finset.univ Φ = iprop((bigSep Finset.univ fun a : α => Φ (some a)) ∗ Φ none) := by
    rw [bigSep_univ_equiv (Equiv.optionEquivSumPUnit.{0, 0} α).symm Φ, bigSep_univ_sum, bigSep_univ_of_subsingleton (PUnit.unit : PUnit.{1})]; rfl
  rw [e]
  iintro ⟨H0, HS⟩
  isplitl [HS]
  · iexact HS
  · iexact H0

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq]
  iintro ⟨HS, HB⟩
  iapply (bigSep_option (F := F) fun k : CK => (semVal (kcell (c, k)) 0 : sProp 𝕄))
  isplitl [HB]
  · iexact HB
  · unfold Pipeline.ownSems0; iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(recs m ρ K ∗ (posAll c ∗ payToks c)) ⊢ G' m ρ c := by
  unfold G' ghost
  iintro ⟨HR, HP, HT⟩
  iexists K
  isplitl [HR]; · iexact HR
  isplitl [HP]; · iexact HP
  iexact HT

/-- Moving a device to its peer and the offset to the one that leads back is an involution of (device, offset). -/
def dealBar : Dev nD × Fin 31 ≃ Dev nD × Fin 31 :=
  ⟨fun p => (peer p.1 p.2, back p.2), fun p => (peer p.1 p.2, back p.2),
    fun p => by simp only [peer_back, back_back], fun p => by simp only [peer_back, back_back]⟩

/-- Moving a device to its peer, the offset kept. -/
def dealRecv : Dev nD × Fin 31 ≃ Dev nD × Fin 31 :=
  ⟨fun p => (peer p.1 p.2, p.2), fun p => (peer p.1 (back p.2), p.2),
    fun p => by simp only [peer_back], fun p => by simp only [back_peer]⟩

theorem deal_bar (Φ : Dev nD → Fin 31 → sProp 𝕄) :
    (bigSep Finset.univ fun c => bigSep Finset.univ fun r => Φ c r)
      = bigSep Finset.univ fun c => bigSep Finset.univ fun r => Φ (peer c r) (back r) := by
  rw [← bigSep_univ_prod (fun p : Dev nD × Fin 31 => Φ p.1 p.2), bigSep_univ_equiv dealBar, bigSep_univ_prod]; rfl

theorem deal_recv (Φ : Dev nD → Fin 31 → sProp 𝕄) :
    (bigSep Finset.univ fun c => bigSep Finset.univ fun r => Φ c r)
      = bigSep Finset.univ fun c => bigSep Finset.univ fun r => Φ (peer c r) r := by
  rw [← bigSep_univ_prod (fun p : Dev nD × Fin 31 => Φ p.1 p.2), bigSep_univ_equiv dealRecv, bigSep_univ_prod]; rfl

/-- The tokens dealt: a barrier cell's token of duty d goes to the peer that pays it, a receive cell's token to the
    device that sends to it; the send cells' tokens stay. -/
theorem toks_around : (bigSep Finset.univ fun c : Dev nD => (toks c : sProp 𝕄)) ⊢ bigSep Finset.univ fun c : Dev nD => payToks c := by
  unfold toks payToks
  simp only [bigSep_sep']
  rw [deal_bar (fun c r => (dutyTok ER (barCell c) 0 r : sProp 𝕄)),
    deal_recv (fun c r => (dutyTok ER (rsR c r) 0 0 : sProp 𝕄)),
    deal_recv (fun c r => (dutyTok ER (agR c r) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := recs m ρ K) fun c _ => ghost_intro m ρ K c)
  isplitr
  · unfold recs; isplitl; · iexact HI
    iexact HR
  · iapply (Entails.of_eq (bigSep_sep' Finset.univ (fun c : Dev nD => posAll c) payToks).symm)
    isplitl [Hat]; · unfold posAll; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a device owes, summed in the order it pays, is the sum over all offsets. -/
theorem ord_sum (f : Fin 31 → CellTallies nD τ sig Unit) : (ord.map f).sum = ∑ r, f r := by
  rw [← List.sum_toFinset f ord_nodup, ord_toFinset]

theorem owedSig_list (c : Dev nD) (rs : List (Fin 31)) :
    owedSig c rs = (rs.map fun r => (tallyAt (barCell (peer c r)) () 1 : CellTallies nD τ sig Unit)).sum := by
  induction rs with
  | nil => rfl
  | cons r rs ih => rw [List.map_cons, List.sum_cons, ← ih, add_comm]; rfl
theorem owedRs_list (c : Dev nD) (rs : List (Fin 31)) :
    owedRs c rs = (rs.map fun r => (tallyAt (rsR (peer c r) r) () N8 : CellTallies nD τ sig Unit)).sum := by
  induction rs with
  | nil => rfl
  | cons r rs ih => rw [List.map_cons, List.sum_cons, ← ih, add_comm]; rfl
theorem owedAg_list (c : Dev nD) (rs : List (Fin 31)) :
    owedAg c rs = (rs.map fun r => (tallyAt (agR (peer c r) r) () N8 : CellTallies nD τ sig Unit)).sum := by
  induction rs with
  | nil => rfl
  | cons r rs ih => rw [List.map_cons, List.sum_cons, ← ih, add_comm]; rfl

theorem O₀_eq (d : Dev nD) :
    O₀ d = (∑ r : Fin 31, tallyAt (agR (peer d r) r) () N8) + (∑ r : Fin 31, tallyAt (rsR (peer d r) r) () N8)
      + ∑ r : Fin 31, tallyAt (barCell (peer d r)) () 1 := by
  unfold O₀; rw [owedAg_list, owedRs_list, owedSig_list, ord_sum, ord_sum, ord_sum]

/-- The credit of device c's own waits: a block on each receive cell, 31 units on its barrier cell. -/
def T (c : Dev nD) : CellTallies nD τ sig Unit :=
  (∑ r : Fin 31, tallyAt (agR c r) () N8) + (∑ r : Fin 31, tallyAt (rsR c r) () N8) + tallyAt (barCell c) () 31

theorem nsmul_tallyAt (g : GSem nD τ sig) (n : ℕ) : n • (tallyAt g () 1 : CellTallies nD τ sig Unit) = tallyAt g () n := by
  induction n with
  | zero => rw [zero_smul, tallyAt_zero]
  | succ n ih => rw [succ_nsmul, ih, tallyAt_add]

/-- Summed over the devices, what they owe is what their cells are owed: for a fixed offset the peers are all
    devices again. -/
theorem sum_O₀ : (∑ d : Dev nD, O₀ d) = ∑ d : Dev nD, T d := by
  simp only [O₀_eq, T, Finset.sum_add_distrib]
  refine congrArg₂ (· + ·) (congrArg₂ (· + ·) ?_ ?_) ?_
  · rw [Finset.sum_comm]; conv_rhs => rw [Finset.sum_comm]
    exact Finset.sum_congr rfl fun r _ => Equiv.sum_comp (shift r) fun d => (tallyAt (agR d r) () N8 : CellTallies nD τ sig Unit)
  · rw [Finset.sum_comm]; conv_rhs => rw [Finset.sum_comm]
    exact Finset.sum_congr rfl fun r _ => Equiv.sum_comp (shift r) fun d => (tallyAt (rsR d r) () N8 : CellTallies nD τ sig Unit)
  · rw [Finset.sum_comm]
    have h1 : ∀ r : Fin 31, (∑ d : Dev nD, (tallyAt (barCell (peer d r)) () 1 : CellTallies nD τ sig Unit)) = ∑ d : Dev nD, tallyAt (barCell d) () 1 :=
      fun r => Equiv.sum_comp (shift r) fun d => (tallyAt (barCell d) () 1 : CellTallies nD τ sig Unit)
    rw [Finset.sum_congr rfl fun r _ => h1 r, Finset.sum_comm]
    exact Finset.sum_congr rfl fun d _ => by
      rw [Finset.sum_const, Finset.card_univ, Fintype.card_fin, nsmul_tallyAt]

theorem T_support (d : Dev nD) (g : GSem nD τ sig) (h : T d g ≠ 0) : g.1 = (d : Thread nD τ) := by
  by_contra hne
  apply h
  have hc (sm : SemLoc sig) : g ≠ ((d : Thread nD τ), sm) := fun e => hne (congrArg Prod.fst e)
  unfold T
  rw [Pi.add_apply, Pi.add_apply, Finset.sum_apply, Finset.sum_apply,
    Finset.sum_eq_zero fun r _ => tallyAt_ne_cell (hc _) () N8, Finset.sum_eq_zero fun r _ => tallyAt_ne_cell (hc _) () N8,
    tallyAt_ne_cell (hc _), add_zero, add_zero]

theorem creds_intro (c : Dev nD) : (Pipeline.launchCred O₀ c : sProp 𝕄) ⊢ creds c := by
  rw [Pipeline.launchCred_of_sum O₀ T sum_O₀ T_support c]
  unfold T creds
  refine (cred_add _ _).1.trans ?_
  refine (sep_mono_left (cred_add _ _).1).trans ?_
  rw [Pipeline.cred_finsetSum, Pipeline.cred_finsetSum]
  iintro ⟨⟨Ha, Hr⟩, Hb⟩
  isplitl [Hb]; · iexact Hb
  isplitl [Hr]; · iexact Hr
  iexact Ha

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Hz⟩
  isplitr; · iempintro
  isplitl [Hz]; · iexact Hz
  iexact Hr

/-- The pipeline's staging semaphores are none of the kernel's: their level is 0. -/
theorem stage_kind : ∀ (w : Fin cfg0.W) (s : Fin (cfg0.win w).nbuf), kindOf ((cfg0.win w).sem s) = none := by decide

theorem waits (c : Dev nD) : (levAts L lv : sProp 𝕄) ⊢ Pipeline.cellsWaits cfgs (dats m ρ) () 0 c :=
  Pipeline.cellsWaits_intro cfgs (dats m ρ) () 0 c fun w s t => by
    have hq : lv ((c : Thread nD τ), .dma ((cfg0.win w).sem s)) () = 0 := by
      unfold lv; dsimp only; rw [stage_kind w s]
    rcases t with ⟨_ | _, ht⟩
    · exact mayWait_low c _ hq ord ord ord
    · show _ ⊢ MayWait _ _ _ 0; rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- At the compiled mesh of 32 devices, for any float values, from any memory with zero counters: every weakly fair
    execution of @main terminates, and every final state has each device's result array at the computed contents
    and its input block unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the sums: the one point writes the staged block back whole. -/
theorem finalA_o (c : Dev nD) : finalA m ρ c (1 : Fin 2) = outAll m ρ := by
  unfold finalA
  have hN : cfg0.N = (t0_0 : Fin cfg0.N).val + 1 := by decide
  rw [hN, Dat.arrAt_succ, flush0_1, if_pos rfl]
  exact Memref.write_access_unit_zero_univ (Elt F) main_v1 (funext fun a => Nat.zero_mul _) _ _ (outAll m ρ)

/-- info: 'Cert.KernelIdeal.RsAg.run_main' depends on axioms: [propext, Classical.choice, Quot.sound] -/
#guard_msgs in #print axioms run_main

end Cert.KernelIdeal.RsAg

end
-- ==== Proof.Kernel.Mesh.lean ====
/- The ring of 32 devices as the kernel addresses it: device `c` reaches the device `r + 1` places after it
   (`peer c r`, `r : Fin 31`), and the offset `back r` leads from there back to `c`. Every device chain the
   program computes is one of these, and every row offset it computes is eight times a device's position. -/
import proofs.«901012_g7700000000001013_dist_rs_then_ag_i_m256_n256_v7x_i32_f32_1_alg».proof.Proof.Gen.Kernel

namespace Cert.Kernel.RsAg

open Cert.Kernel Cert.Kernel.Gen Idealize.ShloMosaic

/-- The device `r + 1` places after `c` on the ring. -/
def peer (c : Dev nD) (r : Fin 31) : Dev nD := ⟨(c.val + r.val + 1) % 32, Nat.mod_lt _ (by decide)⟩

/-- The offset that undoes `r`: `(r + 1) + (back r + 1) = 32`. -/
def back (r : Fin 31) : Fin 31 := ⟨30 - r.val, by omega⟩

theorem peer_val (c : Dev nD) (r : Fin 31) : (peer c r).val = (c.val + r.val + 1) % 32 := rfl
theorem back_val (r : Fin 31) : (back r).val = 30 - r.val := rfl

theorem back_back (r : Fin 31) : back (back r) = r := Fin.ext (by simp only [back_val]; omega)

theorem peer_back (c : Dev nD) (r : Fin 31) : peer (peer c r) (back r) = c :=
  Fin.ext (by have hc : c.val < 32 := c.isLt; have := r.isLt; simp only [peer_val, back_val]; omega)

theorem back_peer (c : Dev nD) (r : Fin 31) : peer (peer c (back r)) r = c := by
  have := peer_back c (back r); rwa [back_back] at this

theorem peer_ne (c : Dev nD) (r : Fin 31) : peer c r ≠ c := fun h => by
  have h' := congrArg Fin.val h
  have hc : c.val < 32 := c.isLt; have := r.isLt; simp only [peer_val] at h'; omega

theorem peer_injective (c : Dev nD) : Function.Injective (peer c) := fun r r' h => by
  have h' := congrArg Fin.val h
  have hc : c.val < 32 := c.isLt; have := r.isLt; have := r'.isLt
  exact Fin.ext (by simp only [peer_val] at h'; omega)

/-- Every other device is a peer, at exactly one offset. -/
theorem exists_peer {c b : Dev nD} (h : b ≠ c) : ∃ r : Fin 31, peer c r = b := by
  have hc : c.val < 32 := c.isLt; have hb : b.val < 32 := b.isLt
  have hne : b.val ≠ c.val := fun e => h (Fin.ext e)
  refine ⟨⟨(b.val + 31 - c.val) % 32, by omega⟩, Fin.ext ?_⟩
  simp only [peer_val]; omega

/-- Moving every device `r + 1` places on is a permutation of the ring. -/
def shift (r : Fin 31) : Dev nD ≃ Dev nD := ⟨fun c => peer c r, fun c => peer c (back r), fun c => peer_back c r, fun c => back_peer c r⟩

theorem shift_apply (r : Fin 31) (c : Dev nD) : shift r c = peer c r := rfl
theorem shift_symm_apply (r : Fin 31) (c : Dev nD) : (shift r).symm c = peer c (back r) := rfl

/-- The rows of a device's block: eight, from eight times its position. -/
theorem off3_val (b : Dev nD) : k0_off3 b = ![8 * b.val, 0] := k0_off3_eq b
theorem off2_eq_off3 (c : Dev nD) : k0_off2 c = k0_off3 c := (k0_off2_eq c).trans (k0_off3_eq c).symm
theorem off1_eq_off3 (c : Dev nD) (r : Fin 31) : k0_off1 c (BitVec.ofNat 32 (1 + r.val)) = k0_off3 (peer c r) :=
  (k0_off1_eq c r).trans (k0_off3_eq (peer c r)).symm

end Cert.Kernel.RsAg
-- ==== Proof.Kernel.Cells.lean ====
/- The buffers, the semaphore cells and the contents of the reduce-scatter / all-gather kernel, and its
   schedule under the rounds discipline: per device one barrier cell with 31 unit duties (one per peer) and, for
   each offset, a send and a receive cell of the reduce-scatter copy and of the all-gather copy, one duty each. -/
import proofs.«901012_g7700000000001013_dist_rs_then_ag_i_m256_n256_v7x_i32_f32_1_alg».proof.Proof.Kernel.Mesh
import proofs.«901012_g7700000000001013_dist_rs_then_ag_i_m256_n256_v7x_i32_f32_1_alg».proof.Proof.Gen.Kernel.Skeleton
import proofs.«901012_g7700000000001013_dist_rs_then_ag_i_m256_n256_v7x_i32_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.ValueIdx
import Idealize.ShloMosaic.Lib.Tactic

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the rounds library's, duties named by an offset -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Buffers -/

/-- The staged input block, the staged output block, the landing buffer of 31 slots. -/
abbrev xM : Memref sig .tc .vmem S256x256 .f32 := Memref.whole cc0_stg0_0
abbrev oM : Memref sig .tc .vmem S256x256 .f32 := Memref.whole cc0_stg1_0
abbrev rM : Memref sig .tc .vmem S31x8x256 .f32 := Memref.whole cc0_scratch0

/-- The eight rows of the input block that device `c` sends at offset `r`: those at `peer c r`'s position. -/
abbrev xSendR (c : Dev nD) (r : Fin 31) : Rect S256x256 :=
  Rect.unit (s := S256x256) (k0_off1 c (BitVec.ofNat 32 (1 + r.val))) S8x256.size (k0_off1_inb c r)
abbrev xSend (c : Dev nD) (r : Fin 31) : Memref sig .tc .vmem S8x256 .f32 := xM.slice (xSendR c r) (fun _ => rfl)
/-- The eight rows at its own position, which it adds itself. -/
abbrev xOwnR (c : Dev nD) : Rect S256x256 := Rect.unit (s := S256x256) (k0_off2 c) S8x256.size (k0_off2_inb c)
abbrev xOwn (c : Dev nD) : Memref sig .tc .vmem S8x256 .f32 := xM.slice (xOwnR c) (fun _ => rfl)

/-- The eight rows of the output block that device `b` computes. -/
abbrev oR (b : Dev nD) : Rect S256x256 := Rect.unit (s := S256x256) (k0_off3 b) S8x256.size (k0_off3_inb b)
abbrev oRows (b : Dev nD) : Memref sig .tc .vmem S8x256 .f32 := oM.slice (oR b) (fun _ => rfl)

theorem slot_inb (r : Fin 31) : ∀ a, (![r.val, 0, 0] : Fin 3 → Nat) a + S1x8x256.size a ≤ S31x8x256.size a := by
  intro a; have := r.isLt; fin_cases a <;> simp [S1x8x256, S31x8x256] <;> try omega
/-- Slot `r` of the landing buffer: where the copy sent at offset `r` lands. -/
abbrev slotR (r : Fin 31) : Rect S31x8x256 := Rect.unit (s := S31x8x256) ![r.val, 0, 0] S1x8x256.size (slot_inb r)
abbrev rSlot (r : Fin 31) : Memref sig .tc .vmem S8x256 .f32 :=
  (rM.slice (slotR r) (fun _ => rfl)).squeeze S8x256 squeezes_S1x8x256_S8x256

/-! ## Semaphores and cells -/

theorem sem_inb (j : Fin 32) : ∀ a, (![j.val] : Fin 1 → Nat) a + S1.size a ≤ S32.size a := by
  intro a; have := j.isLt; fin_cases a; simp [S1, S32]; try omega
/-- Semaphore `j` of an array of 32, as the kernel picks it (a slice, squeezed). -/
abbrev semAt (A : DmaSems sig S32) (j : Fin 32) : DmaSem sig :=
  ((A.slice (Rect.unit (s := S32) ![j.val] S1.size (sem_inb j))).squeeze S_ squeezes_S1_S_).sem

/-- The four arrays: reduce-scatter send, reduce-scatter receive, all-gather send, all-gather receive. -/
abbrev arr : Fin 4 → DmaSems sig S32 := fun | 0 => cc0_scratch1 | 1 => cc0_scratch2 | 2 => cc0_scratch3 | 3 => cc0_scratch4

theorem semAt_val : ∀ (a : Fin 4) (j : Fin 32), (semAt (arr a) j).val = 2 + 32 * a.val + j.val := by decide

/-- The runtime's barrier semaphore of collective id 0. -/
abbrev barS : Sem sig := (SemArray.scalar (sig.barrier 0 rfl) : Sems sig S_).sem

abbrev barCell (c : Dev nD) : GSem nD τ sig := ((c : Thread nD τ), .reg barS)
abbrev dcell (c : Dev nD) (a : Fin 4) (j : Fin 32) : GSem nD τ sig := ((c : Thread nD τ), .dma (semAt (arr a) j))
/-- Device `c`'s cells at offset `r`: semaphore `r + 1` of each array. -/
abbrev rsS (c : Dev nD) (r : Fin 31) : GSem nD τ sig := dcell c 0 r.succ
abbrev rsR (c : Dev nD) (r : Fin 31) : GSem nD τ sig := dcell c 1 r.succ
abbrev agS (c : Dev nD) (r : Fin 31) : GSem nD τ sig := dcell c 2 r.succ
abbrev agR (c : Dev nD) (r : Fin 31) : GSem nD τ sig := dcell c 3 r.succ

/-- Which array and offset a DMA semaphore is, if it is one the kernel uses (index 0 of each array is unused). -/
def kindOf (q : DmaSem sig) : Option (Fin 4 × Fin 31) :=
  if h : 2 ≤ q.val ∧ (q.val - 2) % 32 ≠ 0 then
    some (⟨(q.val - 2) / 32, by have hq : q.val < 130 := q.isLt; omega⟩, ⟨(q.val - 2) % 32 - 1, by omega⟩)
  else none

theorem kindOf_semAt : ∀ (a : Fin 4) (r : Fin 31), kindOf (semAt (arr a) r.succ) = some (a, r) := by decide
theorem kindOf_semAt_zero : ∀ (a : Fin 4), kindOf (semAt (arr a) 0) = none := by decide

/-- The credit of one 8 × 256 block. -/
abbrev N8 : ℕ := (rSlot 0).view.dmaCredit
theorem N8_pos : 0 < N8 := View.dmaCredit_pos _ (by decide)

/-! ## Contents -/

/-- Device `c`'s input block as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The rows of it that it sends at offset `r`, and the rows it keeps. -/
def xSendBlk (c : Dev nD) (r : Fin 31) : S8x256.Idx → Elt F .f32 := fun j => xstg m ρ c ((xSendR c r).emb j)
def xOwnBlk (c : Dev nD) : S8x256.Idx → Elt F .f32 := fun j => xstg m ρ c ((xOwnR c).emb j)

/-- What device `c`'s landing buffer holds once every copy has landed: in slot `r` the rows the device `r + 1`
    places before it sent at offset `r`. -/
def rsAll (c : Dev nD) : (cc0_scratch0 : Ref sig .tc).ty.Contents (Elt F) :=
  fun i => xSendBlk m ρ (peer c (back ⟨(i 0).val, (i 0).isLt⟩)) ⟨(i 0).val, (i 0).isLt⟩
    (ValueIdx.ix2 (n0 := 8) (n1 := 256) ⟨(i 1).val, (i 1).isLt⟩ ⟨(i 2).val, (i 2).isLt⟩)

/-- Device `c`'s eight rows of the result: the slots summed, plus its own rows. -/
def red (c : Dev nD) : S8x256.Idx → Elt F .f32 := k0_pay1 (rsAll m ρ c) (xOwnBlk m ρ c)

/-- The whole result block, the same on every device: rows `8 b … 8 b + 7` are device `b`'s. -/
def outAll : (cc0_stg1_0 : Ref sig .tc).ty.Contents (Elt F) :=
  fun i => red m ρ ⟨(i 0).val / 8, by have h : (i 0).val < 256 := (i 0).isLt; show (i 0).val / 8 < 32; omega⟩
    (ValueIdx.ix2 (n0 := 8) (n1 := 256) ⟨(i 0).val % 8, Nat.mod_lt _ (by decide)⟩ ⟨(i 1).val, (i 1).isLt⟩)

/-! ## The schedule -/

/-- The share of its own rows of the output that device `c` lends the all-gather copy at offset `r`. -/
abbrev agShare (r : Fin 31) : PosShare TreeShare := Transfers.shareTok fullShare 31 r

/-- What a duty hands the cell's owner. Barrier duty `d` of device `c` (paid by `peer c d`): that peer's slot `d` and
    its rows of the output for `c`, to be written by `c`'s two copies at offset `d`. A send cell: the source back.
    A receive cell: the destination at what landed. -/
def pay (g : GSem nD τ sig) (d : Fin 31) : sProp 𝕄 :=
  match g.2 with
  | .reg _ => iprop((∃ Y, ownsTc (peer g.1.1 d) (rSlot d) fullShare Y) ∗ (∃ Y, ownsTc (peer g.1.1 d) (oRows g.1.1) fullShare Y))
  | .dma q =>
    match kindOf q with
    | some (⟨0, _⟩, r) => ownsTc g.1.1 (xSend g.1.1 r) fullShare (xSendBlk m ρ g.1.1 r)
    | some (⟨1, _⟩, r) => ownsTc g.1.1 (rSlot r) fullShare (xSendBlk m ρ (peer g.1.1 (back r)) r)
    | some (⟨2, _⟩, r) => ownsTc g.1.1 (oRows g.1.1) (agShare r) (red m ρ g.1.1)
    | some (⟨_ + 3, _⟩, r) => ownsTc g.1.1 (oRows (peer g.1.1 (back r))) fullShare (red m ρ (peer g.1.1 (back r)))
    | none => iprop(emp)

/-- Round 0 only: a barrier cell has every offset as a duty of one unit; a used DMA cell the one duty `0` of a
    block's credit. -/
def sched : Rounds.Schedule (GSem nD τ sig) (Fin 31) 𝕄 where
  duties g r :=
    if r = 0 ∧ g.1.2 = .tc then
      (match g.2 with
       | .reg _ => Finset.univ
       | .dma q => if (kindOf q).isSome then {0} else ∅)
    else ∅
  unitless _ := False
  amount g _ _ := match g.2 with | .reg _ => 1 | .dma _ => N8
  payload g _ d := pay m ρ g d
  amount_pos g _ _ _ := by
    cases g.2 with
    | reg _ => exact Nat.one_pos
    | dma _ => exact N8_pos

instance sched_payload_storable (g : GSem nD τ sig) (r : ℕ) (d : Fin 31) :
    BI.Storable (upEmb : UEmb _ 𝕄) ((sched (F := F) m ρ).payload g r d) := by
  show BI.Storable upEmb (pay m ρ g d)
  unfold pay ownsTc
  (repeat' split) <;> infer_instance

end Cert.Kernel.RsAg

end
-- ==== Proof.Kernel.Tables.lean ====
/- The schedule's tables read at each kind of cell, the family of all cells by (device, which), and the persistent
   records (every cell's invariant, every cell at round 0) that each device's body carries. -/
import proofs.«901012_g7700000000001013_dist_rs_then_ag_i_m256_n256_v7x_i32_f32_1_alg».proof.Proof.Kernel.Cells

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables -/

section Tables
variable (c : Dev nD) (r : Fin 31)

theorem duties_bar : (sched (F := F) m ρ).duties (barCell c) 0 = Finset.univ := by
  dsimp only [sched]; exact if_pos ⟨rfl, rfl⟩
theorem duties_dcell (a : Fin 4) : (sched (F := F) m ρ).duties (dcell c a r.succ) 0 = {0} := by
  dsimp only [sched]; rw [if_pos ⟨rfl, rfl⟩]; show (if (kindOf (semAt (arr a) r.succ)).isSome then {0} else ∅) = _; rw [kindOf_semAt]; rfl
theorem duties_dcell_zero (a : Fin 4) (n : ℕ) : (sched (F := F) m ρ).duties (dcell c a 0) n = ∅ := by
  dsimp only [sched]; split
  · show (if (kindOf (semAt (arr a) 0)).isSome then {0} else ∅) = _; rw [kindOf_semAt_zero]; rfl
  · rfl
theorem duties_later (g : GSem nD τ sig) : ∀ n, 1 ≤ n → (sched (F := F) m ρ).duties g n = ∅ :=
  fun n hn => by dsimp only [sched]; rw [if_neg fun h => by omega]

theorem amount_bar (d : Fin 31) : (sched (F := F) m ρ).amount (barCell c) 0 d = 1 := rfl
theorem amount_dcell (a : Fin 4) (j : Fin 32) (d : Fin 31) : (sched (F := F) m ρ).amount (dcell c a j) 0 d = N8 := rfl

theorem expect_bar : (sched (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_dcell (a : Fin 4) : (sched (F := F) m ρ).expect (dcell c a r.succ) 0 = N8 := by
  unfold Schedule.expect Schedule.amountOf; rw [duties_dcell, Finset.sum_singleton, amount_dcell]

theorem payload_bar (d : Fin 31) : (sched (F := F) m ρ).payload (barCell c) 0 d
    = iprop((∃ Y, ownsTc (peer c d) (rSlot d) fullShare Y) ∗ (∃ Y, ownsTc (peer c d) (oRows c) fullShare Y)) := rfl
theorem payload_rsS : (sched (F := F) m ρ).payload (rsS c r) 0 0 = ownsTc c (xSend c r) fullShare (xSendBlk m ρ c r) := by
  show pay m ρ (rsS c r) 0 = _; unfold pay; dsimp only; rw [kindOf_semAt]
theorem payload_rsR : (sched (F := F) m ρ).payload (rsR c r) 0 0 = ownsTc c (rSlot r) fullShare (xSendBlk m ρ (peer c (back r)) r) := by
  show pay m ρ (rsR c r) 0 = _; unfold pay; dsimp only; rw [kindOf_semAt]
theorem payload_agS : (sched (F := F) m ρ).payload (agS c r) 0 0 = ownsTc c (oRows c) (agShare r) (red m ρ c) := by
  show pay m ρ (agS c r) 0 = _; unfold pay; dsimp only; rw [kindOf_semAt]
theorem payload_agR : (sched (F := F) m ρ).payload (agR c r) 0 0
    = ownsTc c (oRows (peer c (back r))) fullShare (red m ρ (peer c (back r))) := by
  show pay m ρ (agR c r) 0 = _; unfold pay; dsimp only; rw [kindOf_semAt]

/-- The whole of the barrier cell's round: every peer's landing buffers. -/
theorem rest_bar : bigSep ((sched (F := F) m ρ).duties (barCell c) 0 \ ∅) (fun d => (sched (F := F) m ρ).payload (barCell c) 0 d)
    = bigSep Finset.univ fun d : Fin 31 => iprop((∃ Y, ownsTc (peer c d) (rSlot d) fullShare Y) ∗ (∃ Y, ownsTc (peer c d) (oRows c) fullShare Y)) := by
  rw [Finset.sdiff_empty, duties_bar]; rfl
/-- The whole of a transfer cell's round: its one payload. -/
theorem rest_dcell (a : Fin 4) : bigSep ((sched (F := F) m ρ).duties (dcell c a r.succ) 0 \ ∅) (fun d => (sched (F := F) m ρ).payload (dcell c a r.succ) 0 d)
    = (sched (F := F) m ρ).payload (dcell c a r.succ) 0 0 := by
  rw [Finset.sdiff_empty, duties_dcell, bigSep_singleton]

end Tables

/-! ## All cells -/

/-- Which cell of a device: its barrier cell, or semaphore `j` of array `a`. -/
abbrev CK : Type := Option (Fin 4 × Fin 32)
abbrev csem : CK → SemLoc sig
  | none => .reg barS
  | some aj => .dma (semAt (arr aj.1) aj.2)
abbrev kcell (ck : Dev nD × CK) : GSem nD τ sig := ((ck.1 : Thread nD τ), csem ck.2)

theorem csem_injective : Function.Injective csem := by
  intro k k' h
  match k, k' with
  | none, none => rfl
  | none, some _ => cases h
  | some _, none => cases h
  | some (a, j), some (a', j') =>
    have h' : (semAt (arr a) j).val = (semAt (arr a') j').val := by
      have := SemLoc.dma.inj h; exact congrArg Fin.val this
    rw [semAt_val, semAt_val] at h'
    have ha := a.isLt; have ha' := a'.isLt; have hj := j.isLt; have hj' := j'.isLt
    have e1 : a = a' := Fin.ext (by omega)
    have e2 : j = j' := Fin.ext (by omega)
    rw [e1, e2]

theorem kcell_injective : Function.Injective kcell := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- What every device's body carries of the launch, persistently: each cell's invariant under the name the launch
    gave it, and that each cell has reached round 0. -/
def recs (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance recs_persistent (K : Dev nD × CK → ℕ) : BI.Persistent (recs m ρ K) := by unfold recs; infer_instance

theorem recs_inv (K : Dev nD × CK → ℕ) (ck : Dev nD × CK) : recs m ρ K ⊢ cellInv ER (sched m ρ) (K ck) (kcell ck) := by
  unfold recs; iintro ⟨H, -⟩
  iapply (show (bigSep Finset.univ fun ck : Dev nD × CK => cellInv ER (sched m ρ) (K ck) (kcell ck)) ⊢ cellInv ER (sched m ρ) (K ck) (kcell ck) from
    bigSep_elim (Finset.mem_univ ck))
  iexact H
theorem recs_reached (K : Dev nD × CK → ℕ) (ck : Dev nD × CK) : recs m ρ K ⊢ (reached ER (kcell ck) 0 : sProp 𝕄) := by
  unfold recs; iintro ⟨-, H⟩
  iapply (show (bigSep Finset.univ fun ck : Dev nD × CK => (reached ER (kcell ck) 0 : sProp 𝕄)) ⊢ reached ER (kcell ck) 0 from
    bigSep_elim (Finset.mem_univ ck))
  iexact H

end Cert.Kernel.RsAg

end
-- ==== Proof.Kernel.Levels.lean ====
/- What a device owes at launch, in the order it pays it, and the levels that make every wait safe: a device waits
   on its barrier cell owing only receive credits, on a reduce-scatter receive cell owing only all-gather receive
   credits, and on everything else owing nothing. -/
import proofs.«901012_g7700000000001013_dist_rs_then_ag_i_m256_n256_v7x_i32_f32_1_alg».proof.Proof.Kernel.Tables

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's calls take no variant. -/
abbrev 𝒱₀ : Variants := Variants.none

/-- The offsets in the order the kernel issues them: farthest peers first. -/
def ord : List (Fin 31) := [15, 14, 16, 13, 17, 12, 18, 11, 19, 10, 20, 9, 21, 8, 22, 7, 23, 6, 24, 5, 25, 4, 26, 3, 27, 2, 28, 1, 29, 0, 30]

theorem ord_nodup : ord.Nodup := by decide
theorem mem_ord (r : Fin 31) : r ∈ ord := by revert r; decide
theorem ord_toFinset : ord.toFinset = Finset.univ := by decide

/-- Only TensorCore cells carry an index. -/
def L (g : GSem nD τ sig) : Finset Unit := if g.1.2 = .tc then {()} else ∅
/-- The barrier cells at 1, the reduce-scatter receive cells at 2, the all-gather receive cells at 3, all else
    (staging and send cells) at 0. -/
def lv (g : GSem nD τ sig) (_ : Unit) : ℕ :=
  match g.2 with
  | .reg _ => 1
  | .dma q =>
    match kindOf q with
    | some (⟨1, _⟩, _) => 2
    | some (⟨3, _⟩, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_rsR (c : Dev nD) (r : Fin 31) (u : Unit) : lv (rsR c r) u = 2 := by unfold lv; dsimp only; rw [kindOf_semAt]; rfl
theorem lv_agR (c : Dev nD) (r : Fin 31) (u : Unit) : lv (agR c r) u = 3 := by unfold lv; dsimp only; rw [kindOf_semAt]; rfl
theorem lv_rsS (c : Dev nD) (r : Fin 31) (u : Unit) : lv (rsS c r) u = 0 := by unfold lv; dsimp only; rw [kindOf_semAt]; rfl
theorem lv_agS (c : Dev nD) (r : Fin 31) (u : Unit) : lv (agS c r) u = 0 := by unfold lv; dsimp only; rw [kindOf_semAt]; rfl

/-- What device `c` owes for the offsets `rs` still to come, the next one the LAST summand: a unit on each peer's
    barrier cell; -/
def owedSig (c : Dev nD) : List (Fin 31) → CellTallies nD τ sig Unit
  | [] => 0
  | r :: rs => owedSig c rs + tallyAt (barCell (peer c r)) () 1
/-- a block's credit on each peer's reduce-scatter receive cell; -/
def owedRs (c : Dev nD) : List (Fin 31) → CellTallies nD τ sig Unit
  | [] => 0
  | r :: rs => owedRs c rs + tallyAt (rsR (peer c r) r) () N8
/-- and on each peer's all-gather receive cell. -/
def owedAg (c : Dev nD) : List (Fin 31) → CellTallies nD τ sig Unit
  | [] => 0
  | r :: rs => owedAg c rs + tallyAt (agR (peer c r) r) () N8

/-- Everything device `c` owes at launch. -/
def O₀ (c : Dev nD) : CellTallies nD τ sig Unit := owedAg c ord + owedRs c ord + owedSig c ord

theorem owedSig_pos {c : Dev nD} {rs : List (Fin 31)} {g : GSem nD τ sig} {u : Unit} (h : 0 < owedSig c rs g u) :
    ∃ r, g = barCell (peer c r) := by
  induction rs with
  | nil => exact absurd h (Nat.lt_irrefl 0)
  | cons r rs ih =>
    unfold owedSig at h
    rw [Pi.add_apply, Finsupp.add_apply, tallyAt_apply] at h
    by_cases hg : g = barCell (peer c r) ∧ u = ()
    · exact ⟨r, hg.1⟩
    · rw [if_neg hg, Nat.add_zero] at h; exact ih h

theorem owedRs_pos {c : Dev nD} {rs : List (Fin 31)} {g : GSem nD τ sig} {u : Unit} (h : 0 < owedRs c rs g u) :
    ∃ r, g = rsR (peer c r) r := by
  induction rs with
  | nil => exact absurd h (Nat.lt_irrefl 0)
  | cons r rs ih =>
    unfold owedRs at h
    rw [Pi.add_apply, Finsupp.add_apply, tallyAt_apply] at h
    by_cases hg : g = rsR (peer c r) r ∧ u = ()
    · exact ⟨r, hg.1⟩
    · rw [if_neg hg, Nat.add_zero] at h; exact ih h

theorem owedAg_pos {c : Dev nD} {rs : List (Fin 31)} {g : GSem nD τ sig} {u : Unit} (h : 0 < owedAg c rs g u) :
    ∃ r, g = agR (peer c r) r := by
  induction rs with
  | nil => exact absurd h (Nat.lt_irrefl 0)
  | cons r rs ih =>
    unfold owedAg at h
    rw [Pi.add_apply, Finsupp.add_apply, tallyAt_apply] at h
    by_cases hg : g = agR (peer c r) r ∧ u = ()
    · exact ⟨r, hg.1⟩
    · rw [if_neg hg, Nat.add_zero] at h; exact ih h

/-- A cell that anything owed at some stage sits on: a barrier cell, or a receive cell of either copy. -/
theorem owed_pos {c : Dev nD} {ra rr rg : List (Fin 31)} {g : GSem nD τ sig} {u : Unit}
    (h : 0 < (owedAg c ra + owedRs c rr + owedSig c rg) g u) :
    (∃ r, g = agR (peer c r) r) ∨ (∃ r, g = rsR (peer c r) r) ∨ (∃ r, g = barCell (peer c r)) := by
  have h' : 0 < owedAg c ra g u + owedRs c rr g u + owedSig c rg g u := h
  rcases Nat.lt_or_ge 0 (owedAg c ra g u) with h1 | h1
  · exact Or.inl (owedAg_pos h1)
  rcases Nat.lt_or_ge 0 (owedRs c rr g u) with h2 | h2
  · exact Or.inr (Or.inl (owedRs_pos h2))
  exact Or.inr (Or.inr (owedSig_pos (rs := rg) (u := u) (by omega)))

/-- With every signal paid, what is still owed sits on receive cells. -/
theorem owed_pos_nosig {c : Dev nD} {ra rr : List (Fin 31)} {g : GSem nD τ sig} {u : Unit}
    (h : 0 < (owedAg c ra + owedRs c rr + owedSig c []) g u) :
    (∃ r, g = agR (peer c r) r) ∨ (∃ r, g = rsR (peer c r) r) := by
  have h' : 0 < owedAg c ra g u + owedRs c rr g u + 0 := h
  rcases Nat.lt_or_ge 0 (owedAg c ra g u) with h1 | h1
  · exact Or.inl (owedAg_pos h1)
  · exact Or.inr (owedRs_pos (rs := rr) (u := u) (by omega))

/-- With every reduce-scatter copy issued too, only on all-gather receive cells. -/
theorem owed_pos_ag {c : Dev nD} {ra : List (Fin 31)} {g : GSem nD τ sig} {u : Unit}
    (h : 0 < (owedAg c ra + owedRs c [] + owedSig c []) g u) : ∃ r, g = agR (peer c r) r :=
  owedAg_pos (rs := ra) (u := u) (by have h' : 0 < owedAg c ra g u + 0 + 0 := h; omega)

omit [FloatOps F] in
/-- A staging cell or a send cell (level 0) may be waited whatever of the above is still owed. -/
theorem mayWait_low (c : Dev nD) (q : DmaSem sig) (hq : lv ((c : Thread nD τ), .dma q) () = 0) (ra rr rg : List (Fin 31)) :
    (levAts L lv : sProp 𝕄) ⊢ MayWait (c : Thread nD τ) (.dma q) () (owedAg c ra + owedRs c rr + owedSig c rg) :=
  MayOwe.of_cut (L := L) (lev := lv) 0 (fun p hp => by rw [Finset.mem_singleton.mp hp, L_tc]; exact Finset.mem_singleton_self _)
    (fun g u hg => by
      rcases owed_pos hg with ⟨r, rfl⟩ | ⟨r, rfl⟩ | ⟨r, rfl⟩ <;> exact Finset.mem_singleton_self _)
    (fun p hp => by rw [Finset.mem_singleton.mp hp]; exact Nat.le_of_eq hq)
    (fun g u hg => by
      rcases owed_pos hg with ⟨r, rfl⟩ | ⟨r, rfl⟩ | ⟨r, rfl⟩
      · rw [lv_agR]; decide
      · rw [lv_rsR]; decide
      · rw [lv_bar]; decide)

omit [FloatOps F] in
/-- At its barrier wait a device owes receive credits only. -/
theorem mayWait_bar (c : Dev nD) (ra rr : List (Fin 31)) :
    (levAts L lv : sProp 𝕄) ⊢ MayWait (c : Thread nD τ) (.reg barS) () (owedAg c ra + owedRs c rr + owedSig c []) :=
  MayOwe.of_cut (L := L) (lev := lv) 1 (fun p hp => by rw [Finset.mem_singleton.mp hp, L_tc]; exact Finset.mem_singleton_self _)
    (fun g u hg => by
      rcases owed_pos_nosig hg with ⟨r, rfl⟩ | ⟨r, rfl⟩ <;> exact Finset.mem_singleton_self _)
    (fun p hp => by rw [Finset.mem_singleton.mp hp]; exact Nat.le_refl 1)
    (fun g u hg => by
      rcases owed_pos_nosig hg with ⟨r, rfl⟩ | ⟨r, rfl⟩
      · rw [lv_agR]; decide
      · rw [lv_rsR]; decide)

omit [FloatOps F] in
/-- At a reduce-scatter receive wait it owes all-gather receive credits only. -/
theorem mayWait_rsR (c : Dev nD) (r : Fin 31) (ra : List (Fin 31)) :
    (levAts L lv : sProp 𝕄) ⊢ MayWait (c : Thread nD τ) (.dma (semAt (arr 1) r.succ)) () (owedAg c ra + owedRs c [] + owedSig c []) :=
  MayOwe.of_cut (L := L) (lev := lv) 2 (fun p hp => by rw [Finset.mem_singleton.mp hp, L_tc]; exact Finset.mem_singleton_self _)
    (fun g u hg => by obtain ⟨r', rfl⟩ := owed_pos_ag hg; exact Finset.mem_singleton_self _)
    (fun p hp => by rw [Finset.mem_singleton.mp hp]; exact Nat.le_of_eq (lv_rsR c r ()))
    (fun g u hg => by obtain ⟨r', rfl⟩ := owed_pos_ag hg; rw [lv_agR]; decide)

omit [FloatOps F] in
/-- Owing nothing, any wait is allowed. -/
theorem mayWait_none (c : Dev nD) (sm : SemLoc sig) :
    (levAts L lv : sProp 𝕄) ⊢ MayWait (c : Thread nD τ) sm () (owedAg c [] + owedRs c [] + owedSig c []) := by
  have e : (owedAg c [] + owedRs c [] + owedSig c [] : CellTallies nD τ sig Unit) = 0 := by
    show (0 + 0 + 0 : CellTallies nD τ sig Unit) = 0; simp
  rw [e, MayWait_zero]; iintro -; iempintro

end Cert.Kernel.RsAg

end
-- ==== Proof.Kernel.Steps.lean ====
/- One rule per kind of step of the protocol, each at a symbolic device and offset: a barrier signal, the barrier
   wait, an addressed copy between owned blocks, and the wait on one of the device's own transfer cells. -/
import proofs.«901012_g7700000000001013_dist_rs_then_ag_i_m256_n256_v7x_i32_f32_1_alg».proof.Proof.Kernel.Levels

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer cell's duty is one block's credit. -/
theorem amount_dma (t : Thread nD τ) (q : DmaSem sig) (n : ℕ) (d : Fin 31) : (sched (F := F) m ρ).amount (t, .dma q) n d = N8 := rfl

set_option maxHeartbeats 400000 in
/-- An addressed copy of one 8 × 256 block between OWNED memrefs: the source lent at any share at contents `X`, the
    destination on `c'` owned outright at any contents; the send cell's payload is made from the source as it was,
    the receive cell's from the destination at `X`. -/
theorem wp_send_owns (c c' : Dev nD) {src : Memref sig .tc .vmem S8x256 .f32} {dst : Memref sig (Dev.tc c' : Thread nD τ).2.kind .vmem S8x256 .f32}
    {hsc : dst.view.ref.isScScratch = false} {sS sR : DmaSem sig}
    {hsrc : src.view.WordExact} {hdst : dst.view.WordExact}
    {hsem : DmaTarget.Typed .vmem (.dma sR) (.remote (Dev.tc c' : Thread nD τ) dst (.dma sS) hsc)}
    {α : Type} {Q : α → sProp 𝕄} {k : PUnit → Prog (TpuEff nD τ sig (Elt F) Λ₀ .tc) α}
    {q : PosShare TreeShare} (X : S8x256.Idx → Elt F .f32) {κ₁ κ₂ : ℕ}
    (hN : dst.view.amount (.dma sR) = N8)
    (hd₁ : (0 : Fin 31) ∈ (sched m ρ).duties ((c : Thread nD τ), .dma sS) 0)
    (hd₂ : (0 : Fin 31) ∈ (sched m ρ).duties ((c' : Thread nD τ), .dma sR) 0)
    {O' : CellTallies nD τ sig Unit} (O : CellTallies nD τ sig Unit) (hO : O' = O + tallyAt ((c' : Thread nD τ), .dma sR) () N8) {W : Waits sig Unit}
    (hpay₁ : ownsTc c src q X ⊢ (sched m ρ).payload ((c : Thread nD τ), .dma sS) 0 0)
    (hpay₂ : ownsTc c' dst fullShare X ⊢ (sched m ρ).payload ((c' : Thread nD τ), .dma sR) 0 0) :
    iprop(cellInv ER (sched m ρ) κ₁ ((c : Thread nD τ), .dma sS) ∗ cellInv ER (sched m ρ) κ₂ ((c' : Thread nD τ), .dma sR)
        ∗ ownsTc c src q X ∗ (∃ Y, ownsTc c' dst fullShare Y) ∗ owes (c : Thread nD τ) O' W
        ∗ dutyTok ER ((c : Thread nD τ), .dma sS) 0 0 ∗ reached ER ((c : Thread nD τ), .dma sS) 0
        ∗ dutyTok ER ((c' : Thread nD τ), .dma sR) 0 0 ∗ reached ER ((c' : Thread nD τ), .dma sR) 0)
      ⊢ iprop(((cred (tallyAt ((c : Thread nD τ), .dma sS) () N8) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrc hdst hsem) k) Q) := by
  iintro ⟨#HI1, #HI2, Hs, ⟨%Y, Hd⟩, HO, Ht1, #Hr1, Ht2, #Hr2⟩ Hk
  ihave Hs' := (show ownsTc c src q X ⊢ iprop(∃ f, ⌜src.view.read (Elt F) f = X⌝ ∗ (src.view.loc (c : Thread nD τ) ↦[src.view.set]{q} f)) from .rfl) $$ Hs
  icases Hs' with ⟨%fs, %hfs, Hs⟩
  ihave Hd' := (show ownsTc c' dst fullShare Y ⊢ iprop(∃ f, ⌜dst.view.read (Elt F) f = Y⌝ ∗ (dst.view.loc (c' : Thread nD τ) ↦[dst.view.set]{fullShare} f)) from .rfl) $$ Hd
  icases Hd' with ⟨%fd, -, Hd⟩
  have hp1 : (src.view.loc (c : Thread nD τ) ↦[src.view.set]{q} fs : sProp 𝕄) ⊢ (sched m ρ).payload ((c : Thread nD τ), .dma sS) 0 0 :=
    (owns_intro (c : Thread nD τ) src q fs).trans ((Entails.of_eq (by rw [hfs])).trans hpay₁)
  have hp2 : (dst.view.loc (c' : Thread nD τ) ↦[dst.view.set]{fullShare} (dst.view.write (Elt F) fd (src.view.read (Elt F) fs) Finset.univ) : sProp 𝕄)
      ⊢ (sched m ρ).payload ((c' : Thread nD τ), .dma sR) 0 0 :=
    (owns_intro (c' : Thread nD τ) dst fullShare _).trans ((Entails.of_eq (by rw [View.read_write_univ, hfs])).trans hpay₂)
  have H := Rounds.wp_send_pointsTo (defs := defs₀ (F := F)) (k := k) (Q := Q) (hsrc := hsrc) (hdst := hdst) (hsem := hsem) (Es := Set.univ) (Γ := .empty)
      𝒱₀ ER (sched m ρ) (c : Thread nD τ) none (κ₁ := κ₁) (κ₂ := κ₂) (r₁ := 0) (r₂ := 0) (d₁ := 0) (d₂ := 0) (fs := fs) (fd := fd)
      hd₁ hd₂ () () N8 hN (amount_dma m ρ _ sS 0 0) (amount_dma m ρ _ sR 0 0) O hO (W := W) hp1 hp2
  iapply (H) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

variable (K : Dev nD × CK → ℕ)

/-- A barrier signal to the peer at offset `r`: it pays that peer's barrier duty `back r`, handing over this device's
    slot `back r` and its rows of the output for that peer — where that peer's two copies at offset `back r` land. -/
theorem step_signal (c : Dev nD) (r : Fin 31) (dst : Dev nD) (hdst : dst = peer c r) (n : ℕ) (hn : n = 1)
    (O : CellTallies nD τ sig Unit) {W : Waits sig Unit}
    {α : Type} {Q : α → sProp 𝕄} {k : PUnit → Prog (TpuEff nD τ sig (Elt F) Λ₀ .tc) α} :
    iprop(recs m ρ K ∗ owes (c : Thread nD τ) (O + tallyAt (barCell (peer c r)) () 1) W ∗ dutyTok ER (barCell (peer c r)) 0 (back r)
        ∗ (∃ Y, ownsTc c (rSlot (back r)) fullShare Y) ∗ (∃ Y, ownsTc c (oRows (peer c r)) fullShare Y))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dst, .tc) : Thread nD τ) barS n) k) Q) := by
  subst hdst; subst hn
  iintro ⟨#HR, HO, Htok, H1, H2⟩ Hk
  iapply (Rounds.wp_signal 𝒱₀ ER (sched m ρ) (c : Thread nD τ) none (dst := (peer c r : Thread nD τ)) (κ := K (peer c r, none)) (d := back r)
      (by rw [duties_bar]; exact Finset.mem_univ _) (amount_bar m ρ (peer c r) (back r)) () O rfl) $$ [HO Htok H1 H2]
  · isplitr; · iapply (recs_inv m ρ K (peer c r, none)); iexact HR
    isplitl [HO]; · iexact HO
    isplitl [Htok]; · iexact Htok
    isplitl [H1 H2]
    · rw [payload_bar, peer_back]; isplitl [H1] <;> iassumption
    iapply (recs_reached m ρ K (peer c r, none)); iexact HR
  iexact Hk

/-- The barrier wait for all 31 units: every peer's landing buffers come with it. -/
theorem step_barwait (c : Dev nD) (n : ℕ) (hn : n = 31) (ra rr : List (Fin 31)) {W : Waits sig Unit}
    {α : Type} {Q : α → sProp 𝕄} {k : PUnit → Prog (TpuEff nD τ sig (Elt F) Λ₀ .tc) α} :
    iprop(recs m ρ K ∗ levAts L lv ∗ cred (tallyAt (barCell c) () 31) ∗ owes (c : Thread nD τ) (owedAg c ra + owedRs c rr + owedSig c []) W
        ∗ atPos ER (barCell c) 0 ∅ 0)
      ⊢ iprop(((owes (c : Thread nD τ) (owedAg c ra + owedRs c rr + owedSig c []) (insert (SemLoc.reg barS, ()) W) ∗ atPos ER (barCell c) 1 ∅ 0
                ∗ bigSep Finset.univ fun d : Fin 31 => iprop((∃ Y, ownsTc (peer c d) (rSlot d) fullShare Y) ∗ (∃ Y, ownsTc (peer c d) (oRows c) fullShare Y)))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#HR, #Hlev, Hc, HO, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := owedAg c ra + owedRs c rr + owedSig c []) (W := W) (R := 0) (m := 0) (T := ∅)
      (by rw [expect_bar])) $$ [Hc HO Hat]
  · isplitr; · iapply (recs_inv m ρ K (c, none)); iexact HR
    isplitl [Hc]; · iexact Hc
    isplitl [HO]; · iexact HO
    isplitr; · iapply (mayWait_bar c ra rr); iexact Hlev
    iexact Hat
  iintro ⟨HO, Hat, -, Hpay⟩
  iapply Hk
  isplitl [HO]; · iexact HO
  isplitl [Hat]; · iexact Hat
  iapply (Entails.of_eq (rest_bar m ρ c)); iexact Hpay

/-- The wait on one of the device's own transfer cells (array `a`, offset `r`) for its one block: the cell's payload. -/
theorem step_wait (c : Dev nD) (a : Fin 4) (r : Fin 31) (sm : DmaSem sig) (hsm : sm = semAt (arr a) r.succ)
    {sp sp' : Space} {s s' : Shape} {e e' : EltTy} {src : Memref sig .tc sp' s' e'} {dst : Memref sig .tc sp s e}
    {hsrc : src.view.WordExact} {hdst : dst.view.WordExact} (hdN : dst.view.dmaCredit = N8)
    (O : CellTallies nD τ sig Unit) {W : Waits sig Unit}
    (hmw : (levAts L lv : sProp 𝕄) ⊢ MayWait (c : Thread nD τ) (.dma (semAt (arr a) r.succ)) () O)
    {α : Type} {Q : α → sProp 𝕄} {k : PUnit → Prog (TpuEff nD τ sig (Elt F) Λ₀ .tc) α} :
    iprop(recs m ρ K ∗ levAts L lv ∗ cred (tallyAt (dcell c a r.succ) () N8) ∗ owes (c : Thread nD τ) O W ∗ atPos ER (dcell c a r.succ) 0 ∅ 0)
      ⊢ iprop(((owes (c : Thread nD τ) O (insert (SemLoc.dma (semAt (arr a) r.succ), ()) W) ∗ atPos ER (dcell c a r.succ) 1 ∅ 0
                ∗ (sched m ρ).payload (dcell c a r.succ) 0 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro ⟨#HR, #Hlev, Hc, HO, Hat⟩ Hk
  iapply (Rounds.wp_wait_rest_token 𝒱₀ ER (sched m ρ) (c : Thread nD τ) none (κ := K (c, some (a, r.succ)))
      (wpE_waitDma2_eq 𝒱₀ (c : Thread nD τ) none Set.univ) (Set.mem_univ _) () (O := O) (W := W) (R := 0) (m := 0) (T := ∅)
      (by rw [Nat.zero_add, expect_dcell, hdN])) $$ [Hc HO Hat]
  · isplitr; · iapply (recs_inv m ρ K (c, some (a, r.succ))); iexact HR
    isplitl [Hc]; · rw [hdN]; iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iapply (Entails.of_eq (rest_dcell m ρ c r a)); iexact Hpay

end Cert.Kernel.RsAg

end
-- ==== Proof.Kernel.Data.lean ====
/- The pipeline's proof data for one device: what it holds when the body starts (the records, its positions at all
   its cells, the tokens of the duties it pays, the launch credit of the cells others pay, the landing buffer) and
   when it ends (the landing buffer, its own semaphores back at zero); what the two staging buffers hold after the
   body; and the body's pre- and postcondition in the form the body lemma is proved in. -/
import proofs.«901012_g7700000000001013_dist_rs_then_ag_i_m256_n256_v7x_i32_f32_1_alg».proof.Proof.Kernel.Levels
import proofs.«901012_g7700000000001013_dist_rs_then_ag_i_m256_n256_v7x_i32_f32_1_alg».proof.Proof.Gen.Kernel.Points

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores, as the launch indexes them: array and index. -/
abbrev osem : Fin 4 × Fin 32 → SemLoc sig := fun aj => .dma (semAt (arr aj.1) aj.2)

/-- The tokens of the duties device `c` pays, per offset: the peer's barrier duty, and for each of its two copies
    its own send duty and the peer's receive duty. -/
def payToks (c : Dev nD) : sProp 𝕄 :=
  bigSep Finset.univ fun r : Fin 31 =>
    iprop(dutyTok ER (barCell (peer c r)) 0 (back r)
      ∗ dutyTok ER (rsS c r) 0 0 ∗ dutyTok ER (rsR (peer c r) r) 0 0
      ∗ dutyTok ER (agS c r) 0 0 ∗ dutyTok ER (agR (peer c r) r) 0 0)

/-- Its position, at the start of round 0, at every one of its cells. -/
def posAll (c : Dev nD) : sProp 𝕄 := bigSep Finset.univ fun k : CK => atPos ER (kcell (c, k)) 0 ∅ 0

/-- What the launch deals device `c` under the names `K`. -/
def ghost (K : Dev nD × CK → ℕ) (c : Dev nD) : sProp 𝕄 := iprop(recs m ρ K ∗ posAll c ∗ payToks c)

/-- The launch credit of the cells other devices pay: its barrier's 31 units, a block on each receive cell. -/
def creds (c : Dev nD) : sProp 𝕄 :=
  iprop(cred (tallyAt (barCell c) () 31)
    ∗ (bigSep Finset.univ fun r : Fin 31 => cred (tallyAt (rsR c r) () N8))
    ∗ (bigSep Finset.univ fun r : Fin 31 => cred (tallyAt (agR c r) () N8)))

def start (c : Dev nD) : sProp 𝕄 := iprop((∃ K, ghost m ρ K c) ∗ creds c ∗ levAts L lv)

/-- Before the point: that, and the landing buffer at any contents. -/
def Φ₀ (c : Dev nD) : sProp 𝕄 := iprop(start m ρ c ∗ ∃ f, ((c : Thread nD τ).loc cc0_scratch0) ↦{fullShare} f)
/-- After it: the landing buffer, and the kernel's own semaphores at zero, closed. -/
def Φ₁ (c : Dev nD) : sProp 𝕄 :=
  iprop((∃ f, ((c : Thread nD τ).loc cc0_scratch0) ↦{fullShare} f) ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAll m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAll m ρ))

end Cert.Kernel.RsAg

end
-- ==== Proof.Kernel.Phase.lean ====
/- The body's phases as components over the offsets still to come (in the kernel's order) and those done, and one
   step lemma per phase: each takes the next offset's resources off the front of the lists of what is to come and
   puts what the step leaves on the front of the lists of what is done. What the device owes is one component,
   shared by all phases: a sum of three list sums, of which each phase peels its own. -/
import proofs.«901012_g7700000000001013_dist_rs_then_ag_i_m256_n256_v7x_i32_f32_1_alg».proof.Proof.Kernel.Steps
import proofs.«901012_g7700000000001013_dist_rs_then_ag_i_m256_n256_v7x_i32_f32_1_alg».proof.Proof.Kernel.Data

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- The first `n` offsets, the latest first. -/
abbrev done (n : ℕ) : List (Fin 31) := (ord.take n).reverse
/-- The offsets from the `n`-th on. -/
abbrev todo (n : ℕ) : List (Fin 31) := ord.drop n

omit [FloatOps F] in
theorem bigSepL_cons' {I : Type} (i : I) (l : List I) (Φ : I → sProp 𝕄) : bigSepL (i :: l) Φ = iprop(Φ i ∗ bigSepL l Φ) :=
  bigSepL_cons i l Φ

/-- What the device owes, whatever waits it has recorded: for the all-gather offsets from `na` on, the reduce-scatter
    offsets from `nr` on and the signals from `ns` on. -/
def OW (c : Dev nD) (na nr ns : ℕ) : sProp 𝕄 :=
  iprop(∃ W, owes (c : Thread nD τ) (owedAg c (todo na) + owedRs c (todo nr) + owedSig c (todo ns)) W)

/-! ## The barrier signals -/

/-- What a signal at offset `r` takes: the peer's duty token, and the two landing blocks it hands that peer. -/
def sigItem (c : Dev nD) (r : Fin 31) : sProp 𝕄 :=
  iprop(dutyTok ER (barCell (peer c r)) 0 (back r) ∗ (∃ Y, ownsTc c (rSlot (back r)) fullShare Y) ∗ (∃ Y, ownsTc c (oRows (peer c r)) fullShare Y))

theorem sig_step (c : Dev nD) (na nr n : ℕ) (r : Fin 31) (hr : todo n = r :: todo (n + 1)) (dst : Dev nD) (hdst : dst = peer c r) (w : ℕ) (hw : w = 1)
    {α : Type} {Q : α → sProp 𝕄} {k : PUnit → Prog (TpuEff nD τ sig (Elt F) Λ₀ .tc) α} :
    iprop(recs m ρ K ∗ OW c na nr n ∗ bigSepL (todo n) (sigItem c))
      ⊢ iprop((iprop(OW c na nr (n + 1) ∗ bigSepL (todo (n + 1)) (sigItem c)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dst, .tc) : Thread nD τ) barS w) k) Q) := by
  unfold OW
  rw [hr, bigSepL_cons']
  unfold sigItem
  iintro ⟨#HR, ⟨%W, HO⟩, ⟨Htok, H1, H2⟩, Hrest⟩ Hk
  iapply (step_signal m ρ K c r dst hdst w hw (owedAg c (todo na) + owedRs c (todo nr) + owedSig c (todo (n + 1))) (W := W)) $$ [HO Htok H1 H2]
  · isplitr; · iexact HR
    isplitl [HO]
    · rw [show owedSig c (r :: todo (n + 1)) = owedSig c (todo (n + 1)) + tallyAt (barCell (peer c r)) () 1 from rfl, ← add_assoc]; iexact HO
    isplitl [Htok]; · iexact Htok
    isplitl [H1] <;> iassumption
  iintro HO
  iapply Hk
  isplitl [HO]; · iexists W; iexact HO
  iexact Hrest

/-- The barrier wait, every signal paid: the 31 peers' landing blocks come with it, as two lists. -/
theorem bar_step (c : Dev nD) (na nr : ℕ) (w : ℕ) (hw : w = 31)
    {α : Type} {Q : α → sProp 𝕄} {k : PUnit → Prog (TpuEff nD τ sig (Elt F) Λ₀ .tc) α} :
    iprop(recs m ρ K ∗ levAts L lv ∗ OW c na nr 31 ∗ cred (tallyAt (barCell c) () 31) ∗ atPos ER (barCell c) 0 ∅ 0)
      ⊢ iprop((iprop(OW c na nr 31 ∗ atPos ER (barCell c) 1 ∅ 0
                ∗ bigSepL ord (fun r => iprop(∃ Y, ownsTc (peer c r) (rSlot r) fullShare Y))
                ∗ bigSepL ord (fun r => iprop(∃ Y, ownsTc (peer c r) (oRows c) fullShare Y))) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  unfold OW
  rw [show todo 31 = [] from by decide]
  have hsplit : (bigSep Finset.univ fun d : Fin 31 => iprop((∃ Y, ownsTc (peer c d) (rSlot d) fullShare Y) ∗ (∃ Y, ownsTc (peer c d) (oRows c) fullShare Y)) : sProp 𝕄)
      = iprop(bigSepL ord (fun r => iprop(∃ Y, ownsTc (peer c r) (rSlot r) fullShare Y)) ∗ bigSepL ord (fun r => iprop(∃ Y, ownsTc (peer c r) (oRows c) fullShare Y))) := by
    rw [bigSep_sep', bigSep_univ_eq_bigSepL ord ord_toFinset.symm ord_nodup, bigSep_univ_eq_bigSepL ord ord_toFinset.symm ord_nodup]
  iintro ⟨#HR, #Hlev, ⟨%W, HO⟩, Hc, Hat⟩ Hk
  iapply (step_barwait m ρ K c w hw (todo na) (todo nr) (W := W)) $$ [Hc HO Hat]
  · isplitr; · iexact HR
    isplitr; · iexact Hlev
    isplitl [Hc]; · iexact Hc
    isplitl [HO] <;> iassumption
  iintro ⟨HO, Hat, Hpay⟩
  iapply Hk
  isplitl [HO]; · iexists _; iexact HO
  isplitl [Hat]; · iexact Hat
  iapply (Entails.of_eq hsplit); iexact Hpay

/-! ## The waits on the device's own transfer cells (any of the four arrays) -/

/-- What a wait leaves: the position past round 0, and the cell's payload. -/
def gotItem (c : Dev nD) (a : Fin 4) (r : Fin 31) : sProp 𝕄 :=
  iprop(atPos ER (dcell c a r.succ) 1 ∅ 0 ∗ (sched m ρ).payload (dcell c a r.succ) 0 0)

theorem wait_step (c : Dev nD) (a : Fin 4) (na nr ns : ℕ)
    (hmw : ∀ r : Fin 31, (levAts L lv : sProp 𝕄) ⊢ MayWait (c : Thread nD τ) (.dma (semAt (arr a) r.succ)) () (owedAg c (todo na) + owedRs c (todo nr) + owedSig c (todo ns)))
    (n : ℕ) (r : Fin 31) (hr : todo n = r :: todo (n + 1)) (hr' : done (n + 1) = r :: done n)
    (sm : DmaSem sig) (hsm : sm = semAt (arr a) r.succ)
    {sp sp' : Space} {s s' : Shape} {e e' : EltTy} {src : Memref sig .tc sp' s' e'} {dst : Memref sig .tc sp s e}
    {hsrc : src.view.WordExact} {hdst : dst.view.WordExact} (hdN : dst.view.dmaCredit = N8)
    {α : Type} {Q : α → sProp 𝕄} {k : PUnit → Prog (TpuEff nD τ sig (Elt F) Λ₀ .tc) α} :
    iprop(recs m ρ K ∗ levAts L lv ∗ OW c na nr ns
        ∗ bigSepL (todo n) (fun r => cred (tallyAt (dcell c a r.succ) () N8)) ∗ bigSepL (todo n) (fun r => atPos ER (dcell c a r.succ) 0 ∅ 0)
        ∗ bigSepL (done n) (gotItem m ρ c a))
      ⊢ iprop((iprop(OW c na nr ns
                ∗ bigSepL (todo (n + 1)) (fun r => cred (tallyAt (dcell c a r.succ) () N8)) ∗ bigSepL (todo (n + 1)) (fun r => atPos ER (dcell c a r.succ) 0 ∅ 0)
                ∗ bigSepL (done (n + 1)) (gotItem m ρ c a)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  unfold OW
  rw [hr, hr', bigSepL_cons', bigSepL_cons', bigSepL_cons']
  unfold gotItem
  iintro ⟨#HR, #Hlev, ⟨%W, HO⟩, ⟨Hc, Hcs⟩, ⟨Hat, Hats⟩, Hdone⟩ Hk
  iapply (step_wait m ρ K c a r sm hsm hdN _ (W := W) (hmw r)) $$ [Hc HO Hat]
  · isplitr; · iexact HR
    isplitr; · iexact Hlev
    isplitl [Hc]; · iexact Hc
    isplitl [HO] <;> iassumption
  iintro ⟨HO, Hat, Hpay⟩
  iapply Hk
  isplitl [HO]; · iexists _; iexact HO
  isplitl [Hcs]; · iexact Hcs
  isplitl [Hats]; · iexact Hats
  isplitl [Hat Hpay]
  · isplitl [Hat] <;> iassumption
  iexact Hdone

/-! ## The reduce-scatter copies -/

/-- What the copy at offset `r` takes of the device: its send duty's token, the peer's receive duty's, and the rows. -/
def rsTok (c : Dev nD) (r : Fin 31) : sProp 𝕄 :=
  iprop(dutyTok ER (rsS c r) 0 0 ∗ dutyTok ER (rsR (peer c r) r) 0 0 ∗ ownsTc c (xSend c r) fullShare (xSendBlk m ρ c r))

theorem rs_step (c : Dev nD) (na ns : ℕ) (n : ℕ) (r : Fin 31) (hr : todo n = r :: todo (n + 1)) (hr' : done (n + 1) = r :: done n)
    (dv : Dev nD) (hdv : dv = peer c r)
    (src : Memref sig .tc .vmem S8x256 .f32) (hsrcM : src = xSend c r)
    (dst : Memref sig (Dev.tc dv : Thread nD τ).2.kind .vmem S8x256 .f32) (hdstM : dst = rSlot r)
    (sS : DmaSem sig) (hsS : sS = semAt (arr 0) r.succ) (sR : DmaSem sig) (hsR : sR = semAt (arr 1) r.succ)
    {hsc : dst.view.ref.isScScratch = false} {hsrc : src.view.WordExact} {hdst : dst.view.WordExact}
    {hsem : DmaTarget.Typed .vmem (.dma sR) (.remote (Dev.tc dv : Thread nD τ) dst (.dma sS) hsc)}
    {α : Type} {Q : α → sProp 𝕄} {k : PUnit → Prog (TpuEff nD τ sig (Elt F) Λ₀ .tc) α} :
    iprop(recs m ρ K ∗ OW c na n ns ∗ bigSepL (todo n) (rsTok m ρ c)
        ∗ bigSepL (todo n) (fun r => iprop(∃ Y, ownsTc (peer c r) (rSlot r) fullShare Y))
        ∗ bigSepL (done n) (fun r => cred (tallyAt (rsS c r) () N8)))
      ⊢ iprop((iprop(OW c na (n + 1) ns ∗ bigSepL (todo (n + 1)) (rsTok m ρ c)
                ∗ bigSepL (todo (n + 1)) (fun r => iprop(∃ Y, ownsTc (peer c r) (rSlot r) fullShare Y))
                ∗ bigSepL (done (n + 1)) (fun r => cred (tallyAt (rsS c r) () N8))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc dv : Thread nD τ) dst (.dma sS) hsc) (.dma sR) hsrc hdst hsem) k) Q) := by
  subst hdv; subst hsrcM; subst hdstM; subst hsS; subst hsR
  unfold OW
  rw [hr, hr', bigSepL_cons', bigSepL_cons', bigSepL_cons']
  unfold rsTok
  iintro ⟨#HR, ⟨%W, HO⟩, ⟨⟨Ht1, Ht2, Hx⟩, Hrest⟩, ⟨Hd, Hds⟩, Hdone⟩ Hk
  have H := wp_send_owns m ρ c (peer c r) (src := xSend c r) (dst := rSlot r) (hsc := hsc) (sS := semAt (arr 0) r.succ) (sR := semAt (arr 1) r.succ)
      (hsrc := hsrc) (hdst := hdst) (hsem := hsem) (Q := Q) (k := k) (q := fullShare)
      (xSendBlk m ρ c r) (κ₁ := K (c, some (0, r.succ))) (κ₂ := K (peer c r, some (1, r.succ))) rfl
      (by rw [duties_dcell]; exact Finset.mem_singleton_self _) (by rw [duties_dcell]; exact Finset.mem_singleton_self _)
      (O' := owedAg c (todo na) + owedRs c (r :: todo (n + 1)) + owedSig c (todo ns))
      (owedAg c (todo na) + owedRs c (todo (n + 1)) + owedSig c (todo ns)) (by
        rw [show owedRs c (r :: todo (n + 1)) = owedRs c (todo (n + 1)) + tallyAt (rsR (peer c r) r) () N8 from rfl]
        abel) (W := W)
      (by rw [payload_rsS]) (by rw [payload_rsR, peer_back])
  iapply (H) $$ [HO Ht1 Ht2 Hx Hd]
  · isplitr; · iapply (recs_inv m ρ K (c, some (0, r.succ))); iexact HR
    isplitr; · iapply (recs_inv m ρ K (peer c r, some (1, r.succ))); iexact HR
    isplitl [Hx]; · iexact Hx
    isplitl [Hd]; · iexact Hd
    isplitl [HO]; · iexact HO
    isplitl [Ht1]; · iexact Ht1
    isplitr; · iapply (recs_reached m ρ K (c, some (0, r.succ))); iexact HR
    isplitl [Ht2]; · iexact Ht2
    iapply (recs_reached m ρ K (peer c r, some (1, r.succ))); iexact HR
  iintro ⟨Hc, HO⟩
  iapply Hk
  isplitl [HO]; · iexists W; iexact HO
  isplitl [Hrest]; · iexact Hrest
  isplitl [Hds]; · iexact Hds
  isplitl [Hc] <;> iassumption

/-! ## The all-gather copies -/

/-- What the copy at offset `r` takes of the device: the two tokens, and a share of its rows of the result. -/
def agTok (c : Dev nD) (r : Fin 31) : sProp 𝕄 :=
  iprop((dutyTok ER (agS c r) 0 0 ∗ dutyTok ER (agR (peer c r) r) 0 0) ∗ ownsTc c (oRows c) (agShare r) (red m ρ c))

theorem ag_step (c : Dev nD) (nr ns : ℕ) (n : ℕ) (r : Fin 31) (hr : todo n = r :: todo (n + 1)) (hr' : done (n + 1) = r :: done n)
    (dv : Dev nD) (hdv : dv = peer c r)
    (src : Memref sig .tc .vmem S8x256 .f32) (hsrcM : src = oRows c)
    (dst : Memref sig (Dev.tc dv : Thread nD τ).2.kind .vmem S8x256 .f32) (hdstM : dst = oRows c)
    (sS : DmaSem sig) (hsS : sS = semAt (arr 2) r.succ) (sR : DmaSem sig) (hsR : sR = semAt (arr 3) r.succ)
    {hsc : dst.view.ref.isScScratch = false} {hsrc : src.view.WordExact} {hdst : dst.view.WordExact}
    {hsem : DmaTarget.Typed .vmem (.dma sR) (.remote (Dev.tc dv : Thread nD τ) dst (.dma sS) hsc)}
    {α : Type} {Q : α → sProp 𝕄} {k : PUnit → Prog (TpuEff nD τ sig (Elt F) Λ₀ .tc) α} :
    iprop(recs m ρ K ∗ OW c n nr ns ∗ bigSepL (todo n) (agTok m ρ c)
        ∗ bigSepL (todo n) (fun r => iprop(∃ Y, ownsTc (peer c r) (oRows c) fullShare Y))
        ∗ bigSepL (done n) (fun r => cred (tallyAt (agS c r) () N8)))
      ⊢ iprop((iprop(OW c (n + 1) nr ns ∗ bigSepL (todo (n + 1)) (agTok m ρ c)
                ∗ bigSepL (todo (n + 1)) (fun r => iprop(∃ Y, ownsTc (peer c r) (oRows c) fullShare Y))
                ∗ bigSepL (done (n + 1)) (fun r => cred (tallyAt (agS c r) () N8))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc dv : Thread nD τ) dst (.dma sS) hsc) (.dma sR) hsrc hdst hsem) k) Q) := by
  subst hdv; subst hsrcM; subst hdstM; subst hsS; subst hsR
  unfold OW
  rw [hr, hr', bigSepL_cons', bigSepL_cons', bigSepL_cons']
  unfold agTok
  iintro ⟨#HR, ⟨%W, HO⟩, ⟨⟨⟨Ht1, Ht2⟩, Hx⟩, Hrest⟩, ⟨Hd, Hds⟩, Hdone⟩ Hk
  have H := wp_send_owns m ρ c (peer c r) (src := oRows c) (dst := oRows c) (hsc := hsc) (sS := semAt (arr 2) r.succ) (sR := semAt (arr 3) r.succ)
      (hsrc := hsrc) (hdst := hdst) (hsem := hsem) (Q := Q) (k := k) (q := agShare r)
      (red m ρ c) (κ₁ := K (c, some (2, r.succ))) (κ₂ := K (peer c r, some (3, r.succ))) rfl
      (by rw [duties_dcell]; exact Finset.mem_singleton_self _) (by rw [duties_dcell]; exact Finset.mem_singleton_self _)
      (O' := owedAg c (r :: todo (n + 1)) + owedRs c (todo nr) + owedSig c (todo ns))
      (owedAg c (todo (n + 1)) + owedRs c (todo nr) + owedSig c (todo ns)) (by
        rw [show owedAg c (r :: todo (n + 1)) = owedAg c (todo (n + 1)) + tallyAt (agR (peer c r) r) () N8 from rfl]
        abel) (W := W)
      (by rw [payload_agS]) (by rw [payload_agR, peer_back])
  iapply (H) $$ [HO Ht1 Ht2 Hx Hd]
  · isplitr; · iapply (recs_inv m ρ K (c, some (2, r.succ))); iexact HR
    isplitr; · iapply (recs_inv m ρ K (peer c r, some (3, r.succ))); iexact HR
    isplitl [Hx]; · iexact Hx
    isplitl [Hd]; · iexact Hd
    isplitl [HO]; · iexact HO
    isplitl [Ht1]; · iexact Ht1
    isplitr; · iapply (recs_reached m ρ K (c, some (2, r.succ))); iexact HR
    isplitl [Ht2]; · iexact Ht2
    iapply (recs_reached m ρ K (peer c r, some (3, r.succ))); iexact HR
  iintro ⟨Hc, HO⟩
  iapply Hk
  isplitl [HO]; · iexists W; iexact HO
  isplitl [Hrest]; · iexact Hrest
  isplitl [Hds]; · iexact Hds
  isplitl [Hc] <;> iassumption

end Cert.Kernel.RsAg

end
-- ==== Proof.Kernel.Blocks.lean ====
/- One device's buffers cut into the blocks the protocol moves and put back: the staged input block as the rows the
   device keeps and the 31 blocks it sends, the staged output block as its 32 row blocks, the landing buffer as its
   31 slots, the device's own rows of the output in 31 shares; and the reduce step between the two collectives run
   on those blocks. -/
import proofs.«901012_g7700000000001013_dist_rs_then_ag_i_m256_n256_v7x_i32_f32_1_alg».proof.Proof.Kernel.Data
import Idealize.ShloMosaic.Lib.Memref
import Idealize.ShloMosaic.Lib.Transfers
import Idealize.ShloMosaic.Lib.Pipeline.Value
import Idealize.ShloMosaic.Rules.PointsTo
import Idealize.ShloMosaic.Rules.Step

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Owning a memref at what it reads of given contents -/

omit [FloatOps F] in
/-- A memref owned at what it reads of contents `f` is the points-to of its elements at `f`: contents that read the
    same through the memref agree on its elements. -/
theorem owns_read_elim (t : Thread nD τ) {sp : Space} {sh : Shape} {e : EltTy} (M : Memref sig t.2.kind sp sh e)
    (q : PosShare TreeShare) (f : M.view.ty.Contents (Elt F)) :
    (owns t M q (M.view.read (Elt F) f) : sProp 𝕄) ⊢ (M.view.loc t ↦[M.view.set]{q} f) := by
  unfold owns
  iintro ⟨%g, %hg, H⟩
  have e : (M.view.loc t ↦[M.view.set]{q} g : sProp 𝕄) = M.view.loc t ↦[M.view.set]{q} f :=
    pointsTo_congr fun i hi => by
      rw [View.set, Finset.mem_map] at hi
      obtain ⟨x, -, rfl⟩ := hi
      have := congrFun hg x
      simp only [View.read] at this
      exact (cast_inj _).mp this
  rw [← e]
  iexact H

omit [FloatOps F] in
/-- The memref's elements at contents `f` are owned at what the memref reads of `f`. -/
theorem owns_read_intro (t : Thread nD τ) {sp : Space} {sh : Shape} {e : EltTy} (M : Memref sig t.2.kind sp sh e)
    (q : PosShare TreeShare) (f : M.view.ty.Contents (Elt F)) :
    (M.view.loc t ↦[M.view.set]{q} f : sProp 𝕄) ⊢ owns t M q (M.view.read (Elt F) f) :=
  owns_intro t M q f

omit [FloatOps F] in
/-- The same for a family of shares of one memref at one contents, -/
theorem bigSep_owns_intro {ι : Type} (s : Finset ι) (t : Thread nD τ) {sp : Space} {sh : Shape} {e : EltTy}
    (M : Memref sig t.2.kind sp sh e) (q : ι → PosShare TreeShare) (f : M.view.ty.Contents (Elt F)) :
    bigSep s (fun i => (M.view.loc t ↦[M.view.set]{q i} f : sProp 𝕄))
      ⊢ bigSep s (fun i => (owns t M (q i) (M.view.read (Elt F) f) : sProp 𝕄)) :=
  bigSep_mono fun i _ => owns_read_intro t M (q i) f

omit [FloatOps F] in
/-- and back. -/
theorem bigSep_owns_elim {ι : Type} (s : Finset ι) (t : Thread nD τ) {sp : Space} {sh : Shape} {e : EltTy}
    (M : Memref sig t.2.kind sp sh e) (q : ι → PosShare TreeShare) (f : M.view.ty.Contents (Elt F)) :
    bigSep s (fun i => (owns t M (q i) (M.view.read (Elt F) f) : sProp 𝕄))
      ⊢ bigSep s (fun i => (M.view.loc t ↦[M.view.set]{q i} f : sProp 𝕄)) :=
  bigSep_mono fun i _ => owns_read_elim t M (q i) f

/-! ## The device's own rows of the output in 31 shares -/

omit [FloatOps F] in
/-- The device's own rows of the output lent to its 31 all-gather copies in 31 shares, and taken back. -/
theorem o_shares_split (c : Dev nD) (X : S8x256.Idx → Elt F .f32) : (ownsTc c (oRows c) fullShare X : sProp 𝕄)
    ⊢ iprop(ownsTc c (oRows c) (Transfers.shareDrop fullShare 31) X ∗ bigSep Finset.univ fun r : Fin 31 => ownsTc c (oRows c) (agShare r) X) := by
  iintro H
  ihave H' := (show ownsTc c (oRows c) fullShare X ⊢ iprop(∃ f, ⌜(oRows c).view.read (Elt F) f = X⌝
      ∗ ((oRows c).view.loc (c : Thread nD τ) ↦[(oRows c).view.set]{fullShare} f)) from .rfl) $$ H
  icases H' with ⟨%f, %hf, H⟩
  subst hf
  ihave H2 := (Transfers.pointsTo_toks_split fullShare 31) $$ H
  icases H2 with ⟨Hd, Ht⟩
  isplitl [Hd]
  · iapply (owns_read_intro (c : Thread nD τ) (oRows c) (Transfers.shareDrop fullShare 31) f)
    iexact Hd
  · iapply (bigSep_owns_intro Finset.univ (c : Thread nD τ) (oRows c) (fun r : Fin 31 => agShare r) f)
    iexact Ht

omit [FloatOps F] in
theorem o_shares_join (c : Dev nD) (X : S8x256.Idx → Elt F .f32) :
    iprop(ownsTc c (oRows c) (Transfers.shareDrop fullShare 31) X ∗ bigSep Finset.univ fun r : Fin 31 => ownsTc c (oRows c) (agShare r) X)
    ⊢ (ownsTc c (oRows c) fullShare X : sProp 𝕄) := by
  iintro ⟨Hd, Ht⟩
  ihave H' := (show ownsTc c (oRows c) (Transfers.shareDrop fullShare 31) X ⊢ iprop(∃ f, ⌜(oRows c).view.read (Elt F) f = X⌝
      ∗ ((oRows c).view.loc (c : Thread nD τ) ↦[(oRows c).view.set]{Transfers.shareDrop fullShare 31} f)) from .rfl) $$ Hd
  icases H' with ⟨%f, %hf, Hd⟩
  subst hf
  ihave Ht' := (bigSep_owns_elim Finset.univ (c : Thread nD τ) (oRows c) (fun r : Fin 31 => agShare r) f) $$ Ht
  iapply (owns_read_intro (c : Thread nD τ) (oRows c) fullShare f)
  iapply (Transfers.pointsTo_toks_join fullShare 31)
  isplitl [Hd]
  · iexact Hd
  · iexact Ht'

/-! ## The reduce step -/

omit [FloatOps F] in
/-- The device's rows of the output block, named through either of the two equal offsets. -/
theorem oRows_eq (c : Dev nD) : oRows c = oM.slice (xOwnR c) (fun _ => rfl) :=
  Memref.slice_unit_congr oM (off2_eq_off3 c).symm _ _ _ _

/-- The reduce step: the four memory operations of the body between the two collectives, run from the landing buffer whole at what landed, the device's own rows of the input and its own rows of the output at any contents. -/
theorem reduce_run (c : Dev nD) {α : Type} {Q : α → sProp 𝕄} {k : PUnit → Prog (TpuEff nD τ sig (Elt F) Λ₀ .tc) α} :
    iprop(ownsTc c rM fullShare (rsAll m ρ c) ∗ ownsTc c (xOwn c) fullShare (xOwnBlk m ρ c) ∗ (∃ Y, ownsTc c (oRows c) fullShare Y)
        ∗ ((iprop(ownsTc c rM fullShare (rsAll m ρ c) ∗ ownsTc c (xOwn c) fullShare (xOwnBlk m ρ c) ∗ ownsTc c (oRows c) fullShare (red m ρ c)))
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load rM (Rect.unit (s := S31x8x256) ![0, 0, 0] S31x8x256.size inb_S31x8x256_S31x8x256_0_0_0).toLoadRect (View.loadsAt_vmem h_S31x8x256)) fun v717 =>
           .op (.load xM (Rect.unit (s := S256x256) (k0_off2 c) S8x256.size (k0_off2_inb c)).toLoadRect (View.loadsAt_vmem h_S8x256)) fun v721 =>
           .op (.load oM (Rect.unit (s := S256x256) (k0_off2 c) S8x256.size (k0_off2_inb c)).toLoadRect (View.loadsAt_vmem h_S8x256)) fun v726 =>
           .op (.store oM (Rect.unit (s := S256x256) (k0_off2 c) S8x256.size (k0_off2_inb c)) (k0_pay1 v717 v721) Finset.univ (View.stores_vmem_bits_univ h_S8x256 rfl) (.inl rfl)) k) Q := by
  rw [oRows_eq c]
  iintro ⟨Hr, Hx, ⟨%Y, Ho⟩, Hk⟩
  ihave Hr' := (show ownsTc c rM fullShare (rsAll m ρ c) ⊢ iprop(∃ f, ⌜rM.view.read (Elt F) f = rsAll m ρ c⌝
      ∗ (rM.view.loc (c : Thread nD τ) ↦[rM.view.set]{fullShare} f)) from .rfl) $$ Hr
  icases Hr' with ⟨%fr, %hfr, Hr⟩
  ihave Hx' := (show ownsTc c (xOwn c) fullShare (xOwnBlk m ρ c) ⊢ iprop(∃ f, ⌜(xOwn c).view.read (Elt F) f = xOwnBlk m ρ c⌝
      ∗ ((xOwn c).view.loc (c : Thread nD τ) ↦[(xOwn c).view.set]{fullShare} f)) from .rfl) $$ Hx
  icases Hx' with ⟨%fx, %hfx, Hx⟩
  ihave Ho' := (show ownsTc c (oM.slice (xOwnR c) (fun _ => rfl)) fullShare Y ⊢ iprop(∃ f, ⌜(oM.slice (xOwnR c) (fun _ => rfl)).view.read (Elt F) f = Y⌝
      ∗ ((oM.slice (xOwnR c) (fun _ => rfl)).view.loc (c : Thread nD τ) ↦[(oM.slice (xOwnR c) (fun _ => rfl)).view.set]{fullShare} f)) from .rfl) $$ Ho
  icases Ho' with ⟨%fo, -, Ho⟩
  -- the landing buffer, whole
  iapply (wp_load 𝒱₀ (c : Thread nD τ) none Set.univ (m := rM) (S := rM.view.set) (View.setOn_subset_set _ _)) $$ Hr
  iintro Hr
  have hrd : rM.view.readAt (Elt F) (Rect.unit (s := S31x8x256) ![0, 0, 0] S31x8x256.size inb_S31x8x256_S31x8x256_0_0_0).toLoadRect fr = fr :=
    Memref.readAt_unit_zero (Elt F) cc0_scratch0 (by funext a; fin_cases a <;> rfl) inb_S31x8x256_S31x8x256_0_0_0 fr
  rw [hrd]
  -- the device's own rows of the input
  iapply (wp_load_rect 𝒱₀ (c : Thread nD τ) none Set.univ (m := xM) (r := xOwnR c) (S := (xOwn c).view.set) (Finset.Subset.refl _)) $$ Hx
  iintro Hx
  -- its own rows of the output, read and overwritten
  iapply (wp_load_rect 𝒱₀ (c : Thread nD τ) none Set.univ (m := oM) (r := xOwnR c) (S := (oM.slice (xOwnR c) (fun _ => rfl)).view.set) (Finset.Subset.refl _)) $$ Ho
  iintro Ho
  iapply (wp_store 𝒱₀ (c : Thread nD τ) none Set.univ (m := oM) (r := xOwnR c) (S := (oM.slice (xOwnR c) (fun _ => rfl)).view.set) (Finset.Subset.refl _)) $$ Ho
  iintro Ho
  iapply Hk
  isplitl [Hr]
  · rw [← hfr]; iapply (owns_read_intro (c : Thread nD τ) rM fullShare fr); iexact Hr
  isplitl [Hx]
  · rw [← hfx]; iapply (owns_read_intro (c : Thread nD τ) (xOwn c) fullShare fx); iexact Hx
  · have hred : red m ρ c = (oM.access (xOwnR c)).read (Elt F)
        ((oM.access (xOwnR c)).write (Elt F) fo (k0_pay1 fr ((xM.access (xOwnR c)).read (Elt F) fx)) Finset.univ) := by
      rw [View.read_write_univ]
      unfold red
      rw [← hfr, ← hfx]
      rfl
    rw [hred]
    iapply (owns_read_intro (c : Thread nD τ) (oM.slice (xOwnR c) (fun _ => rfl)) fullShare _)
    iexact Ho

/-! ## A staging buffer held whole is its whole memref owned -/

omit [FloatOps F] in
theorem stg_eq_owns (c : Dev nD) (b : Ref sig .tc) (X : b.ty.Contents (Elt F)) :
    stg c b X = (ownsTc c (Memref.whole b) fullShare X : sProp 𝕄) :=
  (owns_whole_eq (Ix := Unit) (Name := ℕ) (U := UU) (Lvl := ℕ) (c : Thread nD τ) b fullShare X).symm

omit [FloatOps F] in
/-- A family over an optional index is its member at no index and the family over the indices. -/
theorem bigSep_univ_option {α : Type} [Fintype α] (Φ : Option α → sProp 𝕄) :
    bigSep Finset.univ Φ = iprop(Φ none ∗ bigSep Finset.univ fun a => Φ (some a)) := by
  classical
  have h : (Finset.univ : Finset (Option α)) = insert none (Finset.univ.map Function.Embedding.some) := by
    ext o; cases o <;> simp
  rw [h, bigSep_insert (by simp), bigSep_map]
  rfl

/-! ## The 32 row blocks of a 256 × 256 block

Block `b` is rows `8 b … 8 b + 7`. The blocks are disjoint and cover; a device's own rows and the rows at its 31
peers' positions are all 32 of them. -/

theorem oR_mem (b : Dev nD) (i : S256x256.Idx) : i ∈ (oR b).set ↔ (i 0).val / 8 = b.val := by
  have h1 : (i 1).val < 256 := (i 1).isLt
  have e : i ∈ (oR b).set ↔ ∀ a : Fin 2, (k0_off3 b) a ≤ (i a).val ∧ (i a).val < (k0_off3 b) a + S8x256.size a :=
    Rect.mem_set_unit
  rw [e, off3_val b, Fin.forall_fin_two]
  show (8 * b.val ≤ (i 0).val ∧ (i 0).val < 8 * b.val + 8) ∧ (0 ≤ (i 1).val ∧ (i 1).val < 0 + 256) ↔ _
  omega

theorem oR_disj (b b' : Dev nD) (h : b ≠ b') : Disjoint (oR b).set (oR b').set :=
  Finset.disjoint_left.2 fun i hi hi' => h (Fin.ext (((oR_mem b i).1 hi).symm.trans ((oR_mem b' i).1 hi')))

theorem oR_cov : (Finset.univ : Finset (Dev nD)).biUnion (fun b => (oR b).set) = Finset.univ := by
  ext i
  simp only [Finset.mem_biUnion, Finset.mem_univ, true_and, iff_true]
  have h0 : (i 0).val < 256 := (i 0).isLt
  exact ⟨⟨(i 0).val / 8, by show (i 0).val / 8 < 32; omega⟩, (oR_mem _ i).2 rfl⟩

/-- The device whose position an optional offset names: the device itself, or its peer at the offset. -/
def dv (c : Dev nD) : Option (Fin 31) → Dev nD
  | none => c
  | some r => peer c r

theorem dv_injective (c : Dev nD) : Function.Injective (dv c) := by
  intro t t' h
  cases t with
  | none =>
    cases t' with
    | none => rfl
    | some r' => exact absurd h.symm (peer_ne c r')
  | some r =>
    cases t' with
    | none => exact absurd h (peer_ne c r)
    | some r' => exact congrArg some (peer_injective c h)

theorem dv_surjective (c : Dev nD) : Function.Surjective (dv c) := by
  intro b
  by_cases h : b = c
  · exact ⟨none, h.symm⟩
  · obtain ⟨r, hr⟩ := exists_peer h
    exact ⟨some r, hr⟩

/-- The 32 devices as the device itself and its 31 peers. -/
def dvEquiv (c : Dev nD) : Option (Fin 31) ≃ Dev nD := Equiv.ofBijective (dv c) ⟨dv_injective c, dv_surjective c⟩

/-- Offsets reindexed by the involution `back`. -/
def backEquiv : Fin 31 ≃ Fin 31 := ⟨back, back, back_back, back_back⟩

/-- The rows of the input block by optional offset: the device's own, or those it sends at the offset. -/
def xr (c : Dev nD) : Option (Fin 31) → Rect S256x256
  | none => xOwnR c
  | some r => xSendR c r

theorem xr_eq (c : Dev nD) (t : Option (Fin 31)) : xr c t = oR (dv c t) := by
  cases t with
  | none => exact Rect.unit_congr (off2_eq_off3 c) (k0_off2_inb c) (k0_off3_inb c)
  | some r => exact Rect.unit_congr (off1_eq_off3 c r) (k0_off1_inb c r) (k0_off3_inb (peer c r))

theorem xr_stride (c : Dev nD) (t : Option (Fin 31)) (a : Fin S256x256.rank) : (xr c t).stride a = 1 := by
  cases t <;> rfl

theorem xr_disj (c : Dev nD) (t t' : Option (Fin 31)) (h : t ≠ t') : Disjoint (xr c t).set (xr c t').set := by
  rw [xr_eq, xr_eq]
  exact oR_disj _ _ fun e => h (dv_injective c e)

theorem xr_cov (c : Dev nD) : (Finset.univ : Finset (Option (Fin 31))).biUnion (fun t => (xr c t).set) = Finset.univ := by
  ext i
  simp only [Finset.mem_biUnion, Finset.mem_univ, true_and, iff_true]
  have h0 : (i 0).val < 256 := (i 0).isLt
  obtain ⟨t, ht⟩ := dv_surjective c ⟨(i 0).val / 8, by show (i 0).val / 8 < 32; omega⟩
  exact ⟨t, by rw [xr_eq, oR_mem, ht]⟩

/-! ## The staged input block -/

/-- Every element type has a value: an integer word, or the float a word encodes. -/
instance elt_nonempty (e : EltTy) : Nonempty (Elt F e) := by
  cases e <;> first | exact ⟨(0 : BitVec _)⟩ | exact ⟨FloatOps.ofBits _ 0⟩

/-- The staged input block cut into the rows the device keeps and the 31 blocks it sends, and back. -/
theorem x_split (c : Dev nD) : stg c cc0_stg0_0 (xstg m ρ c)
    ⊢ iprop(ownsTc c (xOwn c) fullShare (xOwnBlk m ρ c) ∗ bigSep Finset.univ fun r : Fin 31 => ownsTc c (xSend c r) fullShare (xSendBlk m ρ c r)) := by
  rw [stg_eq_owns]
  refine (owns_rects (c : Thread nD τ) xM fullShare (xr c) (xr_stride c) (xr_disj c) (xr_cov c) (xstg m ρ c)).trans ?_
  rw [bigSep_univ_option]
  exact .rfl

theorem x_join (c : Dev nD) : iprop(ownsTc c (xOwn c) fullShare (xOwnBlk m ρ c) ∗ bigSep Finset.univ fun r : Fin 31 => ownsTc c (xSend c r) fullShare (xSendBlk m ρ c r))
    ⊢ stg c cc0_stg0_0 (xstg m ρ c) := by
  rw [stg_eq_owns]
  refine BIBase.Entails.trans ?_ (owns_of_rects (c : Thread nD τ) xM fullShare (xr c) (xr_stride c) (xr_disj c) (xr_cov c) (xstg m ρ c))
  rw [bigSep_univ_option]
  exact .rfl

/-! ## The staged output block -/

omit [FloatOps F] in
/-- A family over the ring is its member at a device and the family over that device's 31 peers. -/
theorem bigSep_ring (c : Dev nD) (Ψ : Dev nD → sProp 𝕄) :
    bigSep Finset.univ Ψ = iprop(Ψ c ∗ bigSep Finset.univ fun r : Fin 31 => Ψ (peer c r)) := by
  rw [bigSep_univ_equiv (dvEquiv c) Ψ, bigSep_univ_option]
  rfl

omit [FloatOps F] in
/-- A family over the offsets may be read at the opposite offsets. -/
theorem bigSep_back (Φ : Fin 31 → sProp 𝕄) : bigSep Finset.univ (fun r => Φ (back r)) = bigSep Finset.univ Φ :=
  (bigSep_univ_equiv backEquiv Φ).symm

theorem oR_stride (b : Dev nD) (a : Fin S256x256.rank) : (oR b).stride a = 1 := rfl

theorem red_congr {b b' : Dev nD} {j j' : S8x256.Idx} (hb : b = b') (hj : j = j') : red m ρ b j = red m ρ b' j' := by
  subst hb; subst hj; rfl

/-- The result block on device `b`'s rows is device `b`'s sums. -/
theorem outAll_emb (b : Dev nD) (j : S8x256.Idx) : outAll m ρ ((oR b).emb j) = red m ρ b j := by
  have hj0 : (j 0).val < 8 := (j 0).isLt
  have h0 : (((oR b).emb j) 0).val = 8 * b.val + (j 0).val := by
    rw [Rect.emb_apply]
    show (k0_off3 b) 0 + 1 * (j 0).val = _
    rw [off3_val b]
    show 8 * b.val + 1 * (j 0).val = 8 * b.val + (j 0).val
    omega
  have h1 : (((oR b).emb j) 1).val = (j 1).val := by
    rw [Rect.emb_apply]
    show (k0_off3 b) 1 + 1 * (j 1).val = _
    rw [off3_val b]
    show 0 + 1 * (j 1).val = (j 1).val
    omega
  unfold outAll
  refine red_congr m ρ (Fin.ext ?_) (funext fun a => Fin.ext ?_)
  · show (((oR b).emb j) 0).val / 8 = b.val
    rw [h0]; omega
  · match a with
    | ⟨0, _⟩ =>
      show (((oR b).emb j) 0).val % 8 = (j 0).val
      rw [h0]; omega
    | ⟨1, _⟩ =>
      show (((oR b).emb j) 1).val = (j 1).val
      exact h1

omit [FloatOps F] in
/-- Contents forgotten. -/
theorem owns_ex_intro (c : Dev nD) {sh : Shape} (M : Memref sig .tc .vmem sh .f32) (Y : sh.Idx → Elt F .f32) :
    (ownsTc c M fullShare Y : sProp 𝕄) ⊢ iprop(∃ Y', ownsTc c M fullShare Y') := by
  iintro H; iexists Y; iexact H

omit [FloatOps F] in
/-- The staged output block at any contents cut into its 32 row blocks: the device's own and one at each peer's position. -/
theorem o_split (c : Dev nD) (X : (cc0_stg1_0 : Ref sig .tc).ty.Contents (Elt F)) : stg c cc0_stg1_0 X
    ⊢ iprop((∃ Y, ownsTc c (oRows c) fullShare Y) ∗ bigSep Finset.univ fun r : Fin 31 => iprop(∃ Y, ownsTc c (oRows (peer c r)) fullShare Y)) := by
  rw [stg_eq_owns]
  refine (owns_rects (c : Thread nD τ) oM fullShare oR oR_stride oR_disj oR_cov X).trans ?_
  rw [bigSep_ring c]
  exact BI.sep_mono (owns_ex_intro c _ _) (bigSep_mono fun r _ => owns_ex_intro c _ _)

/-- Rejoined once every block holds its device's sums. -/
theorem o_join (c : Dev nD) : iprop(ownsTc c (oRows c) fullShare (red m ρ c)
      ∗ bigSep Finset.univ fun r : Fin 31 => ownsTc c (oRows (peer c (back r))) fullShare (red m ρ (peer c (back r))))
    ⊢ stg c cc0_stg1_0 (outAll m ρ) := by
  rw [stg_eq_owns]
  refine BIBase.Entails.trans ?_ (owns_of_rects (c : Thread nD τ) oM fullShare oR oR_stride oR_disj oR_cov (outAll m ρ))
  have hΨ : ∀ b : Dev nD, (owns (c : Thread nD τ) (oM.slice (oR b) (oR_stride b)) fullShare (fun j => outAll m ρ ((oR b).emb j)) : sProp 𝕄)
      = ownsTc c (oRows b) fullShare (red m ρ b) := fun b => by
    rw [show (fun j => outAll m ρ ((oR b).emb j)) = red m ρ b from funext (outAll_emb m ρ b)]
  rw [bigSep_congr (fun b _ => hΨ b), bigSep_ring c (fun b => ownsTc c (oRows b) fullShare (red m ρ b)),
    ← bigSep_back (fun r => ownsTc c (oRows (peer c r)) fullShare (red m ρ (peer c r)))]

/-! ## The landing buffer -/

omit [FloatOps F] in
/-- Squeezing a memref keeps its elements: the points-to is the same. -/
theorem pointsTo_squeeze (t : Thread nD τ) {sp : Space} {s : Shape} {e : EltTy} (M : Memref sig t.2.kind sp s e)
    (s' : Shape) (h : s.Squeezes s') (q : PosShare TreeShare) (f : M.view.ty.Contents (Elt F)) :
    ((M.squeeze s' h).view.loc t ↦[(M.squeeze s' h).view.set]{q} f : sProp 𝕄) = (M.view.loc t ↦[M.view.set]{q} f) := by
  show (M.view.loc t ↦[(M.view.reshape s' h.numel_eq).set]{q} f : sProp 𝕄) = _
  rw [View.set_reshape]

omit [FloatOps F] in
/-- A memref owned at `Y` is its squeeze owned at `Y` read at the matched indices, -/
theorem owns_squeeze_intro (t : Thread nD τ) {sp : Space} {s : Shape} {e : EltTy} (M : Memref sig t.2.kind sp s e)
    (s' : Shape) (h : s.Squeezes s') (q : PosShare TreeShare) (Y : s.Idx → Elt F e) :
    (owns t M q Y : sProp 𝕄) ⊢ owns t (M.squeeze s' h) q (fun x => Y (Shape.reshapeEquiv h.numel_eq x)) := by
  unfold owns
  iintro ⟨%f, %hf, H⟩
  iexists f
  isplitr
  · ipureintro
    funext x
    rw [← hf]
    rfl
  · rw [pointsTo_squeeze t M s' h q f]
    iexact H

omit [FloatOps F] in
/-- and back. -/
theorem owns_squeeze_elim (t : Thread nD τ) {sp : Space} {s : Shape} {e : EltTy} (M : Memref sig t.2.kind sp s e)
    (s' : Shape) (h : s.Squeezes s') (q : PosShare TreeShare) (X : s'.Idx → Elt F e) :
    (owns t (M.squeeze s' h) q X : sProp 𝕄) ⊢ owns t M q (fun i => X ((Shape.reshapeEquiv h.numel_eq).symm i)) := by
  unfold owns
  iintro ⟨%f, %hf, H⟩
  iexists f
  isplitr
  · ipureintro
    funext i
    rw [← hf]
    exact (congrArg (M.view.read (Elt F) f) ((Shape.reshapeEquiv h.numel_eq).apply_symm_apply i)).symm
  · rw [← pointsTo_squeeze t M s' h q f]
    iexact H

theorem slotR_mem (r : Fin 31) (i : S31x8x256.Idx) : i ∈ (slotR r).set ↔ (i 0).val = r.val := by
  have h1 : (i 1).val < 8 := (i 1).isLt
  have h2 : (i 2).val < 256 := (i 2).isLt
  have e : i ∈ (slotR r).set ↔ ∀ a : Fin 3, (![r.val, 0, 0] : Fin 3 → ℕ) a ≤ (i a).val
      ∧ (i a).val < (![r.val, 0, 0] : Fin 3 → ℕ) a + S1x8x256.size a := Rect.mem_set_unit
  rw [e]
  refine ⟨fun h => ?_, fun h a => ?_⟩
  · have h0 : r.val ≤ (i 0).val ∧ (i 0).val < r.val + 1 := h 0
    omega
  · match a with
    | ⟨0, _⟩ => show r.val ≤ (i 0).val ∧ (i 0).val < r.val + 1; omega
    | ⟨1, _⟩ => show 0 ≤ (i 1).val ∧ (i 1).val < 0 + 8; omega
    | ⟨2, _⟩ => show 0 ≤ (i 2).val ∧ (i 2).val < 0 + 256; omega

theorem slotR_stride (r : Fin 31) (a : Fin S31x8x256.rank) : (slotR r).stride a = 1 := rfl

theorem slotR_disj (r r' : Fin 31) (h : r ≠ r') : Disjoint (slotR r).set (slotR r').set :=
  Finset.disjoint_left.2 fun i hi hi' => h (Fin.ext (((slotR_mem r i).1 hi).symm.trans ((slotR_mem r' i).1 hi')))

theorem slotR_cov : (Finset.univ : Finset (Fin 31)).biUnion (fun r => (slotR r).set) = Finset.univ := by
  ext i
  simp only [Finset.mem_biUnion, Finset.mem_univ, true_and, iff_true]
  exact ⟨⟨(i 0).val, (i 0).isLt⟩, (slotR_mem _ i).2 rfl⟩

omit [FloatOps F] in
theorem xSendBlk_congr {c c' : Dev nD} {r r' : Fin 31} {y y' : S8x256.Idx} (hc : c = c') (hr : r = r') (hy : y = y') :
    xSendBlk m ρ c r y = xSendBlk m ρ c' r' y' := by
  subst hc; subst hr; subst hy; rfl

omit [FloatOps F] in
/-- What landed in slot `r`, read at the slot's indices, is the landing buffer's contents there. -/
theorem rsAll_slot (c : Dev nD) (r : Fin 31) :
    (fun i => xSendBlk m ρ (peer c (back r)) r ((Shape.reshapeEquiv (s := (slotR r).shape) (s' := S8x256) squeezes_S1x8x256_S8x256.numel_eq).symm i))
      = fun j => rsAll m ρ c ((slotR r).emb j) := by
  funext j
  have hj0 : (j 0).val < 1 := (j 0).isLt
  have hj1 : (j 1).val < 8 := (j 1).isLt
  have hj2 : (j 2).val < 256 := (j 2).isLt
  have hsym : (Shape.reshapeEquiv (s := (slotR r).shape) (s' := S8x256) squeezes_S1x8x256_S8x256.numel_eq).symm j
      = ValueIdx.ix2 (n0 := 8) (n1 := 256) ⟨(j 1).val, hj1⟩ ⟨(j 2).val, hj2⟩ := by
    rw [Equiv.symm_apply_eq]
    refine (Shape.reshapeEquiv_eq_of_rowMajor _ ?_).symm
    rw [Shape.rowMajor_val_three, Shape.rowMajor_val_two]
    show ((j 0).val * 8 + (j 1).val) * 256 + (j 2).val = (j 1).val * 256 + (j 2).val
    omega
  rw [hsym]
  unfold rsAll
  have e0 : (((slotR r).emb j) 0).val = r.val := by
    rw [Rect.emb_apply]
    show r.val + 1 * (j 0).val = r.val
    omega
  have e1 : (((slotR r).emb j) 1).val = (j 1).val := by
    rw [Rect.emb_apply]
    show 0 + 1 * (j 1).val = (j 1).val
    omega
  have e2 : (((slotR r).emb j) 2).val = (j 2).val := by
    rw [Rect.emb_apply]
    show 0 + 1 * (j 2).val = (j 2).val
    omega
  have hr : r = ⟨(((slotR r).emb j) 0).val, (((slotR r).emb j) 0).isLt⟩ := Fin.ext e0.symm
  refine xSendBlk_congr m ρ (congrArg (fun r' => peer c (back r')) hr) hr (funext fun a => Fin.ext ?_)
  match a with
  | ⟨0, _⟩ => exact e1.symm
  | ⟨1, _⟩ => exact e2.symm

omit [FloatOps F] in
/-- The landing buffer at any contents cut into its 31 slots, and rejoined once every slot holds what landed. -/
theorem r_split (c : Dev nD) : iprop(∃ f, ((c : Thread nD τ).loc cc0_scratch0) ↦{fullShare} f)
    ⊢ (bigSep Finset.univ fun r : Fin 31 => iprop(∃ Y, ownsTc c (rSlot r) fullShare Y) : sProp 𝕄) := by
  iintro ⟨%f, H⟩
  ihave H1 := (show ((((c : Thread nD τ).loc cc0_scratch0) ↦{fullShare} f) : sProp 𝕄) ⊢ ownsTc c rM fullShare f from
    Entails.of_eq (owns_whole (Ix := Unit) (Name := ℕ) (U := UU) (Lvl := ℕ) (c : Thread nD τ) cc0_scratch0 fullShare f).symm) $$ H
  ihave H2 := (owns_rects (c : Thread nD τ) rM fullShare slotR slotR_stride slotR_disj slotR_cov f) $$ H1
  iapply (show (bigSep Finset.univ fun r : Fin 31 => (owns (c : Thread nD τ) (rM.slice (slotR r) (slotR_stride r)) fullShare (fun j => f ((slotR r).emb j)) : sProp 𝕄))
      ⊢ bigSep Finset.univ fun r : Fin 31 => iprop(∃ Y, ownsTc c (rSlot r) fullShare Y) from
    bigSep_mono fun r _ => (owns_squeeze_intro (c : Thread nD τ) (rM.slice (slotR r) (slotR_stride r)) S8x256 squeezes_S1x8x256_S8x256 fullShare _).trans
      (by iintro H; iexists _; iexact H))
  iexact H2

theorem r_join (c : Dev nD) : (bigSep Finset.univ fun r : Fin 31 => ownsTc c (rSlot r) fullShare (xSendBlk m ρ (peer c (back r)) r))
    ⊢ (ownsTc c rM fullShare (rsAll m ρ c) : sProp 𝕄) := by
  refine BIBase.Entails.trans (bigSep_mono fun r _ => ?_)
    (owns_of_rects (c : Thread nD τ) rM fullShare slotR slotR_stride slotR_disj slotR_cov (rsAll m ρ c))
  rw [← rsAll_slot m ρ c r]
  exact owns_squeeze_elim (c : Thread nD τ) (rM.slice (slotR r) (slotR_stride r)) S8x256 squeezes_S1x8x256_S8x256 fullShare _

end Cert.Kernel.RsAg

end
-- ==== Proof.Kernel.Comp.lean ====
/- What one device's body starts from and ends with, as components over the 31 offsets in the kernel's order: the
   lists each phase consumes and the lists each leaves. `prep` makes the first from the body's precondition (the
   buffers cut into blocks, the tokens and credits listed), `finish` the body's postcondition from the last (the
   blocks rejoined, the device's own cells closed). -/
import proofs.«901012_g7700000000001013_dist_rs_then_ag_i_m256_n256_v7x_i32_f32_1_alg».proof.Proof.Kernel.Phase
import proofs.«901012_g7700000000001013_dist_rs_then_ag_i_m256_n256_v7x_i32_f32_1_alg».proof.Proof.Kernel.Blocks

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- The all-gather copy's two tokens at offset `r` (its share of the device's rows comes after the reduce step). -/
def agTok0 (c : Dev nD) (r : Fin 31) : sProp 𝕄 := iprop(dutyTok ER (agS c r) 0 0 ∗ dutyTok ER (agR (peer c r) r) 0 0)

/-- What the body starts from, the records and the levels apart. -/
def Init (c : Dev nD) : sProp 𝕄 :=
  iprop(OW c 0 0 0
    ∗ bigSepL ord (sigItem c)
    ∗ cred (tallyAt (barCell c) () 31) ∗ atPos ER (barCell c) 0 ∅ 0
    ∗ bigSepL ord (rsTok m ρ c)
    ∗ bigSepL ord (fun r => cred (tallyAt (dcell c 1 r.succ) () N8)) ∗ bigSepL ord (fun r => atPos ER (dcell c 1 r.succ) 0 ∅ 0)
    ∗ ownsTc c (xOwn c) fullShare (xOwnBlk m ρ c) ∗ (∃ Y, ownsTc c (oRows c) fullShare Y)
    ∗ bigSepL ord (agTok0 c)
    ∗ bigSepL ord (fun r => cred (tallyAt (dcell c 3 r.succ) () N8)) ∗ bigSepL ord (fun r => atPos ER (dcell c 3 r.succ) 0 ∅ 0)
    ∗ bigSepL ord (fun r => atPos ER (dcell c 0 r.succ) 0 ∅ 0)
    ∗ bigSepL ord (fun r => atPos ER (dcell c 2 r.succ) 0 ∅ 0)
    ∗ (bigSep Finset.univ fun a : Fin 4 => atPos ER (dcell c a 0) 0 ∅ 0))

/-- What it ends with: it owes nothing; the landing buffer whole; its rows of the input kept; the sent rows back
    with their send cells past round 0; the peers' rows of the result landed with the receive cells past round 0; the
    shares of its own rows of the result back with the send cells past round 0, and the share it kept; the
    reduce-scatter receive cells past round 0; the four unused cells where they started. -/
def Final (c : Dev nD) : sProp 𝕄 :=
  iprop(OW c 31 31 31
    ∗ ownsTc c rM fullShare (rsAll m ρ c)
    ∗ bigSepL (done 31) (fun r => atPos ER (dcell c 1 r.succ) 1 ∅ 0)
    ∗ ownsTc c (xOwn c) fullShare (xOwnBlk m ρ c)
    ∗ bigSepL (done 31) (gotItem m ρ c 0)
    ∗ bigSepL (done 31) (gotItem m ρ c 3)
    ∗ bigSepL (done 31) (gotItem m ρ c 2)
    ∗ ownsTc c (oRows c) (Transfers.shareDrop fullShare 31) (red m ρ c)
    ∗ (bigSep Finset.univ fun a : Fin 4 => atPos ER (dcell c a 0) 0 ∅ 0))

/-! ## Lists over the offsets as families over all 31 of them -/

omit [FloatOps F] in
theorem ordL_univ (Φ : Fin 31 → sProp 𝕄) : bigSepL ord Φ = bigSep Finset.univ Φ :=
  (bigSep_univ_eq_bigSepL ord ord_toFinset.symm ord_nodup Φ).symm

omit [FloatOps F] in
theorem doneL_univ (Φ : Fin 31 → sProp 𝕄) : bigSepL (done 31) Φ = bigSep Finset.univ Φ :=
  (bigSep_univ_eq_bigSepL (done 31) (by decide) (by decide) Φ).symm

omit [FloatOps F] in
/-- A family over `n + 1` indices is its member at `0` and the family over the successors. -/
theorem bigSep_univ_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

omit [FloatOps F] in
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

/-! ## The launch's deal, sorted by what takes it -/

omit [FloatOps F] in
/-- The device's positions: its barrier cell's, the four unused cells', and each array's 31 used cells'. -/
theorem posAll_split (c : Dev nD) : (posAll c : sProp 𝕄) = iprop(atPos ER (barCell c) 0 ∅ 0
    ∗ (bigSep Finset.univ fun a : Fin 4 => atPos ER (dcell c a 0) 0 ∅ 0)
    ∗ (bigSep Finset.univ fun r : Fin 31 => atPos ER (dcell c 0 r.succ) 0 ∅ 0)
    ∗ (bigSep Finset.univ fun r : Fin 31 => atPos ER (dcell c 1 r.succ) 0 ∅ 0)
    ∗ (bigSep Finset.univ fun r : Fin 31 => atPos ER (dcell c 2 r.succ) 0 ∅ 0)
    ∗ (bigSep Finset.univ fun r : Fin 31 => atPos ER (dcell c 3 r.succ) 0 ∅ 0)) := by
  unfold posAll
  rw [bigSep_univ_option, bigSep_univ_prod]
  rw [bigSep_congr (fun (a : Fin 4) _ => bigSep_univ_fin_succ (fun j : Fin 32 => (atPos ER (kcell (c, some (a, j))) 0 ∅ 0 : sProp 𝕄)))]
  rw [bigSep_sep', bigSep_fin_four (fun a : Fin 4 => bigSep Finset.univ fun i : Fin 31 => (atPos ER (kcell (c, some (a, i.succ))) 0 ∅ 0 : sProp 𝕄))]

omit [FloatOps F] in
/-- The tokens of the duties the device pays, by kind. -/
theorem payToks_split (c : Dev nD) : (payToks c : sProp 𝕄) = iprop(
    (bigSep Finset.univ fun r : Fin 31 => dutyTok ER (barCell (peer c r)) 0 (back r))
    ∗ (bigSep Finset.univ fun r : Fin 31 => dutyTok ER (rsS c r) 0 0)
    ∗ (bigSep Finset.univ fun r : Fin 31 => dutyTok ER (rsR (peer c r) r) 0 0)
    ∗ (bigSep Finset.univ fun r : Fin 31 => dutyTok ER (agS c r) 0 0)
    ∗ (bigSep Finset.univ fun r : Fin 31 => dutyTok ER (agR (peer c r) r) 0 0)) := by
  unfold payToks
  rw [bigSep_sep', bigSep_sep', bigSep_sep', bigSep_sep']

omit [FloatOps F] in
/-- What the signals take, by kind: the tokens, the 31 slots of the landing buffer, the peers' rows of the output. -/
theorem sig_list (c : Dev nD) : (bigSepL ord (sigItem c) : sProp 𝕄) = iprop(
    (bigSep Finset.univ fun r : Fin 31 => dutyTok ER (barCell (peer c r)) 0 (back r))
    ∗ (bigSep Finset.univ fun r : Fin 31 => iprop(∃ Y, ownsTc c (rSlot r) fullShare Y))
    ∗ (bigSep Finset.univ fun r : Fin 31 => iprop(∃ Y, ownsTc c (oRows (peer c r)) fullShare Y))) := by
  rw [ordL_univ]
  unfold sigItem
  rw [bigSep_sep', bigSep_sep', bigSep_back (fun r : Fin 31 => iprop(∃ Y, ownsTc c (rSlot r) fullShare Y))]

/-- What the reduce-scatter copies take, by kind. -/
theorem rs_list (c : Dev nD) : (bigSepL ord (rsTok m ρ c) : sProp 𝕄) = iprop(
    (bigSep Finset.univ fun r : Fin 31 => dutyTok ER (rsS c r) 0 0)
    ∗ (bigSep Finset.univ fun r : Fin 31 => dutyTok ER (rsR (peer c r) r) 0 0)
    ∗ (bigSep Finset.univ fun r : Fin 31 => ownsTc c (xSend c r) fullShare (xSendBlk m ρ c r))) := by
  rw [ordL_univ]
  unfold rsTok
  rw [bigSep_sep', bigSep_sep']

omit [FloatOps F] in
/-- What the all-gather copies take at first, by kind. -/
theorem ag_list (c : Dev nD) : (bigSepL ord (agTok0 c) : sProp 𝕄) = iprop(
    (bigSep Finset.univ fun r : Fin 31 => dutyTok ER (agS c r) 0 0)
    ∗ (bigSep Finset.univ fun r : Fin 31 => dutyTok ER (agR (peer c r) r) 0 0)) := by
  rw [ordL_univ]
  unfold agTok0
  rw [bigSep_sep']

/-! ## The device's own cells closed -/

/-- One of the device's own used cells, past round 0, closed: no later round has a duty. -/
theorem close_used (c : Dev nD) (a : Fin 4) (r : Fin 31) :
    iprop(recs m ρ K ∗ atPos ER (dcell c a r.succ) 1 ∅ 0) ⊢ iprop(|={Set.univ}=> semVal (dcell c a r.succ) 0) := by
  iintro ⟨#HR, Hat⟩
  iapply (Rounds.cell_close ER (sched m ρ) (g := dcell c a r.succ) (κ := K (c, some (a, r.succ))) (Set.mem_univ _) (fun h => h)
    (R := 1) (duties_later m ρ _))
  isplitr
  · iapply (recs_inv m ρ K (c, some (a, r.succ))); iexact HR
  · iexact Hat

/-- An unused cell closed where it started: it has no duty at all. -/
theorem close_unused (c : Dev nD) (a : Fin 4) :
    iprop(recs m ρ K ∗ atPos ER (dcell c a 0) 0 ∅ 0) ⊢ iprop(|={Set.univ}=> semVal (dcell c a 0) 0) := by
  iintro ⟨#HR, Hat⟩
  iapply (Rounds.cell_close ER (sched m ρ) (g := dcell c a 0) (κ := K (c, some (a, 0))) (Set.mem_univ _) (fun h => h)
    (R := 0) (fun n _ => duties_dcell_zero m ρ c a n))
  isplitr
  · iapply (recs_inv m ρ K (c, some (a, 0))); iexact HR
  · iexact Hat

/-- The 32 cells of one array closed. -/
theorem close_array (c : Dev nD) (a : Fin 4) :
    iprop(recs m ρ K ∗ atPos ER (dcell c a 0) 0 ∅ 0 ∗ bigSep Finset.univ fun r : Fin 31 => atPos ER (dcell c a r.succ) 1 ∅ 0)
      ⊢ iprop(|={Set.univ}=> bigSep Finset.univ fun j : Fin 32 => semVal (dcell c a j) 0) := by
  rw [bigSep_univ_fin_succ (fun j : Fin 32 => (semVal (dcell c a j) 0 : sProp 𝕄))]
  iintro ⟨#HR, H0, Hs⟩
  ihave H0' := (close_unused m ρ K c a) $$ [H0]
  · isplitr; · iexact HR
    iexact H0
  imod H0'
  ihave Hs' := ((bigSep_with_persistent (R := recs m ρ K) (S := (Finset.univ : Finset (Fin 31)))
      (fun r _ => close_used m ρ K c a r)).trans (bigSep_fupd Finset.univ _)) $$ [Hs]
  · isplitr; · iexact HR
    iexact Hs
  imod Hs'
  imodintro
  isplitl [H0']; · iexact H0'
  iexact Hs'

omit [FloatOps F] in
/-- The kernel's own semaphores at zero, array by array. -/
theorem ownSems_split (c : Dev nD) : (Pipeline.ownSems0 osem c : sProp 𝕄) = iprop(
    (bigSep Finset.univ fun j : Fin 32 => semVal (dcell c 0 j) 0) ∗ (bigSep Finset.univ fun j : Fin 32 => semVal (dcell c 1 j) 0)
    ∗ (bigSep Finset.univ fun j : Fin 32 => semVal (dcell c 2 j) 0) ∗ (bigSep Finset.univ fun j : Fin 32 => semVal (dcell c 3 j) 0)) := by
  unfold Pipeline.ownSems0
  rw [bigSep_univ_prod, bigSep_fin_four]

/-- What the waits on array `a` left, by kind: the positions and the payloads. -/
theorem got_list (c : Dev nD) (a : Fin 4) : (bigSepL (done 31) (gotItem m ρ c a) : sProp 𝕄) = iprop(
    (bigSep Finset.univ fun r : Fin 31 => atPos ER (dcell c a r.succ) 1 ∅ 0)
    ∗ (bigSep Finset.univ fun r : Fin 31 => (sched m ρ).payload (dcell c a r.succ) 0 0)) := by
  rw [doneL_univ]
  unfold gotItem
  rw [bigSep_sep']

/-- Owing nothing at the end is what the pipeline asks after the point. -/
theorem OW_end (c : Dev nD) : OW c 31 31 31 ⊢ (dats m ρ 0 c).owesAt () t0_0.succ := by
  unfold OW Dat.owesAt Pipeline.owesWithin
  rw [show todo 31 = [] from by decide,
    show (owedAg c [] + owedRs c [] + owedSig c [] : CellTallies nD τ sig Unit) = 0 from by
      show (0 + 0 + 0 : CellTallies nD τ sig Unit) = 0; simp]
  iintro ⟨%W, HO⟩
  iexists W
  isplitr; · ipureintro; exact fun _ _ => Or.inl trivial
  iexact HO

/-- From the body's precondition to its components. -/
theorem prep (c : Dev nD) : bodyPre m ρ c ⊢ iprop(∃ K, recs m ρ K ∗ levAts L lv ∗ Init m ρ c) := by
  unfold bodyPre Φ₀ start ghost creds
  iintro ⟨⟨⟨⟨%K, #HR, Hpos, Htok⟩, ⟨HcB, HcR, HcA⟩, #Hlev⟩, ⟨%f, Hscr⟩⟩, Ho, ⟨%d0, Hx⟩, ⟨%d1, Ho1⟩⟩
  have hx : (dats m ρ 0 c).before (0 : Fin 2) t0_0 d0 = xstg m ρ c := by
    unfold Dat.before; rw [if_pos (fetch0_0 t0_0)]; rfl
  -- the three buffers cut into blocks
  ihave HxS := (show stg c cc0_stg0_0 ((dats m ρ 0 c).before (0 : Fin 2) t0_0 d0) ⊢ _ from
      (Entails.of_eq (by rw [hx])).trans (x_split m ρ c)) $$ Hx
  icases HxS with ⟨HxO, HxS⟩
  ihave HoS := (o_split c ((dats m ρ 0 c).before (1 : Fin 2) t0_0 d1)) $$ Ho1
  icases HoS with ⟨HoO, HoP⟩
  ihave Hsl := (r_split c) $$ [Hscr]
  · iexists f; iexact Hscr
  -- the positions and the tokens sorted
  ihave Hpos' := (Entails.of_eq (posAll_split c)) $$ Hpos
  icases Hpos' with ⟨HpB, Hp0, HpA0, HpA1, HpA2, HpA3⟩
  ihave Htok' := (Entails.of_eq (payToks_split c)) $$ Htok
  icases Htok' with ⟨HtB, HtS, HtR, HtAS, HtAR⟩
  unfold Dat.owesAt Pipeline.owesWithin
  icases Ho with ⟨%W, -, HO⟩
  iexists K
  isplitr; · iexact HR
  isplitr; · iexact Hlev
  unfold Init
  rw [sig_list, rs_list, ag_list]
  simp only [ordL_univ]
  isplitl [HO]
  · unfold OW; iexists W; iexact HO
  isplitl [HtB Hsl HoP]
  · isplitl [HtB]; · iexact HtB
    isplitl [Hsl]; · iexact Hsl
    iexact HoP
  isplitl [HcB]; · iexact HcB
  isplitl [HpB]; · iexact HpB
  isplitl [HtS HtR HxS]
  · isplitl [HtS]; · iexact HtS
    isplitl [HtR]; · iexact HtR
    iexact HxS
  isplitl [HcR]; · iexact HcR
  isplitl [HpA1]; · iexact HpA1
  isplitl [HxO]; · iexact HxO
  isplitl [HoO]; · iexact HoO
  isplitl [HtAS HtAR]
  · isplitl [HtAS]; · iexact HtAS
    iexact HtAR
  isplitl [HcA]; · iexact HcA
  isplitl [HpA3]; · iexact HpA3
  isplitl [HpA0]; · iexact HpA0
  isplitl [HpA2]; · iexact HpA2
  iexact Hp0

/-- From the last components to the body's postcondition, the device's own cells closed. -/
theorem finish (c : Dev nD) : iprop(recs m ρ K ∗ Final m ρ c) ⊢ iprop(|={Set.univ}=> bodyPost m ρ c) := by
  have e0 : (bigSep Finset.univ fun r : Fin 31 => (sched m ρ).payload (dcell c 0 r.succ) 0 0 : sProp 𝕄)
      = bigSep Finset.univ fun r : Fin 31 => ownsTc c (xSend c r) fullShare (xSendBlk m ρ c r) :=
    bigSep_congr fun r _ => payload_rsS m ρ c r
  have e3 : (bigSep Finset.univ fun r : Fin 31 => (sched m ρ).payload (dcell c 3 r.succ) 0 0 : sProp 𝕄)
      = bigSep Finset.univ fun r : Fin 31 => ownsTc c (oRows (peer c (back r))) fullShare (red m ρ (peer c (back r))) :=
    bigSep_congr fun r _ => payload_agR m ρ c r
  have e2 : (bigSep Finset.univ fun r : Fin 31 => (sched m ρ).payload (dcell c 2 r.succ) 0 0 : sProp 𝕄)
      = bigSep Finset.univ fun r : Fin 31 => ownsTc c (oRows c) (agShare r) (red m ρ c) :=
    bigSep_congr fun r _ => payload_agS m ρ c r
  unfold Final
  rw [got_list m ρ c 0, got_list m ρ c 3, got_list m ρ c 2, doneL_univ, e0, e3, e2]
  iintro ⟨#HR, HO, Hr, Hp1, HxO, ⟨Hp0s, HxS⟩, ⟨Hp3s, HoP⟩, ⟨Hp2s, HoSh⟩, Hkeep, Hp0⟩
  -- the blocks rejoined
  ihave Hx := (x_join m ρ c) $$ [HxO HxS]
  · isplitl [HxO] <;> iassumption
  ihave HoO := (o_shares_join c (red m ρ c)) $$ [Hkeep HoSh]
  · isplitl [Hkeep] <;> iassumption
  ihave Hout := (o_join m ρ c) $$ [HoO HoP]
  · isplitl [HoO] <;> iassumption
  -- the cells closed, array by array
  ihave Hp0' := (Entails.of_eq (bigSep_fin_four (fun a : Fin 4 => (atPos ER (dcell c a 0) 0 ∅ 0 : sProp 𝕄)))) $$ Hp0
  icases Hp0' with ⟨Hu0, Hu1, Hu2, Hu3⟩
  ihave Hc0 := (close_array m ρ K c 0) $$ [Hu0 Hp0s]
  · isplitr; · iexact HR
    isplitl [Hu0] <;> iassumption
  imod Hc0
  ihave Hc1 := (close_array m ρ K c 1) $$ [Hu1 Hp1]
  · isplitr; · iexact HR
    isplitl [Hu1] <;> iassumption
  imod Hc1
  ihave Hc2 := (close_array m ρ K c 2) $$ [Hu2 Hp2s]
  · isplitr; · iexact HR
    isplitl [Hu2] <;> iassumption
  imod Hc2
  ihave Hc3 := (close_array m ρ K c 3) $$ [Hu3 Hp3s]
  · isplitr; · iexact HR
    isplitl [Hu3] <;> iassumption
  imod Hc3
  imodintro
  unfold bodyPost Φ₁
  rw [ownSems_split]
  isplitl [Hr Hc0 Hc1 Hc2 Hc3]
  · isplitl [Hr]
    · iexists rsAll m ρ c
      iapply (Entails.of_eq (owns_whole (Ix := Unit) (Name := ℕ) (U := UU) (Lvl := ℕ) (c : Thread nD τ) cc0_scratch0 fullShare (rsAll m ρ c)))
      iexact Hr
    isplitl [Hc0]; · iexact Hc0
    isplitl [Hc1]; · iexact Hc1
    isplitl [Hc2]; · iexact Hc2
    iexact Hc3
  isplitl [HO]
  · iapply (OW_end m ρ c); iexact HO
  isplitl [Hx]; · iexact Hx
  iexact Hout

/-! ## Glue over the lists -/

omit [FloatOps F] in
theorem ordrev_nodup : (done 31).Nodup := by decide
omit [FloatOps F] in
theorem ordrev_toFinset : (done 31).toFinset = Finset.univ := by decide

omit [FloatOps F] in
/-- A list over the offsets done, all 31 of them, is the set's. -/
theorem bigSepL_done_univ (Φ : Fin 31 → sProp 𝕄) : bigSepL (done 31) Φ = bigSep Finset.univ Φ :=
  (bigSep_univ_eq_bigSepL (done 31) ordrev_toFinset.symm ordrev_nodup Φ).symm
omit [FloatOps F] in
theorem bigSepL_ord_univ (Φ : Fin 31 → sProp 𝕄) : bigSepL ord Φ = bigSep Finset.univ Φ :=
  (bigSep_univ_eq_bigSepL ord ord_toFinset.symm ord_nodup Φ).symm
omit [FloatOps F] in
/-- Two lists over the offsets zip. -/
theorem bigSepL_ord_sep (A B : Fin 31 → sProp 𝕄) : iprop(bigSepL ord A ∗ bigSepL ord B) = bigSepL ord (fun r => iprop(A r ∗ B r)) := by
  rw [bigSepL_ord_univ, bigSepL_ord_univ, bigSepL_ord_univ, bigSep_sep']

end Cert.Kernel.RsAg

end
-- ==== Proof.Kernel.Mid.lean ====
/- Between the two collectives: the 31 landed slots rejoin into the landing buffer, the four memory operations sum
   them with the device's own rows into its rows of the result, and those rows are lent in 31 shares, one beside
   each all-gather copy's tokens. -/
import proofs.«901012_g7700000000001013_dist_rs_then_ag_i_m256_n256_v7x_i32_f32_1_alg».proof.Proof.Kernel.Comp

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Before a phase's first step nothing is done: the list of what is done is empty. -/
theorem emp_done0 (Φ : Fin 31 → sProp 𝕄) : (emp : sProp 𝕄) ⊢ bigSepL (done 0) Φ := .rfl

omit [FloatOps F] in
/-- The credits of all 31 copies of one kind, collected in the order they were issued, are the list the send waits
    consume in the kernel's order. -/
theorem cred_list (c : Dev nD) (a : Fin 4) :
    bigSepL (done 31) (fun r => (cred (tallyAt (dcell c a r.succ) () N8) : sProp 𝕄))
      = bigSepL (todo 0) (fun r => cred (tallyAt (dcell c a r.succ) () N8)) :=
  (bigSepL_done_univ _).trans (bigSepL_ord_univ _).symm

theorem mid_run (c : Dev nD) {α : Type} {Q : α → sProp 𝕄} {k : PUnit → Prog (TpuEff nD τ sig (Elt F) Λ₀ .tc) α} :
    iprop(bigSepL (done 31) (gotItem m ρ c 1) ∗ ownsTc c (xOwn c) fullShare (xOwnBlk m ρ c) ∗ (∃ Y, ownsTc c (oRows c) fullShare Y)
        ∗ bigSepL ord (agTok0 c))
      ⊢ iprop((iprop(ownsTc c rM fullShare (rsAll m ρ c) ∗ bigSepL (done 31) (fun r => atPos ER (dcell c 1 r.succ) 1 ∅ 0)
                ∗ ownsTc c (xOwn c) fullShare (xOwnBlk m ρ c) ∗ ownsTc c (oRows c) (Transfers.shareDrop fullShare 31) (red m ρ c)
                ∗ bigSepL (todo 0) (agTok m ρ c))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load rM (Rect.unit (s := S31x8x256) ![0, 0, 0] S31x8x256.size inb_S31x8x256_S31x8x256_0_0_0).toLoadRect (View.loadsAt_vmem h_S31x8x256)) fun v717 =>
               .op (.load xM (Rect.unit (s := S256x256) (k0_off2 c) S8x256.size (k0_off2_inb c)).toLoadRect (View.loadsAt_vmem h_S8x256)) fun v721 =>
               .op (.load oM (Rect.unit (s := S256x256) (k0_off2 c) S8x256.size (k0_off2_inb c)).toLoadRect (View.loadsAt_vmem h_S8x256)) fun v726 =>
               .op (.store oM (Rect.unit (s := S256x256) (k0_off2 c) S8x256.size (k0_off2_inb c)) (k0_pay1 v717 v721) Finset.univ (View.stores_vmem_bits_univ h_S8x256 rfl) (.inl rfl)) k) Q) := by
  have e1 : bigSepL (done 31) (gotItem m ρ c 1)
      = iprop(bigSepL (done 31) (fun r => atPos ER (dcell c 1 r.succ) 1 ∅ 0)
          ∗ bigSep Finset.univ fun r : Fin 31 => ownsTc c (rSlot r) fullShare (xSendBlk m ρ (peer c (back r)) r)) := by
    unfold gotItem
    rw [bigSepL_done_univ, bigSep_sep', ← bigSepL_done_univ, bigSep_congr (fun r _ => payload_rsR m ρ c r)]
  have e2 : iprop(bigSepL ord (agTok0 c) ∗ bigSep Finset.univ fun r : Fin 31 => ownsTc c (oRows c) (agShare r) (red m ρ c))
      = bigSepL (todo 0) (agTok m ρ c) := by
    rw [← bigSepL_ord_univ, bigSepL_ord_sep]; rfl
  iintro ⟨HG, Hx, Ho, HT0⟩ Hk
  ihave HG' := (Entails.of_eq e1) $$ HG
  icases HG' with ⟨Hpos, Hslots⟩
  ihave HrM := (r_join m ρ c) $$ Hslots
  iapply (reduce_run m ρ c)
  isplitl [HrM]; · iexact HrM
  isplitl [Hx]; · iexact Hx
  isplitl [Ho]; · iexact Ho
  iintro ⟨HrM, Hx, Ho⟩
  ihave Hsh := (o_shares_split c (red m ρ c)) $$ Ho
  icases Hsh with ⟨Hrest, Hshares⟩
  iapply Hk
  isplitl [HrM]; · iexact HrM
  isplitl [Hpos]; · iexact Hpos
  isplitl [Hx]; · iexact Hx
  isplitl [Hrest]; · iexact Hrest
  iapply (Entails.of_eq e2)
  isplitl [HT0] <;> iassumption

end Cert.Kernel.RsAg

end
-- ==== Proof.Kernel.Parts.lean ====
/- One lemma per printed part of the kernel's body: the part's barrier signals, copies and waits, in the order the
   part holds them, each an instance of the step lemma of its kind; the state before and after is the lists of the
   offsets still to come and those done in each phase the part touches. -/
import proofs.«901012_g7700000000001013_dist_rs_then_ag_i_m256_n256_v7x_i32_f32_1_alg».proof.Proof.Kernel.Mid

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

set_option maxHeartbeats 2000000 in
theorem part1_run (c : Dev nD)  (Kt : (Σ' (d0 : Dev nD) (v2 : BitVec 32) (v3 : Sems sig S_) (v24 : BitVec 32), BitVec 32) → sProp 𝕄) :
    iprop(recs m ρ K ∗ OW c 0 0 0 ∗ bigSepL (todo 0) (sigItem c)
        ∗ (∀ v2 v24 c32, iprop(OW c 0 0 5 ∗ bigSepL (todo 5) (sigItem c)) -∗ Kt ⟨c, v2, (SemArray.scalar (sig.barrier 0 rfl) : Sems sig S_), v24, c32⟩))
      ⊢ wp frame (wpE (defs₀ (F := F)) 𝒱₀ (c : Thread nD τ) none) Set.univ
          (k0_part1 xM (Memref.isWhole_whole _) oM (Memref.isWhole_whole _) rM (Memref.isWhole_whole _) cc0_scratch1 cc0_scratch2 cc0_scratch3 cc0_scratch4 ) Kt := by
  rw [k0_part1_eq_skeleton]; unfold k0_part1_skel
  simp only [semSignalWord, semWaitWord, Prog.lift, Prog.bind_op, Prog.bind_ret, Prog.pure_eq_ret, wp_deviceId]
  iintro ⟨#HR, HOW, HSig, Hk⟩
  iapply (sig_step m ρ K c 0 0 0 15 rfl _ (Fin.ext (k0_dev1_eq c)) _ rfl) $$ [HOW HSig]
  · isplitr; · iexact HR
    isplitl [HOW]; · iexact HOW
    iexact HSig
  iintro ⟨HOW, HSig⟩
  iapply (sig_step m ρ K c 0 0 1 14 rfl _ (Fin.ext (k0_dev2_eq c)) _ rfl) $$ [HOW HSig]
  · isplitr; · iexact HR
    isplitl [HOW]; · iexact HOW
    iexact HSig
  iintro ⟨HOW, HSig⟩
  iapply (sig_step m ρ K c 0 0 2 16 rfl _ (Fin.ext (k0_dev3_eq c)) _ rfl) $$ [HOW HSig]
  · isplitr; · iexact HR
    isplitl [HOW]; · iexact HOW
    iexact HSig
  iintro ⟨HOW, HSig⟩
  iapply (sig_step m ρ K c 0 0 3 13 rfl _ (Fin.ext (k0_dev4_eq c)) _ rfl) $$ [HOW HSig]
  · isplitr; · iexact HR
    isplitl [HOW]; · iexact HOW
    iexact HSig
  iintro ⟨HOW, HSig⟩
  iapply (sig_step m ρ K c 0 0 4 17 rfl _ (Fin.ext (k0_dev5_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part2_run (c : Dev nD) (v2 : BitVec 32) (v24 : BitVec 32) (c32_i32_19 : BitVec 32) (Kt : (Σ' (v48 : BitVec 32), BitVec 32) → sProp 𝕄) :
    iprop(recs m ρ K ∗ OW c 0 0 5 ∗ bigSepL (todo 5) (sigItem c)
        ∗ (∀ ret, iprop(OW c 0 0 11 ∗ bigSepL (todo 11) (sigItem c)) -∗ Kt ret))
      ⊢ wp frame (wpE (defs₀ (F := F)) 𝒱₀ (c : Thread nD τ) none) Set.univ
          (k0_part2 xM (Memref.isWhole_whole _) oM (Memref.isWhole_whole _) rM (Memref.isWhole_whole _) cc0_scratch1 cc0_scratch2 cc0_scratch3 cc0_scratch4 c v2 (SemArray.scalar (sig.barrier 0 rfl) : Sems sig S_) v24 c32_i32_19) Kt := by
  rw [k0_part2_eq_skeleton]; unfold k0_part2_skel
  simp only [semSignalWord, semWaitWord, Prog.lift, Prog.bind_op, Prog.bind_ret, Prog.pure_eq_ret, wp_deviceId]
  iintro ⟨#HR, HOW, HSig, Hk⟩
  iapply (sig_step m ρ K c 0 0 5 12 rfl _ (Fin.ext (k0_dev6_eq c)) _ rfl) $$ [HOW HSig]
  · isplitr; · iexact HR
    isplitl [HOW]; · iexact HOW
    iexact HSig
  iintro ⟨HOW, HSig⟩
  iapply (sig_step m ρ K c 0 0 6 18 rfl _ (Fin.ext (k0_dev7_eq c)) _ rfl) $$ [HOW HSig]
  · isplitr; · iexact HR
    isplitl [HOW]; · iexact HOW
    iexact HSig
  iintro ⟨HOW, HSig⟩
  iapply (sig_step m ρ K c 0 0 7 11 rfl _ (Fin.ext (k0_dev8_eq c)) _ rfl) $$ [HOW HSig]
  · isplitr; · iexact HR
    isplitl [HOW]; · iexact HOW
    iexact HSig
  iintro ⟨HOW, HSig⟩
  iapply (sig_step m ρ K c 0 0 8 19 rfl _ (Fin.ext (k0_dev9_eq c)) _ rfl) $$ [HOW HSig]
  · isplitr; · iexact HR
    isplitl [HOW]; · iexact HOW
    iexact HSig
  iintro ⟨HOW, HSig⟩
  iapply (sig_step m ρ K c 0 0 9 10 rfl _ (Fin.ext (k0_dev10_eq c)) _ rfl) $$ [HOW HSig]
  · isplitr; · iexact HR
    isplitl [HOW]; · iexact HOW
    iexact HSig
  iintro ⟨HOW, HSig⟩
  iapply (sig_step m ρ K c 0 0 10 20 rfl _ (Fin.ext (k0_dev11_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part3_run (c : Dev nD) (v2 : BitVec 32) (v48 : BitVec 32) (c32_i32_43 : BitVec 32) (Kt : (Σ' (v72 : BitVec 32), BitVec 32) → sProp 𝕄) :
    iprop(recs m ρ K ∗ OW c 0 0 11 ∗ bigSepL (todo 11) (sigItem c)
        ∗ (∀ ret, iprop(OW c 0 0 17 ∗ bigSepL (todo 17) (sigItem c)) -∗ Kt ret))
      ⊢ wp frame (wpE (defs₀ (F := F)) 𝒱₀ (c : Thread nD τ) none) Set.univ
          (k0_part3 xM (Memref.isWhole_whole _) oM (Memref.isWhole_whole _) rM (Memref.isWhole_whole _) cc0_scratch1 cc0_scratch2 cc0_scratch3 cc0_scratch4 c v2 (SemArray.scalar (sig.barrier 0 rfl) : Sems sig S_) v48 c32_i32_43) Kt := by
  rw [k0_part3_eq_skeleton]; unfold k0_part3_skel
  simp only [semSignalWord, semWaitWord, Prog.lift, Prog.bind_op, Prog.bind_ret, Prog.pure_eq_ret, wp_deviceId]
  iintro ⟨#HR, HOW, HSig, Hk⟩
  iapply (sig_step m ρ K c 0 0 11 9 rfl _ (Fin.ext (k0_dev12_eq c)) _ rfl) $$ [HOW HSig]
  · isplitr; · iexact HR
    isplitl [HOW]; · iexact HOW
    iexact HSig
  iintro ⟨HOW, HSig⟩
  iapply (sig_step m ρ K c 0 0 12 21 rfl _ (Fin.ext (k0_dev13_eq c)) _ rfl) $$ [HOW HSig]
  · isplitr; · iexact HR
    isplitl [HOW]; · iexact HOW
    iexact HSig
  iintro ⟨HOW, HSig⟩
  iapply (sig_step m ρ K c 0 0 13 8 rfl _ (Fin.ext (k0_dev14_eq c)) _ rfl) $$ [HOW HSig]
  · isplitr; · iexact HR
    isplitl [HOW]; · iexact HOW
    iexact HSig
  iintro ⟨HOW, HSig⟩
  iapply (sig_step m ρ K c 0 0 14 22 rfl _ (Fin.ext (k0_dev15_eq c)) _ rfl) $$ [HOW HSig]
  · isplitr; · iexact HR
    isplitl [HOW]; · iexact HOW
    iexact HSig
  iintro ⟨HOW, HSig⟩
  iapply (sig_step m ρ K c 0 0 15 7 rfl _ (Fin.ext (k0_dev16_eq c)) _ rfl) $$ [HOW HSig]
  · isplitr; · iexact HR
    isplitl [HOW]; · iexact HOW
    iexact HSig
  iintro ⟨HOW, HSig⟩
  iapply (sig_step m ρ K c 0 0 16 23 rfl _ (Fin.ext (k0_dev17_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part4_run (c : Dev nD) (v2 : BitVec 32) (v72 : BitVec 32) (c32_i32_67 : BitVec 32) (Kt : (Σ' (v96 : BitVec 32), BitVec 32) → sProp 𝕄) :
    iprop(recs m ρ K ∗ OW c 0 0 17 ∗ bigSepL (todo 17) (sigItem c)
        ∗ (∀ ret, iprop(OW c 0 0 23 ∗ bigSepL (todo 23) (sigItem c)) -∗ Kt ret))
      ⊢ wp frame (wpE (defs₀ (F := F)) 𝒱₀ (c : Thread nD τ) none) Set.univ
          (k0_part4 xM (Memref.isWhole_whole _) oM (Memref.isWhole_whole _) rM (Memref.isWhole_whole _) cc0_scratch1 cc0_scratch2 cc0_scratch3 cc0_scratch4 c v2 (SemArray.scalar (sig.barrier 0 rfl) : Sems sig S_) v72 c32_i32_67) Kt := by
  rw [k0_part4_eq_skeleton]; unfold k0_part4_skel
  simp only [semSignalWord, semWaitWord, Prog.lift, Prog.bind_op, Prog.bind_ret, Prog.pure_eq_ret, wp_deviceId]
  iintro ⟨#HR, HOW, HSig, Hk⟩
  iapply (sig_step m ρ K c 0 0 17 6 rfl _ (Fin.ext (k0_dev18_eq c)) _ rfl) $$ [HOW HSig]
  · isplitr; · iexact HR
    isplitl [HOW]; · iexact HOW
    iexact HSig
  iintro ⟨HOW, HSig⟩
  iapply (sig_step m ρ K c 0 0 18 24 rfl _ (Fin.ext (k0_dev19_eq c)) _ rfl) $$ [HOW HSig]
  · isplitr; · iexact HR
    isplitl [HOW]; · iexact HOW
    iexact HSig
  iintro ⟨HOW, HSig⟩
  iapply (sig_step m ρ K c 0 0 19 5 rfl _ (Fin.ext (k0_dev20_eq c)) _ rfl) $$ [HOW HSig]
  · isplitr; · iexact HR
    isplitl [HOW]; · iexact HOW
    iexact HSig
  iintro ⟨HOW, HSig⟩
  iapply (sig_step m ρ K c 0 0 20 25 rfl _ (Fin.ext (k0_dev21_eq c)) _ rfl) $$ [HOW HSig]
  · isplitr; · iexact HR
    isplitl [HOW]; · iexact HOW
    iexact HSig
  iintro ⟨HOW, HSig⟩
  iapply (sig_step m ρ K c 0 0 21 4 rfl _ (Fin.ext (k0_dev22_eq c)) _ rfl) $$ [HOW HSig]
  · isplitr; · iexact HR
    isplitl [HOW]; · iexact HOW
    iexact HSig
  iintro ⟨HOW, HSig⟩
  iapply (sig_step m ρ K c 0 0 22 26 rfl _ (Fin.ext (k0_dev23_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part5_run (c : Dev nD) (v2 : BitVec 32) (v96 : BitVec 32) (c32_i32_91 : BitVec 32) (Kt : (Σ' (v120 : BitVec 32), BitVec 32) → sProp 𝕄) :
    iprop(recs m ρ K ∗ OW c 0 0 23 ∗ bigSepL (todo 23) (sigItem c)
        ∗ (∀ ret, iprop(OW c 0 0 29 ∗ bigSepL (todo 29) (sigItem c)) -∗ Kt ret))
      ⊢ wp frame (wpE (defs₀ (F := F)) 𝒱₀ (c : Thread nD τ) none) Set.univ
          (k0_part5 xM (Memref.isWhole_whole _) oM (Memref.isWhole_whole _) rM (Memref.isWhole_whole _) cc0_scratch1 cc0_scratch2 cc0_scratch3 cc0_scratch4 c v2 (SemArray.scalar (sig.barrier 0 rfl) : Sems sig S_) v96 c32_i32_91) Kt := by
  rw [k0_part5_eq_skeleton]; unfold k0_part5_skel
  simp only [semSignalWord, semWaitWord, Prog.lift, Prog.bind_op, Prog.bind_ret, Prog.pure_eq_ret, wp_deviceId]
  iintro ⟨#HR, HOW, HSig, Hk⟩
  iapply (sig_step m ρ K c 0 0 23 3 rfl _ (Fin.ext (k0_dev24_eq c)) _ rfl) $$ [HOW HSig]
  · isplitr; · iexact HR
    isplitl [HOW]; · iexact HOW
    iexact HSig
  iintro ⟨HOW, HSig⟩
  iapply (sig_step m ρ K c 0 0 24 27 rfl _ (Fin.ext (k0_dev25_eq c)) _ rfl) $$ [HOW HSig]
  · isplitr; · iexact HR
    isplitl [HOW]; · iexact HOW
    iexact HSig
  iintro ⟨HOW, HSig⟩
  iapply (sig_step m ρ K c 0 0 25 2 rfl _ (Fin.ext (k0_dev26_eq c)) _ rfl) $$ [HOW HSig]
  · isplitr; · iexact HR
    isplitl [HOW]; · iexact HOW
    iexact HSig
  iintro ⟨HOW, HSig⟩
  iapply (sig_step m ρ K c 0 0 26 28 rfl _ (Fin.ext (k0_dev27_eq c)) _ rfl) $$ [HOW HSig]
  · isplitr; · iexact HR
    isplitl [HOW]; · iexact HOW
    iexact HSig
  iintro ⟨HOW, HSig⟩
  iapply (sig_step m ρ K c 0 0 27 1 rfl _ (Fin.ext (k0_dev28_eq c)) _ rfl) $$ [HOW HSig]
  · isplitr; · iexact HR
    isplitl [HOW]; · iexact HOW
    iexact HSig
  iintro ⟨HOW, HSig⟩
  iapply (sig_step m ρ K c 0 0 28 29 rfl _ (Fin.ext (k0_dev29_eq c)) _ rfl) $$ [HOW HSig]
  · isplitr; · iexact HR
    isplitl [HOW]; · iexact HOW
    iexact HSig
  iintro ⟨HOW, HSig⟩
  rw [wp_ret]; imodintro
  iapply Hk
  isplitl [HOW]; · iexact HOW
  iexact HSig

set_option maxHeartbeats 2000000 in
theorem part6_run (c : Dev nD) (v2 : BitVec 32) (v120 : BitVec 32) (c32_i32_116 : BitVec 32) (Kt : (Σ' (v129 : BitVec 32), BitVec 32) → sProp 𝕄) :
    iprop(recs m ρ K ∗ levAts L lv ∗ OW c 0 0 29 ∗ bigSepL (todo 29) (sigItem c) ∗ cred (tallyAt (barCell c) () 31) ∗ atPos ER (barCell c) 0 ∅ 0 ∗ bigSepL (todo 0) (rsTok m ρ c) ∗ bigSepL (done 0) (fun r => cred (tallyAt (rsS c r) () N8))
        ∗ (∀ ret, iprop(OW c 0 1 31 ∗ bigSepL (todo 31) (sigItem c) ∗ atPos ER (barCell c) 1 ∅ 0 ∗ bigSepL (todo 0) (fun r => iprop(∃ Y, ownsTc (peer c r) (oRows c) fullShare Y)) ∗ bigSepL (todo 1) (rsTok m ρ c) ∗ bigSepL (todo 1) (fun r => iprop(∃ Y, ownsTc (peer c r) (rSlot r) fullShare Y)) ∗ bigSepL (done 1) (fun r => cred (tallyAt (rsS c r) () N8))) -∗ Kt ret))
      ⊢ wp frame (wpE (defs₀ (F := F)) 𝒱₀ (c : Thread nD τ) none) Set.univ
          (k0_part6 xM (Memref.isWhole_whole _) oM (Memref.isWhole_whole _) rM (Memref.isWhole_whole _) cc0_scratch1 cc0_scratch2 cc0_scratch3 cc0_scratch4 c v2 (SemArray.scalar (sig.barrier 0 rfl) : Sems sig S_) v120 c32_i32_116) Kt := by
  rw [k0_part6_eq_skeleton]; unfold k0_part6_skel
  simp only [semSignalWord, semWaitWord, Prog.lift, Prog.bind_op, Prog.bind_ret, Prog.pure_eq_ret, wp_deviceId]
  iintro ⟨#HR, #Hlev, HOW, HSig, HBarC, HBarP, HRsT, HRsC, Hk⟩
  iapply (sig_step m ρ K c 0 0 29 0 rfl _ (Fin.ext (k0_dev30_eq c)) _ rfl) $$ [HOW HSig]
  · isplitr; · iexact HR
    isplitl [HOW]; · iexact HOW
    iexact HSig
  iintro ⟨HOW, HSig⟩
  iapply (sig_step m ρ K c 0 0 30 30 rfl _ (Fin.ext (k0_dev31_eq c)) _ rfl) $$ [HOW HSig]
  · isplitr; · iexact HR
    isplitl [HOW]; · iexact HOW
    iexact HSig
  iintro ⟨HOW, HSig⟩
  iapply (bar_step m ρ K c 0 0 _ rfl) $$ [HOW HBarC HBarP]
  · isplitr; · iexact HR
    isplitr; · iexact Hlev
    isplitl [HOW]; · iexact HOW
    isplitl [HBarC]; · iexact HBarC
    iexact HBarP
  iintro ⟨HOW, HBarP, HRsL, HAgL⟩
  iapply (rs_step m ρ K c 0 31 0 15 rfl rfl _ (Fin.ext (k0_dev32_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HSig]; · iexact HSig
  isplitl [HBarP]; · iexact HBarP
  isplitl [HAgL]; · iexact HAgL
  isplitl [HRsT]; · iexact HRsT
  isplitl [HRsL]; · iexact HRsL
  iexact HRsC

set_option maxHeartbeats 2000000 in
theorem part7_run (c : Dev nD) (v2 : BitVec 32) (Kt : (Σ' (v153 : BitVec 32) (v165 : BitVec 32), BitVec 32) → sProp 𝕄) :
    iprop(recs m ρ K ∗ OW c 0 1 31 ∗ bigSepL (todo 1) (rsTok m ρ c) ∗ bigSepL (todo 1) (fun r => iprop(∃ Y, ownsTc (peer c r) (rSlot r) fullShare Y)) ∗ bigSepL (done 1) (fun r => cred (tallyAt (rsS c r) () N8))
        ∗ (∀ ret, iprop(OW c 0 4 31 ∗ bigSepL (todo 4) (rsTok m ρ c) ∗ bigSepL (todo 4) (fun r => iprop(∃ Y, ownsTc (peer c r) (rSlot r) fullShare Y)) ∗ bigSepL (done 4) (fun r => cred (tallyAt (rsS c r) () N8))) -∗ Kt ret))
      ⊢ wp frame (wpE (defs₀ (F := F)) 𝒱₀ (c : Thread nD τ) none) Set.univ
          (k0_part7 xM (Memref.isWhole_whole _) oM (Memref.isWhole_whole _) rM (Memref.isWhole_whole _) cc0_scratch1 cc0_scratch2 cc0_scratch3 cc0_scratch4 c v2) Kt := by
  rw [k0_part7_eq_skeleton]; unfold k0_part7_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 1 14 rfl rfl _ (Fin.ext (k0_dev33_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 2 16 rfl rfl _ (Fin.ext (k0_dev34_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 3 13 rfl rfl _ (Fin.ext (k0_dev35_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part8_run (c : Dev nD) (v2 : BitVec 32) (v177 : BitVec 32) (Kt : (Σ' (v189 : BitVec 32), BitVec 32) → sProp 𝕄) :
    iprop(recs m ρ K ∗ OW c 0 4 31 ∗ bigSepL (todo 4) (rsTok m ρ c) ∗ bigSepL (todo 4) (fun r => iprop(∃ Y, ownsTc (peer c r) (rSlot r) fullShare Y)) ∗ bigSepL (done 4) (fun r => cred (tallyAt (rsS c r) () N8))
        ∗ (∀ ret, iprop(OW c 0 6 31 ∗ bigSepL (todo 6) (rsTok m ρ c) ∗ bigSepL (todo 6) (fun r => iprop(∃ Y, ownsTc (peer c r) (rSlot r) fullShare Y)) ∗ bigSepL (done 6) (fun r => cred (tallyAt (rsS c r) () N8))) -∗ Kt ret))
      ⊢ wp frame (wpE (defs₀ (F := F)) 𝒱₀ (c : Thread nD τ) none) Set.univ
          (k0_part8 xM (Memref.isWhole_whole _) oM (Memref.isWhole_whole _) rM (Memref.isWhole_whole _) cc0_scratch1 cc0_scratch2 cc0_scratch3 cc0_scratch4 c v2 v177) Kt := by
  rw [k0_part8_eq_skeleton]; unfold k0_part8_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 4 17 rfl rfl _ (Fin.ext (k0_dev36_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 5 12 rfl rfl _ (Fin.ext (k0_dev37_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part9_run (c : Dev nD) (v2 : BitVec 32) (Kt : (Σ' (v213 : BitVec 32) (v225 : BitVec 32), BitVec 32) → sProp 𝕄) :
    iprop(recs m ρ K ∗ OW c 0 6 31 ∗ bigSepL (todo 6) (rsTok m ρ c) ∗ bigSepL (todo 6) (fun r => iprop(∃ Y, ownsTc (peer c r) (rSlot r) fullShare Y)) ∗ bigSepL (done 6) (fun r => cred (tallyAt (rsS c r) () N8))
        ∗ (∀ ret, iprop(OW c 0 9 31 ∗ bigSepL (todo 9) (rsTok m ρ c) ∗ bigSepL (todo 9) (fun r => iprop(∃ Y, ownsTc (peer c r) (rSlot r) fullShare Y)) ∗ bigSepL (done 9) (fun r => cred (tallyAt (rsS c r) () N8))) -∗ Kt ret))
      ⊢ wp frame (wpE (defs₀ (F := F)) 𝒱₀ (c : Thread nD τ) none) Set.univ
          (k0_part9 xM (Memref.isWhole_whole _) oM (Memref.isWhole_whole _) rM (Memref.isWhole_whole _) cc0_scratch1 cc0_scratch2 cc0_scratch3 cc0_scratch4 c v2) Kt := by
  rw [k0_part9_eq_skeleton]; unfold k0_part9_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 6 18 rfl rfl _ (Fin.ext (k0_dev38_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 7 11 rfl rfl _ (Fin.ext (k0_dev39_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 8 19 rfl rfl _ (Fin.ext (k0_dev40_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part10_run (c : Dev nD) (v2 : BitVec 32) (v237 : BitVec 32) (Kt : (Σ' (v249 : BitVec 32), BitVec 32) → sProp 𝕄) :
    iprop(recs m ρ K ∗ OW c 0 9 31 ∗ bigSepL (todo 9) (rsTok m ρ c) ∗ bigSepL (todo 9) (fun r => iprop(∃ Y, ownsTc (peer c r) (rSlot r) fullShare Y)) ∗ bigSepL (done 9) (fun r => cred (tallyAt (rsS c r) () N8))
        ∗ (∀ ret, iprop(OW c 0 11 31 ∗ bigSepL (todo 11) (rsTok m ρ c) ∗ bigSepL (todo 11) (fun r => iprop(∃ Y, ownsTc (peer c r) (rSlot r) fullShare Y)) ∗ bigSepL (done 11) (fun r => cred (tallyAt (rsS c r) () N8))) -∗ Kt ret))
      ⊢ wp frame (wpE (defs₀ (F := F)) 𝒱₀ (c : Thread nD τ) none) Set.univ
          (k0_part10 xM (Memref.isWhole_whole _) oM (Memref.isWhole_whole _) rM (Memref.isWhole_whole _) cc0_scratch1 cc0_scratch2 cc0_scratch3 cc0_scratch4 c v2 v237) Kt := by
  rw [k0_part10_eq_skeleton]; unfold k0_part10_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 9 10 rfl rfl _ (Fin.ext (k0_dev41_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 10 20 rfl rfl _ (Fin.ext (k0_dev42_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part11_run (c : Dev nD) (v2 : BitVec 32) (Kt : (Σ' (v273 : BitVec 32) (v285 : BitVec 32), BitVec 32) → sProp 𝕄) :
    iprop(recs m ρ K ∗ OW c 0 11 31 ∗ bigSepL (todo 11) (rsTok m ρ c) ∗ bigSepL (todo 11) (fun r => iprop(∃ Y, ownsTc (peer c r) (rSlot r) fullShare Y)) ∗ bigSepL (done 11) (fun r => cred (tallyAt (rsS c r) () N8))
        ∗ (∀ ret, iprop(OW c 0 14 31 ∗ bigSepL (todo 14) (rsTok m ρ c) ∗ bigSepL (todo 14) (fun r => iprop(∃ Y, ownsTc (peer c r) (rSlot r) fullShare Y)) ∗ bigSepL (done 14) (fun r => cred (tallyAt (rsS c r) () N8))) -∗ Kt ret))
      ⊢ wp frame (wpE (defs₀ (F := F)) 𝒱₀ (c : Thread nD τ) none) Set.univ
          (k0_part11 xM (Memref.isWhole_whole _) oM (Memref.isWhole_whole _) rM (Memref.isWhole_whole _) cc0_scratch1 cc0_scratch2 cc0_scratch3 cc0_scratch4 c v2) Kt := by
  rw [k0_part11_eq_skeleton]; unfold k0_part11_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 11 9 rfl rfl _ (Fin.ext (k0_dev43_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 12 21 rfl rfl _ (Fin.ext (k0_dev44_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 13 8 rfl rfl _ (Fin.ext (k0_dev45_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part12_run (c : Dev nD) (v2 : BitVec 32) (v297 : BitVec 32) (Kt : (Σ' (v309 : BitVec 32), BitVec 32) → sProp 𝕄) :
    iprop(recs m ρ K ∗ OW c 0 14 31 ∗ bigSepL (todo 14) (rsTok m ρ c) ∗ bigSepL (todo 14) (fun r => iprop(∃ Y, ownsTc (peer c r) (rSlot r) fullShare Y)) ∗ bigSepL (done 14) (fun r => cred (tallyAt (rsS c r) () N8))
        ∗ (∀ ret, iprop(OW c 0 16 31 ∗ bigSepL (todo 16) (rsTok m ρ c) ∗ bigSepL (todo 16) (fun r => iprop(∃ Y, ownsTc (peer c r) (rSlot r) fullShare Y)) ∗ bigSepL (done 16) (fun r => cred (tallyAt (rsS c r) () N8))) -∗ Kt ret))
      ⊢ wp frame (wpE (defs₀ (F := F)) 𝒱₀ (c : Thread nD τ) none) Set.univ
          (k0_part12 xM (Memref.isWhole_whole _) oM (Memref.isWhole_whole _) rM (Memref.isWhole_whole _) cc0_scratch1 cc0_scratch2 cc0_scratch3 cc0_scratch4 c v2 v297) Kt := by
  rw [k0_part12_eq_skeleton]; unfold k0_part12_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 14 22 rfl rfl _ (Fin.ext (k0_dev46_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 15 7 rfl rfl _ (Fin.ext (k0_dev47_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part13_run (c : Dev nD) (v2 : BitVec 32) (Kt : (Σ' (v333 : BitVec 32) (v345 : BitVec 32), BitVec 32) → sProp 𝕄) :
    iprop(recs m ρ K ∗ OW c 0 16 31 ∗ bigSepL (todo 16) (rsTok m ρ c) ∗ bigSepL (todo 16) (fun r => iprop(∃ Y, ownsTc (peer c r) (rSlot r) fullShare Y)) ∗ bigSepL (done 16) (fun r => cred (tallyAt (rsS c r) () N8))
        ∗ (∀ ret, iprop(OW c 0 19 31 ∗ bigSepL (todo 19) (rsTok m ρ c) ∗ bigSepL (todo 19) (fun r => iprop(∃ Y, ownsTc (peer c r) (rSlot r) fullShare Y)) ∗ bigSepL (done 19) (fun r => cred (tallyAt (rsS c r) () N8))) -∗ Kt ret))
      ⊢ wp frame (wpE (defs₀ (F := F)) 𝒱₀ (c : Thread nD τ) none) Set.univ
          (k0_part13 xM (Memref.isWhole_whole _) oM (Memref.isWhole_whole _) rM (Memref.isWhole_whole _) cc0_scratch1 cc0_scratch2 cc0_scratch3 cc0_scratch4 c v2) Kt := by
  rw [k0_part13_eq_skeleton]; unfold k0_part13_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 16 23 rfl rfl _ (Fin.ext (k0_dev48_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 17 6 rfl rfl _ (Fin.ext (k0_dev49_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 18 24 rfl rfl _ (Fin.ext (k0_dev50_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part14_run (c : Dev nD) (v2 : BitVec 32) (v357 : BitVec 32) (Kt : (Σ' (v369 : BitVec 32), BitVec 32) → sProp 𝕄) :
    iprop(recs m ρ K ∗ OW c 0 19 31 ∗ bigSepL (todo 19) (rsTok m ρ c) ∗ bigSepL (todo 19) (fun r => iprop(∃ Y, ownsTc (peer c r) (rSlot r) fullShare Y)) ∗ bigSepL (done 19) (fun r => cred (tallyAt (rsS c r) () N8))
        ∗ (∀ ret, iprop(OW c 0 21 31 ∗ bigSepL (todo 21) (rsTok m ρ c) ∗ bigSepL (todo 21) (fun r => iprop(∃ Y, ownsTc (peer c r) (rSlot r) fullShare Y)) ∗ bigSepL (done 21) (fun r => cred (tallyAt (rsS c r) () N8))) -∗ Kt ret))
      ⊢ wp frame (wpE (defs₀ (F := F)) 𝒱₀ (c : Thread nD τ) none) Set.univ
          (k0_part14 xM (Memref.isWhole_whole _) oM (Memref.isWhole_whole _) rM (Memref.isWhole_whole _) cc0_scratch1 cc0_scratch2 cc0_scratch3 cc0_scratch4 c v2 v357) Kt := by
  rw [k0_part14_eq_skeleton]; unfold k0_part14_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 19 5 rfl rfl _ (Fin.ext (k0_dev51_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 20 25 rfl rfl _ (Fin.ext (k0_dev52_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part15_run (c : Dev nD) (v2 : BitVec 32) (Kt : (Σ' (v393 : BitVec 32) (v405 : BitVec 32), BitVec 32) → sProp 𝕄) :
    iprop(recs m ρ K ∗ OW c 0 21 31 ∗ bigSepL (todo 21) (rsTok m ρ c) ∗ bigSepL (todo 21) (fun r => iprop(∃ Y, ownsTc (peer c r) (rSlot r) fullShare Y)) ∗ bigSepL (done 21) (fun r => cred (tallyAt (rsS c r) () N8))
        ∗ (∀ ret, iprop(OW c 0 24 31 ∗ bigSepL (todo 24) (rsTok m ρ c) ∗ bigSepL (todo 24) (fun r => iprop(∃ Y, ownsTc (peer c r) (rSlot r) fullShare Y)) ∗ bigSepL (done 24) (fun r => cred (tallyAt (rsS c r) () N8))) -∗ Kt ret))
      ⊢ wp frame (wpE (defs₀ (F := F)) 𝒱₀ (c : Thread nD τ) none) Set.univ
          (k0_part15 xM (Memref.isWhole_whole _) oM (Memref.isWhole_whole _) rM (Memref.isWhole_whole _) cc0_scratch1 cc0_scratch2 cc0_scratch3 cc0_scratch4 c v2) Kt := by
  rw [k0_part15_eq_skeleton]; unfold k0_part15_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 21 4 rfl rfl _ (Fin.ext (k0_dev53_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 22 26 rfl rfl _ (Fin.ext (k0_dev54_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 23 3 rfl rfl _ (Fin.ext (k0_dev55_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part16_run (c : Dev nD) (v2 : BitVec 32) (v417 : BitVec 32) (Kt : (Σ' (v429 : BitVec 32), BitVec 32) → sProp 𝕄) :
    iprop(recs m ρ K ∗ OW c 0 24 31 ∗ bigSepL (todo 24) (rsTok m ρ c) ∗ bigSepL (todo 24) (fun r => iprop(∃ Y, ownsTc (peer c r) (rSlot r) fullShare Y)) ∗ bigSepL (done 24) (fun r => cred (tallyAt (rsS c r) () N8))
        ∗ (∀ ret, iprop(OW c 0 26 31 ∗ bigSepL (todo 26) (rsTok m ρ c) ∗ bigSepL (todo 26) (fun r => iprop(∃ Y, ownsTc (peer c r) (rSlot r) fullShare Y)) ∗ bigSepL (done 26) (fun r => cred (tallyAt (rsS c r) () N8))) -∗ Kt ret))
      ⊢ wp frame (wpE (defs₀ (F := F)) 𝒱₀ (c : Thread nD τ) none) Set.univ
          (k0_part16 xM (Memref.isWhole_whole _) oM (Memref.isWhole_whole _) rM (Memref.isWhole_whole _) cc0_scratch1 cc0_scratch2 cc0_scratch3 cc0_scratch4 c v2 v417) Kt := by
  rw [k0_part16_eq_skeleton]; unfold k0_part16_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 24 27 rfl rfl _ (Fin.ext (k0_dev56_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 25 2 rfl rfl _ (Fin.ext (k0_dev57_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part17_run (c : Dev nD) (v2 : BitVec 32) (Kt : (Σ' (v453 : BitVec 32) (v465 : BitVec 32), BitVec 32) → sProp 𝕄) :
    iprop(recs m ρ K ∗ OW c 0 26 31 ∗ bigSepL (todo 26) (rsTok m ρ c) ∗ bigSepL (todo 26) (fun r => iprop(∃ Y, ownsTc (peer c r) (rSlot r) fullShare Y)) ∗ bigSepL (done 26) (fun r => cred (tallyAt (rsS c r) () N8))
        ∗ (∀ ret, iprop(OW c 0 29 31 ∗ bigSepL (todo 29) (rsTok m ρ c) ∗ bigSepL (todo 29) (fun r => iprop(∃ Y, ownsTc (peer c r) (rSlot r) fullShare Y)) ∗ bigSepL (done 29) (fun r => cred (tallyAt (rsS c r) () N8))) -∗ Kt ret))
      ⊢ wp frame (wpE (defs₀ (F := F)) 𝒱₀ (c : Thread nD τ) none) Set.univ
          (k0_part17 xM (Memref.isWhole_whole _) oM (Memref.isWhole_whole _) rM (Memref.isWhole_whole _) cc0_scratch1 cc0_scratch2 cc0_scratch3 cc0_scratch4 c v2) Kt := by
  rw [k0_part17_eq_skeleton]; unfold k0_part17_skel
  simp only [semSignalWord, semWaitWord, Prog.lift, Prog.bind_op, Prog.bind_ret, Prog.pure_eq_ret, wp_deviceId]
  iintro ⟨#HR, HOW, HRsT, HRsL, HRsC, Hk⟩
  iapply (rs_step m ρ K c 0 31 26 28 rfl rfl _ (Fin.ext (k0_dev58_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 27 1 rfl rfl _ (Fin.ext (k0_dev59_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 28 29 rfl rfl _ (Fin.ext (k0_dev60_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  rw [wp_ret]; imodintro
  iapply Hk
  isplitl [HOW]; · iexact HOW
  isplitl [HRsT]; · iexact HRsT
  isplitl [HRsL]; · iexact HRsL
  iexact HRsC

set_option maxHeartbeats 2000000 in
theorem part18_run (c : Dev nD) (v2 : BitVec 32) (v129 : BitVec 32) (v477 : BitVec 32) (Kt : (BitVec 32) → sProp 𝕄) :
    iprop(recs m ρ K ∗ levAts L lv ∗ OW c 0 29 31 ∗ bigSepL (todo 29) (rsTok m ρ c) ∗ bigSepL (todo 29) (fun r => iprop(∃ Y, ownsTc (peer c r) (rSlot r) fullShare Y)) ∗ bigSepL (done 29) (fun r => cred (tallyAt (rsS c r) () N8)) ∗ bigSepL (todo 0) (fun r => cred (tallyAt (dcell c 1 r.succ) () N8)) ∗ bigSepL (todo 0) (fun r => atPos ER (dcell c 1 r.succ) 0 ∅ 0) ∗ bigSepL (done 0) (gotItem m ρ c 1)
        ∗ (∀ ret, iprop(OW c 0 31 31 ∗ bigSepL (todo 31) (rsTok m ρ c) ∗ bigSepL (todo 31) (fun r => iprop(∃ Y, ownsTc (peer c r) (rSlot r) fullShare Y)) ∗ bigSepL (done 31) (fun r => cred (tallyAt (rsS c r) () N8)) ∗ bigSepL (todo 1) (fun r => cred (tallyAt (dcell c 1 r.succ) () N8)) ∗ bigSepL (todo 1) (fun r => atPos ER (dcell c 1 r.succ) 0 ∅ 0) ∗ bigSepL (done 1) (gotItem m ρ c 1)) -∗ Kt ret))
      ⊢ wp frame (wpE (defs₀ (F := F)) 𝒱₀ (c : Thread nD τ) none) Set.univ
          (k0_part18 xM (Memref.isWhole_whole _) oM (Memref.isWhole_whole _) rM (Memref.isWhole_whole _) cc0_scratch1 cc0_scratch2 cc0_scratch3 cc0_scratch4 c v2 v129 v477) Kt := by
  rw [k0_part18_eq_skeleton]; unfold k0_part18_skel
  simp only [semSignalWord, semWaitWord, Prog.lift, Prog.bind_op, Prog.bind_ret, Prog.pure_eq_ret, wp_deviceId]
  iintro ⟨#HR, #Hlev, HOW, HRsT, HRsL, HRsC, HW1C, HW1P, HW1G, Hk⟩
  iapply (rs_step m ρ K c 0 31 29 0 rfl rfl _ (Fin.ext (k0_dev61_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (rs_step m ρ K c 0 31 30 30 rfl rfl _ (Fin.ext (k0_dev62_eq c)) _ rfl _ rfl _ rfl _ rfl) $$ [HOW HRsT HRsL HRsC]
  · isplitr; · iexact HR
    isplitl [HOW]; · iexact HOW
    isplitl [HRsT]; · iexact HRsT
    isplitl [HRsL]; · iexact HRsL
    iexact HRsC
  iintro ⟨HOW, HRsT, HRsL, HRsC⟩
  iapply (wait_step m ρ K c 1 0 31 31 (fun r => by rw [show todo 31 = [] from by decide]; exact mayWait_rsR c r (todo 0)) 0 15 rfl rfl _ rfl (dst := rSlot 15) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HRsT]; · iexact HRsT
  isplitl [HRsL]; · iexact HRsL
  isplitl [HRsC]; · iexact HRsC
  isplitl [HW1C]; · iexact HW1C
  isplitl [HW1P]; · iexact HW1P
  iexact HW1G

set_option maxHeartbeats 2000000 in
theorem part19_run (c : Dev nD) (v141 : BitVec 32) (v153 : BitVec 32) (v165 : BitVec 32) (v177 : BitVec 32) (Kt : (PUnit) → sProp 𝕄) :
    iprop(recs m ρ K ∗ levAts L lv ∗ OW c 0 31 31 ∗ bigSepL (todo 1) (fun r => cred (tallyAt (dcell c 1 r.succ) () N8)) ∗ bigSepL (todo 1) (fun r => atPos ER (dcell c 1 r.succ) 0 ∅ 0) ∗ bigSepL (done 1) (gotItem m ρ c 1)
        ∗ (∀ ret, iprop(OW c 0 31 31 ∗ bigSepL (todo 4) (fun r => cred (tallyAt (dcell c 1 r.succ) () N8)) ∗ bigSepL (todo 4) (fun r => atPos ER (dcell c 1 r.succ) 0 ∅ 0) ∗ bigSepL (done 4) (gotItem m ρ c 1)) -∗ Kt ret))
      ⊢ wp frame (wpE (defs₀ (F := F)) 𝒱₀ (c : Thread nD τ) none) Set.univ
          (k0_part19 xM (Memref.isWhole_whole _) oM (Memref.isWhole_whole _) rM (Memref.isWhole_whole _) cc0_scratch1 cc0_scratch2 cc0_scratch3 cc0_scratch4 c v141 v153 v165 v177) Kt := by
  rw [k0_part19_eq_skeleton]; unfold k0_part19_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 1 14 rfl rfl _ rfl (dst := rSlot 14) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 2 16 rfl rfl _ rfl (dst := rSlot 16) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 3 13 rfl rfl _ rfl (dst := rSlot 13) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part20_run (c : Dev nD) (v189 : BitVec 32) (v201 : BitVec 32) (v213 : BitVec 32) (v225 : BitVec 32) (Kt : (PUnit) → sProp 𝕄) :
    iprop(recs m ρ K ∗ levAts L lv ∗ OW c 0 31 31 ∗ bigSepL (todo 4) (fun r => cred (tallyAt (dcell c 1 r.succ) () N8)) ∗ bigSepL (todo 4) (fun r => atPos ER (dcell c 1 r.succ) 0 ∅ 0) ∗ bigSepL (done 4) (gotItem m ρ c 1)
        ∗ (∀ ret, iprop(OW c 0 31 31 ∗ bigSepL (todo 8) (fun r => cred (tallyAt (dcell c 1 r.succ) () N8)) ∗ bigSepL (todo 8) (fun r => atPos ER (dcell c 1 r.succ) 0 ∅ 0) ∗ bigSepL (done 8) (gotItem m ρ c 1)) -∗ Kt ret))
      ⊢ wp frame (wpE (defs₀ (F := F)) 𝒱₀ (c : Thread nD τ) none) Set.univ
          (k0_part20 xM (Memref.isWhole_whole _) oM (Memref.isWhole_whole _) rM (Memref.isWhole_whole _) cc0_scratch1 cc0_scratch2 cc0_scratch3 cc0_scratch4 c v189 v201 v213 v225) Kt := by
  rw [k0_part20_eq_skeleton]; unfold k0_part20_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 4 17 rfl rfl _ rfl (dst := rSlot 17) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 5 12 rfl rfl _ rfl (dst := rSlot 12) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 6 18 rfl rfl _ rfl (dst := rSlot 18) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 7 11 rfl rfl _ rfl (dst := rSlot 11) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part21_run (c : Dev nD) (v237 : BitVec 32) (v249 : BitVec 32) (v261 : BitVec 32) (Kt : (BitVec 32) → sProp 𝕄) :
    iprop(recs m ρ K ∗ levAts L lv ∗ OW c 0 31 31 ∗ bigSepL (todo 8) (fun r => cred (tallyAt (dcell c 1 r.succ) () N8)) ∗ bigSepL (todo 8) (fun r => atPos ER (dcell c 1 r.succ) 0 ∅ 0) ∗ bigSepL (done 8) (gotItem m ρ c 1)
        ∗ (∀ ret, iprop(OW c 0 31 31 ∗ bigSepL (todo 12) (fun r => cred (tallyAt (dcell c 1 r.succ) () N8)) ∗ bigSepL (todo 12) (fun r => atPos ER (dcell c 1 r.succ) 0 ∅ 0) ∗ bigSepL (done 12) (gotItem m ρ c 1)) -∗ Kt ret))
      ⊢ wp frame (wpE (defs₀ (F := F)) 𝒱₀ (c : Thread nD τ) none) Set.univ
          (k0_part21 xM (Memref.isWhole_whole _) oM (Memref.isWhole_whole _) rM (Memref.isWhole_whole _) cc0_scratch1 cc0_scratch2 cc0_scratch3 cc0_scratch4 c v237 v249 v261) Kt := by
  rw [k0_part21_eq_skeleton]; unfold k0_part21_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 8 19 rfl rfl _ rfl (dst := rSlot 19) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 9 10 rfl rfl _ rfl (dst := rSlot 10) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 10 20 rfl rfl _ rfl (dst := rSlot 20) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 11 9 rfl rfl _ rfl (dst := rSlot 9) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part22_run (c : Dev nD) (v273 : BitVec 32) (v285 : BitVec 32) (v297 : BitVec 32) (v309 : BitVec 32) (c1_i32_565 : BitVec 32) (Kt : (PUnit) → sProp 𝕄) :
    iprop(recs m ρ K ∗ levAts L lv ∗ OW c 0 31 31 ∗ bigSepL (todo 12) (fun r => cred (tallyAt (dcell c 1 r.succ) () N8)) ∗ bigSepL (todo 12) (fun r => atPos ER (dcell c 1 r.succ) 0 ∅ 0) ∗ bigSepL (done 12) (gotItem m ρ c 1)
        ∗ (∀ ret, iprop(OW c 0 31 31 ∗ bigSepL (todo 16) (fun r => cred (tallyAt (dcell c 1 r.succ) () N8)) ∗ bigSepL (todo 16) (fun r => atPos ER (dcell c 1 r.succ) 0 ∅ 0) ∗ bigSepL (done 16) (gotItem m ρ c 1)) -∗ Kt ret))
      ⊢ wp frame (wpE (defs₀ (F := F)) 𝒱₀ (c : Thread nD τ) none) Set.univ
          (k0_part22 xM (Memref.isWhole_whole _) oM (Memref.isWhole_whole _) rM (Memref.isWhole_whole _) cc0_scratch1 cc0_scratch2 cc0_scratch3 cc0_scratch4 c v273 v285 v297 v309 c1_i32_565) Kt := by
  rw [k0_part22_eq_skeleton]; unfold k0_part22_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 12 21 rfl rfl _ rfl (dst := rSlot 21) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 13 8 rfl rfl _ rfl (dst := rSlot 8) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 14 22 rfl rfl _ rfl (dst := rSlot 22) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 15 7 rfl rfl _ rfl (dst := rSlot 7) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part23_run (c : Dev nD) (v321 : BitVec 32) (v333 : BitVec 32) (v345 : BitVec 32) (v357 : BitVec 32) (Kt : (PUnit) → sProp 𝕄) :
    iprop(recs m ρ K ∗ levAts L lv ∗ OW c 0 31 31 ∗ bigSepL (todo 16) (fun r => cred (tallyAt (dcell c 1 r.succ) () N8)) ∗ bigSepL (todo 16) (fun r => atPos ER (dcell c 1 r.succ) 0 ∅ 0) ∗ bigSepL (done 16) (gotItem m ρ c 1)
        ∗ (∀ ret, iprop(OW c 0 31 31 ∗ bigSepL (todo 19) (fun r => cred (tallyAt (dcell c 1 r.succ) () N8)) ∗ bigSepL (todo 19) (fun r => atPos ER (dcell c 1 r.succ) 0 ∅ 0) ∗ bigSepL (done 19) (gotItem m ρ c 1)) -∗ Kt ret))
      ⊢ wp frame (wpE (defs₀ (F := F)) 𝒱₀ (c : Thread nD τ) none) Set.univ
          (k0_part23 xM (Memref.isWhole_whole _) oM (Memref.isWhole_whole _) rM (Memref.isWhole_whole _) cc0_scratch1 cc0_scratch2 cc0_scratch3 cc0_scratch4 c v321 v333 v345 v357) Kt := by
  rw [k0_part23_eq_skeleton]; unfold k0_part23_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 16 23 rfl rfl _ rfl (dst := rSlot 23) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 17 6 rfl rfl _ rfl (dst := rSlot 6) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 18 24 rfl rfl _ rfl (dst := rSlot 24) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part24_run (c : Dev nD) (v369 : BitVec 32) (v381 : BitVec 32) (v393 : BitVec 32) (v405 : BitVec 32) (Kt : (PUnit) → sProp 𝕄) :
    iprop(recs m ρ K ∗ levAts L lv ∗ OW c 0 31 31 ∗ bigSepL (todo 19) (fun r => cred (tallyAt (dcell c 1 r.succ) () N8)) ∗ bigSepL (todo 19) (fun r => atPos ER (dcell c 1 r.succ) 0 ∅ 0) ∗ bigSepL (done 19) (gotItem m ρ c 1)
        ∗ (∀ ret, iprop(OW c 0 31 31 ∗ bigSepL (todo 23) (fun r => cred (tallyAt (dcell c 1 r.succ) () N8)) ∗ bigSepL (todo 23) (fun r => atPos ER (dcell c 1 r.succ) 0 ∅ 0) ∗ bigSepL (done 23) (gotItem m ρ c 1)) -∗ Kt ret))
      ⊢ wp frame (wpE (defs₀ (F := F)) 𝒱₀ (c : Thread nD τ) none) Set.univ
          (k0_part24 xM (Memref.isWhole_whole _) oM (Memref.isWhole_whole _) rM (Memref.isWhole_whole _) cc0_scratch1 cc0_scratch2 cc0_scratch3 cc0_scratch4 c v369 v381 v393 v405) Kt := by
  rw [k0_part24_eq_skeleton]; unfold k0_part24_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 19 5 rfl rfl _ rfl (dst := rSlot 5) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 20 25 rfl rfl _ rfl (dst := rSlot 25) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 21 4 rfl rfl _ rfl (dst := rSlot 4) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 22 26 rfl rfl _ rfl (dst := rSlot 26) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part25_run (c : Dev nD) (v417 : BitVec 32) (v429 : BitVec 32) (v441 : BitVec 32) (Kt : (BitVec 32) → sProp 𝕄) :
    iprop(recs m ρ K ∗ levAts L lv ∗ OW c 0 31 31 ∗ bigSepL (todo 23) (fun r => cred (tallyAt (dcell c 1 r.succ) () N8)) ∗ bigSepL (todo 23) (fun r => atPos ER (dcell c 1 r.succ) 0 ∅ 0) ∗ bigSepL (done 23) (gotItem m ρ c 1)
        ∗ (∀ ret, iprop(OW c 0 31 31 ∗ bigSepL (todo 27) (fun r => cred (tallyAt (dcell c 1 r.succ) () N8)) ∗ bigSepL (todo 27) (fun r => atPos ER (dcell c 1 r.succ) 0 ∅ 0) ∗ bigSepL (done 27) (gotItem m ρ c 1)) -∗ Kt ret))
      ⊢ wp frame (wpE (defs₀ (F := F)) 𝒱₀ (c : Thread nD τ) none) Set.univ
          (k0_part25 xM (Memref.isWhole_whole _) oM (Memref.isWhole_whole _) rM (Memref.isWhole_whole _) cc0_scratch1 cc0_scratch2 cc0_scratch3 cc0_scratch4 c v417 v429 v441) Kt := by
  rw [k0_part25_eq_skeleton]; unfold k0_part25_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 23 3 rfl rfl _ rfl (dst := rSlot 3) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 24 27 rfl rfl _ rfl (dst := rSlot 27) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 25 2 rfl rfl _ rfl (dst := rSlot 2) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 26 28 rfl rfl _ rfl (dst := rSlot 28) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part26_run (c : Dev nD) (v453 : BitVec 32) (v465 : BitVec 32) (v477 : BitVec 32) (v489 : BitVec 32) (c1_i32_685 : BitVec 32) (Kt : (PUnit) → sProp 𝕄) :
    iprop(recs m ρ K ∗ levAts L lv ∗ OW c 0 31 31 ∗ bigSepL (todo 27) (fun r => cred (tallyAt (dcell c 1 r.succ) () N8)) ∗ bigSepL (todo 27) (fun r => atPos ER (dcell c 1 r.succ) 0 ∅ 0) ∗ bigSepL (done 27) (gotItem m ρ c 1)
        ∗ (∀ ret, iprop(OW c 0 31 31 ∗ bigSepL (todo 31) (fun r => cred (tallyAt (dcell c 1 r.succ) () N8)) ∗ bigSepL (todo 31) (fun r => atPos ER (dcell c 1 r.succ) 0 ∅ 0) ∗ bigSepL (done 31) (gotItem m ρ c 1)) -∗ Kt ret))
      ⊢ wp frame (wpE (defs₀ (F := F)) 𝒱₀ (c : Thread nD τ) none) Set.univ
          (k0_part26 xM (Memref.isWhole_whole _) oM (Memref.isWhole_whole _) rM (Memref.isWhole_whole _) cc0_scratch1 cc0_scratch2 cc0_scratch3 cc0_scratch4 c v453 v465 v477 v489 c1_i32_685) Kt := by
  rw [k0_part26_eq_skeleton]; unfold k0_part26_skel
  simp only [semSignalWord, semWaitWord, Prog.lift, Prog.bind_op, Prog.bind_ret, Prog.pure_eq_ret, wp_deviceId]
  iintro ⟨#HR, #Hlev, HOW, HW1C, HW1P, HW1G, Hk⟩
  iapply (wait_step m ρ K c 1 0 31 31 (fun r => by rw [show todo 31 = [] from by decide]; exact mayWait_rsR c r (todo 0)) 27 1 rfl rfl _ rfl (dst := rSlot 1) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 28 29 rfl rfl _ rfl (dst := rSlot 29) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 29 0 rfl rfl _ rfl (dst := rSlot 0) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  iapply (wait_step m ρ K c 1 0 31 31 (fun r => by rw [show todo 31 = [] from by decide]; exact mayWait_rsR c r (todo 0)) 30 30 rfl rfl _ rfl (dst := rSlot 30) rfl) $$ [HOW HW1C HW1P HW1G]
  · isplitr; · iexact HR
    isplitr; · iexact Hlev
    isplitl [HOW]; · iexact HOW
    isplitl [HW1C]; · iexact HW1C
    isplitl [HW1P]; · iexact HW1P
    iexact HW1G
  iintro ⟨HOW, HW1C, HW1P, HW1G⟩
  rw [wp_ret]; imodintro
  iapply Hk
  isplitl [HOW]; · iexact HOW
  isplitl [HW1C]; · iexact HW1C
  isplitl [HW1P]; · iexact HW1P
  iexact HW1G

set_option maxHeartbeats 2000000 in
theorem part27_run (c : Dev nD) (v2 : BitVec 32) (Kt : (Σ' (v728 : BitVec 32), BitVec 32) → sProp 𝕄) :
    iprop(recs m ρ K ∗ OW c 0 31 31 ∗ bigSepL (done 31) (gotItem m ρ c 1) ∗ ownsTc c (xOwn c) fullShare (xOwnBlk m ρ c) ∗ iprop(∃ Y, ownsTc c (oRows c) fullShare Y) ∗ bigSepL ord (agTok0 c) ∗ bigSepL (todo 0) (fun r => iprop(∃ Y, ownsTc (peer c r) (oRows c) fullShare Y)) ∗ bigSepL (done 0) (fun r => cred (tallyAt (agS c r) () N8))
        ∗ (∀ ret, iprop(OW c 1 31 31 ∗ ownsTc c rM fullShare (rsAll m ρ c) ∗ bigSepL (done 31) (fun r => atPos ER (dcell c 1 r.succ) 1 ∅ 0) ∗ ownsTc c (xOwn c) fullShare (xOwnBlk m ρ c) ∗ ownsTc c (oRows c) (Transfers.shareDrop fullShare 31) (red m ρ c) ∗ bigSepL (todo 1) (agTok m ρ c) ∗ bigSepL (todo 1) (fun r => iprop(∃ Y, ownsTc (peer c r) (oRows c) fullShare Y)) ∗ bigSepL (done 1) (fun r => cred (tallyAt (agS c r) () N8))) -∗ Kt ret))
      ⊢ wp frame (wpE (defs₀ (F := F)) 𝒱₀ (c : Thread nD τ) none) Set.univ
          (k0_part27 xM (Memref.isWhole_whole _) oM (Memref.isWhole_whole _) rM (Memref.isWhole_whole _) cc0_scratch1 cc0_scratch2 cc0_scratch3 cc0_scratch4 c v2) Kt := by
  rw [k0_part27_eq_skeleton]; unfold k0_part27_skel
  simp only [semSignalWord, semWaitWord, Prog.lift, Prog.bind_op, Prog.bind_ret, Prog.pure_eq_ret, wp_deviceId]
  iintro ⟨#HR, HOW, HW1G, HxOwn, HoOwn, HAgT0, HAgL, HAgC, Hk⟩
  iapply (mid_run m ρ c) $$ [HW1G HxOwn HoOwn HAgT0]
  · isplitl [HW1G]; · iexact HW1G
    isplitl [HxOwn]; · iexact HxOwn
    isplitl [HoOwn]; · iexact HoOwn
    iexact HAgT0
  iintro ⟨HrM, HW1Pos, HxOwn, HoRest, HAgT⟩
  iapply (ag_step m ρ K c 31 31 0 15 rfl rfl _ (Fin.ext (k0_dev63_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HrM]; · iexact HrM
  isplitl [HW1Pos]; · iexact HW1Pos
  isplitl [HxOwn]; · iexact HxOwn
  isplitl [HoRest]; · iexact HoRest
  isplitl [HAgT]; · iexact HAgT
  isplitl [HAgL]; · iexact HAgL
  iexact HAgC

set_option maxHeartbeats 2000000 in
theorem part28_run (c : Dev nD) (v2 : BitVec 32) (Kt : (Σ' (v752 : BitVec 32) (v764 : BitVec 32), BitVec 32) → sProp 𝕄) :
    iprop(recs m ρ K ∗ OW c 1 31 31 ∗ bigSepL (todo 1) (agTok m ρ c) ∗ bigSepL (todo 1) (fun r => iprop(∃ Y, ownsTc (peer c r) (oRows c) fullShare Y)) ∗ bigSepL (done 1) (fun r => cred (tallyAt (agS c r) () N8))
        ∗ (∀ ret, iprop(OW c 4 31 31 ∗ bigSepL (todo 4) (agTok m ρ c) ∗ bigSepL (todo 4) (fun r => iprop(∃ Y, ownsTc (peer c r) (oRows c) fullShare Y)) ∗ bigSepL (done 4) (fun r => cred (tallyAt (agS c r) () N8))) -∗ Kt ret))
      ⊢ wp frame (wpE (defs₀ (F := F)) 𝒱₀ (c : Thread nD τ) none) Set.univ
          (k0_part28 xM (Memref.isWhole_whole _) oM (Memref.isWhole_whole _) rM (Memref.isWhole_whole _) cc0_scratch1 cc0_scratch2 cc0_scratch3 cc0_scratch4 c v2) Kt := by
  rw [k0_part28_eq_skeleton]; unfold k0_part28_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 1 14 rfl rfl _ (Fin.ext (k0_dev64_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 2 16 rfl rfl _ (Fin.ext (k0_dev65_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 3 13 rfl rfl _ (Fin.ext (k0_dev66_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part29_run (c : Dev nD) (v2 : BitVec 32) (v776 : BitVec 32) (Kt : (Σ' (v788 : BitVec 32), BitVec 32) → sProp 𝕄) :
    iprop(recs m ρ K ∗ OW c 4 31 31 ∗ bigSepL (todo 4) (agTok m ρ c) ∗ bigSepL (todo 4) (fun r => iprop(∃ Y, ownsTc (peer c r) (oRows c) fullShare Y)) ∗ bigSepL (done 4) (fun r => cred (tallyAt (agS c r) () N8))
        ∗ (∀ ret, iprop(OW c 7 31 31 ∗ bigSepL (todo 7) (agTok m ρ c) ∗ bigSepL (todo 7) (fun r => iprop(∃ Y, ownsTc (peer c r) (oRows c) fullShare Y)) ∗ bigSepL (done 7) (fun r => cred (tallyAt (agS c r) () N8))) -∗ Kt ret))
      ⊢ wp frame (wpE (defs₀ (F := F)) 𝒱₀ (c : Thread nD τ) none) Set.univ
          (k0_part29 xM (Memref.isWhole_whole _) oM (Memref.isWhole_whole _) rM (Memref.isWhole_whole _) cc0_scratch1 cc0_scratch2 cc0_scratch3 cc0_scratch4 c v2 v776) Kt := by
  rw [k0_part29_eq_skeleton]; unfold k0_part29_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 4 17 rfl rfl _ (Fin.ext (k0_dev67_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 5 12 rfl rfl _ (Fin.ext (k0_dev68_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 6 18 rfl rfl _ (Fin.ext (k0_dev69_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part30_run (c : Dev nD) (v2 : BitVec 32) (Kt : (Σ' (v812 : BitVec 32) (v824 : BitVec 32), BitVec 32) → sProp 𝕄) :
    iprop(recs m ρ K ∗ OW c 7 31 31 ∗ bigSepL (todo 7) (agTok m ρ c) ∗ bigSepL (todo 7) (fun r => iprop(∃ Y, ownsTc (peer c r) (oRows c) fullShare Y)) ∗ bigSepL (done 7) (fun r => cred (tallyAt (agS c r) () N8))
        ∗ (∀ ret, iprop(OW c 9 31 31 ∗ bigSepL (todo 9) (agTok m ρ c) ∗ bigSepL (todo 9) (fun r => iprop(∃ Y, ownsTc (peer c r) (oRows c) fullShare Y)) ∗ bigSepL (done 9) (fun r => cred (tallyAt (agS c r) () N8))) -∗ Kt ret))
      ⊢ wp frame (wpE (defs₀ (F := F)) 𝒱₀ (c : Thread nD τ) none) Set.univ
          (k0_part30 xM (Memref.isWhole_whole _) oM (Memref.isWhole_whole _) rM (Memref.isWhole_whole _) cc0_scratch1 cc0_scratch2 cc0_scratch3 cc0_scratch4 c v2) Kt := by
  rw [k0_part30_eq_skeleton]; unfold k0_part30_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 7 11 rfl rfl _ (Fin.ext (k0_dev70_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 8 19 rfl rfl _ (Fin.ext (k0_dev71_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part31_run (c : Dev nD) (v2 : BitVec 32) (Kt : (Σ' (v848 : BitVec 32) (v860 : BitVec 32) (v872 : BitVec 32), BitVec 32) → sProp 𝕄) :
    iprop(recs m ρ K ∗ OW c 9 31 31 ∗ bigSepL (todo 9) (agTok m ρ c) ∗ bigSepL (todo 9) (fun r => iprop(∃ Y, ownsTc (peer c r) (oRows c) fullShare Y)) ∗ bigSepL (done 9) (fun r => cred (tallyAt (agS c r) () N8))
        ∗ (∀ ret, iprop(OW c 12 31 31 ∗ bigSepL (todo 12) (agTok m ρ c) ∗ bigSepL (todo 12) (fun r => iprop(∃ Y, ownsTc (peer c r) (oRows c) fullShare Y)) ∗ bigSepL (done 12) (fun r => cred (tallyAt (agS c r) () N8))) -∗ Kt ret))
      ⊢ wp frame (wpE (defs₀ (F := F)) 𝒱₀ (c : Thread nD τ) none) Set.univ
          (k0_part31 xM (Memref.isWhole_whole _) oM (Memref.isWhole_whole _) rM (Memref.isWhole_whole _) cc0_scratch1 cc0_scratch2 cc0_scratch3 cc0_scratch4 c v2) Kt := by
  rw [k0_part31_eq_skeleton]; unfold k0_part31_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 9 10 rfl rfl _ (Fin.ext (k0_dev72_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 10 20 rfl rfl _ (Fin.ext (k0_dev73_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 11 9 rfl rfl _ (Fin.ext (k0_dev74_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part32_run (c : Dev nD) (v2 : BitVec 32) (v872 : BitVec 32) (c8_i32_842 : BitVec 32) (Kt : (Σ' (v884 : BitVec 32), BitVec 32) → sProp 𝕄) :
    iprop(recs m ρ K ∗ OW c 12 31 31 ∗ bigSepL (todo 12) (agTok m ρ c) ∗ bigSepL (todo 12) (fun r => iprop(∃ Y, ownsTc (peer c r) (oRows c) fullShare Y)) ∗ bigSepL (done 12) (fun r => cred (tallyAt (agS c r) () N8))
        ∗ (∀ ret, iprop(OW c 14 31 31 ∗ bigSepL (todo 14) (agTok m ρ c) ∗ bigSepL (todo 14) (fun r => iprop(∃ Y, ownsTc (peer c r) (oRows c) fullShare Y)) ∗ bigSepL (done 14) (fun r => cred (tallyAt (agS c r) () N8))) -∗ Kt ret))
      ⊢ wp frame (wpE (defs₀ (F := F)) 𝒱₀ (c : Thread nD τ) none) Set.univ
          (k0_part32 xM (Memref.isWhole_whole _) oM (Memref.isWhole_whole _) rM (Memref.isWhole_whole _) cc0_scratch1 cc0_scratch2 cc0_scratch3 cc0_scratch4 c v2 v872 c8_i32_842) Kt := by
  rw [k0_part32_eq_skeleton]; unfold k0_part32_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 12 21 rfl rfl _ (Fin.ext (k0_dev75_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 13 8 rfl rfl _ (Fin.ext (k0_dev76_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part33_run (c : Dev nD) (v2 : BitVec 32) (Kt : (Σ' (v908 : BitVec 32) (v920 : BitVec 32), BitVec 32) → sProp 𝕄) :
    iprop(recs m ρ K ∗ OW c 14 31 31 ∗ bigSepL (todo 14) (agTok m ρ c) ∗ bigSepL (todo 14) (fun r => iprop(∃ Y, ownsTc (peer c r) (oRows c) fullShare Y)) ∗ bigSepL (done 14) (fun r => cred (tallyAt (agS c r) () N8))
        ∗ (∀ ret, iprop(OW c 17 31 31 ∗ bigSepL (todo 17) (agTok m ρ c) ∗ bigSepL (todo 17) (fun r => iprop(∃ Y, ownsTc (peer c r) (oRows c) fullShare Y)) ∗ bigSepL (done 17) (fun r => cred (tallyAt (agS c r) () N8))) -∗ Kt ret))
      ⊢ wp frame (wpE (defs₀ (F := F)) 𝒱₀ (c : Thread nD τ) none) Set.univ
          (k0_part33 xM (Memref.isWhole_whole _) oM (Memref.isWhole_whole _) rM (Memref.isWhole_whole _) cc0_scratch1 cc0_scratch2 cc0_scratch3 cc0_scratch4 c v2) Kt := by
  rw [k0_part33_eq_skeleton]; unfold k0_part33_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 14 22 rfl rfl _ (Fin.ext (k0_dev77_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 15 7 rfl rfl _ (Fin.ext (k0_dev78_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 16 23 rfl rfl _ (Fin.ext (k0_dev79_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part34_run (c : Dev nD) (v2 : BitVec 32) (v932 : BitVec 32) (Kt : (Σ' (v944 : BitVec 32) (v956 : BitVec 32), BitVec 32) → sProp 𝕄) :
    iprop(recs m ρ K ∗ OW c 17 31 31 ∗ bigSepL (todo 17) (agTok m ρ c) ∗ bigSepL (todo 17) (fun r => iprop(∃ Y, ownsTc (peer c r) (oRows c) fullShare Y)) ∗ bigSepL (done 17) (fun r => cred (tallyAt (agS c r) () N8))
        ∗ (∀ ret, iprop(OW c 20 31 31 ∗ bigSepL (todo 20) (agTok m ρ c) ∗ bigSepL (todo 20) (fun r => iprop(∃ Y, ownsTc (peer c r) (oRows c) fullShare Y)) ∗ bigSepL (done 20) (fun r => cred (tallyAt (agS c r) () N8))) -∗ Kt ret))
      ⊢ wp frame (wpE (defs₀ (F := F)) 𝒱₀ (c : Thread nD τ) none) Set.univ
          (k0_part34 xM (Memref.isWhole_whole _) oM (Memref.isWhole_whole _) rM (Memref.isWhole_whole _) cc0_scratch1 cc0_scratch2 cc0_scratch3 cc0_scratch4 c v2 v932) Kt := by
  rw [k0_part34_eq_skeleton]; unfold k0_part34_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 17 6 rfl rfl _ (Fin.ext (k0_dev80_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 18 24 rfl rfl _ (Fin.ext (k0_dev81_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 19 5 rfl rfl _ (Fin.ext (k0_dev82_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part35_run (c : Dev nD) (v2 : BitVec 32) (c26_i32_920 : BitVec 32) (Kt : (Σ' (v968 : BitVec 32) (v980 : BitVec 32), BitVec 32) → sProp 𝕄) :
    iprop(recs m ρ K ∗ OW c 20 31 31 ∗ bigSepL (todo 20) (agTok m ρ c) ∗ bigSepL (todo 20) (fun r => iprop(∃ Y, ownsTc (peer c r) (oRows c) fullShare Y)) ∗ bigSepL (done 20) (fun r => cred (tallyAt (agS c r) () N8))
        ∗ (∀ ret, iprop(OW c 22 31 31 ∗ bigSepL (todo 22) (agTok m ρ c) ∗ bigSepL (todo 22) (fun r => iprop(∃ Y, ownsTc (peer c r) (oRows c) fullShare Y)) ∗ bigSepL (done 22) (fun r => cred (tallyAt (agS c r) () N8))) -∗ Kt ret))
      ⊢ wp frame (wpE (defs₀ (F := F)) 𝒱₀ (c : Thread nD τ) none) Set.univ
          (k0_part35 xM (Memref.isWhole_whole _) oM (Memref.isWhole_whole _) rM (Memref.isWhole_whole _) cc0_scratch1 cc0_scratch2 cc0_scratch3 cc0_scratch4 c v2 c26_i32_920) Kt := by
  rw [k0_part35_eq_skeleton]; unfold k0_part35_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 20 25 rfl rfl _ (Fin.ext (k0_dev83_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 21 4 rfl rfl _ (Fin.ext (k0_dev84_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part36_run (c : Dev nD) (v2 : BitVec 32) (Kt : (Σ' (v1004 : BitVec 32) (v1016 : BitVec 32), BitVec 32) → sProp 𝕄) :
    iprop(recs m ρ K ∗ OW c 22 31 31 ∗ bigSepL (todo 22) (agTok m ρ c) ∗ bigSepL (todo 22) (fun r => iprop(∃ Y, ownsTc (peer c r) (oRows c) fullShare Y)) ∗ bigSepL (done 22) (fun r => cred (tallyAt (agS c r) () N8))
        ∗ (∀ ret, iprop(OW c 25 31 31 ∗ bigSepL (todo 25) (agTok m ρ c) ∗ bigSepL (todo 25) (fun r => iprop(∃ Y, ownsTc (peer c r) (oRows c) fullShare Y)) ∗ bigSepL (done 25) (fun r => cred (tallyAt (agS c r) () N8))) -∗ Kt ret))
      ⊢ wp frame (wpE (defs₀ (F := F)) 𝒱₀ (c : Thread nD τ) none) Set.univ
          (k0_part36 xM (Memref.isWhole_whole _) oM (Memref.isWhole_whole _) rM (Memref.isWhole_whole _) cc0_scratch1 cc0_scratch2 cc0_scratch3 cc0_scratch4 c v2) Kt := by
  rw [k0_part36_eq_skeleton]; unfold k0_part36_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 22 26 rfl rfl _ (Fin.ext (k0_dev85_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 23 3 rfl rfl _ (Fin.ext (k0_dev86_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 24 27 rfl rfl _ (Fin.ext (k0_dev87_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part37_run (c : Dev nD) (v2 : BitVec 32) (v1028 : BitVec 32) (Kt : (Σ' (v1040 : BitVec 32), BitVec 32) → sProp 𝕄) :
    iprop(recs m ρ K ∗ OW c 25 31 31 ∗ bigSepL (todo 25) (agTok m ρ c) ∗ bigSepL (todo 25) (fun r => iprop(∃ Y, ownsTc (peer c r) (oRows c) fullShare Y)) ∗ bigSepL (done 25) (fun r => cred (tallyAt (agS c r) () N8))
        ∗ (∀ ret, iprop(OW c 27 31 31 ∗ bigSepL (todo 27) (agTok m ρ c) ∗ bigSepL (todo 27) (fun r => iprop(∃ Y, ownsTc (peer c r) (oRows c) fullShare Y)) ∗ bigSepL (done 27) (fun r => cred (tallyAt (agS c r) () N8))) -∗ Kt ret))
      ⊢ wp frame (wpE (defs₀ (F := F)) 𝒱₀ (c : Thread nD τ) none) Set.univ
          (k0_part37 xM (Memref.isWhole_whole _) oM (Memref.isWhole_whole _) rM (Memref.isWhole_whole _) cc0_scratch1 cc0_scratch2 cc0_scratch3 cc0_scratch4 c v2 v1028) Kt := by
  rw [k0_part37_eq_skeleton]; unfold k0_part37_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 25 2 rfl rfl _ (Fin.ext (k0_dev88_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 26 28 rfl rfl _ (Fin.ext (k0_dev89_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part38_run (c : Dev nD) (v2 : BitVec 32) (Kt : (Σ' (v1064 : BitVec 32) (v1076 : BitVec 32) (v1088 : BitVec 32), BitVec 32) → sProp 𝕄) :
    iprop(recs m ρ K ∗ OW c 27 31 31 ∗ bigSepL (todo 27) (agTok m ρ c) ∗ bigSepL (todo 27) (fun r => iprop(∃ Y, ownsTc (peer c r) (oRows c) fullShare Y)) ∗ bigSepL (done 27) (fun r => cred (tallyAt (agS c r) () N8))
        ∗ (∀ ret, iprop(OW c 30 31 31 ∗ bigSepL (todo 30) (agTok m ρ c) ∗ bigSepL (todo 30) (fun r => iprop(∃ Y, ownsTc (peer c r) (oRows c) fullShare Y)) ∗ bigSepL (done 30) (fun r => cred (tallyAt (agS c r) () N8))) -∗ Kt ret))
      ⊢ wp frame (wpE (defs₀ (F := F)) 𝒱₀ (c : Thread nD τ) none) Set.univ
          (k0_part38 xM (Memref.isWhole_whole _) oM (Memref.isWhole_whole _) rM (Memref.isWhole_whole _) cc0_scratch1 cc0_scratch2 cc0_scratch3 cc0_scratch4 c v2) Kt := by
  rw [k0_part38_eq_skeleton]; unfold k0_part38_skel
  simp only [semSignalWord, semWaitWord, Prog.lift, Prog.bind_op, Prog.bind_ret, Prog.pure_eq_ret, wp_deviceId]
  iintro ⟨#HR, HOW, HAgT, HAgL, HAgC, Hk⟩
  iapply (ag_step m ρ K c 31 31 27 1 rfl rfl _ (Fin.ext (k0_dev90_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 28 29 rfl rfl _ (Fin.ext (k0_dev91_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (ag_step m ρ K c 31 31 29 0 rfl rfl _ (Fin.ext (k0_dev92_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  rw [wp_ret]; imodintro
  iapply Hk
  isplitl [HOW]; · iexact HOW
  isplitl [HAgT]; · iexact HAgT
  isplitl [HAgL]; · iexact HAgL
  iexact HAgC

set_option maxHeartbeats 2000000 in
theorem part39_run (c : Dev nD) (v728 : BitVec 32) (v740 : BitVec 32) (v752 : BitVec 32) (v764 : BitVec 32) (v1088 : BitVec 32) (c1_i32_1026 : BitVec 32) (Kt : (PUnit) → sProp 𝕄) :
    iprop(recs m ρ K ∗ levAts L lv ∗ OW c 30 31 31 ∗ bigSepL (todo 30) (agTok m ρ c) ∗ bigSepL (todo 30) (fun r => iprop(∃ Y, ownsTc (peer c r) (oRows c) fullShare Y)) ∗ bigSepL (done 30) (fun r => cred (tallyAt (agS c r) () N8)) ∗ bigSepL (todo 0) (fun r => cred (tallyAt (dcell c 3 r.succ) () N8)) ∗ bigSepL (todo 0) (fun r => atPos ER (dcell c 3 r.succ) 0 ∅ 0) ∗ bigSepL (done 0) (gotItem m ρ c 3)
        ∗ (∀ ret, iprop(OW c 31 31 31 ∗ bigSepL (todo 31) (agTok m ρ c) ∗ bigSepL (todo 31) (fun r => iprop(∃ Y, ownsTc (peer c r) (oRows c) fullShare Y)) ∗ bigSepL (done 31) (fun r => cred (tallyAt (agS c r) () N8)) ∗ bigSepL (todo 3) (fun r => cred (tallyAt (dcell c 3 r.succ) () N8)) ∗ bigSepL (todo 3) (fun r => atPos ER (dcell c 3 r.succ) 0 ∅ 0) ∗ bigSepL (done 3) (gotItem m ρ c 3)) -∗ Kt ret))
      ⊢ wp frame (wpE (defs₀ (F := F)) 𝒱₀ (c : Thread nD τ) none) Set.univ
          (k0_part39 xM (Memref.isWhole_whole _) oM (Memref.isWhole_whole _) rM (Memref.isWhole_whole _) cc0_scratch1 cc0_scratch2 cc0_scratch3 cc0_scratch4 c v728 v740 v752 v764 v1088 c1_i32_1026) Kt := by
  rw [k0_part39_eq_skeleton]; unfold k0_part39_skel
  simp only [semSignalWord, semWaitWord, Prog.lift, Prog.bind_op, Prog.bind_ret, Prog.pure_eq_ret, wp_deviceId]
  iintro ⟨#HR, #Hlev, HOW, HAgT, HAgL, HAgC, HW3C, HW3P, HW3G, Hk⟩
  iapply (ag_step m ρ K c 31 31 30 30 rfl rfl _ (Fin.ext (k0_dev93_eq c)) _ rfl _ rfl _ rfl _ rfl) $$ [HOW HAgT HAgL HAgC]
  · isplitr; · iexact HR
    isplitl [HOW]; · iexact HOW
    isplitl [HAgT]; · iexact HAgT
    isplitl [HAgL]; · iexact HAgL
    iexact HAgC
  iintro ⟨HOW, HAgT, HAgL, HAgC⟩
  iapply (wait_step m ρ K c 3 31 31 31 (fun r => by rw [show todo 31 = [] from by decide]; exact mayWait_none c _) 0 15 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 1 14 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 2 16 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HAgT]; · iexact HAgT
  isplitl [HAgL]; · iexact HAgL
  isplitl [HAgC]; · iexact HAgC
  isplitl [HW3C]; · iexact HW3C
  isplitl [HW3P]; · iexact HW3P
  iexact HW3G

set_option maxHeartbeats 2000000 in
theorem part40_run (c : Dev nD) (v776 : BitVec 32) (v788 : BitVec 32) (v800 : BitVec 32) (v812 : BitVec 32) (v824 : BitVec 32) (Kt : (BitVec 32) → sProp 𝕄) :
    iprop(recs m ρ K ∗ levAts L lv ∗ OW c 31 31 31 ∗ bigSepL (todo 3) (fun r => cred (tallyAt (dcell c 3 r.succ) () N8)) ∗ bigSepL (todo 3) (fun r => atPos ER (dcell c 3 r.succ) 0 ∅ 0) ∗ bigSepL (done 3) (gotItem m ρ c 3)
        ∗ (∀ ret, iprop(OW c 31 31 31 ∗ bigSepL (todo 8) (fun r => cred (tallyAt (dcell c 3 r.succ) () N8)) ∗ bigSepL (todo 8) (fun r => atPos ER (dcell c 3 r.succ) 0 ∅ 0) ∗ bigSepL (done 8) (gotItem m ρ c 3)) -∗ Kt ret))
      ⊢ wp frame (wpE (defs₀ (F := F)) 𝒱₀ (c : Thread nD τ) none) Set.univ
          (k0_part40 xM (Memref.isWhole_whole _) oM (Memref.isWhole_whole _) rM (Memref.isWhole_whole _) cc0_scratch1 cc0_scratch2 cc0_scratch3 cc0_scratch4 c v776 v788 v800 v812 v824) Kt := by
  rw [k0_part40_eq_skeleton]; unfold k0_part40_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 3 13 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 4 17 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 5 12 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 6 18 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 7 11 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part41_run (c : Dev nD) (v836 : BitVec 32) (v848 : BitVec 32) (v860 : BitVec 32) (v872 : BitVec 32) (v1147 : BitVec 32) (Kt : (PUnit) → sProp 𝕄) :
    iprop(recs m ρ K ∗ levAts L lv ∗ OW c 31 31 31 ∗ bigSepL (todo 8) (fun r => cred (tallyAt (dcell c 3 r.succ) () N8)) ∗ bigSepL (todo 8) (fun r => atPos ER (dcell c 3 r.succ) 0 ∅ 0) ∗ bigSepL (done 8) (gotItem m ρ c 3)
        ∗ (∀ ret, iprop(OW c 31 31 31 ∗ bigSepL (todo 12) (fun r => cred (tallyAt (dcell c 3 r.succ) () N8)) ∗ bigSepL (todo 12) (fun r => atPos ER (dcell c 3 r.succ) 0 ∅ 0) ∗ bigSepL (done 12) (gotItem m ρ c 3)) -∗ Kt ret))
      ⊢ wp frame (wpE (defs₀ (F := F)) 𝒱₀ (c : Thread nD τ) none) Set.univ
          (k0_part41 xM (Memref.isWhole_whole _) oM (Memref.isWhole_whole _) rM (Memref.isWhole_whole _) cc0_scratch1 cc0_scratch2 cc0_scratch3 cc0_scratch4 c v836 v848 v860 v872 v1147) Kt := by
  rw [k0_part41_eq_skeleton]; unfold k0_part41_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 8 19 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 9 10 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 10 20 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 11 9 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part42_run (c : Dev nD) (v884 : BitVec 32) (v896 : BitVec 32) (v908 : BitVec 32) (v920 : BitVec 32) (v932 : BitVec 32) (Kt : (PUnit) → sProp 𝕄) :
    iprop(recs m ρ K ∗ levAts L lv ∗ OW c 31 31 31 ∗ bigSepL (todo 12) (fun r => cred (tallyAt (dcell c 3 r.succ) () N8)) ∗ bigSepL (todo 12) (fun r => atPos ER (dcell c 3 r.succ) 0 ∅ 0) ∗ bigSepL (done 12) (gotItem m ρ c 3)
        ∗ (∀ ret, iprop(OW c 31 31 31 ∗ bigSepL (todo 17) (fun r => cred (tallyAt (dcell c 3 r.succ) () N8)) ∗ bigSepL (todo 17) (fun r => atPos ER (dcell c 3 r.succ) 0 ∅ 0) ∗ bigSepL (done 17) (gotItem m ρ c 3)) -∗ Kt ret))
      ⊢ wp frame (wpE (defs₀ (F := F)) 𝒱₀ (c : Thread nD τ) none) Set.univ
          (k0_part42 xM (Memref.isWhole_whole _) oM (Memref.isWhole_whole _) rM (Memref.isWhole_whole _) cc0_scratch1 cc0_scratch2 cc0_scratch3 cc0_scratch4 c v884 v896 v908 v920 v932) Kt := by
  rw [k0_part42_eq_skeleton]; unfold k0_part42_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 12 21 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 13 8 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 14 22 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 15 7 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 16 23 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part43_run (c : Dev nD) (v944 : BitVec 32) (v956 : BitVec 32) (v968 : BitVec 32) (v980 : BitVec 32) (Kt : (PUnit) → sProp 𝕄) :
    iprop(recs m ρ K ∗ levAts L lv ∗ OW c 31 31 31 ∗ bigSepL (todo 17) (fun r => cred (tallyAt (dcell c 3 r.succ) () N8)) ∗ bigSepL (todo 17) (fun r => atPos ER (dcell c 3 r.succ) 0 ∅ 0) ∗ bigSepL (done 17) (gotItem m ρ c 3)
        ∗ (∀ ret, iprop(OW c 31 31 31 ∗ bigSepL (todo 22) (fun r => cred (tallyAt (dcell c 3 r.succ) () N8)) ∗ bigSepL (todo 22) (fun r => atPos ER (dcell c 3 r.succ) 0 ∅ 0) ∗ bigSepL (done 22) (gotItem m ρ c 3)) -∗ Kt ret))
      ⊢ wp frame (wpE (defs₀ (F := F)) 𝒱₀ (c : Thread nD τ) none) Set.univ
          (k0_part43 xM (Memref.isWhole_whole _) oM (Memref.isWhole_whole _) rM (Memref.isWhole_whole _) cc0_scratch1 cc0_scratch2 cc0_scratch3 cc0_scratch4 c v944 v956 v968 v980) Kt := by
  rw [k0_part43_eq_skeleton]; unfold k0_part43_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 17 6 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 18 24 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 19 5 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 20 25 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 21 4 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part44_run (c : Dev nD) (v992 : BitVec 32) (v1004 : BitVec 32) (v1016 : BitVec 32) (v1028 : BitVec 32) (v1040 : BitVec 32) (Kt : (PUnit) → sProp 𝕄) :
    iprop(recs m ρ K ∗ levAts L lv ∗ OW c 31 31 31 ∗ bigSepL (todo 22) (fun r => cred (tallyAt (dcell c 3 r.succ) () N8)) ∗ bigSepL (todo 22) (fun r => atPos ER (dcell c 3 r.succ) 0 ∅ 0) ∗ bigSepL (done 22) (gotItem m ρ c 3)
        ∗ (∀ ret, iprop(OW c 31 31 31 ∗ bigSepL (todo 26) (fun r => cred (tallyAt (dcell c 3 r.succ) () N8)) ∗ bigSepL (todo 26) (fun r => atPos ER (dcell c 3 r.succ) 0 ∅ 0) ∗ bigSepL (done 26) (gotItem m ρ c 3)) -∗ Kt ret))
      ⊢ wp frame (wpE (defs₀ (F := F)) 𝒱₀ (c : Thread nD τ) none) Set.univ
          (k0_part44 xM (Memref.isWhole_whole _) oM (Memref.isWhole_whole _) rM (Memref.isWhole_whole _) cc0_scratch1 cc0_scratch2 cc0_scratch3 cc0_scratch4 c v992 v1004 v1016 v1028 v1040) Kt := by
  rw [k0_part44_eq_skeleton]; unfold k0_part44_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 22 26 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 23 3 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 24 27 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 25 2 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part45_run (c : Dev nD) (v1052 : BitVec 32) (v1064 : BitVec 32) (v1076 : BitVec 32) (v1088 : BitVec 32) (Kt : (PUnit) → sProp 𝕄) :
    iprop(recs m ρ K ∗ levAts L lv ∗ OW c 31 31 31 ∗ bigSepL (todo 26) (fun r => cred (tallyAt (dcell c 3 r.succ) () N8)) ∗ bigSepL (todo 26) (fun r => atPos ER (dcell c 3 r.succ) 0 ∅ 0) ∗ bigSepL (done 26) (gotItem m ρ c 3)
        ∗ (∀ ret, iprop(OW c 31 31 31 ∗ bigSepL (todo 31) (fun r => cred (tallyAt (dcell c 3 r.succ) () N8)) ∗ bigSepL (todo 31) (fun r => atPos ER (dcell c 3 r.succ) 0 ∅ 0) ∗ bigSepL (done 31) (gotItem m ρ c 3)) -∗ Kt ret))
      ⊢ wp frame (wpE (defs₀ (F := F)) 𝒱₀ (c : Thread nD τ) none) Set.univ
          (k0_part45 xM (Memref.isWhole_whole _) oM (Memref.isWhole_whole _) rM (Memref.isWhole_whole _) cc0_scratch1 cc0_scratch2 cc0_scratch3 cc0_scratch4 c v1052 v1064 v1076 v1088) Kt := by
  rw [k0_part45_eq_skeleton]; unfold k0_part45_skel
  simp only [semSignalWord, semWaitWord, Prog.lift, Prog.bind_op, Prog.bind_ret, Prog.pure_eq_ret, wp_deviceId]
  iintro ⟨#HR, #Hlev, HOW, HW3C, HW3P, HW3G, Hk⟩
  iapply (wait_step m ρ K c 3 31 31 31 (fun r => by rw [show todo 31 = [] from by decide]; exact mayWait_none c _) 26 28 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 27 1 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 28 29 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 29 0 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  iapply (wait_step m ρ K c 3 31 31 31 (fun r => by rw [show todo 31 = [] from by decide]; exact mayWait_none c _) 30 30 rfl rfl _ rfl (dst := oRows c) rfl) $$ [HOW HW3C HW3P HW3G]
  · isplitr; · iexact HR
    isplitr; · iexact Hlev
    isplitl [HOW]; · iexact HOW
    isplitl [HW3C]; · iexact HW3C
    isplitl [HW3P]; · iexact HW3P
    iexact HW3G
  iintro ⟨HOW, HW3C, HW3P, HW3G⟩
  rw [wp_ret]; imodintro
  iapply Hk
  isplitl [HOW]; · iexact HOW
  isplitl [HW3C]; · iexact HW3C
  isplitl [HW3P]; · iexact HW3P
  iexact HW3G

set_option maxHeartbeats 2000000 in
theorem part46_run (c : Dev nD)  (Kt : (PUnit) → sProp 𝕄) :
    iprop(recs m ρ K ∗ levAts L lv ∗ OW c 31 31 31 ∗ bigSepL (todo 0) (fun r => cred (tallyAt (dcell c 0 r.succ) () N8)) ∗ bigSepL (todo 0) (fun r => atPos ER (dcell c 0 r.succ) 0 ∅ 0) ∗ bigSepL (done 0) (gotItem m ρ c 0)
        ∗ (∀ ret, iprop(OW c 31 31 31 ∗ bigSepL (todo 5) (fun r => cred (tallyAt (dcell c 0 r.succ) () N8)) ∗ bigSepL (todo 5) (fun r => atPos ER (dcell c 0 r.succ) 0 ∅ 0) ∗ bigSepL (done 5) (gotItem m ρ c 0)) -∗ Kt ret))
      ⊢ wp frame (wpE (defs₀ (F := F)) 𝒱₀ (c : Thread nD τ) none) Set.univ
          (k0_part46 xM (Memref.isWhole_whole _) oM (Memref.isWhole_whole _) rM (Memref.isWhole_whole _) cc0_scratch1 cc0_scratch2 cc0_scratch3 cc0_scratch4 c) Kt := by
  rw [k0_part46_eq_skeleton]; unfold k0_part46_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 0 15 rfl rfl _ rfl (dst := xSend c 15) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 1 14 rfl rfl _ rfl (dst := xSend c 14) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 2 16 rfl rfl _ rfl (dst := xSend c 16) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 3 13 rfl rfl _ rfl (dst := xSend c 13) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 4 17 rfl rfl _ rfl (dst := xSend c 17) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part47_run (c : Dev nD)  (Kt : (PUnit) → sProp 𝕄) :
    iprop(recs m ρ K ∗ levAts L lv ∗ OW c 31 31 31 ∗ bigSepL (todo 5) (fun r => cred (tallyAt (dcell c 0 r.succ) () N8)) ∗ bigSepL (todo 5) (fun r => atPos ER (dcell c 0 r.succ) 0 ∅ 0) ∗ bigSepL (done 5) (gotItem m ρ c 0)
        ∗ (∀ ret, iprop(OW c 31 31 31 ∗ bigSepL (todo 9) (fun r => cred (tallyAt (dcell c 0 r.succ) () N8)) ∗ bigSepL (todo 9) (fun r => atPos ER (dcell c 0 r.succ) 0 ∅ 0) ∗ bigSepL (done 9) (gotItem m ρ c 0)) -∗ Kt ret))
      ⊢ wp frame (wpE (defs₀ (F := F)) 𝒱₀ (c : Thread nD τ) none) Set.univ
          (k0_part47 xM (Memref.isWhole_whole _) oM (Memref.isWhole_whole _) rM (Memref.isWhole_whole _) cc0_scratch1 cc0_scratch2 cc0_scratch3 cc0_scratch4 c) Kt := by
  rw [k0_part47_eq_skeleton]; unfold k0_part47_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 5 12 rfl rfl _ rfl (dst := xSend c 12) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 6 18 rfl rfl _ rfl (dst := xSend c 18) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 7 11 rfl rfl _ rfl (dst := xSend c 11) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 8 19 rfl rfl _ rfl (dst := xSend c 19) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part48_run (c : Dev nD)  (Kt : (PUnit) → sProp 𝕄) :
    iprop(recs m ρ K ∗ levAts L lv ∗ OW c 31 31 31 ∗ bigSepL (todo 9) (fun r => cred (tallyAt (dcell c 0 r.succ) () N8)) ∗ bigSepL (todo 9) (fun r => atPos ER (dcell c 0 r.succ) 0 ∅ 0) ∗ bigSepL (done 9) (gotItem m ρ c 0)
        ∗ (∀ ret, iprop(OW c 31 31 31 ∗ bigSepL (todo 14) (fun r => cred (tallyAt (dcell c 0 r.succ) () N8)) ∗ bigSepL (todo 14) (fun r => atPos ER (dcell c 0 r.succ) 0 ∅ 0) ∗ bigSepL (done 14) (gotItem m ρ c 0)) -∗ Kt ret))
      ⊢ wp frame (wpE (defs₀ (F := F)) 𝒱₀ (c : Thread nD τ) none) Set.univ
          (k0_part48 xM (Memref.isWhole_whole _) oM (Memref.isWhole_whole _) rM (Memref.isWhole_whole _) cc0_scratch1 cc0_scratch2 cc0_scratch3 cc0_scratch4 c) Kt := by
  rw [k0_part48_eq_skeleton]; unfold k0_part48_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 9 10 rfl rfl _ rfl (dst := xSend c 10) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 10 20 rfl rfl _ rfl (dst := xSend c 20) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 11 9 rfl rfl _ rfl (dst := xSend c 9) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 12 21 rfl rfl _ rfl (dst := xSend c 21) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 13 8 rfl rfl _ rfl (dst := xSend c 8) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part49_run (c : Dev nD)  (Kt : (PUnit) → sProp 𝕄) :
    iprop(recs m ρ K ∗ levAts L lv ∗ OW c 31 31 31 ∗ bigSepL (todo 14) (fun r => cred (tallyAt (dcell c 0 r.succ) () N8)) ∗ bigSepL (todo 14) (fun r => atPos ER (dcell c 0 r.succ) 0 ∅ 0) ∗ bigSepL (done 14) (gotItem m ρ c 0)
        ∗ (∀ ret, iprop(OW c 31 31 31 ∗ bigSepL (todo 18) (fun r => cred (tallyAt (dcell c 0 r.succ) () N8)) ∗ bigSepL (todo 18) (fun r => atPos ER (dcell c 0 r.succ) 0 ∅ 0) ∗ bigSepL (done 18) (gotItem m ρ c 0)) -∗ Kt ret))
      ⊢ wp frame (wpE (defs₀ (F := F)) 𝒱₀ (c : Thread nD τ) none) Set.univ
          (k0_part49 xM (Memref.isWhole_whole _) oM (Memref.isWhole_whole _) rM (Memref.isWhole_whole _) cc0_scratch1 cc0_scratch2 cc0_scratch3 cc0_scratch4 c) Kt := by
  rw [k0_part49_eq_skeleton]; unfold k0_part49_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 14 22 rfl rfl _ rfl (dst := xSend c 22) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 15 7 rfl rfl _ rfl (dst := xSend c 7) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 16 23 rfl rfl _ rfl (dst := xSend c 23) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 17 6 rfl rfl _ rfl (dst := xSend c 6) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part50_run (c : Dev nD)  (Kt : (PUnit) → sProp 𝕄) :
    iprop(recs m ρ K ∗ levAts L lv ∗ OW c 31 31 31 ∗ bigSepL (todo 18) (fun r => cred (tallyAt (dcell c 0 r.succ) () N8)) ∗ bigSepL (todo 18) (fun r => atPos ER (dcell c 0 r.succ) 0 ∅ 0) ∗ bigSepL (done 18) (gotItem m ρ c 0)
        ∗ (∀ ret, iprop(OW c 31 31 31 ∗ bigSepL (todo 23) (fun r => cred (tallyAt (dcell c 0 r.succ) () N8)) ∗ bigSepL (todo 23) (fun r => atPos ER (dcell c 0 r.succ) 0 ∅ 0) ∗ bigSepL (done 23) (gotItem m ρ c 0)) -∗ Kt ret))
      ⊢ wp frame (wpE (defs₀ (F := F)) 𝒱₀ (c : Thread nD τ) none) Set.univ
          (k0_part50 xM (Memref.isWhole_whole _) oM (Memref.isWhole_whole _) rM (Memref.isWhole_whole _) cc0_scratch1 cc0_scratch2 cc0_scratch3 cc0_scratch4 c) Kt := by
  rw [k0_part50_eq_skeleton]; unfold k0_part50_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 18 24 rfl rfl _ rfl (dst := xSend c 24) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 19 5 rfl rfl _ rfl (dst := xSend c 5) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 20 25 rfl rfl _ rfl (dst := xSend c 25) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 21 4 rfl rfl _ rfl (dst := xSend c 4) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 22 26 rfl rfl _ rfl (dst := xSend c 26) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part51_run (c : Dev nD)  (Kt : (PUnit) → sProp 𝕄) :
    iprop(recs m ρ K ∗ levAts L lv ∗ OW c 31 31 31 ∗ bigSepL (todo 23) (fun r => cred (tallyAt (dcell c 0 r.succ) () N8)) ∗ bigSepL (todo 23) (fun r => atPos ER (dcell c 0 r.succ) 0 ∅ 0) ∗ bigSepL (done 23) (gotItem m ρ c 0)
        ∗ (∀ ret, iprop(OW c 31 31 31 ∗ bigSepL (todo 28) (fun r => cred (tallyAt (dcell c 0 r.succ) () N8)) ∗ bigSepL (todo 28) (fun r => atPos ER (dcell c 0 r.succ) 0 ∅ 0) ∗ bigSepL (done 28) (gotItem m ρ c 0)) -∗ Kt ret))
      ⊢ wp frame (wpE (defs₀ (F := F)) 𝒱₀ (c : Thread nD τ) none) Set.univ
          (k0_part51 xM (Memref.isWhole_whole _) oM (Memref.isWhole_whole _) rM (Memref.isWhole_whole _) cc0_scratch1 cc0_scratch2 cc0_scratch3 cc0_scratch4 c) Kt := by
  rw [k0_part51_eq_skeleton]; unfold k0_part51_skel
  simp only [semSignalWord, semWaitWord, Prog.lift, Prog.bind_op, Prog.bind_ret, Prog.pure_eq_ret, wp_deviceId]
  iintro ⟨#HR, #Hlev, HOW, HW0C, HW0P, HW0G, Hk⟩
  iapply (wait_step m ρ K c 0 31 31 31 (fun r => by rw [show todo 31 = [] from by decide]; exact mayWait_none c _) 23 3 rfl rfl _ rfl (dst := xSend c 3) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 24 27 rfl rfl _ rfl (dst := xSend c 27) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 25 2 rfl rfl _ rfl (dst := xSend c 2) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 26 28 rfl rfl _ rfl (dst := xSend c 28) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 27 1 rfl rfl _ rfl (dst := xSend c 1) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  rw [wp_ret]; imodintro
  iapply Hk
  isplitl [HOW]; · iexact HOW
  isplitl [HW0C]; · iexact HW0C
  isplitl [HW0P]; · iexact HW0P
  iexact HW0G

set_option maxHeartbeats 2000000 in
theorem part52_run (c : Dev nD)  (Kt : (PUnit) → sProp 𝕄) :
    iprop(recs m ρ K ∗ levAts L lv ∗ OW c 31 31 31 ∗ bigSepL (todo 28) (fun r => cred (tallyAt (dcell c 0 r.succ) () N8)) ∗ bigSepL (todo 28) (fun r => atPos ER (dcell c 0 r.succ) 0 ∅ 0) ∗ bigSepL (done 28) (gotItem m ρ c 0) ∗ bigSepL (todo 0) (fun r => cred (tallyAt (dcell c 2 r.succ) () N8)) ∗ bigSepL (todo 0) (fun r => atPos ER (dcell c 2 r.succ) 0 ∅ 0) ∗ bigSepL (done 0) (gotItem m ρ c 2)
        ∗ (∀ ret, iprop(OW c 31 31 31 ∗ bigSepL (todo 31) (fun r => cred (tallyAt (dcell c 0 r.succ) () N8)) ∗ bigSepL (todo 31) (fun r => atPos ER (dcell c 0 r.succ) 0 ∅ 0) ∗ bigSepL (done 31) (gotItem m ρ c 0) ∗ bigSepL (todo 2) (fun r => cred (tallyAt (dcell c 2 r.succ) () N8)) ∗ bigSepL (todo 2) (fun r => atPos ER (dcell c 2 r.succ) 0 ∅ 0) ∗ bigSepL (done 2) (gotItem m ρ c 2)) -∗ Kt ret))
      ⊢ wp frame (wpE (defs₀ (F := F)) 𝒱₀ (c : Thread nD τ) none) Set.univ
          (k0_part52 xM (Memref.isWhole_whole _) oM (Memref.isWhole_whole _) rM (Memref.isWhole_whole _) cc0_scratch1 cc0_scratch2 cc0_scratch3 cc0_scratch4 c) Kt := by
  rw [k0_part52_eq_skeleton]; unfold k0_part52_skel
  simp only [semSignalWord, semWaitWord, Prog.lift, Prog.bind_op, Prog.bind_ret, Prog.pure_eq_ret, wp_deviceId]
  iintro ⟨#HR, #Hlev, HOW, HW0C, HW0P, HW0G, HW2C, HW2P, HW2G, Hk⟩
  iapply (wait_step m ρ K c 0 31 31 31 (fun r => by rw [show todo 31 = [] from by decide]; exact mayWait_none c _) 28 29 rfl rfl _ rfl (dst := xSend c 29) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 29 0 rfl rfl _ rfl (dst := xSend c 0) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 0 31 31 31 (fun r => by rw [show todo 31 = [] from by decide]; exact mayWait_none c _) 30 30 rfl rfl _ rfl (dst := xSend c 30) rfl) $$ [HOW HW0C HW0P HW0G]
  · isplitr; · iexact HR
    isplitr; · iexact Hlev
    isplitl [HOW]; · iexact HOW
    isplitl [HW0C]; · iexact HW0C
    isplitl [HW0P]; · iexact HW0P
    iexact HW0G
  iintro ⟨HOW, HW0C, HW0P, HW0G⟩
  iapply (wait_step m ρ K c 2 31 31 31 (fun r => by rw [show todo 31 = [] from by decide]; exact mayWait_none c _) 0 15 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 1 14 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW0C]; · iexact HW0C
  isplitl [HW0P]; · iexact HW0P
  isplitl [HW0G]; · iexact HW0G
  isplitl [HW2C]; · iexact HW2C
  isplitl [HW2P]; · iexact HW2P
  iexact HW2G

set_option maxHeartbeats 2000000 in
theorem part53_run (c : Dev nD)  (Kt : (PUnit) → sProp 𝕄) :
    iprop(recs m ρ K ∗ levAts L lv ∗ OW c 31 31 31 ∗ bigSepL (todo 2) (fun r => cred (tallyAt (dcell c 2 r.succ) () N8)) ∗ bigSepL (todo 2) (fun r => atPos ER (dcell c 2 r.succ) 0 ∅ 0) ∗ bigSepL (done 2) (gotItem m ρ c 2)
        ∗ (∀ ret, iprop(OW c 31 31 31 ∗ bigSepL (todo 8) (fun r => cred (tallyAt (dcell c 2 r.succ) () N8)) ∗ bigSepL (todo 8) (fun r => atPos ER (dcell c 2 r.succ) 0 ∅ 0) ∗ bigSepL (done 8) (gotItem m ρ c 2)) -∗ Kt ret))
      ⊢ wp frame (wpE (defs₀ (F := F)) 𝒱₀ (c : Thread nD τ) none) Set.univ
          (k0_part53 xM (Memref.isWhole_whole _) oM (Memref.isWhole_whole _) rM (Memref.isWhole_whole _) cc0_scratch1 cc0_scratch2 cc0_scratch3 cc0_scratch4 c) Kt := by
  rw [k0_part53_eq_skeleton]; unfold k0_part53_skel
  simp only [semSignalWord, semWaitWord, Prog.lift, Prog.bind_op, Prog.bind_ret, Prog.pure_eq_ret, wp_deviceId]
  iintro ⟨#HR, #Hlev, HOW, HW2C, HW2P, HW2G, Hk⟩
  iapply (wait_step m ρ K c 2 31 31 31 (fun r => by rw [show todo 31 = [] from by decide]; exact mayWait_none c _) 2 16 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 3 13 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 4 17 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 5 12 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 6 18 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 7 11 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW2C]; · iexact HW2C
  isplitl [HW2P]; · iexact HW2P
  iexact HW2G

set_option maxHeartbeats 2000000 in
theorem part54_run (c : Dev nD)  (Kt : (PUnit) → sProp 𝕄) :
    iprop(recs m ρ K ∗ levAts L lv ∗ OW c 31 31 31 ∗ bigSepL (todo 8) (fun r => cred (tallyAt (dcell c 2 r.succ) () N8)) ∗ bigSepL (todo 8) (fun r => atPos ER (dcell c 2 r.succ) 0 ∅ 0) ∗ bigSepL (done 8) (gotItem m ρ c 2)
        ∗ (∀ ret, iprop(OW c 31 31 31 ∗ bigSepL (todo 14) (fun r => cred (tallyAt (dcell c 2 r.succ) () N8)) ∗ bigSepL (todo 14) (fun r => atPos ER (dcell c 2 r.succ) 0 ∅ 0) ∗ bigSepL (done 14) (gotItem m ρ c 2)) -∗ Kt ret))
      ⊢ wp frame (wpE (defs₀ (F := F)) 𝒱₀ (c : Thread nD τ) none) Set.univ
          (k0_part54 xM (Memref.isWhole_whole _) oM (Memref.isWhole_whole _) rM (Memref.isWhole_whole _) cc0_scratch1 cc0_scratch2 cc0_scratch3 cc0_scratch4 c) Kt := by
  rw [k0_part54_eq_skeleton]; unfold k0_part54_skel
  simp only [semSignalWord, semWaitWord, Prog.lift, Prog.bind_op, Prog.bind_ret, Prog.pure_eq_ret, wp_deviceId]
  iintro ⟨#HR, #Hlev, HOW, HW2C, HW2P, HW2G, Hk⟩
  iapply (wait_step m ρ K c 2 31 31 31 (fun r => by rw [show todo 31 = [] from by decide]; exact mayWait_none c _) 8 19 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 9 10 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 10 20 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 11 9 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 12 21 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 13 8 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW2C]; · iexact HW2C
  isplitl [HW2P]; · iexact HW2P
  iexact HW2G

set_option maxHeartbeats 2000000 in
theorem part55_run (c : Dev nD)  (Kt : (PUnit) → sProp 𝕄) :
    iprop(recs m ρ K ∗ levAts L lv ∗ OW c 31 31 31 ∗ bigSepL (todo 14) (fun r => cred (tallyAt (dcell c 2 r.succ) () N8)) ∗ bigSepL (todo 14) (fun r => atPos ER (dcell c 2 r.succ) 0 ∅ 0) ∗ bigSepL (done 14) (gotItem m ρ c 2)
        ∗ (∀ ret, iprop(OW c 31 31 31 ∗ bigSepL (todo 20) (fun r => cred (tallyAt (dcell c 2 r.succ) () N8)) ∗ bigSepL (todo 20) (fun r => atPos ER (dcell c 2 r.succ) 0 ∅ 0) ∗ bigSepL (done 20) (gotItem m ρ c 2)) -∗ Kt ret))
      ⊢ wp frame (wpE (defs₀ (F := F)) 𝒱₀ (c : Thread nD τ) none) Set.univ
          (k0_part55 xM (Memref.isWhole_whole _) oM (Memref.isWhole_whole _) rM (Memref.isWhole_whole _) cc0_scratch1 cc0_scratch2 cc0_scratch3 cc0_scratch4 c) Kt := by
  rw [k0_part55_eq_skeleton]; unfold k0_part55_skel
  simp only [semSignalWord, semWaitWord, Prog.lift, Prog.bind_op, Prog.bind_ret, Prog.pure_eq_ret, wp_deviceId]
  iintro ⟨#HR, #Hlev, HOW, HW2C, HW2P, HW2G, Hk⟩
  iapply (wait_step m ρ K c 2 31 31 31 (fun r => by rw [show todo 31 = [] from by decide]; exact mayWait_none c _) 14 22 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 15 7 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 16 23 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 17 6 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 18 24 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 19 5 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW2C]; · iexact HW2C
  isplitl [HW2P]; · iexact HW2P
  iexact HW2G

set_option maxHeartbeats 2000000 in
theorem part56_run (c : Dev nD)  (Kt : (PUnit) → sProp 𝕄) :
    iprop(recs m ρ K ∗ levAts L lv ∗ OW c 31 31 31 ∗ bigSepL (todo 20) (fun r => cred (tallyAt (dcell c 2 r.succ) () N8)) ∗ bigSepL (todo 20) (fun r => atPos ER (dcell c 2 r.succ) 0 ∅ 0) ∗ bigSepL (done 20) (gotItem m ρ c 2)
        ∗ (∀ ret, iprop(OW c 31 31 31 ∗ bigSepL (todo 26) (fun r => cred (tallyAt (dcell c 2 r.succ) () N8)) ∗ bigSepL (todo 26) (fun r => atPos ER (dcell c 2 r.succ) 0 ∅ 0) ∗ bigSepL (done 26) (gotItem m ρ c 2)) -∗ Kt ret))
      ⊢ wp frame (wpE (defs₀ (F := F)) 𝒱₀ (c : Thread nD τ) none) Set.univ
          (k0_part56 xM (Memref.isWhole_whole _) oM (Memref.isWhole_whole _) rM (Memref.isWhole_whole _) cc0_scratch1 cc0_scratch2 cc0_scratch3 cc0_scratch4 c) Kt := by
  rw [k0_part56_eq_skeleton]; unfold k0_part56_skel
  simp only [semSignalWord, semWaitWord, Prog.lift, Prog.bind_op, Prog.bind_ret, Prog.pure_eq_ret, wp_deviceId]
  iintro ⟨#HR, #Hlev, HOW, HW2C, HW2P, HW2G, Hk⟩
  iapply (wait_step m ρ K c 2 31 31 31 (fun r => by rw [show todo 31 = [] from by decide]; exact mayWait_none c _) 20 25 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 21 4 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 22 26 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 23 3 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 24 27 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 25 2 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iapply Hk
  isplitl [HOW]; · iexact HOW
  isplitl [HW2C]; · iexact HW2C
  isplitl [HW2P]; · iexact HW2P
  iexact HW2G

end Cert.Kernel.RsAg

end
-- ==== Proof.Kernel.Run.lean ====
/- The kernel's body from its parts: the 56 part lemmas applied in the order the body calls them, each taking the
   lists of its phases from the state and returning them advanced (a phase that starts inside a part starts with
   nothing done: the empty list), then the body's last five waits, and the final components collected. -/
import proofs.«901012_g7700000000001013_dist_rs_then_ag_i_m256_n256_v7x_i32_f32_1_alg».proof.Proof.Kernel.Parts

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

set_option maxHeartbeats 4000000 in
set_option maxRecDepth 65536 in
/-- The whole body from its components: the 56 parts in order, then the last waits. -/
theorem run (c : Dev nD) (Kt : PUnit → sProp 𝕄) :
    iprop(recs m ρ K ∗ levAts L lv ∗ Init m ρ c ∗ (Final m ρ c -∗ Kt ⟨⟩))
      ⊢ wp frame (wpE (defs₀ (F := F)) 𝒱₀ (c : Thread nD τ) none) Set.univ
          (cc0_body xM (Memref.isWhole_whole _) oM (Memref.isWhole_whole _) rM (Memref.isWhole_whole _) cc0_scratch1 cc0_scratch2 cc0_scratch3 cc0_scratch4) Kt := by
  rw [cc0_body_eq_skeleton]; unfold cc0_body_skel
  rw [k0_part57_eq_skeleton]; unfold k0_part57_skel
  unfold Init
  iintro ⟨#HR, #Hlev, ⟨HOW, HSig, HBarC, HBarP, HRsT, HW1C, HW1P, HxOwn, HoOwn, HAgT0, HW3C, HW3P, HW0P, HW2P, HZero⟩, Hk⟩
  simp only [Prog.lift, Prog.bind_op, Prog.bind_ret, Prog.pure_eq_ret, wp_bind]
  iapply (part1_run m ρ K c _)
  isplitr; · iexact HR
  isplitl [HOW]; · iexact HOW
  isplitl [HSig]; · iexact HSig
  iintro %v2 %v24 %c32 ⟨HOW, HSig⟩
  dsimp only
  iapply (part2_run m ρ K c _ _ _ _)
  isplitr; · iexact HR
  isplitl [HOW]; · iexact HOW
  isplitl [HSig]; · iexact HSig
  iintro %ret2 ⟨HOW, HSig⟩
  iapply (part3_run m ρ K c _ _ _ _)
  isplitr; · iexact HR
  isplitl [HOW]; · iexact HOW
  isplitl [HSig]; · iexact HSig
  iintro %ret3 ⟨HOW, HSig⟩
  iapply (part4_run m ρ K c _ _ _ _)
  isplitr; · iexact HR
  isplitl [HOW]; · iexact HOW
  isplitl [HSig]; · iexact HSig
  iintro %ret4 ⟨HOW, HSig⟩
  iapply (part5_run m ρ K c _ _ _ _)
  isplitr; · iexact HR
  isplitl [HOW]; · iexact HOW
  isplitl [HSig]; · iexact HSig
  iintro %ret5 ⟨HOW, HSig⟩
  iapply (part6_run m ρ K c _ _ _ _)
  isplitr; · iexact HR
  isplitr; · iexact Hlev
  isplitl [HOW]; · iexact HOW
  isplitl [HSig]; · iexact HSig
  isplitl [HBarC]; · iexact HBarC
  isplitl [HBarP]; · iexact HBarP
  isplitl [HRsT]; · iexact HRsT
  isplitr; · iapply (emp_done0 _); iempintro
  iintro %ret6 ⟨HOW, HSig, HBarP, HAgL, HRsT, HRsL, HRsC⟩
  iapply (part7_run m ρ K c _ _)
  isplitr; · iexact HR
  isplitl [HOW]; · iexact HOW
  isplitl [HRsT]; · iexact HRsT
  isplitl [HRsL]; · iexact HRsL
  isplitl [HRsC]; · iexact HRsC
  iintro %ret7 ⟨HOW, HRsT, HRsL, HRsC⟩
  iapply (part8_run m ρ K c _ _ _)
  isplitr; · iexact HR
  isplitl [HOW]; · iexact HOW
  isplitl [HRsT]; · iexact HRsT
  isplitl [HRsL]; · iexact HRsL
  isplitl [HRsC]; · iexact HRsC
  iintro %ret8 ⟨HOW, HRsT, HRsL, HRsC⟩
  iapply (part9_run m ρ K c _ _)
  isplitr; · iexact HR
  isplitl [HOW]; · iexact HOW
  isplitl [HRsT]; · iexact HRsT
  isplitl [HRsL]; · iexact HRsL
  isplitl [HRsC]; · iexact HRsC
  iintro %ret9 ⟨HOW, HRsT, HRsL, HRsC⟩
  iapply (part10_run m ρ K c _ _ _)
  isplitr; · iexact HR
  isplitl [HOW]; · iexact HOW
  isplitl [HRsT]; · iexact HRsT
  isplitl [HRsL]; · iexact HRsL
  isplitl [HRsC]; · iexact HRsC
  iintro %ret10 ⟨HOW, HRsT, HRsL, HRsC⟩
  iapply (part11_run m ρ K c _ _)
  isplitr; · iexact HR
  isplitl [HOW]; · iexact HOW
  isplitl [HRsT]; · iexact HRsT
  isplitl [HRsL]; · iexact HRsL
  isplitl [HRsC]; · iexact HRsC
  iintro %ret11 ⟨HOW, HRsT, HRsL, HRsC⟩
  iapply (part12_run m ρ K c _ _ _)
  isplitr; · iexact HR
  isplitl [HOW]; · iexact HOW
  isplitl [HRsT]; · iexact HRsT
  isplitl [HRsL]; · iexact HRsL
  isplitl [HRsC]; · iexact HRsC
  iintro %ret12 ⟨HOW, HRsT, HRsL, HRsC⟩
  iapply (part13_run m ρ K c _ _)
  isplitr; · iexact HR
  isplitl [HOW]; · iexact HOW
  isplitl [HRsT]; · iexact HRsT
  isplitl [HRsL]; · iexact HRsL
  isplitl [HRsC]; · iexact HRsC
  iintro %ret13 ⟨HOW, HRsT, HRsL, HRsC⟩
  iapply (part14_run m ρ K c _ _ _)
  isplitr; · iexact HR
  isplitl [HOW]; · iexact HOW
  isplitl [HRsT]; · iexact HRsT
  isplitl [HRsL]; · iexact HRsL
  isplitl [HRsC]; · iexact HRsC
  iintro %ret14 ⟨HOW, HRsT, HRsL, HRsC⟩
  iapply (part15_run m ρ K c _ _)
  isplitr; · iexact HR
  isplitl [HOW]; · iexact HOW
  isplitl [HRsT]; · iexact HRsT
  isplitl [HRsL]; · iexact HRsL
  isplitl [HRsC]; · iexact HRsC
  iintro %ret15 ⟨HOW, HRsT, HRsL, HRsC⟩
  iapply (part16_run m ρ K c _ _ _)
  isplitr; · iexact HR
  isplitl [HOW]; · iexact HOW
  isplitl [HRsT]; · iexact HRsT
  isplitl [HRsL]; · iexact HRsL
  isplitl [HRsC]; · iexact HRsC
  iintro %ret16 ⟨HOW, HRsT, HRsL, HRsC⟩
  iapply (part17_run m ρ K c _ _)
  isplitr; · iexact HR
  isplitl [HOW]; · iexact HOW
  isplitl [HRsT]; · iexact HRsT
  isplitl [HRsL]; · iexact HRsL
  isplitl [HRsC]; · iexact HRsC
  iintro %ret17 ⟨HOW, HRsT, HRsL, HRsC⟩
  iapply (part18_run m ρ K c _ _ _ _)
  isplitr; · iexact HR
  isplitr; · iexact Hlev
  isplitl [HOW]; · iexact HOW
  isplitl [HRsT]; · iexact HRsT
  isplitl [HRsL]; · iexact HRsL
  isplitl [HRsC]; · iexact HRsC
  isplitl [HW1C]; · iexact HW1C
  isplitl [HW1P]; · iexact HW1P
  isplitr; · iapply (emp_done0 _); iempintro
  iintro %ret18 ⟨HOW, HRsT, HRsL, HRsC, HW1C, HW1P, HW1G⟩
  iapply (part19_run m ρ K c _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret19 ⟨HOW, HW1C, HW1P, HW1G⟩
  iapply (part20_run m ρ K c _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret20 ⟨HOW, HW1C, HW1P, HW1G⟩
  iapply (part21_run m ρ K c _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret21 ⟨HOW, HW1C, HW1P, HW1G⟩
  iapply (part22_run m ρ K c _ _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret22 ⟨HOW, HW1C, HW1P, HW1G⟩
  iapply (part23_run m ρ K c _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret23 ⟨HOW, HW1C, HW1P, HW1G⟩
  iapply (part24_run m ρ K c _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret24 ⟨HOW, HW1C, HW1P, HW1G⟩
  iapply (part25_run m ρ K c _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret25 ⟨HOW, HW1C, HW1P, HW1G⟩
  iapply (part26_run m ρ K c _ _ _ _ _ _)
  isplitr; · iexact HR
  isplitr; · iexact Hlev
  isplitl [HOW]; · iexact HOW
  isplitl [HW1C]; · iexact HW1C
  isplitl [HW1P]; · iexact HW1P
  isplitl [HW1G]; · iexact HW1G
  iintro %ret26 ⟨HOW, HW1C, HW1P, HW1G⟩
  iapply (part27_run m ρ K c _ _)
  isplitr; · iexact HR
  isplitl [HOW]; · iexact HOW
  isplitl [HW1G]; · iexact HW1G
  isplitl [HxOwn]; · iexact HxOwn
  isplitl [HoOwn]; · iexact HoOwn
  isplitl [HAgT0]; · iexact HAgT0
  isplitl [HAgL]; · iexact HAgL
  isplitr; · iapply (emp_done0 _); iempintro
  iintro %ret27 ⟨HOW, HrM, HW1Pos, HxOwn, HoRest, HAgT, HAgL, HAgC⟩
  iapply (part28_run m ρ K c _ _)
  isplitr; · iexact HR
  isplitl [HOW]; · iexact HOW
  isplitl [HAgT]; · iexact HAgT
  isplitl [HAgL]; · iexact HAgL
  isplitl [HAgC]; · iexact HAgC
  iintro %ret28 ⟨HOW, HAgT, HAgL, HAgC⟩
  iapply (part29_run m ρ K c _ _ _)
  isplitr; · iexact HR
  isplitl [HOW]; · iexact HOW
  isplitl [HAgT]; · iexact HAgT
  isplitl [HAgL]; · iexact HAgL
  isplitl [HAgC]; · iexact HAgC
  iintro %ret29 ⟨HOW, HAgT, HAgL, HAgC⟩
  iapply (part30_run m ρ K c _ _)
  isplitr; · iexact HR
  isplitl [HOW]; · iexact HOW
  isplitl [HAgT]; · iexact HAgT
  isplitl [HAgL]; · iexact HAgL
  isplitl [HAgC]; · iexact HAgC
  iintro %ret30 ⟨HOW, HAgT, HAgL, HAgC⟩
  iapply (part31_run m ρ K c _ _)
  isplitr; · iexact HR
  isplitl [HOW]; · iexact HOW
  isplitl [HAgT]; · iexact HAgT
  isplitl [HAgL]; · iexact HAgL
  isplitl [HAgC]; · iexact HAgC
  iintro %ret31 ⟨HOW, HAgT, HAgL, HAgC⟩
  iapply (part32_run m ρ K c _ _ _ _)
  isplitr; · iexact HR
  isplitl [HOW]; · iexact HOW
  isplitl [HAgT]; · iexact HAgT
  isplitl [HAgL]; · iexact HAgL
  isplitl [HAgC]; · iexact HAgC
  iintro %ret32 ⟨HOW, HAgT, HAgL, HAgC⟩
  iapply (part33_run m ρ K c _ _)
  isplitr; · iexact HR
  isplitl [HOW]; · iexact HOW
  isplitl [HAgT]; · iexact HAgT
  isplitl [HAgL]; · iexact HAgL
  isplitl [HAgC]; · iexact HAgC
  iintro %ret33 ⟨HOW, HAgT, HAgL, HAgC⟩
  iapply (part34_run m ρ K c _ _ _)
  isplitr; · iexact HR
  isplitl [HOW]; · iexact HOW
  isplitl [HAgT]; · iexact HAgT
  isplitl [HAgL]; · iexact HAgL
  isplitl [HAgC]; · iexact HAgC
  iintro %ret34 ⟨HOW, HAgT, HAgL, HAgC⟩
  iapply (part35_run m ρ K c _ _ _)
  isplitr; · iexact HR
  isplitl [HOW]; · iexact HOW
  isplitl [HAgT]; · iexact HAgT
  isplitl [HAgL]; · iexact HAgL
  isplitl [HAgC]; · iexact HAgC
  iintro %ret35 ⟨HOW, HAgT, HAgL, HAgC⟩
  iapply (part36_run m ρ K c _ _)
  isplitr; · iexact HR
  isplitl [HOW]; · iexact HOW
  isplitl [HAgT]; · iexact HAgT
  isplitl [HAgL]; · iexact HAgL
  isplitl [HAgC]; · iexact HAgC
  iintro %ret36 ⟨HOW, HAgT, HAgL, HAgC⟩
  iapply (part37_run m ρ K c _ _ _)
  isplitr; · iexact HR
  isplitl [HOW]; · iexact HOW
  isplitl [HAgT]; · iexact HAgT
  isplitl [HAgL]; · iexact HAgL
  isplitl [HAgC]; · iexact HAgC
  iintro %ret37 ⟨HOW, HAgT, HAgL, HAgC⟩
  iapply (part38_run m ρ K c _ _)
  isplitr; · iexact HR
  isplitl [HOW]; · iexact HOW
  isplitl [HAgT]; · iexact HAgT
  isplitl [HAgL]; · iexact HAgL
  isplitl [HAgC]; · iexact HAgC
  iintro %ret38 ⟨HOW, HAgT, HAgL, HAgC⟩
  iapply (part39_run m ρ K c _ _ _ _ _ _ _)
  isplitr; · iexact HR
  isplitr; · iexact Hlev
  isplitl [HOW]; · iexact HOW
  isplitl [HAgT]; · iexact HAgT
  isplitl [HAgL]; · iexact HAgL
  isplitl [HAgC]; · iexact HAgC
  isplitl [HW3C]; · iexact HW3C
  isplitl [HW3P]; · iexact HW3P
  isplitr; · iapply (emp_done0 _); iempintro
  iintro %ret39 ⟨HOW, HAgT, HAgL, HAgC, HW3C, HW3P, HW3G⟩
  iapply (part40_run m ρ K c _ _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret40 ⟨HOW, HW3C, HW3P, HW3G⟩
  iapply (part41_run m ρ K c _ _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret41 ⟨HOW, HW3C, HW3P, HW3G⟩
  iapply (part42_run m ρ K c _ _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret42 ⟨HOW, HW3C, HW3P, HW3G⟩
  iapply (part43_run m ρ K c _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret43 ⟨HOW, HW3C, HW3P, HW3G⟩
  iapply (part44_run m ρ K c _ _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret44 ⟨HOW, HW3C, HW3P, HW3G⟩
  iapply (part45_run m ρ K c _ _ _ _ _)
  isplitr; · iexact HR
  isplitr; · iexact Hlev
  isplitl [HOW]; · iexact HOW
  isplitl [HW3C]; · iexact HW3C
  isplitl [HW3P]; · iexact HW3P
  isplitl [HW3G]; · iexact HW3G
  iintro %ret45 ⟨HOW, HW3C, HW3P, HW3G⟩
  ihave HW0C := (Entails.of_eq (cred_list c 0)) $$ HRsC
  iapply (part46_run m ρ K c _)
  isplitr; · iexact HR
  isplitr; · iexact Hlev
  isplitl [HOW]; · iexact HOW
  isplitl [HW0C]; · iexact HW0C
  isplitl [HW0P]; · iexact HW0P
  isplitr; · iapply (emp_done0 _); iempintro
  iintro %ret46 ⟨HOW, HW0C, HW0P, HW0G⟩
  iapply (part47_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret47 ⟨HOW, HW0C, HW0P, HW0G⟩
  iapply (part48_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret48 ⟨HOW, HW0C, HW0P, HW0G⟩
  iapply (part49_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret49 ⟨HOW, HW0C, HW0P, HW0G⟩
  iapply (part50_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret50 ⟨HOW, HW0C, HW0P, HW0G⟩
  iapply (part51_run m ρ K c _)
  isplitr; · iexact HR
  isplitr; · iexact Hlev
  isplitl [HOW]; · iexact HOW
  isplitl [HW0C]; · iexact HW0C
  isplitl [HW0P]; · iexact HW0P
  isplitl [HW0G]; · iexact HW0G
  iintro %ret51 ⟨HOW, HW0C, HW0P, HW0G⟩
  ihave HW2C := (Entails.of_eq (cred_list c 2)) $$ HAgC
  iapply (part52_run m ρ K c _)
  isplitr; · iexact HR
  isplitr; · iexact Hlev
  isplitl [HOW]; · iexact HOW
  isplitl [HW0C]; · iexact HW0C
  isplitl [HW0P]; · iexact HW0P
  isplitl [HW0G]; · iexact HW0G
  isplitl [HW2C]; · iexact HW2C
  isplitl [HW2P]; · iexact HW2P
  isplitr; · iapply (emp_done0 _); iempintro
  iintro %ret52 ⟨HOW, HW0C, HW0P, HW0G, HW2C, HW2P, HW2G⟩
  iapply (part53_run m ρ K c _)
  isplitr; · iexact HR
  isplitr; · iexact Hlev
  isplitl [HOW]; · iexact HOW
  isplitl [HW2C]; · iexact HW2C
  isplitl [HW2P]; · iexact HW2P
  isplitl [HW2G]; · iexact HW2G
  iintro %ret53 ⟨HOW, HW2C, HW2P, HW2G⟩
  iapply (part54_run m ρ K c _)
  isplitr; · iexact HR
  isplitr; · iexact Hlev
  isplitl [HOW]; · iexact HOW
  isplitl [HW2C]; · iexact HW2C
  isplitl [HW2P]; · iexact HW2P
  isplitl [HW2G]; · iexact HW2G
  iintro %ret54 ⟨HOW, HW2C, HW2P, HW2G⟩
  iapply (part55_run m ρ K c _)
  isplitr; · iexact HR
  isplitr; · iexact Hlev
  isplitl [HOW]; · iexact HOW
  isplitl [HW2C]; · iexact HW2C
  isplitl [HW2P]; · iexact HW2P
  isplitl [HW2G]; · iexact HW2G
  iintro %ret55 ⟨HOW, HW2C, HW2P, HW2G⟩
  iapply (part56_run m ρ K c _)
  isplitr; · iexact HR
  isplitr; · iexact Hlev
  isplitl [HOW]; · iexact HOW
  isplitl [HW2C]; · iexact HW2C
  isplitl [HW2P]; · iexact HW2P
  isplitl [HW2G]; · iexact HW2G
  iintro %ret56 ⟨HOW, HW2C, HW2P, HW2G⟩
  rw [wp_ret]; imodintro
  iapply (wait_step m ρ K c 2 31 31 31 (fun r => by rw [show todo 31 = [] from by decide]; exact mayWait_none c _) 26 28 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 27 1 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 28 29 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 29 0 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  iapply (wait_step m ρ K c 2 31 31 31 (fun r => by rw [show todo 31 = [] from by decide]; exact mayWait_none c _) 30 30 rfl rfl _ rfl (dst := oRows c) rfl) $$ [HOW HW2C HW2P HW2G]
  · isplitr; · iexact HR
    isplitr; · iexact Hlev
    isplitl [HOW]; · iexact HOW
    isplitl [HW2C]; · iexact HW2C
    isplitl [HW2P]; · iexact HW2P
    iexact HW2G
  iintro ⟨HOW, HW2C, HW2P, HW2G⟩
  rw [wp_ret]; imodintro
  iclear HSig HBarP HRsT HRsL HW1C HW1P HAgT HAgL HW3C HW3P HW0C HW0P HW2C HW2P
  iapply Hk
  unfold Final
  isplitl [HOW]; · iexact HOW
  isplitl [HrM]; · iexact HrM
  isplitl [HW1Pos]; · iexact HW1Pos
  isplitl [HxOwn]; · iexact HxOwn
  isplitl [HW0G]; · iexact HW0G
  isplitl [HW3G]; · iexact HW3G
  isplitl [HW2G]; · iexact HW2G
  isplitl [HoRest]; · iexact HoRest
  iexact HZero
end Cert.Kernel.RsAg

end
-- ==== Proof.Kernel.Body.lean ====
/- One device's body: from the invariant before the point, what it owes and the two staging buffers, the kernel's
   body runs to the invariant after it, owing nothing, the input block unchanged and the output block at the sums:
   the buffers are cut into blocks, the 222 statements run phase by phase over the 31 offsets, the blocks are
   rejoined and the device's own cells closed. -/
import proofs.«901012_g7700000000001013_dist_rs_then_ag_i_m256_n256_v7x_i32_f32_1_alg».proof.Proof.Kernel.Run

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536 in
/-- The body, run from `bodyPre` to `bodyPost`. -/
theorem sound_body (c : Dev nD) :
    bodyPre m ρ c ⊢ wp frame (wpE (defs₀ (F := F)) 𝒱₀ (c : Thread nD τ) none) Set.univ (bodyAt0 (F := F) t0_0)
      (fun _ => bodyPost m ρ c) := by
  refine BIBase.Entails.trans ?_ (wp_fupd frame (wpE (defs₀ (F := F)) 𝒱₀ (c : Thread nD τ) none) Set.univ _ _)
  show bodyPre m ρ c ⊢ wp frame (wpE (defs₀ (F := F)) 𝒱₀ (c : Thread nD τ) none) Set.univ
    (cc0_body xM (Memref.isWhole_whole _) oM (Memref.isWhole_whole _) rM (Memref.isWhole_whole _) cc0_scratch1 cc0_scratch2 cc0_scratch3 cc0_scratch4)
    (fun _ => iprop(|={Set.univ}[frame]=> bodyPost m ρ c))
  iintro H
  ihave H' := (prep m ρ c) $$ H
  icases H' with ⟨%K, #HR, #Hlev, HI⟩
  iapply (run m ρ K c (fun _ => iprop(|={Set.univ}[frame]=> bodyPost m ρ c)))
  isplitr; · iexact HR
  isplitr; · iexact Hlev
  isplitl [HI]; · iexact HI
  iintro HF
  iapply (finish m ρ K c)
  isplitr; · iexact HR
  iexact HF

omit [FloatOps F] in
theorem owns_whole_eq' (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq']
  show bodyPre m ρ c ⊢ wp frame (wpE (defs₀ (F := F)) 𝒱₀ (c : Thread nD τ) none) Set.univ (bodyAt0 (F := F) t0_0)
    (fun _ => bodyPost m ρ c)
  exact sound_body m ρ c

end Cert.Kernel.RsAg

end
-- ==== Proof.Kernel.Launch.lean ====
/- The launch: the rounds library's element for all cells and duty tokens, dealt to the devices (each cell's
   invariant opened on its counter at zero, every token handed to the device that pays its duty), the credit the
   launch gives each device for what the others owe its cells, and the library's launch theorem applied to the
   body obligation; then the final arrays read off: the input unchanged, the output block at the sums. -/
import proofs.«901012_g7700000000001013_dist_rs_then_ag_i_m256_n256_v7x_i32_f32_1_alg».proof.Proof.Kernel.Body
import Idealize.ShloMosaic.Lib.Pipeline.Launch
import Idealize.ShloMosaic.Lib.Pipeline.Kit

noncomputable section

namespace Cert.Kernel.RsAg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Layout facts -/

theorem osem_injective : Function.Injective osem := fun a b h =>
  Option.some.inj (@csem_injective (some a) (some b) h)

theorem osem_scoped : ∀ k, (osem k).isScoped .tc = true := by decide +kernel
theorem osem_disj : ∀ (k : Fin 4 × Fin 32) (w : Fin cfg0.W) (s : Fin (cfg0.spec w).nbuf), osem k ≠ .dma ((cfg0.spec w).sem s) := by decide +kernel

theorem ownSemFacts : Pipeline.OwnSemFacts cfg0.spec osem := ⟨osem_scoped, osem_injective, osem_disj⟩

theorem share_eq (c : Dev nD) (w : Fin cfg0.W) : (dats m ρ 0 c).share w = fullShare := by unfold Dat.share; split <;> rfl

/-! ## The launch element: all cells, and one token per cell and duty -/

def allCells : Finset (GSem nD τ sig) := Finset.univ.map ⟨kcell, kcell_injective⟩

/-- A token as minted, by (device, offset, which): the barrier cell's duty at that offset, or the one duty of the
    cell at that offset of one of the four arrays. -/
abbrev tokOf (x : Dev nD × Fin 31 × Option (Fin 4)) : GSem nD τ sig × ℕ × Fin 31 :=
  match x.2.2 with
  | none => (kcell (x.1, none), 0, x.2.1)
  | some a => (kcell (x.1, some (a, x.2.1.succ)), 0, 0)

theorem tokOf_injective : Function.Injective tokOf := by
  rintro ⟨c, r, o⟩ ⟨c', r', o'⟩ h
  have h1 : (tokOf (c, r, o)).1 = (tokOf (c', r', o')).1 := congrArg (fun x => x.1) h
  have h2 : (tokOf (c, r, o)).2.2 = (tokOf (c', r', o')).2.2 := congrArg (fun x => x.2.2) h
  match o, o' with
  | none, none =>
    have e := kcell_injective h1
    have ec : c = c' := congrArg Prod.fst e
    have er : r = r' := h2
    rw [ec, er]
  | none, some a' => exact absurd (congrArg Prod.snd (kcell_injective h1)) (by intro h'; cases h')
  | some a, none => exact absurd (congrArg Prod.snd (kcell_injective h1)) (by intro h'; cases h')
  | some a, some a' =>
    have e := kcell_injective h1
    have ec : c = c' := congrArg Prod.fst e
    have e2 : (a, r.succ) = (a', r'.succ) := Option.some.inj (congrArg Prod.snd e)
    have ea : a = a' := congrArg Prod.fst e2
    have er : r = r' := Fin.succ_inj.mp (congrArg Prod.snd e2)
    rw [ec, ea, er]

def allToks : Finset (GSem nD τ sig × ℕ × Fin 31) := Finset.univ.map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  bigSep Finset.univ fun r : Fin 31 =>
    iprop(dutyTok ER (barCell c) 0 r
      ∗ dutyTok ER (rsS c r) 0 0 ∗ dutyTok ER (rsR c r) 0 0
      ∗ dutyTok ER (agS c r) 0 0 ∗ dutyTok ER (agR c r) 0 0)

/-- What the launch element deals device c. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_opt5 (Φ : Option (Fin 4) → sProp 𝕄) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_prod]
    exact bigSep_congr fun r _ => by rw [bigSep_opt5]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant opened, the tokens dealt to their payers -/

/-- A conjunction over an optional index: the summand at none beside those at some. -/
theorem bigSep_option {α : Type} [Fintype α] (Φ : Option α → sProp 𝕄) :
    iprop(Φ none ∗ bigSep Finset.univ fun a : α => Φ (some a)) ⊢ bigSep Finset.univ Φ := by
  have e : bigSep Finset.univ Φ = iprop((bigSep Finset.univ fun a : α => Φ (some a)) ∗ Φ none) := by
    rw [bigSep_univ_equiv (Equiv.optionEquivSumPUnit.{0, 0} α).symm Φ, bigSep_univ_sum, bigSep_univ_of_subsingleton (PUnit.unit : PUnit.{1})]; rfl
  rw [e]
  iintro ⟨H0, HS⟩
  isplitl [HS]
  · iexact HS
  · iexact H0

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq]
  iintro ⟨HS, HB⟩
  iapply (bigSep_option (F := F) fun k : CK => (semVal (kcell (c, k)) 0 : sProp 𝕄))
  isplitl [HB]
  · iexact HB
  · unfold Pipeline.ownSems0; iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(recs m ρ K ∗ (posAll c ∗ payToks c)) ⊢ G' m ρ c := by
  unfold G' ghost
  iintro ⟨HR, HP, HT⟩
  iexists K
  isplitl [HR]; · iexact HR
  isplitl [HP]; · iexact HP
  iexact HT

/-- Moving a device to its peer and the offset to the one that leads back is an involution of (device, offset). -/
def dealBar : Dev nD × Fin 31 ≃ Dev nD × Fin 31 :=
  ⟨fun p => (peer p.1 p.2, back p.2), fun p => (peer p.1 p.2, back p.2),
    fun p => by simp only [peer_back, back_back], fun p => by simp only [peer_back, back_back]⟩

/-- Moving a device to its peer, the offset kept. -/
def dealRecv : Dev nD × Fin 31 ≃ Dev nD × Fin 31 :=
  ⟨fun p => (peer p.1 p.2, p.2), fun p => (peer p.1 (back p.2), p.2),
    fun p => by simp only [peer_back], fun p => by simp only [back_peer]⟩

theorem deal_bar (Φ : Dev nD → Fin 31 → sProp 𝕄) :
    (bigSep Finset.univ fun c => bigSep Finset.univ fun r => Φ c r)
      = bigSep Finset.univ fun c => bigSep Finset.univ fun r => Φ (peer c r) (back r) := by
  rw [← bigSep_univ_prod (fun p : Dev nD × Fin 31 => Φ p.1 p.2), bigSep_univ_equiv dealBar, bigSep_univ_prod]; rfl

theorem deal_recv (Φ : Dev nD → Fin 31 → sProp 𝕄) :
    (bigSep Finset.univ fun c => bigSep Finset.univ fun r => Φ c r)
      = bigSep Finset.univ fun c => bigSep Finset.univ fun r => Φ (peer c r) r := by
  rw [← bigSep_univ_prod (fun p : Dev nD × Fin 31 => Φ p.1 p.2), bigSep_univ_equiv dealRecv, bigSep_univ_prod]; rfl

/-- The tokens dealt: a barrier cell's token of duty d goes to the peer that pays it, a receive cell's token to the
    device that sends to it; the send cells' tokens stay. -/
theorem toks_around : (bigSep Finset.univ fun c : Dev nD => (toks c : sProp 𝕄)) ⊢ bigSep Finset.univ fun c : Dev nD => payToks c := by
  unfold toks payToks
  simp only [bigSep_sep']
  rw [deal_bar (fun c r => (dutyTok ER (barCell c) 0 r : sProp 𝕄)),
    deal_recv (fun c r => (dutyTok ER (rsR c r) 0 0 : sProp 𝕄)),
    deal_recv (fun c r => (dutyTok ER (agR c r) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := recs m ρ K) fun c _ => ghost_intro m ρ K c)
  isplitr
  · unfold recs; isplitl; · iexact HI
    iexact HR
  · iapply (Entails.of_eq (bigSep_sep' Finset.univ (fun c : Dev nD => posAll c) payToks).symm)
    isplitl [Hat]; · unfold posAll; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a device owes, summed in the order it pays, is the sum over all offsets. -/
theorem ord_sum (f : Fin 31 → CellTallies nD τ sig Unit) : (ord.map f).sum = ∑ r, f r := by
  rw [← List.sum_toFinset f ord_nodup, ord_toFinset]

theorem owedSig_list (c : Dev nD) (rs : List (Fin 31)) :
    owedSig c rs = (rs.map fun r => (tallyAt (barCell (peer c r)) () 1 : CellTallies nD τ sig Unit)).sum := by
  induction rs with
  | nil => rfl
  | cons r rs ih => rw [List.map_cons, List.sum_cons, ← ih, add_comm]; rfl
theorem owedRs_list (c : Dev nD) (rs : List (Fin 31)) :
    owedRs c rs = (rs.map fun r => (tallyAt (rsR (peer c r) r) () N8 : CellTallies nD τ sig Unit)).sum := by
  induction rs with
  | nil => rfl
  | cons r rs ih => rw [List.map_cons, List.sum_cons, ← ih, add_comm]; rfl
theorem owedAg_list (c : Dev nD) (rs : List (Fin 31)) :
    owedAg c rs = (rs.map fun r => (tallyAt (agR (peer c r) r) () N8 : CellTallies nD τ sig Unit)).sum := by
  induction rs with
  | nil => rfl
  | cons r rs ih => rw [List.map_cons, List.sum_cons, ← ih, add_comm]; rfl

theorem O₀_eq (d : Dev nD) :
    O₀ d = (∑ r : Fin 31, tallyAt (agR (peer d r) r) () N8) + (∑ r : Fin 31, tallyAt (rsR (peer d r) r) () N8)
      + ∑ r : Fin 31, tallyAt (barCell (peer d r)) () 1 := by
  unfold O₀; rw [owedAg_list, owedRs_list, owedSig_list, ord_sum, ord_sum, ord_sum]

/-- The credit of device c's own waits: a block on each receive cell, 31 units on its barrier cell. -/
def T (c : Dev nD) : CellTallies nD τ sig Unit :=
  (∑ r : Fin 31, tallyAt (agR c r) () N8) + (∑ r : Fin 31, tallyAt (rsR c r) () N8) + tallyAt (barCell c) () 31

theorem nsmul_tallyAt (g : GSem nD τ sig) (n : ℕ) : n • (tallyAt g () 1 : CellTallies nD τ sig Unit) = tallyAt g () n := by
  induction n with
  | zero => rw [zero_smul, tallyAt_zero]
  | succ n ih => rw [succ_nsmul, ih, tallyAt_add]

/-- Summed over the devices, what they owe is what their cells are owed: for a fixed offset the peers are all
    devices again. -/
theorem sum_O₀ : (∑ d : Dev nD, O₀ d) = ∑ d : Dev nD, T d := by
  simp only [O₀_eq, T, Finset.sum_add_distrib]
  refine congrArg₂ (· + ·) (congrArg₂ (· + ·) ?_ ?_) ?_
  · rw [Finset.sum_comm]; conv_rhs => rw [Finset.sum_comm]
    exact Finset.sum_congr rfl fun r _ => Equiv.sum_comp (shift r) fun d => (tallyAt (agR d r) () N8 : CellTallies nD τ sig Unit)
  · rw [Finset.sum_comm]; conv_rhs => rw [Finset.sum_comm]
    exact Finset.sum_congr rfl fun r _ => Equiv.sum_comp (shift r) fun d => (tallyAt (rsR d r) () N8 : CellTallies nD τ sig Unit)
  · rw [Finset.sum_comm]
    have h1 : ∀ r : Fin 31, (∑ d : Dev nD, (tallyAt (barCell (peer d r)) () 1 : CellTallies nD τ sig Unit)) = ∑ d : Dev nD, tallyAt (barCell d) () 1 :=
      fun r => Equiv.sum_comp (shift r) fun d => (tallyAt (barCell d) () 1 : CellTallies nD τ sig Unit)
    rw [Finset.sum_congr rfl fun r _ => h1 r, Finset.sum_comm]
    exact Finset.sum_congr rfl fun d _ => by
      rw [Finset.sum_const, Finset.card_univ, Fintype.card_fin, nsmul_tallyAt]

theorem T_support (d : Dev nD) (g : GSem nD τ sig) (h : T d g ≠ 0) : g.1 = (d : Thread nD τ) := by
  by_contra hne
  apply h
  have hc (sm : SemLoc sig) : g ≠ ((d : Thread nD τ), sm) := fun e => hne (congrArg Prod.fst e)
  unfold T
  rw [Pi.add_apply, Pi.add_apply, Finset.sum_apply, Finset.sum_apply,
    Finset.sum_eq_zero fun r _ => tallyAt_ne_cell (hc _) () N8, Finset.sum_eq_zero fun r _ => tallyAt_ne_cell (hc _) () N8,
    tallyAt_ne_cell (hc _), add_zero, add_zero]

theorem creds_intro (c : Dev nD) : (Pipeline.launchCred O₀ c : sProp 𝕄) ⊢ creds c := by
  rw [Pipeline.launchCred_of_sum O₀ T sum_O₀ T_support c]
  unfold T creds
  refine (cred_add _ _).1.trans ?_
  refine (sep_mono_left (cred_add _ _).1).trans ?_
  rw [Pipeline.cred_finsetSum, Pipeline.cred_finsetSum]
  iintro ⟨⟨Ha, Hr⟩, Hb⟩
  isplitl [Hb]; · iexact Hb
  isplitl [Hr]; · iexact Hr
  iexact Ha

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Hz⟩
  isplitr; · iempintro
  isplitl [Hz]; · iexact Hz
  iexact Hr

/-- The pipeline's staging semaphores are none of the kernel's: their level is 0. -/
theorem stage_kind : ∀ (w : Fin cfg0.W) (s : Fin (cfg0.win w).nbuf), kindOf ((cfg0.win w).sem s) = none := by decide

theorem waits (c : Dev nD) : (levAts L lv : sProp 𝕄) ⊢ Pipeline.cellsWaits cfgs (dats m ρ) () 0 c :=
  Pipeline.cellsWaits_intro cfgs (dats m ρ) () 0 c fun w s t => by
    have hq : lv ((c : Thread nD τ), .dma ((cfg0.win w).sem s)) () = 0 := by
      unfold lv; dsimp only; rw [stage_kind w s]
    rcases t with ⟨_ | _, ht⟩
    · exact mayWait_low c _ hq ord ord ord
    · show _ ⊢ MayWait _ _ _ 0; rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- At the compiled mesh of 32 devices, for any float values, from any memory with zero counters: every weakly fair
    execution of @main terminates, and every final state has each device's result array at the computed contents
    and its input block unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the sums: the one point writes the staged block back whole. -/
theorem finalA_o (c : Dev nD) : finalA m ρ c (1 : Fin 2) = outAll m ρ := by
  unfold finalA
  have hN : cfg0.N = (t0_0 : Fin cfg0.N).val + 1 := by decide
  rw [hN, Dat.arrAt_succ, flush0_1, if_pos rfl]
  exact Memref.write_access_unit_zero_univ (Elt F) main_v1 (funext fun a => Nat.zero_mul _) _ _ (outAll m ρ)

/-- info: 'Cert.Kernel.RsAg.run_main' depends on axioms: [propext, Classical.choice, Quot.sound] -/
#guard_msgs in #print axioms run_main

end Cert.Kernel.RsAg

end
-- ==== Proof.Value.lean ====
/- The value of the reduce-scatter / all-gather kernel at the ideal floats: on every device the result block is,
   index by index, the sum over the 32 devices of their blocks of the whole array, which is what the reference
   computes. Row `i₀` of the result belongs to device `b = i₀ / 8`; that device adds its own row to the 31 rows its
   peers sent it, and the 31 peers of `b` together with `b` are the whole ring. -/
import proofs.«901012_g7700000000001013_dist_rs_then_ag_i_m256_n256_v7x_i32_f32_1_alg».proof.Proof.KernelIdeal.Cells
import proofs.«901012_g7700000000001013_dist_rs_then_ag_i_m256_n256_v7x_i32_f32_1_alg».proof.Proof.Gen.ReferenceIdeal.Read
import Idealize.ShloMosaic.Lib.Layout
import Idealize.ShloMosaic.PureOps.Ideal.Laws
import Idealize.ShloMosaic.Lib.ValueIdx
import Idealize.ShloMosaic.Lib.Pipeline.Value

noncomputable section

namespace Cert.KernelIdeal.RsAg

open Cert.KernelIdeal Cert.KernelIdeal.Gen
open Idealize.ShloMosaic Idealize.ShloMosaic.TcCoe
open scoped BigOperators

variable (m : (ℓ : Loc nD τ sig) → Buf (Elt Ideal) ℓ) (ρ : Dev nD → PrngReg)

/-! ## The whole array read by row and column -/

/-- The whole array at a row and a column given as natural numbers (zero outside it). -/
def xv (x : (⟨Cert.ReferenceIdeal.S8192x256, .f32⟩ : BufTy).Contents (Elt Ideal)) (R K : Nat) : EReal :=
  if h : R < 8192 ∧ K < 256 then x (ValueIdx.ix2 ⟨R, h.1⟩ ⟨K, h.2⟩) else 0

/-- An element of the whole array is the array at its row and column. -/
theorem x_eq_xv (x : (⟨Cert.ReferenceIdeal.S8192x256, .f32⟩ : BufTy).Contents (Elt Ideal))
    (j : Cert.ReferenceIdeal.S8192x256.Idx) : x j = xv x (j 0).val (j 1).val := by
  have h0 : (j 0).val < 8192 := (j 0).isLt
  have h1 : (j 1).val < 256 := (j 1).isLt
  unfold xv
  rw [dif_pos ⟨h0, h1⟩]
  exact congrArg x (ValueIdx.eq_ix2 j)

/-! ## The blocks at an index -/

/-- The staged input block of device `c` is its block of the whole array: row `i₀` of it is row `256 c + i₀`. -/
theorem xstg_val (x : (⟨Cert.ReferenceIdeal.S8192x256, .f32⟩ : BufTy).Contents (Elt Ideal))
    (hx : ∀ c : Dev nD, m ((c.tc : Thread nD τ).loc main_arg0)
            = Layout.block ⟨2, ![256, 256]⟩ ⟨2, ![8192, 256]⟩ 0 32 c x)
    (c : Dev nD) (i : S256x256.Idx) :
    xstg (F := Ideal) m ρ c i = xv x (256 * c.val + (i 0).val) (i 1).val := by
  have hi : ((win0_0.blk (0 : Fin 1)).view.emb i : S256x256.Idx) = i := by
    funext a
    apply Fin.ext
    match a with
    | ⟨0, _⟩ => show 0 * 256 + 1 * (i 0).val = (i 0).val; omega
    | ⟨1, _⟩ => show 0 * 256 + 1 * (i 1).val = (i 1).val; omega
  have h1 : xstg (F := Ideal) m ρ c i = m ((c.tc : Thread nD τ).loc main_arg0) i := by
    unfold xstg
    rw [View.read_apply]
    exact congrArg (m ((c.tc : Thread nD τ).loc main_arg0)) hi
  rw [h1, hx c, Layout.block_apply]
  refine (x_eq_xv x _).trans ?_
  congr 1
  show c.val * 256 + (i 0).val = 256 * c.val + (i 0).val
  omega

/-- The rows device `c` sends at offset `r` are those at the receiver's position. -/
theorem xSendBlk_val (x : (⟨Cert.ReferenceIdeal.S8192x256, .f32⟩ : BufTy).Contents (Elt Ideal))
    (hx : ∀ c : Dev nD, m ((c.tc : Thread nD τ).loc main_arg0)
            = Layout.block ⟨2, ![256, 256]⟩ ⟨2, ![8192, 256]⟩ 0 32 c x)
    (c : Dev nD) (r : Fin 31) (j : S8x256.Idx) :
    xSendBlk (F := Ideal) m ρ c r j = xv x (256 * c.val + (8 * (peer c r).val + (j 0).val)) (j 1).val := by
  unfold xSendBlk
  rw [xstg_val m ρ x hx]
  have e0 : (((xSendR c r).emb j) 0).val = 8 * (peer c r).val + (j 0).val := by
    rw [Rect.emb_apply]
    show (k0_off1 c (BitVec.ofNat 32 (1 + r.val))) 0 + 1 * (j 0).val = _
    rw [k0_off1_eq c r]
    show 8 * ((c.val + r.val + 1) % 32) + 1 * (j 0).val = 8 * ((c.val + r.val + 1) % 32) + (j 0).val
    omega
  have e1 : (((xSendR c r).emb j) 1).val = (j 1).val := by
    rw [Rect.emb_apply]
    show (k0_off1 c (BitVec.ofNat 32 (1 + r.val))) 1 + 1 * (j 1).val = _
    rw [k0_off1_eq c r]
    show 0 + 1 * (j 1).val = (j 1).val
    omega
  rw [e0, e1]

/-- The rows device `c` keeps are those at its own position. -/
theorem xOwnBlk_val (x : (⟨Cert.ReferenceIdeal.S8192x256, .f32⟩ : BufTy).Contents (Elt Ideal))
    (hx : ∀ c : Dev nD, m ((c.tc : Thread nD τ).loc main_arg0)
            = Layout.block ⟨2, ![256, 256]⟩ ⟨2, ![8192, 256]⟩ 0 32 c x)
    (c : Dev nD) (j : S8x256.Idx) :
    xOwnBlk (F := Ideal) m ρ c j = xv x (256 * c.val + (8 * c.val + (j 0).val)) (j 1).val := by
  unfold xOwnBlk
  rw [xstg_val m ρ x hx]
  have e0 : (((xOwnR c).emb j) 0).val = 8 * c.val + (j 0).val := by
    rw [Rect.emb_apply]
    show (k0_off2 c) 0 + 1 * (j 0).val = _
    rw [k0_off2_eq c]
    show 8 * c.val + 1 * (j 0).val = 8 * c.val + (j 0).val
    omega
  have e1 : (((xOwnR c).emb j) 1).val = (j 1).val := by
    rw [Rect.emb_apply]
    show (k0_off2 c) 1 + 1 * (j 1).val = _
    rw [k0_off2_eq c]
    show 0 + 1 * (j 1).val = (j 1).val
    omega
  rw [e0, e1]

/-- Slot `r` of device `b`'s landing buffer holds rows `8 b …` of the device `r + 1` places before it. -/
theorem rsAll_val (x : (⟨Cert.ReferenceIdeal.S8192x256, .f32⟩ : BufTy).Contents (Elt Ideal))
    (hx : ∀ c : Dev nD, m ((c.tc : Thread nD τ).loc main_arg0)
            = Layout.block ⟨2, ![256, 256]⟩ ⟨2, ![8192, 256]⟩ 0 32 c x)
    (b : Dev nD) (r : Fin 31) (a : Fin 8) (k : Fin 256) :
    rsAll (F := Ideal) m ρ b (ValueIdx.ix3 r a k)
      = xv x (256 * (peer b (back r)).val + (8 * b.val + a.val)) k.val := by
  show xSendBlk (F := Ideal) m ρ (peer b (back r)) r (ValueIdx.ix2 a k) = _
  rw [xSendBlk_val m ρ x hx, back_peer]

/-! ## The reduction at an index -/

/-- The payload at an index: the sum over the 31 slots plus the own rows. -/
theorem k0_pay1_apply (v : Vec Ideal S31x8x256 .f32) (w : Vec Ideal S8x256 .f32) (a : Fin 8) (k : Fin 256) :
    (k0_pay1 (F := Ideal) v w (ValueIdx.ix2 a k) : EReal)
      = (∑ r : Fin 31, (v (ValueIdx.ix3 r a k) : EReal)) + w (ValueIdx.ix2 a k) := by
  have h1 : (multiReduction (F := Ideal) .add [0] S8x256 v 0x00000000#32 reduces_S31x8x256_S8x256 (.inl rfl) rfl
        (ValueIdx.ix2 a k) : EReal)
      = ∑ r : Fin 31, (v (reduces_S31x8x256_S8x256.lift (ValueIdx.ix2 a k) r) : EReal) :=
    Ideal.multiReduction_add_single (φ := .f32) v _ reduces_S31x8x256_S8x256 _ _ (ValueIdx.ix2 a k)
  have h0 : (k0_pay1 (F := Ideal) v w (ValueIdx.ix2 a k) : EReal)
      = (multiReduction (F := Ideal) .add [0] S8x256 v 0x00000000#32 reduces_S31x8x256_S8x256 (.inl rfl) rfl
          (ValueIdx.ix2 a k) : EReal)
        + (shapeCast S8x256 w shapeCasts_S8x256_S8x256 (ValueIdx.ix2 a k) : EReal) := rfl
  rw [h0, h1, shapeCast_self]
  refine congrArg (· + (w (ValueIdx.ix2 a k) : EReal)) (Finset.sum_congr rfl fun r _ => congrArg v ?_)
  funext c
  apply Fin.ext
  match c with
  | ⟨0, _⟩ => rfl
  | ⟨1, _⟩ => rfl
  | ⟨2, _⟩ => rfl

/-! ## The devices other than `b` are its peers -/

/-- A sum over the 31 peers of `b` and `b` itself is the sum over the ring. -/
theorem sum_peers (b : Dev nD) (f : Dev nD → EReal) :
    (∑ r : Fin 31, f (peer b (back r))) + f b = ∑ s : Fin 32, f s := by
  rw [add_comm, ← Finset.add_sum_erase Finset.univ f (Finset.mem_univ b)]
  refine congrArg (f b + ·) ?_
  refine Finset.sum_bij (fun r _ => peer b (back r)) ?_ ?_ ?_ ?_
  · intro r _
    exact Finset.mem_erase.2 ⟨peer_ne b _, Finset.mem_univ _⟩
  · intro r _ r' _ h
    have h' := congrArg back (peer_injective b h)
    rwa [back_back, back_back] at h'
  · intro s hs
    obtain ⟨r, hr⟩ := exists_peer (c := b) (b := s) (Finset.ne_of_mem_erase hs)
    exact ⟨back r, Finset.mem_univ _, by rw [back_back]; exact hr⟩
  · intro r _
    rfl

/-- Device `b`'s eight rows of the result: the sum over all 32 devices of their rows `8 b …`. -/
theorem red_val (x : (⟨Cert.ReferenceIdeal.S8192x256, .f32⟩ : BufTy).Contents (Elt Ideal))
    (hx : ∀ c : Dev nD, m ((c.tc : Thread nD τ).loc main_arg0)
            = Layout.block ⟨2, ![256, 256]⟩ ⟨2, ![8192, 256]⟩ 0 32 c x)
    (b : Dev nD) (a : Fin 8) (k : Fin 256) :
    (red (F := Ideal) m ρ b (ValueIdx.ix2 a k) : EReal)
      = ∑ s : Fin 32, xv x (256 * s.val + (8 * b.val + a.val)) k.val := by
  unfold red
  rw [k0_pay1_apply, xOwnBlk_val m ρ x hx]
  simp only [rsAll_val m ρ x hx]
  exact sum_peers b (fun s => xv x (256 * s.val + (8 * b.val + a.val)) k.val)

/-- The result block at an index: the sum over the 32 devices of their blocks there. -/
theorem outAll_val (x : (⟨Cert.ReferenceIdeal.S8192x256, .f32⟩ : BufTy).Contents (Elt Ideal))
    (hx : ∀ c : Dev nD, m ((c.tc : Thread nD τ).loc main_arg0)
            = Layout.block ⟨2, ![256, 256]⟩ ⟨2, ![8192, 256]⟩ 0 32 c x)
    (i : S256x256.Idx) :
    (outAll (F := Ideal) m ρ i : EReal) = ∑ s : Fin 32, xv x (256 * s.val + (i 0).val) (i 1).val := by
  have hb : (i 0).val / 8 < 32 := by have h : (i 0).val < 256 := (i 0).isLt; omega
  have h := red_val m ρ x hx ⟨(i 0).val / 8, hb⟩ ⟨(i 0).val % 8, Nat.mod_lt _ (by decide)⟩ ⟨(i 1).val, (i 1).isLt⟩
  refine Eq.trans (b := ∑ s : Fin 32, xv x (256 * s.val + (8 * ((i 0).val / 8) + (i 0).val % 8)) (i 1).val) h ?_
  refine Finset.sum_congr rfl fun s _ => ?_
  congr 1
  omega

/-! ## The reference at an index -/

/-- The reference at an index: the sum over the 32 row blocks. -/
theorem ref_val (x : (⟨Cert.ReferenceIdeal.S8192x256, .f32⟩ : BufTy).Contents (Elt Ideal))
    (i : Cert.ReferenceIdeal.S256x256.Idx) :
    (Cert.ReferenceIdeal.Read.val_main_v1 (F := Ideal) x i : EReal)
      = ∑ s : Fin 32, xv x (256 * s.val + (i 0).val) (i 1).val := by
  rw [Cert.ReferenceIdeal.Read.val_main_v1_apply, Cert.ReferenceIdeal.Read.val_main_cst_apply]
  have hz : (FloatOps.ofBits (F := Ideal) .f32 0x00000000#32 : EReal) = 0 := Ideal.ofBits_zero_f32
  rw [hz, zero_add]
  refine Finset.sum_congr rfl fun s _ => ?_
  rw [Cert.ReferenceIdeal.Read.val_main_v0_apply]
  refine (x_eq_xv x _).trans ?_
  have h0 : (i 0).val < 256 := (i 0).isLt
  have h1 : (i 1).val < 256 := (i 1).isLt
  congr 1
  · show ((s.val * 256 + (i 0).val) * 256 + (i 1).val) / 256 = 256 * s.val + (i 0).val
    omega
  · show ((s.val * 256 + (i 0).val) * 256 + (i 1).val) % 256 = (i 1).val
    omega

/-- On every device the kernel's result block is the reference's sum of the 32 row blocks. -/
theorem outAll_eq_ref (m : (ℓ : Loc nD τ sig) → Buf (Elt Ideal) ℓ) (ρ : Dev nD → PrngReg)
    (x : (⟨Cert.ReferenceIdeal.S8192x256, .f32⟩ : BufTy).Contents (Elt Ideal))
    (hx : ∀ c : Dev nD, m ((c.tc : Thread nD τ).loc main_arg0)
            = Layout.block ⟨2, ![256, 256]⟩ ⟨2, ![8192, 256]⟩ 0 32 c x) :
    outAll (F := Ideal) m ρ = Cert.ReferenceIdeal.Read.val_main_v1 (F := Ideal) x := by
  funext i
  exact (outAll_val m ρ x hx i).trans (ref_val x i).symm

end Cert.KernelIdeal.RsAg

end
-- ==== Proof.lean ====
/- The claim assembled. On the ring of 32 devices the kernel, at the machine floats and at the ideal floats, runs to
   the end and leaves every device's block of the argument as it was; the one-device reference runs likewise; and at
   the ideal floats every device's result block is, index by index, the reference's sum of the 32 row blocks of the
   whole array, of which each device holds one. -/
import proofs.«901012_g7700000000001013_dist_rs_then_ag_i_m256_n256_v7x_i32_f32_1_alg».proof.Defs
import proofs.«901012_g7700000000001013_dist_rs_then_ag_i_m256_n256_v7x_i32_f32_1_alg».proof.Proof.Gen.Kernel
import proofs.«901012_g7700000000001013_dist_rs_then_ag_i_m256_n256_v7x_i32_f32_1_alg».proof.Proof.Gen.Kernel.Skeleton
import proofs.«901012_g7700000000001013_dist_rs_then_ag_i_m256_n256_v7x_i32_f32_1_alg».proof.Proof.Gen.Kernel.Launch
import proofs.«901012_g7700000000001013_dist_rs_then_ag_i_m256_n256_v7x_i32_f32_1_alg».proof.Proof.Gen.Kernel.Points
import proofs.«901012_g7700000000001013_dist_rs_then_ag_i_m256_n256_v7x_i32_f32_1_alg».proof.Proof.Gen.Kernel.Frame
import proofs.«901012_g7700000000001013_dist_rs_then_ag_i_m256_n256_v7x_i32_f32_1_alg».proof.Proof.Gen.KernelIdeal
import proofs.«901012_g7700000000001013_dist_rs_then_ag_i_m256_n256_v7x_i32_f32_1_alg».proof.Proof.Gen.KernelIdeal.Skeleton
import proofs.«901012_g7700000000001013_dist_rs_then_ag_i_m256_n256_v7x_i32_f32_1_alg».proof.Proof.Gen.KernelIdeal.Launch
import proofs.«901012_g7700000000001013_dist_rs_then_ag_i_m256_n256_v7x_i32_f32_1_alg».proof.Proof.Gen.KernelIdeal.Points
import proofs.«901012_g7700000000001013_dist_rs_then_ag_i_m256_n256_v7x_i32_f32_1_alg».proof.Proof.Gen.KernelIdeal.Frame
import proofs.«901012_g7700000000001013_dist_rs_then_ag_i_m256_n256_v7x_i32_f32_1_alg».proof.Proof.Gen.ReferenceIdeal
import proofs.«901012_g7700000000001013_dist_rs_then_ag_i_m256_n256_v7x_i32_f32_1_alg».proof.Proof.Gen.Pre_finite_inputs_Kernel
import proofs.«901012_g7700000000001013_dist_rs_then_ag_i_m256_n256_v7x_i32_f32_1_alg».proof.Proof.Gen.Pre_finite_inputs_ReferenceIdeal
import proofs.«901012_g7700000000001013_dist_rs_then_ag_i_m256_n256_v7x_i32_f32_1_alg».proof.Proof.Gen.ReferenceIdeal.Read
import proofs.«901012_g7700000000001013_dist_rs_then_ag_i_m256_n256_v7x_i32_f32_1_alg».proof.Proof.KernelIdeal.Launch
import proofs.«901012_g7700000000001013_dist_rs_then_ag_i_m256_n256_v7x_i32_f32_1_alg».proof.Proof.Kernel.Launch
import proofs.«901012_g7700000000001013_dist_rs_then_ag_i_m256_n256_v7x_i32_f32_1_alg».proof.Proof.Value
import Idealize.ShloMosaic.Adequacy
import Idealize.ShloMosaic.Init

noncomputable section

namespace Cert.Proof

open Idealize.ShloMosaic Idealize.ShloMosaic.TcCoe Idealize.SL.Sem

/-- At the machine floats the kernel runs and each device's block of the argument ends as it began: the launch's
    post at the input window. -/
theorem frame_k : Cert.frame_Kernel := fun m ρ _ =>
  (θ_run Cert.Kernel.defs _ _).mono
    (fun r h c => (h c (0 : Fin 2)).trans (Cert.Kernel.RsAg.finalA_x m ρ c))
    (Cert.Kernel.RsAg.run_main (F := Bits) m ρ)

/-- The same at the ideal floats. -/
theorem frame_ki : Cert.frame_KernelIdeal := fun m ρ _ =>
  (θ_run Cert.KernelIdeal.defs _ _).mono
    (fun r h c => (h c (0 : Fin 2)).trans (Cert.KernelIdeal.RsAg.finalA_x m ρ c))
    (Cert.KernelIdeal.RsAg.run_main (F := Ideal) m ρ)

/-- The reference runs and leaves its argument as it was. -/
theorem frame_ri : Cert.frame_ReferenceIdeal := fun m ρ _ =>
  (θ_run Cert.ReferenceIdeal.defs _ _).mono (fun _ h c => (h c).2) (Cert.ReferenceIdeal.Value.run (F := Ideal) m ρ)

/-- At the ideal floats, from blocks that are the parts of the reference's whole array: every device's result block
    ends at the sums over the 32 devices, the reference's result at its sum of the 32 row blocks, and these are one
    array; the arguments of both end unchanged. -/
theorem algebraic : Cert.algebraic_KernelIdeal_ReferenceIdeal := by
  intro m g m' g' _ hagree
  refine ⟨Cert.KernelIdeal.RsAg.outAll (F := Ideal) m g, ?_, ?_⟩
  · exact (θ_run Cert.KernelIdeal.defs _ _).mono
      (fun r h c => ⟨(h c (1 : Fin 2)).trans (Cert.KernelIdeal.RsAg.finalA_o m g c),
        (h c (0 : Fin 2)).trans (Cert.KernelIdeal.RsAg.finalA_x m g c)⟩)
      (Cert.KernelIdeal.RsAg.run_main (F := Ideal) m g)
  · refine (θ_run Cert.ReferenceIdeal.defs _ _).mono (fun r h => ⟨(h 0).1.trans ?_, (h 0).2⟩)
      (Cert.ReferenceIdeal.Value.run (F := Ideal) m' g')
    exact (Cert.KernelIdeal.RsAg.outAll_eq_ref m g _ hagree).symm

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
